-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v52)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v52) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S256x256x16 : Shape := ⟨3, ![256, 256, 16]⟩
abbrev S256x256x256 : Shape := ⟨3, ![256, 256, 256]⟩
abbrev S368x64 : Shape := ⟨2, ![368, 64]⟩
abbrev S256x256x32 : Shape := ⟨3, ![256, 256, 32]⟩
abbrev S_ : Shape := ⟨0, ![]⟩

class Facts : Prop where
  bcast_S_S256x256x16 : S_.BroadcastsInDim S256x256x16 (![] : Fin 0 → Fin S256x256x16.rank)
  reducesTo_S256x256x16_S_d0_1_2 : S256x256x16.ReducesTo [0, 1, 2] S_
  h_S_ : 0 < S_.numel
  bcast_S_S256x256x256 : S_.BroadcastsInDim S256x256x256 (![] : Fin 0 → Fin S256x256x256.rank)
  reducesTo_S256x256x256_S_d0_1_2 : S256x256x256.ReducesTo [0, 1, 2] S_
  bcast_S_S368x64 : S_.BroadcastsInDim S368x64 (![] : Fin 0 → Fin S368x64.rank)
  reducesTo_S368x64_S_d0_1 : S368x64.ReducesTo [0, 1] S_
  bcast_S_S256x256x32 : S_.BroadcastsInDim S256x256x32 (![] : Fin 0 → Fin S256x256x32.rank)
  reducesTo_S256x256x32_S_d0_1_2 : S256x256x32.ReducesTo [0, 1, 2] S_

variable [Facts]

def fn_part1 {F : FTy → Type} [FloatOps F] (main_v13 : IVec S_ 1) (main_v16 : IVec S256x256x32 1) : IVec S_ 1 :=
  let main_c_5 : IVec S_ 1 := constantI S_ 1 1#1
  let main_v17 : IVec S_ 1 := (fun x v => Host.reduce IntOp.andi x v reducesTo_S256x256x32_S_d0_1_2 h_S_) main_v16 main_c_5
  let main_v18 : IVec S_ 1 := andi main_v13 main_v17
  main_v18

def fn {F : FTy → Type} [FloatOps F] (main_arg0 : FVec F S256x256x16 .f32) (main_arg1 : FVec F S256x256x256 .f32) (main_arg2 : FVec F S368x64 .f32) (main_arg3 : FVec F S256x256x32 .f32) : IVec S_ 1 :=
  let main_v0 : FVec F S256x256x16 .f32 := Host.absf main_arg0
  let main_cst : FVec F S_ .f32 := constant S_ .f32 0x7F800000#32
  let main_v1 : FVec F S256x256x16 .f32 := broadcastInDim S256x256x16 ![] bcast_S_S256x256x16 main_cst
  let main_v2 : IVec S256x256x16 1 := cmpf .olt main_v0 main_v1
  let main_c : IVec S_ 1 := constantI S_ 1 1#1
  let main_v3 : IVec S_ 1 := (fun x v => Host.reduce IntOp.andi x v reducesTo_S256x256x16_S_d0_1_2 h_S_) main_v2 main_c
  let main_v4 : FVec F S256x256x256 .f32 := Host.absf main_arg1
  let main_cst_0 : FVec F S_ .f32 := constant S_ .f32 0x7F800000#32
  let main_v5 : FVec F S256x256x256 .f32 := broadcastInDim S256x256x256 ![] bcast_S_S256x256x256 main_cst_0
  let main_v6 : IVec S256x256x256 1 := cmpf .olt main_v4 main_v5
  let main_c_1 : IVec S_ 1 := constantI S_ 1 1#1
  let main_v7 : IVec S_ 1 := (fun x v => Host.reduce IntOp.andi x v reducesTo_S256x256x256_S_d0_1_2 h_S_) main_v6 main_c_1
  let main_v8 : IVec S_ 1 := andi main_v3 main_v7
  let main_v9 : FVec F S368x64 .f32 := Host.absf main_arg2
  let main_cst_2 : FVec F S_ .f32 := constant S_ .f32 0x7F800000#32
  let main_v10 : FVec F S368x64 .f32 := broadcastInDim S368x64 ![] bcast_S_S368x64 main_cst_2
  let main_v11 : IVec S368x64 1 := cmpf .olt main_v9 main_v10
  let main_c_3 : IVec S_ 1 := constantI S_ 1 1#1
  let main_v12 : IVec S_ 1 := (fun x v => Host.reduce IntOp.andi x v reducesTo_S368x64_S_d0_1 h_S_) main_v11 main_c_3
  let main_v13 : IVec S_ 1 := andi main_v8 main_v12
  let main_v14 : FVec F S256x256x32 .f32 := Host.absf main_arg3
  let main_cst_4 : FVec F S_ .f32 := constant S_ .f32 0x7F800000#32
  let main_v15 : FVec F S256x256x32 .f32 := broadcastInDim S256x256x32 ![] bcast_S_S256x256x32 main_cst_4
  let main_v16 : IVec S256x256x32 1 := cmpf .olt main_v14 main_v15
  fn_part1 (F := F) main_v13 main_v16
-- ==== Kernel.lean ====
abbrev S256x256x16 : Shape := ⟨3, ![256, 256, 16]⟩
abbrev S256x256x256 : Shape := ⟨3, ![256, 256, 256]⟩
abbrev S368x64 : Shape := ⟨2, ![368, 64]⟩
abbrev S256x256x32 : Shape := ⟨3, ![256, 256, 32]⟩
abbrev S16x64 : Shape := ⟨2, ![16, 64]⟩
abbrev S16x128 : Shape := ⟨2, ![16, 128]⟩
abbrev S32x64 : Shape := ⟨2, ![32, 64]⟩
abbrev S32x128 : Shape := ⟨2, ![32, 128]⟩
abbrev S64x32 : Shape := ⟨2, ![64, 32]⟩
abbrev S32x32 : Shape := ⟨2, ![32, 32]⟩
abbrev S1x64 : Shape := ⟨2, ![1, 64]⟩
abbrev S64 : Shape := ⟨1, ![64]⟩
abbrev S_ : Shape := ⟨0, ![]⟩
abbrev S1x32 : Shape := ⟨2, ![1, 32]⟩
abbrev S32 : Shape := ⟨1, ![32]⟩
abbrev S1x1 : Shape := ⟨2, ![1, 1]⟩
abbrev S1 : Shape := ⟨1, ![1]⟩
abbrev S64x1 : Shape := ⟨2, ![64, 1]⟩
abbrev S64x10 : Shape := ⟨2, ![64, 10]⟩
abbrev S64x16 : Shape := ⟨2, ![64, 16]⟩
abbrev S8x256x16 : Shape := ⟨3, ![8, 256, 16]⟩
abbrev S8x256x256 : Shape := ⟨3, ![8, 256, 256]⟩
abbrev S8x256x32 : Shape := ⟨3, ![8, 256, 32]⟩
abbrev S32x1 : Shape := ⟨2, ![32, 1]⟩
abbrev S1x256x16 : Shape := ⟨3, ![1, 256, 16]⟩
abbrev S256x16 : Shape := ⟨2, ![256, 16]⟩
abbrev S1x256x256 : Shape := ⟨3, ![1, 256, 256]⟩
abbrev S256x256 : Shape := ⟨2, ![256, 256]⟩
abbrev S128x256 : Shape := ⟨2, ![128, 256]⟩
abbrev S64x256 : Shape := ⟨2, ![64, 256]⟩
abbrev S32x256 : Shape := ⟨2, ![32, 256]⟩
abbrev S256 : Shape := ⟨1, ![256]⟩
abbrev S1x256 : Shape := ⟨2, ![1, 256]⟩
abbrev S1x256x32 : Shape := ⟨3, ![1, 256, 32]⟩
abbrev S256x32 : Shape := ⟨2, ![256, 32]⟩

abbrev nBuf : Space → Nat
  | .hbm => 79
  | .vmem => 15
  | .smem => 0
  | _ => 0

abbrev bufTy : (tb : Table) → Fin (tcTables nBuf tb) → BufTy
  | .hbm, ⟨0, _⟩ => ⟨S256x256x16, .f32⟩
  | .hbm, ⟨1, _⟩ => ⟨S256x256x256, .f32⟩
  | .hbm, ⟨2, _⟩ => ⟨S368x64, .f32⟩
  | .hbm, ⟨3, _⟩ => ⟨S256x256x32, .f32⟩
  | .hbm, ⟨4, _⟩ => ⟨S16x64, .f32⟩
  | .hbm, ⟨5, _⟩ => ⟨S16x64, .f32⟩
  | .hbm, ⟨6, _⟩ => ⟨S16x128, .f32⟩
  | .hbm, ⟨7, _⟩ => ⟨S32x64, .f32⟩
  | .hbm, ⟨8, _⟩ => ⟨S32x64, .f32⟩
  | .hbm, ⟨9, _⟩ => ⟨S32x128, .f32⟩
  | .hbm, ⟨10, _⟩ => ⟨S64x32, .f32⟩
  | .hbm, ⟨11, _⟩ => ⟨S64x32, .f32⟩
  | .hbm, ⟨12, _⟩ => ⟨S32x32, .f32⟩
  | .hbm, ⟨13, _⟩ => ⟨S32x32, .f32⟩
  | .hbm, ⟨14, _⟩ => ⟨S1x64, .f32⟩
  | .hbm, ⟨15, _⟩ => ⟨S64, .f32⟩
  | .hbm, ⟨16, _⟩ => ⟨S_, .i32⟩
  | .hbm, ⟨17, _⟩ => ⟨S_, .f32⟩
  | .hbm, ⟨18, _⟩ => ⟨S64, .f32⟩
  | .hbm, ⟨19, _⟩ => ⟨S1x32, .f32⟩
  | .hbm, ⟨20, _⟩ => ⟨S32, .f32⟩
  | .hbm, ⟨21, _⟩ => ⟨S_, .i32⟩
  | .hbm, ⟨22, _⟩ => ⟨S_, .f32⟩
  | .hbm, ⟨23, _⟩ => ⟨S64, .f32⟩
  | .hbm, ⟨24, _⟩ => ⟨S1x32, .f32⟩
  | .hbm, ⟨25, _⟩ => ⟨S32, .f32⟩
  | .hbm, ⟨26, _⟩ => ⟨S_, .i32⟩
  | .hbm, ⟨27, _⟩ => ⟨S_, .f32⟩
  | .hbm, ⟨28, _⟩ => ⟨S64, .f32⟩
  | .hbm, ⟨29, _⟩ => ⟨S1x1, .f32⟩
  | .hbm, ⟨30, _⟩ => ⟨S1, .f32⟩
  | .hbm, ⟨31, _⟩ => ⟨S_, .i32⟩
  | .hbm, ⟨32, _⟩ => ⟨S_, .f32⟩
  | .hbm, ⟨33, _⟩ => ⟨S64, .f32⟩
  | .hbm, ⟨34, _⟩ => ⟨S1x64, .f32⟩
  | .hbm, ⟨35, _⟩ => ⟨S64, .f32⟩
  | .hbm, ⟨36, _⟩ => ⟨S_, .i32⟩
  | .hbm, ⟨37, _⟩ => ⟨S_, .f32⟩
  | .hbm, ⟨38, _⟩ => ⟨S64, .f32⟩
  | .hbm, ⟨39, _⟩ => ⟨S1x32, .f32⟩
  | .hbm, ⟨40, _⟩ => ⟨S32, .f32⟩
  | .hbm, ⟨41, _⟩ => ⟨S_, .i32⟩
  | .hbm, ⟨42, _⟩ => ⟨S_, .f32⟩
  | .hbm, ⟨43, _⟩ => ⟨S64, .f32⟩
  | .hbm, ⟨44, _⟩ => ⟨S1x32, .f32⟩
  | .hbm, ⟨45, _⟩ => ⟨S32, .f32⟩
  | .hbm, ⟨46, _⟩ => ⟨S_, .i32⟩
  | .hbm, ⟨47, _⟩ => ⟨S_, .f32⟩
  | .hbm, ⟨48, _⟩ => ⟨S64, .f32⟩
  | .hbm, ⟨49, _⟩ => ⟨S1x1, .f32⟩
  | .hbm, ⟨50, _⟩ => ⟨S1, .f32⟩
  | .hbm, ⟨51, _⟩ => ⟨S_, .i32⟩
  | .hbm, ⟨52, _⟩ => ⟨S_, .f32⟩
  | .hbm, ⟨53, _⟩ => ⟨S64, .f32⟩
  | .hbm, ⟨54, _⟩ => ⟨S1x32, .f32⟩
  | .hbm, ⟨55, _⟩ => ⟨S32, .f32⟩
  | .hbm, ⟨56, _⟩ => ⟨S_, .i32⟩
  | .hbm, ⟨57, _⟩ => ⟨S_, .f32⟩
  | .hbm, ⟨58, _⟩ => ⟨S64, .f32⟩
  | .hbm, ⟨59, _⟩ => ⟨S1x32, .f32⟩
  | .hbm, ⟨60, _⟩ => ⟨S32, .f32⟩
  | .hbm, ⟨61, _⟩ => ⟨S_, .i32⟩
  | .hbm, ⟨62, _⟩ => ⟨S_, .f32⟩
  | .hbm, ⟨63, _⟩ => ⟨S64, .f32⟩
  | .hbm, ⟨64, _⟩ => ⟨S64x1, .f32⟩
  | .hbm, ⟨65, _⟩ => ⟨S64x1, .f32⟩
  | .hbm, ⟨66, _⟩ => ⟨S64x1, .f32⟩
  | .hbm, ⟨67, _⟩ => ⟨S64x1, .f32⟩
  | .hbm, ⟨68, _⟩ => ⟨S64x1, .f32⟩
  | .hbm, ⟨69, _⟩ => ⟨S64x1, .f32⟩
  | .hbm, ⟨70, _⟩ => ⟨S64x1, .f32⟩
  | .hbm, ⟨71, _⟩ => ⟨S64x1, .f32⟩
  | .hbm, ⟨72, _⟩ => ⟨S64x1, .f32⟩
  | .hbm, ⟨73, _⟩ => ⟨S64x1, .f32⟩
  | .hbm, ⟨74, _⟩ => ⟨S64x10, .f32⟩
  | .hbm, ⟨75, _⟩ => ⟨S_, .i32⟩
  | .hbm, ⟨76, _⟩ => ⟨S_, .f32⟩
  | .hbm, ⟨77, _⟩ => ⟨S64x16, .f32⟩
  | .hbm, ⟨78, _⟩ => ⟨S256x256x32, .f32⟩
  | .local _ .vmem, ⟨0, _⟩ => ⟨S8x256x16, .f32⟩
  | .local _ .vmem, ⟨1, _⟩ => ⟨S8x256x16, .f32⟩
  | .local _ .vmem, ⟨2, _⟩ => ⟨S8x256x256, .f32⟩
  | .local _ .vmem, ⟨3, _⟩ => ⟨S8x256x256, .f32⟩
  | .local _ .vmem, ⟨4, _⟩ => ⟨S8x256x32, .f32⟩
  | .local _ .vmem, ⟨5, _⟩ => ⟨S8x256x32, .f32⟩
  | .local _ .vmem, ⟨6, _⟩ => ⟨S16x128, .f32⟩
  | .local _ .vmem, ⟨7, _⟩ => ⟨S32x128, .f32⟩
  | .local _ .vmem, ⟨8, _⟩ => ⟨S64x32, .f32⟩
  | .local _ .vmem, ⟨9, _⟩ => ⟨S64x32, .f32⟩
  | .local _ .vmem, ⟨10, _⟩ => ⟨S32x32, .f32⟩
  | .local _ .vmem, ⟨11, _⟩ => ⟨S32x32, .f32⟩
  | .local _ .vmem, ⟨12, _⟩ => ⟨S64x16, .f32⟩
  | .local _ .vmem, ⟨13, _⟩ => ⟨S8x256x32, .f32⟩
  | .local _ .vmem, ⟨14, _⟩ => ⟨S8x256x32, .f32⟩
  | _, _ => ⟨S256x256x16, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_c : Ref sig .tc := ⟨.hbm, 16, rfl⟩
abbrev main_call0_v0 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_c_0 : Ref sig .tc := ⟨.hbm, 21, rfl⟩
abbrev main_call1_v0 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_c_1 : Ref sig .tc := ⟨.hbm, 26, rfl⟩
abbrev main_call2_v0 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_c_2 : Ref sig .tc := ⟨.hbm, 31, rfl⟩
abbrev main_call3_v0 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_c_3 : Ref sig .tc := ⟨.hbm, 36, rfl⟩
abbrev main_call4_v0 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_c_4 : Ref sig .tc := ⟨.hbm, 41, rfl⟩
abbrev main_call5_v0 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_c_5 : Ref sig .tc := ⟨.hbm, 46, rfl⟩
abbrev main_call6_v0 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_c_6 : Ref sig .tc := ⟨.hbm, 51, rfl⟩
abbrev main_call7_v0 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_c_7 : Ref sig .tc := ⟨.hbm, 56, rfl⟩
abbrev main_call8_v0 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_c_8 : Ref sig .tc := ⟨.hbm, 61, rfl⟩
abbrev main_call9_v0 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_c_9 : Ref sig .tc := ⟨.hbm, 75, rfl⟩
abbrev main_call10_v0 : Ref sig .tc := ⟨.hbm, 76, rfl⟩
abbrev main_v51 : Ref sig .tc := ⟨.hbm, 77, rfl⟩
abbrev main_v52 : Ref sig .tc := ⟨.hbm, 78, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg10_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem10_1 : DmaSem sig := 14

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S8x256x16 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x256x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8x256x32 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S16x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S32x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S64x32 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S64x32 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S32x32 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S32x32 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S64x16 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S8x256x32 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

class Facts₀ : Prop where
  slices_S368x64_S16x64_0_0 : S368x64.Slices ![0, 0] S16x64
  slices_S368x64_S16x64_80_0 : S368x64.Slices ![80, 0] S16x64
  concatenates_S16x64_S16x64_S16x128_d1 : Shape.Concatenates [S16x64, S16x64] S16x128 1
  slices_S368x64_S32x64_96_0 : S368x64.Slices ![96, 0] S32x64
  slices_S368x64_S32x64_192_0 : S368x64.Slices ![192, 0] S32x64
  concatenates_S32x64_S32x64_S32x128_d1 : Shape.Concatenates [S32x64, S32x64] S32x128 1
  slices_S368x64_S64x32_16_0 : S368x64.Slices ![16, 0] S64x32
  slices_S368x64_S64x32_128_0 : S368x64.Slices ![128, 0] S64x32
  slices_S368x64_S32x32_224_0 : S368x64.Slices ![224, 0] S32x32
  slices_S368x64_S32x32_256_0 : S368x64.Slices ![256, 0] S32x32
  slices_S368x64_S1x64_288_0 : S368x64.Slices ![288, 0] S1x64
  shapeCasts_S1x64_S64 : S1x64.ShapeCasts S64
  pads_S64_S64_000 : S64.Pads (![0] : Fin 1 → Nat) ![0] ![0] S64
  h_S_ : 0 < S_.numel
  slices_S368x64_S1x32_296_0 : S368x64.Slices ![296, 0] S1x32
  shapeCasts_S1x32_S32 : S1x32.ShapeCasts S32
  pads_S32_S64_0320 : S32.Pads (![0] : Fin 1 → Nat) ![32] ![0] S64
  slices_S368x64_S1x32_304_0 : S368x64.Slices ![304, 0] S1x32
  slices_S368x64_S1x1_312_0 : S368x64.Slices ![312, 0] S1x1
  shapeCasts_S1x1_S1 : S1x1.ShapeCasts S1
  pads_S1_S64_0630 : S1.Pads (![0] : Fin 1 → Nat) ![63] ![0] S64
  slices_S368x64_S1x64_320_0 : S368x64.Slices ![320, 0] S1x64
  slices_S368x64_S1x32_328_0 : S368x64.Slices ![328, 0] S1x32
  slices_S368x64_S1x32_336_0 : S368x64.Slices ![336, 0] S1x32
  slices_S368x64_S1x1_344_0 : S368x64.Slices ![344, 0] S1x1
  slices_S368x64_S1x32_352_0 : S368x64.Slices ![352, 0] S1x32
  slices_S368x64_S1x32_360_0 : S368x64.Slices ![360, 0] S1x32
  bcast_S64_S64x1_0 : S64.BroadcastsInDim S64x1 (![0] : Fin 1 → Fin S64x1.rank)
  concatenates_S64x1_S64x1_S64x1_S64x1_S64x1_S64x1_S64x1_S64x1_S64x1_S64x1_S64x10_d1 : Shape.Concatenates [S64x1, S64x1, S64x1, S64x1, S64x1, S64x1, S64x1, S64x1, S64x1, S64x1] S64x10 1
  pads_S64x10_S64x16_000_060 : S64x10.Pads (![0, 0] : Fin 2 → Nat) ![0, 6] ![0, 0] S64x16
  inb_S64x16_S64x16_0_0 : ∀ a, (![0, 0] : Fin 2 → Nat) a + S64x16.size a ≤ S64x16.size a
  h_S64x16 : 0 < S64x16.numel
  shapeCasts_S64x16_S64x16 : S64x16.ShapeCasts S64x16
  slices_S64x16_o0_0_S64x1 : S64x16.Slices ![0, 0] S64x1
  slices_S64x16_o0_1_S32x1 : S64x16.Slices ![0, 1] S32x1
  slices_S64x16_o0_2_S32x1 : S64x16.Slices ![0, 2] S32x1
  slices_S64x16_o0_3_S1x1 : S64x16.Slices ![0, 3] S1x1
  slices_S64x16_o0_4_S64x1 : S64x16.Slices ![0, 4] S64x1
  slices_S64x16_o0_5_S32x1 : S64x16.Slices ![0, 5] S32x1
  slices_S64x16_o0_6_S32x1 : S64x16.Slices ![0, 6] S32x1
  slices_S64x16_o0_7_S1x1 : S64x16.Slices ![0, 7] S1x1
  slices_S64x16_o0_8_S32x1 : S64x16.Slices ![0, 8] S32x1
  slices_S64x16_o0_9_S32x1 : S64x16.Slices ![0, 9] S32x1
  inb_S8x256x16_S1x256x16_0_0_0 : ∀ a, (![0, 0, 0] : Fin 3 → Nat) a + S1x256x16.size a ≤ S8x256x16.size a
  h_S1x256x16 : 0 < S1x256x16.numel
  shapeCasts_S1x256x16_S256x16 : S1x256x16.ShapeCasts S256x16
  inb_S8x256x256_S1x256x256_0_0_0 : ∀ a, (![0, 0, 0] : Fin 3 → Nat) a + S1x256x256.size a ≤ S8x256x256.size a
  h_S1x256x256 : 0 < S1x256x256.numel
  shapeCasts_S1x256x256_S256x256 : S1x256x256.ShapeCasts S256x256
  inb_S16x128_S16x128_0_0 : ∀ a, (![0, 0] : Fin 2 → Nat) a + S16x128.size a ≤ S16x128.size a
  h_S16x128 : 0 < S16x128.numel
  shapeCasts_S16x128_S16x128 : S16x128.ShapeCasts S16x128
  slices_S128x256_o0_0_S64x256 : S128x256.Slices ![0, 0] S64x256
  broadcasts_S64x1_S64x256 : S64x1.Broadcasts S64x256
  slices_S64x256_o0_0_S32x256 : S64x256.Slices ![0, 0] S32x256
  slices_S64x256_o32_0_S32x256 : S64x256.Slices ![32, 0] S32x256
  concatenates_S32x256_S32x256_S64x256_d0 : Shape.Concatenates [S32x256, S32x256] S64x256 0
  inb_S64x32_S64x32_0_0 : ∀ a, (![0, 0] : Fin 2 → Nat) a + S64x32.size a ≤ S64x32.size a
  h_S64x32 : 0 < S64x32.numel
  shapeCasts_S64x32_S64x32 : S64x32.ShapeCasts S64x32
  broadcasts_S32x1_S32x256 : S32x1.Broadcasts S32x256
  reduces_S32x256_S256 : S32x256.Reduces [0] S256
  shapeCasts_S256_S1x256 : S256.ShapeCasts S1x256
  broadcasts_S1x1_S1x256 : S1x1.Broadcasts S1x256
  slices_S128x256_o64_0_S32x256 : S128x256.Slices ![64, 0] S32x256
  broadcasts_S1x256_S32x256 : S1x256.Broadcasts S32x256
  slices_S128x256_o96_0_S32x256 : S128x256.Slices ![96, 0] S32x256
  inb_S32x128_S32x128_0_0 : ∀ a, (![0, 0] : Fin 2 → Nat) a + S32x128.size a ≤ S32x128.size a
  h_S32x128 : 0 < S32x128.numel
  shapeCasts_S32x128_S32x128 : S32x128.ShapeCasts S32x128
  broadcasts_S1x256_S64x256 : S1x256.Broadcasts S64x256
  inb_S32x32_S32x32_0_0 : ∀ a, (![0, 0] : Fin 2 → Nat) a + S32x32.size a ≤ S32x32.size a
  h_S32x32 : 0 < S32x32.numel
  shapeCasts_S32x32_S32x32 : S32x32.ShapeCasts S32x32
  inb_S8x256x32_S1x256x32_0_0_0 : ∀ a, (![0, 0, 0] : Fin 3 → Nat) a + S1x256x32.size a ≤ S8x256x32.size a
  h_S1x256x32 : 0 < S1x256x32.numel
  shapeCasts_S1x256x32_S256x32 : S1x256x32.ShapeCasts S256x32
  transposes_S256x32_p1_0_S32x256 : S256x32.Transposes [1, 0] S32x256
  transposes_S32x256_p1_0_S256x32 : S32x256.Transposes [1, 0] S256x32
  shapeCasts_S256x32_S1x256x32 : S256x32.ShapeCasts S1x256x32
  inb_S8x256x16_S1x256x16_1_0_0 : ∀ a, (![1, 0, 0] : Fin 3 → Nat) a + S1x256x16.size a ≤ S8x256x16.size a
  inb_S8x256x256_S1x256x256_1_0_0 : ∀ a, (![1, 0, 0] : Fin 3 → Nat) a + S1x256x256.size a ≤ S8x256x256.size a
  inb_S8x256x32_S1x256x32_1_0_0 : ∀ a, (![1, 0, 0] : Fin 3 → Nat) a + S1x256x32.size a ≤ S8x256x32.size a
  inb_S8x256x16_S1x256x16_2_0_0 : ∀ a, (![2, 0, 0] : Fin 3 → Nat) a + S1x256x16.size a ≤ S8x256x16.size a
  inb_S8x256x256_S1x256x256_2_0_0 : ∀ a, (![2, 0, 0] : Fin 3 → Nat) a + S1x256x256.size a ≤ S8x256x256.size a
  inb_S8x256x32_S1x256x32_2_0_0 : ∀ a, (![2, 0, 0] : Fin 3 → Nat) a + S1x256x32.size a ≤ S8x256x32.size a
  inb_S8x256x16_S1x256x16_3_0_0 : ∀ a, (![3, 0, 0] : Fin 3 → Nat) a + S1x256x16.size a ≤ S8x256x16.size a
  inb_S8x256x256_S1x256x256_3_0_0 : ∀ a, (![3, 0, 0] : Fin 3 → Nat) a + S1x256x256.size a ≤ S8x256x256.size a
  inb_S8x256x32_S1x256x32_3_0_0 : ∀ a, (![3, 0, 0] : Fin 3 → Nat) a + S1x256x32.size a ≤ S8x256x32.size a
  inb_S8x256x16_S1x256x16_4_0_0 : ∀ a, (![4, 0, 0] : Fin 3 → Nat) a + S1x256x16.size a ≤ S8x256x16.size a
  inb_S8x256x256_S1x256x256_4_0_0 : ∀ a, (![4, 0, 0] : Fin 3 → Nat) a + S1x256x256.size a ≤ S8x256x256.size a
  inb_S8x256x32_S1x256x32_4_0_0 : ∀ a, (![4, 0, 0] : Fin 3 → Nat) a + S1x256x32.size a ≤ S8x256x32.size a
  inb_S8x256x16_S1x256x16_5_0_0 : ∀ a, (![5, 0, 0] : Fin 3 → Nat) a + S1x256x16.size a ≤ S8x256x16.size a
  inb_S8x256x256_S1x256x256_5_0_0 : ∀ a, (![5, 0, 0] : Fin 3 → Nat) a + S1x256x256.size a ≤ S8x256x256.size a
  inb_S8x256x32_S1x256x32_5_0_0 : ∀ a, (![5, 0, 0] : Fin 3 → Nat) a + S1x256x32.size a ≤ S8x256x32.size a
  inb_S8x256x16_S1x256x16_6_0_0 : ∀ a, (![6, 0, 0] : Fin 3 → Nat) a + S1x256x16.size a ≤ S8x256x16.size a
  inb_S8x256x256_S1x256x256_6_0_0 : ∀ a, (![6, 0, 0] : Fin 3 → Nat) a + S1x256x256.size a ≤ S8x256x256.size a
  inb_S8x256x32_S1x256x32_6_0_0 : ∀ a, (![6, 0, 0] : Fin 3 → Nat) a + S1x256x32.size a ≤ S8x256x32.size a
  inb_S8x256x16_S1x256x16_7_0_0 : ∀ a, (![7, 0, 0] : Fin 3 → Nat) a + S1x256x16.size a ≤ S8x256x16.size a
  inb_S8x256x256_S1x256x256_7_0_0 : ∀ a, (![7, 0, 0] : Fin 3 → Nat) a + S1x256x256.size a ≤ S8x256x256.size a
  inb_S8x256x32_S1x256x32_7_0_0 : ∀ a, (![7, 0, 0] : Fin 3 → Nat) a + S1x256x32.size a ≤ S8x256x32.size a
  dot_S16x128_S256x16_S128x256_0_1_1_0_n_n_wf : DotDims.WF S16x128 S256x16 S128x256 [0] [1] [1] [0] [] []
  dot_S32x256_S256x256_S32x256_1_1_0_0_n_n_wf : DotDims.WF S32x256 S256x256 S32x256 [1] [1] [0] [0] [] []
  dot_S64x32_S64x256_S32x256_0_0_1_1_n_n_wf : DotDims.WF S64x32 S64x256 S32x256 [0] [0] [1] [1] [] []
  dot_S32x128_S32x256_S128x256_0_0_1_1_n_n_wf : DotDims.WF S32x128 S32x256 S128x256 [0] [0] [1] [1] [] []
  dot_S32x32_S32x256_S32x256_0_0_1_1_n_n_wf : DotDims.WF S32x32 S32x256 S32x256 [0] [0] [1] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8x256x16.size a ≤ S256x256x16.size a
  hwx0_0 : ∀ i : grid0.Coords, EltTy.bits .f32 = 32 ∨ (Rect.block (s := S256x256x16) S8x256x16.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8x256x256.size a ≤ S256x256x256.size a
  hwx0_1 : ∀ i : grid0.Coords, EltTy.bits .f32 = 32 ∨ (Rect.block (s := S256x256x256) S8x256x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8x256x32.size a ≤ S256x256x32.size a
  hwx0_2 : ∀ i : grid0.Coords, EltTy.bits .f32 = 32 ∨ (Rect.block (s := S256x256x32) S8x256x32.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S16x128.size a ≤ S16x128.size a
  hwx0_3 : ∀ i : grid0.Coords, EltTy.bits .f32 = 32 ∨ (Rect.block (s := S16x128) S16x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S32x128.size a ≤ S32x128.size a
  hwx0_4 : ∀ i : grid0.Coords, EltTy.bits .f32 = 32 ∨ (Rect.block (s := S32x128) S32x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S64x32.size a ≤ S64x32.size a
  hwx0_5 : ∀ i : grid0.Coords, EltTy.bits .f32 = 32 ∨ (Rect.block (s := S64x32) S64x32.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S64x32.size a ≤ S64x32.size a
  hwx0_6 : ∀ i : grid0.Coords, EltTy.bits .f32 = 32 ∨ (Rect.block (s := S64x32) S64x32.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S32x32.size a ≤ S32x32.size a
  hwx0_7 : ∀ i : grid0.Coords, EltTy.bits .f32 = 32 ∨ (Rect.block (s := S32x32) S32x32.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S32x32.size a ≤ S32x32.size a
  hwx0_8 : ∀ i : grid0.Coords, EltTy.bits .f32 = 32 ∨ (Rect.block (s := S32x32) S32x32.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S64x16.size a ≤ S64x16.size a
  hwx0_9 : ∀ i : grid0.Coords, EltTy.bits .f32 = 32 ∨ (Rect.block (s := S64x16) S64x16.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S8x256x32.size a ≤ S256x256x32.size a
  hwx0_10 : ∀ i : grid0.Coords, EltTy.bits .f32 = 32 ∨ (Rect.block (s := S256x256x32) S8x256x32.size (cc0_transform_10 i) (hinb0_10 i)).WholeWords (EltTy.packing .f32)

variable [Facts₀]

def dot_S16x128_S256x16_S128x256_0_1_1_0_n_n : DotDims S16x128 S256x16 S128x256 where
  lhsContracting := [0]
  rhsContracting := [1]
  lhsNonContracting := [1]
  rhsNonContracting := [0]
  lhsBatch := []
  rhsBatch := []
  wf := dot_S16x128_S256x16_S128x256_0_1_1_0_n_n_wf
def dot_S32x256_S256x256_S32x256_1_1_0_0_n_n : DotDims S32x256 S256x256 S32x256 where
  lhsContracting := [1]
  rhsContracting := [1]
  lhsNonContracting := [0]
  rhsNonContracting := [0]
  lhsBatch := []
  rhsBatch := []
  wf := dot_S32x256_S256x256_S32x256_1_1_0_0_n_n_wf
def dot_S64x32_S64x256_S32x256_0_0_1_1_n_n : DotDims S64x32 S64x256 S32x256 where
  lhsContracting := [0]
  rhsContracting := [0]
  lhsNonContracting := [1]
  rhsNonContracting := [1]
  lhsBatch := []
  rhsBatch := []
  wf := dot_S64x32_S64x256_S32x256_0_0_1_1_n_n_wf
def dot_S32x128_S32x256_S128x256_0_0_1_1_n_n : DotDims S32x128 S32x256 S128x256 where
  lhsContracting := [0]
  rhsContracting := [0]
  lhsNonContracting := [1]
  rhsNonContracting := [1]
  lhsBatch := []
  rhsBatch := []
  wf := dot_S32x128_S32x256_S128x256_0_0_1_1_n_n_wf
def dot_S32x32_S32x256_S32x256_0_0_1_1_n_n : DotDims S32x32 S32x256 S32x256 where
  lhsContracting := [0]
  rhsContracting := [0]
  lhsNonContracting := [1]
  rhsNonContracting := [1]
  lhsBatch := []
  rhsBatch := []
  wf := dot_S32x32_S32x256_S32x256_0_0_1_1_n_n_wf

abbrev win0_0 : Pipeline.Window sig grid0 :=
  Pipeline.Window.ofSpec (Memref.whole main_arg0) S8x256x16.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S8x256x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S8x256x32.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v2) S16x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v5) S32x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v6) S64x32.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v7) S64x32.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v8) S32x32.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v9) S32x32.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v51) S64x16.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v52) S8x256x32.size cc0_transform_10 reads0_10 true false 2 stage0_10 sem0_10
    hrank0 hreads0_10 hinb0_10 nbuf0_10 (Memref.isWhole_whole _) hwx0_10 hstage0_10

abbrev win0 : Fin 11 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | ⟨_ + 11, h⟩ => absurd h (Nat.not_lt.2 (Nat.le_add_left _ _))
abbrev spec0 : Fin 11 → Pipeline.WinSpec sig grid0.rank := fun w => (win0 w).toWinSpec

class Facts : Prop extends Facts₀ where

variable [Facts]
-- ==== ReferenceIdeal.lean ====
abbrev S256x256x16 : Shape := ⟨3, ![256, 256, 16]⟩
abbrev S256x256x256 : Shape := ⟨3, ![256, 256, 256]⟩
abbrev S368x64 : Shape := ⟨2, ![368, 64]⟩
abbrev S256x256x32 : Shape := ⟨3, ![256, 256, 32]⟩
abbrev S1x256x16 : Shape := ⟨3, ![1, 256, 16]⟩
abbrev S1x256x256 : Shape := ⟨3, ![1, 256, 256]⟩
abbrev S1x256x32 : Shape := ⟨3, ![1, 256, 32]⟩
abbrev S256x16 : Shape := ⟨2, ![256, 16]⟩
abbrev S256x256 : Shape := ⟨2, ![256, 256]⟩
abbrev S256x64 : Shape := ⟨2, ![256, 64]⟩
abbrev S16x64 : Shape := ⟨2, ![16, 64]⟩
abbrev S1x64 : Shape := ⟨2, ![1, 64]⟩
abbrev S64x32 : Shape := ⟨2, ![64, 32]⟩
abbrev S1x32 : Shape := ⟨2, ![1, 32]⟩
abbrev S1x1 : Shape := ⟨2, ![1, 1]⟩
abbrev S256x32 : Shape := ⟨2, ![256, 32]⟩
abbrev S256 : Shape := ⟨1, ![256]⟩
abbrev S256x1 : Shape := ⟨2, ![256, 1]⟩
abbrev S32x64 : Shape := ⟨2, ![32, 64]⟩
abbrev S32x32 : Shape := ⟨2, ![32, 32]⟩

abbrev nBuf : Space → Nat
  | .hbm => 5
  | .vmem => 9
  | .smem => 0
  | _ => 0

abbrev bufTy : (tb : Table) → Fin (tcTables nBuf tb) → BufTy
  | .hbm, ⟨0, _⟩ => ⟨S256x256x16, .f32⟩
  | .hbm, ⟨1, _⟩ => ⟨S256x256x256, .f32⟩
  | .hbm, ⟨2, _⟩ => ⟨S368x64, .f32⟩
  | .hbm, ⟨3, _⟩ => ⟨S256x256x32, .f32⟩
  | .hbm, ⟨4, _⟩ => ⟨S256x256x32, .f32⟩
  | .local _ .vmem, ⟨0, _⟩ => ⟨S1x256x16, .f32⟩
  | .local _ .vmem, ⟨1, _⟩ => ⟨S1x256x16, .f32⟩
  | .local _ .vmem, ⟨2, _⟩ => ⟨S1x256x256, .f32⟩
  | .local _ .vmem, ⟨3, _⟩ => ⟨S1x256x256, .f32⟩
  | .local _ .vmem, ⟨4, _⟩ => ⟨S368x64, .f32⟩
  | .local _ .vmem, ⟨5, _⟩ => ⟨S1x256x32, .f32⟩
  | .local _ .vmem, ⟨6, _⟩ => ⟨S1x256x32, .f32⟩
  | .local _ .vmem, ⟨7, _⟩ => ⟨S1x256x32, .f32⟩
  | .local _ .vmem, ⟨8, _⟩ => ⟨S1x256x32, .f32⟩
  | _, _ => ⟨S256x256x16, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![256], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x256x16 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x256x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S368x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1x256x32 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x256x32 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  inb_S1x256x16_S1x256x16_0_0_0 : ∀ a, (![0, 0, 0] : Fin 3 → Nat) a + S1x256x16.size a ≤ S1x256x16.size a
  h_S1x256x16 : 0 < S1x256x16.numel
  shapeCasts_S1x256x16_S256x16 : S1x256x16.ShapeCasts S256x16
  inb_S1x256x256_S1x256x256_0_0_0 : ∀ a, (![0, 0, 0] : Fin 3 → Nat) a + S1x256x256.size a ≤ S1x256x256.size a
  h_S1x256x256 : 0 < S1x256x256.numel
  shapeCasts_S1x256x256_S256x256 : S1x256x256.ShapeCasts S256x256
  iota_S256x64_d1_w32 : S256x64.Iotas .tc 32 [1]
  inb_S368x64_S16x64_0_0 : ∀ a, (![0, 0] : Fin 2 → Nat) a + S16x64.size a ≤ S368x64.size a
  h_S16x64 : 0 < S16x64.numel
  inb_S368x64_S1x64_288_0 : ∀ a, (![288, 0] : Fin 2 → Nat) a + S1x64.size a ≤ S368x64.size a
  h_S1x64 : 0 < S1x64.numel
  inb_S368x64_S64x32_16_0 : ∀ a, (![16, 0] : Fin 2 → Nat) a + S64x32.size a ≤ S368x64.size a
  h_S64x32 : 0 < S64x32.numel
  inb_S368x64_S1x32_296_0 : ∀ a, (![296, 0] : Fin 2 → Nat) a + S1x32.size a ≤ S368x64.size a
  h_S1x32 : 0 < S1x32.numel
  inb_S368x64_S1x32_304_0 : ∀ a, (![304, 0] : Fin 2 → Nat) a + S1x32.size a ≤ S368x64.size a
  inb_S368x64_S1x1_312_0 : ∀ a, (![312, 0] : Fin 2 → Nat) a + S1x1.size a ≤ S368x64.size a
  h_S1x1 : 0 < S1x1.numel
  broadcasts_S1x64_S256x64 : S1x64.Broadcasts S256x64
  broadcasts_S1x32_S256x32 : S1x32.Broadcasts S256x32
  reduces_S256x32_S256 : S256x32.Reduces [1] S256
  shapeCasts_S256_S256x1 : S256.ShapeCasts S256x1
  broadcasts_S1x1_S256x1 : S1x1.Broadcasts S256x1
  inb_S368x64_S16x64_80_0 : ∀ a, (![80, 0] : Fin 2 → Nat) a + S16x64.size a ≤ S368x64.size a
  slices_S256x64_o0_0_S256x32 : S256x64.Slices ![0, 0] S256x32
  broadcasts_S256x1_S256x32 : S256x1.Broadcasts S256x32
  slices_S256x64_o0_32_S256x32 : S256x64.Slices ![0, 32] S256x32
  inb_S368x64_S32x64_96_0 : ∀ a, (![96, 0] : Fin 2 → Nat) a + S32x64.size a ≤ S368x64.size a
  h_S32x64 : 0 < S32x64.numel
  inb_S368x64_S1x64_320_0 : ∀ a, (![320, 0] : Fin 2 → Nat) a + S1x64.size a ≤ S368x64.size a
  inb_S368x64_S64x32_128_0 : ∀ a, (![128, 0] : Fin 2 → Nat) a + S64x32.size a ≤ S368x64.size a
  inb_S368x64_S1x32_328_0 : ∀ a, (![328, 0] : Fin 2 → Nat) a + S1x32.size a ≤ S368x64.size a
  inb_S368x64_S1x32_336_0 : ∀ a, (![336, 0] : Fin 2 → Nat) a + S1x32.size a ≤ S368x64.size a
  inb_S368x64_S1x1_344_0 : ∀ a, (![344, 0] : Fin 2 → Nat) a + S1x1.size a ≤ S368x64.size a
  inb_S368x64_S32x64_192_0 : ∀ a, (![192, 0] : Fin 2 → Nat) a + S32x64.size a ≤ S368x64.size a
  inb_S368x64_S32x32_224_0 : ∀ a, (![224, 0] : Fin 2 → Nat) a + S32x32.size a ≤ S368x64.size a
  h_S32x32 : 0 < S32x32.numel
  inb_S368x64_S1x32_352_0 : ∀ a, (![352, 0] : Fin 2 → Nat) a + S1x32.size a ≤ S368x64.size a
  inb_S1x256x32_S1x256x32_0_0_0 : ∀ a, (![0, 0, 0] : Fin 3 → Nat) a + S1x256x32.size a ≤ S1x256x32.size a
  h_S1x256x32 : 0 < S1x256x32.numel
  shapeCasts_S1x256x32_S256x32 : S1x256x32.ShapeCasts S256x32
  inb_S368x64_S32x32_256_0 : ∀ a, (![256, 0] : Fin 2 → Nat) a + S32x32.size a ≤ S368x64.size a
  inb_S368x64_S1x32_360_0 : ∀ a, (![360, 0] : Fin 2 → Nat) a + S1x32.size a ≤ S368x64.size a
  shapeCasts_S256x32_S1x256x32 : S256x32.ShapeCasts S1x256x32
  dot_S256x16_S16x64_S256x64_1_0_0_1_n_n_wf : DotDims.WF S256x16 S16x64 S256x64 [1] [0] [0] [1] [] []
  dot_S256x256_S256x64_S256x64_1_0_0_1_n_n_wf : DotDims.WF S256x256 S256x64 S256x64 [1] [0] [0] [1] [] []
  dot_S256x64_S64x32_S256x32_1_0_0_1_n_n_wf : DotDims.WF S256x64 S64x32 S256x32 [1] [0] [0] [1] [] []
  dot_S256x256_S256x32_S256x32_1_0_0_1_n_n_wf : DotDims.WF S256x256 S256x32 S256x32 [1] [0] [0] [1] [] []
  dot_S256x32_S32x64_S256x64_1_0_0_1_n_n_wf : DotDims.WF S256x32 S32x64 S256x64 [1] [0] [0] [1] [] []
  dot_S256x32_S32x32_S256x32_1_0_0_1_n_n_wf : DotDims.WF S256x32 S32x32 S256x32 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x256x16.size a ≤ S256x256x16.size a
  hwx0_0 : ∀ i : grid0.Coords, EltTy.bits .f32 = 32 ∨ (Rect.block (s := S256x256x16) S1x256x16.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x256x256.size a ≤ S256x256x256.size a
  hwx0_1 : ∀ i : grid0.Coords, EltTy.bits .f32 = 32 ∨ (Rect.block (s := S256x256x256) S1x256x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S368x64.size a ≤ S368x64.size a
  hwx0_2 : ∀ i : grid0.Coords, EltTy.bits .f32 = 32 ∨ (Rect.block (s := S368x64) S368x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x256x32.size a ≤ S256x256x32.size a
  hwx0_3 : ∀ i : grid0.Coords, EltTy.bits .f32 = 32 ∨ (Rect.block (s := S256x256x32) S1x256x32.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x256x32.size a ≤ S256x256x32.size a
  hwx0_4 : ∀ i : grid0.Coords, EltTy.bits .f32 = 32 ∨ (Rect.block (s := S256x256x32) S1x256x32.size (cc0_transform_4 i) (hinb0_4 i)).WholeWords (EltTy.packing .f32)

variable [Facts₀]

def dot_S256x16_S16x64_S256x64_1_0_0_1_n_n : DotDims S256x16 S16x64 S256x64 where
  lhsContracting := [1]
  rhsContracting := [0]
  lhsNonContracting := [0]
  rhsNonContracting := [1]
  lhsBatch := []
  rhsBatch := []
  wf := dot_S256x16_S16x64_S256x64_1_0_0_1_n_n_wf
def dot_S256x256_S256x64_S256x64_1_0_0_1_n_n : DotDims S256x256 S256x64 S256x64 where
  lhsContracting := [1]
  rhsContracting := [0]
  lhsNonContracting := [0]
  rhsNonContracting := [1]
  lhsBatch := []
  rhsBatch := []
  wf := dot_S256x256_S256x64_S256x64_1_0_0_1_n_n_wf
def dot_S256x64_S64x32_S256x32_1_0_0_1_n_n : DotDims S256x64 S64x32 S256x32 where
  lhsContracting := [1]
  rhsContracting := [0]
  lhsNonContracting := [0]
  rhsNonContracting := [1]
  lhsBatch := []
  rhsBatch := []
  wf := dot_S256x64_S64x32_S256x32_1_0_0_1_n_n_wf
def dot_S256x256_S256x32_S256x32_1_0_0_1_n_n : DotDims S256x256 S256x32 S256x32 where
  lhsContracting := [1]
  rhsContracting := [0]
  lhsNonContracting := [0]
  rhsNonContracting := [1]
  lhsBatch := []
  rhsBatch := []
  wf := dot_S256x256_S256x32_S256x32_1_0_0_1_n_n_wf
def dot_S256x32_S32x64_S256x64_1_0_0_1_n_n : DotDims S256x32 S32x64 S256x64 where
  lhsContracting := [1]
  rhsContracting := [0]
  lhsNonContracting := [0]
  rhsNonContracting := [1]
  lhsBatch := []
  rhsBatch := []
  wf := dot_S256x32_S32x64_S256x64_1_0_0_1_n_n_wf
def dot_S256x32_S32x32_S256x32_1_0_0_1_n_n : DotDims S256x32 S32x32 S256x32 where
  lhsContracting := [1]
  rhsContracting := [0]
  lhsNonContracting := [0]
  rhsNonContracting := [1]
  lhsBatch := []
  rhsBatch := []
  wf := dot_S256x32_S32x32_S256x32_1_0_0_1_n_n_wf

abbrev win0_0 : Pipeline.Window sig grid0 :=
  Pipeline.Window.ofSpec (Memref.whole main_arg0) S1x256x16.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x256x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S368x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S1x256x32.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v0) S1x256x32.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== Proof.KEntryB.lean ====
/-
  The kernel's program as printed, read at the machine's words, up to its one launch: the buffers as the launch finds them, after the host lines that cut the
  parameter slab into the operands of the transposed dataflow (two stacked weight matrices, four plain ones, and a
  64 × 16 table of bias columns); none of those lines writes an argument array.
-/
import proofs.«126640_g2000103277586728_pallasbulk_447_2_alg».proof.Proof.Gen.Kernel.Launch
import Idealize.ShloMosaic.Lib.Pipeline.FrameBody

set_option maxRecDepth 16384

noncomputable section

namespace Cert.Kernel.Smg

open Cert.Kernel Cert.Kernel.Gen
open Idealize.ShloMosaic Idealize.ShloMosaic.TcCoe
open Idealize.SL Idealize.SL.Sem
open Idealize.ShloMosaic.Pipeline (Dat Cfg Window BodyObligation cellOf)

variable {F : FTy → Type} [FloatOps F]

variable (m : (ℓ : Loc nD τ sig) → Buf (Elt F) ℓ) (ρ : Dev nD → PrngReg)

/-- The host lines before the launch, stretch by stretch. -/
abbrev prefixOps : List (List (HloOp τ sig (Elt F))) := [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21]

/-- Core `c`'s buffers when the launch is entered: the launch memory after the host lines. -/
abbrev V (c : Dev nD) (b : Ref sig .tc) : Buf (Elt F) ((c : Thread nD τ).loc b) :=
  StableHlo.after (List.flatten (prefixOps (F := F))) (fun b => m (c, b)) b

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps0_3_fresh : (hostOps0_3 : List (HloOp τ sig (Elt F))).Forall fun op => op.fresh = ∅ := by
  simp only [List.Forall]; repeat' constructor
theorem hostOps0_4_fresh : (hostOps0_4 : List (HloOp τ sig (Elt F))).Forall fun op => op.fresh = ∅ := by
  simp only [List.Forall]; repeat' constructor
theorem hostOps0_5_fresh : (hostOps0_5 : List (HloOp τ sig (Elt F))).Forall fun op => op.fresh = ∅ := by
  simp only [List.Forall]; repeat' constructor
theorem hostOps0_6_fresh : (hostOps0_6 : List (HloOp τ sig (Elt F))).Forall fun op => op.fresh = ∅ := by
  simp only [List.Forall]; repeat' constructor
theorem hostOps0_7_fresh : (hostOps0_7 : List (HloOp τ sig (Elt F))).Forall fun op => op.fresh = ∅ := by
  simp only [List.Forall]; repeat' constructor
theorem hostOps0_8_fresh : (hostOps0_8 : List (HloOp τ sig (Elt F))).Forall fun op => op.fresh = ∅ := by
  simp only [List.Forall]; repeat' constructor
theorem hostOps0_9_fresh : (hostOps0_9 : List (HloOp τ sig (Elt F))).Forall fun op => op.fresh = ∅ := by
  simp only [List.Forall]; repeat' constructor
theorem hostOps0_10_fresh : (hostOps0_10 : List (HloOp τ sig (Elt F))).Forall fun op => op.fresh = ∅ := by
  simp only [List.Forall]; repeat' constructor
theorem hostOps0_11_fresh : (hostOps0_11 : List (HloOp τ sig (Elt F))).Forall fun op => op.fresh = ∅ := by
  simp only [List.Forall]; repeat' constructor
theorem hostOps0_12_fresh : (hostOps0_12 : List (HloOp τ sig (Elt F))).Forall fun op => op.fresh = ∅ := by
  simp only [List.Forall]; repeat' constructor
theorem hostOps0_13_fresh : (hostOps0_13 : List (HloOp τ sig (Elt F))).Forall fun op => op.fresh = ∅ := by
  simp only [List.Forall]; repeat' constructor
theorem hostOps0_14_fresh : (hostOps0_14 : List (HloOp τ sig (Elt F))).Forall fun op => op.fresh = ∅ := by
  simp only [List.Forall]; repeat' constructor
theorem hostOps0_15_fresh : (hostOps0_15 : List (HloOp τ sig (Elt F))).Forall fun op => op.fresh = ∅ := by
  simp only [List.Forall]; repeat' constructor
theorem hostOps0_16_fresh : (hostOps0_16 : List (HloOp τ sig (Elt F))).Forall fun op => op.fresh = ∅ := by
  simp only [List.Forall]; repeat' constructor
theorem hostOps0_17_fresh : (hostOps0_17 : List (HloOp τ sig (Elt F))).Forall fun op => op.fresh = ∅ := by
  simp only [List.Forall]; repeat' constructor
theorem hostOps0_18_fresh : (hostOps0_18 : List (HloOp τ sig (Elt F))).Forall fun op => op.fresh = ∅ := by
  simp only [List.Forall]; repeat' constructor
theorem hostOps0_19_fresh : (hostOps0_19 : List (HloOp τ sig (Elt F))).Forall fun op => op.fresh = ∅ := by
  simp only [List.Forall]; repeat' constructor
theorem hostOps0_20_fresh : (hostOps0_20 : List (HloOp τ sig (Elt F))).Forall fun op => op.fresh = ∅ := by
  simp only [List.Forall]; repeat' constructor
theorem hostOps0_21_fresh : (hostOps0_21 : List (HloOp τ sig (Elt F))).Forall fun op => op.fresh = ∅ := by
  simp only [List.Forall]; repeat' constructor

/-- The program up to the launch is those host lines. -/
theorem hmain (𝒱₀ : Variants) : Pipeline.HMain (Ix := Unit) (Name := ℕ) (U := UR sig nD τ) (Lvl := ℕ) cfgs 0 defs₀ 𝒱₀ m (main (F := F)) (V m) :=
  Pipeline.hmain_prefixes cfgs 0 defs₀ 𝒱₀ m main prefixOps (by simp only [List.Forall]; exact ⟨hostOps0_sub, hostOps0_1_sub, hostOps0_2_sub, hostOps0_3_sub, hostOps0_4_sub, hostOps0_5_sub, hostOps0_6_sub, hostOps0_7_sub, hostOps0_8_sub, hostOps0_9_sub, hostOps0_10_sub, hostOps0_11_sub, hostOps0_12_sub, hostOps0_13_sub, hostOps0_14_sub, hostOps0_15_sub, hostOps0_16_sub, hostOps0_17_sub, hostOps0_18_sub, hostOps0_19_sub, hostOps0_20_sub, hostOps0_21_sub⟩)
    (by simp only [List.Forall]; exact ⟨hostOps0_fresh, hostOps0_1_fresh, hostOps0_2_fresh, hostOps0_3_fresh, hostOps0_4_fresh, hostOps0_5_fresh, hostOps0_6_fresh, hostOps0_7_fresh, hostOps0_8_fresh, hostOps0_9_fresh, hostOps0_10_fresh, hostOps0_11_fresh, hostOps0_12_fresh, hostOps0_13_fresh, hostOps0_14_fresh, hostOps0_15_fresh, hostOps0_16_fresh, hostOps0_17_fresh, hostOps0_18_fresh, hostOps0_19_fresh, hostOps0_20_fresh, hostOps0_21_fresh⟩) main_chain

/-- No host line writes argument 0: the launch finds it as it was. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, List.flatten_cons, List.flatten_nil, List.append_nil, List.cons_append,
      List.nil_append, List.Forall, StableHlo.nullary_writes, StableHlo.unary_writes, StableHlo.binary_writes, StableHlo.nary_writes, StableHlo.reshape_writes, Finset.mem_singleton]
    repeat' apply And.intro
    all_goals exact StableHlo.devRef_ne_of_ne (by decide)))
/-- No host line writes argument 1: the launch finds it as it was. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, List.flatten_cons, List.flatten_nil, List.append_nil, List.cons_append,
      List.nil_append, List.Forall, StableHlo.nullary_writes, StableHlo.unary_writes, StableHlo.binary_writes, StableHlo.nary_writes, StableHlo.reshape_writes, Finset.mem_singleton]
    repeat' apply And.intro
    all_goals exact StableHlo.devRef_ne_of_ne (by decide)))
/-- No host line writes argument 2: the launch finds it as it was. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, List.flatten_cons, List.flatten_nil, List.append_nil, List.cons_append,
      List.nil_append, List.Forall, StableHlo.nullary_writes, StableHlo.unary_writes, StableHlo.binary_writes, StableHlo.nary_writes, StableHlo.reshape_writes, Finset.mem_singleton]
    repeat' apply And.intro
    all_goals exact StableHlo.devRef_ne_of_ne (by decide)))
/-- No host line writes argument 3: the launch finds it as it was. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, List.flatten_cons, List.flatten_nil, List.append_nil, List.cons_append,
      List.nil_append, List.Forall, StableHlo.nullary_writes, StableHlo.unary_writes, StableHlo.binary_writes, StableHlo.nary_writes, StableHlo.reshape_writes, Finset.mem_singleton]
    repeat' apply And.intro
    all_goals exact StableHlo.devRef_ne_of_ne (by decide)))

end Cert.Kernel.Smg

end
-- ==== Proof.KTableB.lean ====
/- The literal rectangles the body loads and stores through; what each of its eight stores writes, as the payload names applied to the
   loaded blocks; and the output block after the body as the canon of those stores, last first. -/
import proofs.«126640_g2000103277586728_pallasbulk_447_2_alg».proof.Proof.Gen.Kernel.Skeleton
import Idealize.ShloMosaic.Lib.Pipeline.FrameBody

set_option maxRecDepth 16384

noncomputable section

namespace Cert.Kernel.Smg

open Cert.Kernel Cert.Kernel.Gen
open Idealize.ShloMosaic Idealize.ShloMosaic.TcCoe Idealize.SL.Sem

variable {F : FTy → Type} [FloatOps F]

abbrev r0_0 : Rect S64x16 := Rect.unit (s := S64x16) ![0, 0] S64x16.size inb_S64x16_S64x16_0_0
abbrev r0_1 : Rect S8x256x16 := Rect.unit (s := S8x256x16) ![0, 0, 0] S1x256x16.size inb_S8x256x16_S1x256x16_0_0_0
abbrev r0_2 : Rect S8x256x256 := Rect.unit (s := S8x256x256) ![0, 0, 0] S1x256x256.size inb_S8x256x256_S1x256x256_0_0_0
abbrev r0_3 : Rect S16x128 := Rect.unit (s := S16x128) ![0, 0] S16x128.size inb_S16x128_S16x128_0_0
abbrev r0_4 : Rect S64x32 := Rect.unit (s := S64x32) ![0, 0] S64x32.size inb_S64x32_S64x32_0_0
abbrev r0_5 : Rect S32x128 := Rect.unit (s := S32x128) ![0, 0] S32x128.size inb_S32x128_S32x128_0_0
abbrev r0_6 : Rect S32x32 := Rect.unit (s := S32x32) ![0, 0] S32x32.size inb_S32x32_S32x32_0_0
abbrev r0_7 : Rect S8x256x32 := Rect.unit (s := S8x256x32) ![0, 0, 0] S1x256x32.size inb_S8x256x32_S1x256x32_0_0_0
abbrev r0_8 : Rect S8x256x16 := Rect.unit (s := S8x256x16) ![1, 0, 0] S1x256x16.size inb_S8x256x16_S1x256x16_1_0_0
abbrev r0_9 : Rect S8x256x256 := Rect.unit (s := S8x256x256) ![1, 0, 0] S1x256x256.size inb_S8x256x256_S1x256x256_1_0_0
abbrev r0_10 : Rect S8x256x32 := Rect.unit (s := S8x256x32) ![1, 0, 0] S1x256x32.size inb_S8x256x32_S1x256x32_1_0_0
abbrev r0_11 : Rect S8x256x16 := Rect.unit (s := S8x256x16) ![2, 0, 0] S1x256x16.size inb_S8x256x16_S1x256x16_2_0_0
abbrev r0_12 : Rect S8x256x256 := Rect.unit (s := S8x256x256) ![2, 0, 0] S1x256x256.size inb_S8x256x256_S1x256x256_2_0_0
abbrev r0_13 : Rect S8x256x32 := Rect.unit (s := S8x256x32) ![2, 0, 0] S1x256x32.size inb_S8x256x32_S1x256x32_2_0_0
abbrev r0_14 : Rect S8x256x16 := Rect.unit (s := S8x256x16) ![3, 0, 0] S1x256x16.size inb_S8x256x16_S1x256x16_3_0_0
abbrev r0_15 : Rect S8x256x256 := Rect.unit (s := S8x256x256) ![3, 0, 0] S1x256x256.size inb_S8x256x256_S1x256x256_3_0_0
abbrev r0_16 : Rect S8x256x32 := Rect.unit (s := S8x256x32) ![3, 0, 0] S1x256x32.size inb_S8x256x32_S1x256x32_3_0_0
abbrev r0_17 : Rect S8x256x16 := Rect.unit (s := S8x256x16) ![4, 0, 0] S1x256x16.size inb_S8x256x16_S1x256x16_4_0_0
abbrev r0_18 : Rect S8x256x256 := Rect.unit (s := S8x256x256) ![4, 0, 0] S1x256x256.size inb_S8x256x256_S1x256x256_4_0_0
abbrev r0_19 : Rect S8x256x32 := Rect.unit (s := S8x256x32) ![4, 0, 0] S1x256x32.size inb_S8x256x32_S1x256x32_4_0_0
abbrev r0_20 : Rect S8x256x16 := Rect.unit (s := S8x256x16) ![5, 0, 0] S1x256x16.size inb_S8x256x16_S1x256x16_5_0_0
abbrev r0_21 : Rect S8x256x256 := Rect.unit (s := S8x256x256) ![5, 0, 0] S1x256x256.size inb_S8x256x256_S1x256x256_5_0_0
abbrev r0_22 : Rect S8x256x32 := Rect.unit (s := S8x256x32) ![5, 0, 0] S1x256x32.size inb_S8x256x32_S1x256x32_5_0_0
abbrev r0_23 : Rect S8x256x16 := Rect.unit (s := S8x256x16) ![6, 0, 0] S1x256x16.size inb_S8x256x16_S1x256x16_6_0_0
abbrev r0_24 : Rect S8x256x256 := Rect.unit (s := S8x256x256) ![6, 0, 0] S1x256x256.size inb_S8x256x256_S1x256x256_6_0_0
abbrev r0_25 : Rect S8x256x32 := Rect.unit (s := S8x256x32) ![6, 0, 0] S1x256x32.size inb_S8x256x32_S1x256x32_6_0_0
abbrev r0_26 : Rect S8x256x16 := Rect.unit (s := S8x256x16) ![7, 0, 0] S1x256x16.size inb_S8x256x16_S1x256x16_7_0_0
abbrev r0_27 : Rect S8x256x256 := Rect.unit (s := S8x256x256) ![7, 0, 0] S1x256x256.size inb_S8x256x256_S1x256x256_7_0_0
abbrev r0_28 : Rect S8x256x32 := Rect.unit (s := S8x256x32) ![7, 0, 0] S1x256x32.size inb_S8x256x32_S1x256x32_7_0_0

/-- What the store of graph 0 of the point writes. -/
def storeVal0 (x0 : Vec F S8x256x16 .f32) (x1 : Vec F S8x256x256 .f32) (x2 : Vec F S8x256x32 .f32) (x3 : Vec F S16x128 .f32) (x4 : Vec F S32x128 .f32) (x5 : Vec F S64x32 .f32) (x6 : Vec F S64x32 .f32) (x7 : Vec F S32x32 .f32) (x8 : Vec F S32x32 .f32) (x9 : Vec F S64x16 .f32) : FVec F S1x256x32 .f32 :=
  k0_pay17 (k0_pay11 (View.ld x9 r0_0)) (k0_pay12 (View.ld x9 r0_0)) (k0_pay16 (k0_pay7 (View.ld x9 r0_0)) (k0_pay8 (View.ld x9 r0_0)) (k0_pay9 (View.ld x9 r0_0)) (k0_pay10 (View.ld x9 r0_0)) (k0_pay13 (View.ld x1 r0_2)) (k0_pay14 (View.ld x0 r0_1) (View.ld x3 r0_3)) (k0_pay15 (View.ld x9 r0_0) (View.ld x0 r0_1) (View.ld x1 r0_2) (View.ld x3 r0_3) (View.ld x5 r0_4)) (View.ld x4 r0_5) (View.ld x6 r0_4)) (View.ld x7 r0_6) (View.ld x2 r0_7) (View.ld x8 r0_6)

/-- What the store of graph 1 of the point writes. -/
def storeVal1 (x0 : Vec F S8x256x16 .f32) (x1 : Vec F S8x256x256 .f32) (x2 : Vec F S8x256x32 .f32) (x3 : Vec F S16x128 .f32) (x4 : Vec F S32x128 .f32) (x5 : Vec F S64x32 .f32) (x6 : Vec F S64x32 .f32) (x7 : Vec F S32x32 .f32) (x8 : Vec F S32x32 .f32) (x9 : Vec F S64x16 .f32) : FVec F S1x256x32 .f32 :=
  k0_pay26 (k0_pay8 (View.ld x9 r0_0)) (k0_pay9 (View.ld x9 r0_0)) (k0_pay10 (View.ld x9 r0_0)) (k0_pay11 (View.ld x9 r0_0)) (k0_pay12 (View.ld x9 r0_0)) (k0_pay18 (View.ld x1 r0_9)) (k0_pay24 (k0_pay4 (View.ld x9 r0_0)) (k0_pay5 (View.ld x9 r0_0)) (k0_pay6 (View.ld x9 r0_0)) (k0_pay18 (View.ld x1 r0_9)) (k0_pay19 (View.ld x0 r0_8) (View.ld x3 r0_3)) (k0_pay21 (k0_pay3 (View.ld x9 r0_0)) (View.ld x0 r0_8) (View.ld x1 r0_9) (View.ld x3 r0_3)) (k0_pay22 (k0_pay3 (View.ld x9 r0_0)) (View.ld x0 r0_8) (View.ld x3 r0_3)) (View.ld x5 r0_4) (View.ld x4 r0_5)) (k0_pay25 (k0_pay4 (View.ld x9 r0_0)) (k0_pay5 (View.ld x9 r0_0)) (k0_pay6 (View.ld x9 r0_0)) (k0_pay7 (View.ld x9 r0_0)) (k0_pay18 (View.ld x1 r0_9)) (k0_pay19 (View.ld x0 r0_8) (View.ld x3 r0_3)) (k0_pay21 (k0_pay3 (View.ld x9 r0_0)) (View.ld x0 r0_8) (View.ld x1 r0_9) (View.ld x3 r0_3)) (k0_pay22 (k0_pay3 (View.ld x9 r0_0)) (View.ld x0 r0_8) (View.ld x3 r0_3)) (View.ld x5 r0_4) (View.ld x4 r0_5) (View.ld x6 r0_4)) (View.ld x7 r0_6) (View.ld x2 r0_10) (View.ld x8 r0_6)

/-- What the store of graph 2 of the point writes. -/
def storeVal2 (x0 : Vec F S8x256x16 .f32) (x1 : Vec F S8x256x256 .f32) (x2 : Vec F S8x256x32 .f32) (x3 : Vec F S16x128 .f32) (x4 : Vec F S32x128 .f32) (x5 : Vec F S64x32 .f32) (x6 : Vec F S64x32 .f32) (x7 : Vec F S32x32 .f32) (x8 : Vec F S32x32 .f32) (x9 : Vec F S64x16 .f32) : FVec F S1x256x32 .f32 :=
  k0_pay32 (k0_pay12 (View.ld x9 r0_0)) (k0_pay31 (k0_pay7 (View.ld x9 r0_0)) (k0_pay8 (View.ld x9 r0_0)) (k0_pay9 (View.ld x9 r0_0)) (k0_pay10 (View.ld x9 r0_0)) (k0_pay11 (View.ld x9 r0_0)) (k0_pay27 (View.ld x1 r0_12)) (k0_pay29 (k0_pay3 (View.ld x9 r0_0)) (k0_pay4 (View.ld x9 r0_0)) (k0_pay5 (View.ld x9 r0_0)) (k0_pay6 (View.ld x9 r0_0)) (View.ld x0 r0_11) (View.ld x1 r0_12) (View.ld x3 r0_3) (View.ld x5 r0_4)) (k0_pay30 (k0_pay3 (View.ld x9 r0_0)) (k0_pay4 (View.ld x9 r0_0)) (k0_pay5 (View.ld x9 r0_0)) (k0_pay6 (View.ld x9 r0_0)) (View.ld x0 r0_11) (View.ld x1 r0_12) (View.ld x3 r0_3) (View.ld x5 r0_4)) ((View.ld x4 r0_5)) (View.ld x6 r0_4) (View.ld x7 r0_6)) (View.ld x2 r0_13) (View.ld x8 r0_6)

/-- What the store of graph 3 of the point writes. -/
def storeVal3 (x0 : Vec F S8x256x16 .f32) (x1 : Vec F S8x256x256 .f32) (x2 : Vec F S8x256x32 .f32) (x3 : Vec F S16x128 .f32) (x4 : Vec F S32x128 .f32) (x5 : Vec F S64x32 .f32) (x6 : Vec F S64x32 .f32) (x7 : Vec F S32x32 .f32) (x8 : Vec F S32x32 .f32) (x9 : Vec F S64x16 .f32) : FVec F S1x256x32 .f32 :=
  k0_pay41 (k0_pay11 (View.ld x9 r0_0)) (k0_pay12 (View.ld x9 r0_0)) (k0_pay33 (View.ld x1 r0_15)) (k0_pay38 (k0_pay6 (View.ld x9 r0_0)) (k0_pay33 (View.ld x1 r0_15)) (k0_pay34 (View.ld x0 r0_14) (View.ld x3 r0_3)) (k0_pay35 (k0_pay3 (View.ld x9 r0_0)) (k0_pay4 (View.ld x9 r0_0)) (View.ld x0 r0_14) (View.ld x1 r0_15) (View.ld x3 r0_3) (View.ld x5 r0_4)) (k0_pay36 (k0_pay5 (View.ld x9 r0_0))) (View.ld x4 r0_5)) (k0_pay39 (k0_pay6 (View.ld x9 r0_0)) (k0_pay7 (View.ld x9 r0_0)) (k0_pay8 (View.ld x9 r0_0)) (k0_pay9 (View.ld x9 r0_0)) (k0_pay10 (View.ld x9 r0_0)) (k0_pay33 (View.ld x1 r0_15)) (k0_pay34 (View.ld x0 r0_14) (View.ld x3 r0_3)) (k0_pay35 (k0_pay3 (View.ld x9 r0_0)) (k0_pay4 (View.ld x9 r0_0)) (View.ld x0 r0_14) (View.ld x1 r0_15) (View.ld x3 r0_3) (View.ld x5 r0_4)) (k0_pay36 (k0_pay5 (View.ld x9 r0_0))) (View.ld x4 r0_5) (View.ld x6 r0_4)) (k0_pay40 (k0_pay6 (View.ld x9 r0_0)) (k0_pay7 (View.ld x9 r0_0)) (k0_pay8 (View.ld x9 r0_0)) (k0_pay9 (View.ld x9 r0_0)) (k0_pay10 (View.ld x9 r0_0)) (k0_pay33 (View.ld x1 r0_15)) (k0_pay34 (View.ld x0 r0_14) (View.ld x3 r0_3)) (k0_pay35 (k0_pay3 (View.ld x9 r0_0)) (k0_pay4 (View.ld x9 r0_0)) (View.ld x0 r0_14) (View.ld x1 r0_15) (View.ld x3 r0_3) (View.ld x5 r0_4)) (k0_pay36 (k0_pay5 (View.ld x9 r0_0))) (View.ld x4 r0_5) (View.ld x6 r0_4)) (View.ld x7 r0_6) (View.ld x2 r0_16) (View.ld x8 r0_6)

/-- What the store of graph 4 of the point writes. -/
def storeVal4 (x0 : Vec F S8x256x16 .f32) (x1 : Vec F S8x256x256 .f32) (x2 : Vec F S8x256x32 .f32) (x3 : Vec F S16x128 .f32) (x4 : Vec F S32x128 .f32) (x5 : Vec F S64x32 .f32) (x6 : Vec F S64x32 .f32) (x7 : Vec F S32x32 .f32) (x8 : Vec F S32x32 .f32) (x9 : Vec F S64x16 .f32) : FVec F S1x256x32 .f32 :=
  k0_pay49 (k0_pay48 (k0_pay8 (View.ld x9 r0_0)) (k0_pay9 (View.ld x9 r0_0)) (k0_pay10 (View.ld x9 r0_0)) (k0_pay11 (View.ld x9 r0_0)) (k0_pay12 (View.ld x9 r0_0)) (k0_pay42 (View.ld x1 r0_18)) (k0_pay46 (k0_pay3 (View.ld x9 r0_0)) (k0_pay4 (View.ld x9 r0_0)) (k0_pay5 (View.ld x9 r0_0)) (k0_pay6 (View.ld x9 r0_0)) (k0_pay42 (View.ld x1 r0_18)) (k0_pay43 (View.ld x0 r0_17) (View.ld x3 r0_3)) (k0_pay44 (View.ld x0 r0_17) (View.ld x3 r0_3)) (View.ld x5 r0_4) (View.ld x4 r0_5)) (k0_pay47 (k0_pay3 (View.ld x9 r0_0)) (k0_pay4 (View.ld x9 r0_0)) (k0_pay5 (View.ld x9 r0_0)) (k0_pay6 (View.ld x9 r0_0)) (k0_pay7 (View.ld x9 r0_0)) (k0_pay42 (View.ld x1 r0_18)) (k0_pay43 (View.ld x0 r0_17) (View.ld x3 r0_3)) (k0_pay44 (View.ld x0 r0_17) (View.ld x3 r0_3)) (View.ld x5 r0_4) (View.ld x4 r0_5)) (View.ld x6 r0_4) (View.ld x7 r0_6) (View.ld x2 r0_19) (View.ld x8 r0_6))

/-- What the store of graph 5 of the point writes. -/
def storeVal5 (x0 : Vec F S8x256x16 .f32) (x1 : Vec F S8x256x256 .f32) (x2 : Vec F S8x256x32 .f32) (x3 : Vec F S16x128 .f32) (x4 : Vec F S32x128 .f32) (x5 : Vec F S64x32 .f32) (x6 : Vec F S64x32 .f32) (x7 : Vec F S32x32 .f32) (x8 : Vec F S32x32 .f32) (x9 : Vec F S64x16 .f32) : FVec F S1x256x32 .f32 :=
  k0_pay56 (k0_pay12 (View.ld x9 r0_0)) (k0_pay54 (k0_pay7 (View.ld x9 r0_0)) (k0_pay8 (View.ld x9 r0_0)) (k0_pay9 (View.ld x9 r0_0)) (k0_pay10 (View.ld x9 r0_0)) (k0_pay50 (View.ld x1 r0_21)) (k0_pay52 (k0_pay3 (View.ld x9 r0_0)) (k0_pay4 (View.ld x9 r0_0)) (k0_pay5 (View.ld x9 r0_0)) (k0_pay6 (View.ld x9 r0_0)) (View.ld x0 r0_20) (View.ld x1 r0_21) (View.ld x3 r0_3) (View.ld x5 r0_4)) (k0_pay53 (k0_pay3 (View.ld x9 r0_0)) (k0_pay4 (View.ld x9 r0_0)) (k0_pay5 (View.ld x9 r0_0)) (k0_pay6 (View.ld x9 r0_0)) (View.ld x0 r0_20) (View.ld x1 r0_21) (View.ld x3 r0_3) (View.ld x5 r0_4)) (View.ld x4 r0_5) (View.ld x6 r0_4) (View.ld x7 r0_6)) (k0_pay55 (k0_pay11 (View.ld x9 r0_0))) (View.ld x2 r0_22) (View.ld x8 r0_6)

/-- What the store of graph 6 of the point writes. -/
def storeVal6 (x0 : Vec F S8x256x16 .f32) (x1 : Vec F S8x256x256 .f32) (x2 : Vec F S8x256x32 .f32) (x3 : Vec F S16x128 .f32) (x4 : Vec F S32x128 .f32) (x5 : Vec F S64x32 .f32) (x6 : Vec F S64x32 .f32) (x7 : Vec F S32x32 .f32) (x8 : Vec F S32x32 .f32) (x9 : Vec F S64x16 .f32) : FVec F S1x256x32 .f32 :=
  k0_pay63 (k0_pay10 (View.ld x9 r0_0)) (k0_pay11 (View.ld x9 r0_0)) (k0_pay12 (View.ld x9 r0_0)) (k0_pay57 (View.ld x1 r0_24)) (k0_pay61 (k0_pay4 (View.ld x9 r0_0)) (k0_pay5 (View.ld x9 r0_0)) (k0_pay6 (View.ld x9 r0_0)) (k0_pay57 (View.ld x1 r0_24)) (k0_pay58 (View.ld x0 r0_23) (View.ld x3 r0_3)) (k0_pay59 (k0_pay3 (View.ld x9 r0_0)) (View.ld x0 r0_23) (View.ld x1 r0_24) (View.ld x3 r0_3) (View.ld x5 r0_4)) (View.ld x4 r0_5)) (k0_pay62 (k0_pay4 (View.ld x9 r0_0)) (k0_pay5 (View.ld x9 r0_0)) (k0_pay6 (View.ld x9 r0_0)) (k0_pay7 (View.ld x9 r0_0)) (k0_pay8 (View.ld x9 r0_0)) (k0_pay9 (View.ld x9 r0_0)) (k0_pay57 (View.ld x1 r0_24)) (k0_pay58 (View.ld x0 r0_23) (View.ld x3 r0_3)) (k0_pay59 (k0_pay3 (View.ld x9 r0_0)) (View.ld x0 r0_23) (View.ld x1 r0_24) (View.ld x3 r0_3) (View.ld x5 r0_4)) (View.ld x4 r0_5) (View.ld x6 r0_4)) (View.ld x7 r0_6) (View.ld x2 r0_25) (View.ld x8 r0_6)

/-- What the store of graph 7 of the point writes. -/
def storeVal7 (x0 : Vec F S8x256x16 .f32) (x1 : Vec F S8x256x256 .f32) (x2 : Vec F S8x256x32 .f32) (x3 : Vec F S16x128 .f32) (x4 : Vec F S32x128 .f32) (x5 : Vec F S64x32 .f32) (x6 : Vec F S64x32 .f32) (x7 : Vec F S32x32 .f32) (x8 : Vec F S32x32 .f32) (x9 : Vec F S64x16 .f32) : FVec F S1x256x32 .f32 :=
  k0_pay1 (k0_pay12 (View.ld x9 r0_0)) (k0_pay71 (k0_pay8 (View.ld x9 r0_0)) (k0_pay9 (View.ld x9 r0_0)) (k0_pay10 (View.ld x9 r0_0)) (k0_pay11 (View.ld x9 r0_0)) (k0_pay65 (View.ld x1 r0_27)) (k0_pay68 (k0_pay3 (View.ld x9 r0_0)) (k0_pay4 (View.ld x9 r0_0)) (k0_pay5 (View.ld x9 r0_0)) (k0_pay6 (View.ld x9 r0_0)) (k0_pay64 (View.ld x0 r0_26)) (k0_pay65 (View.ld x1 r0_27)) (View.ld x3 r0_3) (View.ld x5 r0_4) (View.ld x4 r0_5)) (k0_pay69 (k0_pay3 (View.ld x9 r0_0)) (k0_pay4 (View.ld x9 r0_0)) (k0_pay5 (View.ld x9 r0_0)) (k0_pay6 (View.ld x9 r0_0)) (k0_pay7 (View.ld x9 r0_0)) (k0_pay64 (View.ld x0 r0_26)) (k0_pay65 (View.ld x1 r0_27)) (View.ld x3 r0_3) (View.ld x5 r0_4) (View.ld x4 r0_5)) (k0_pay70 (k0_pay3 (View.ld x9 r0_0)) (k0_pay4 (View.ld x9 r0_0)) (k0_pay5 (View.ld x9 r0_0)) (k0_pay6 (View.ld x9 r0_0)) (k0_pay7 (View.ld x9 r0_0)) (k0_pay64 (View.ld x0 r0_26)) (k0_pay65 (View.ld x1 r0_27)) (View.ld x3 r0_3) (View.ld x5 r0_4) (View.ld x4 r0_5)) ((constant S32x256 .f32 0x00000000#32)) (View.ld x6 r0_4) (View.ld x7 r0_6) (View.ld x2 r0_28)) (k0_pay72 (View.ld x8 r0_6)) ((constant S32x256 .f32 0x00000000#32))

/-- The output block after the body: its eight stores as pieces, last first. -/
def out10 (x0 : Vec F S8x256x16 .f32) (x1 : Vec F S8x256x256 .f32) (x2 : Vec F S8x256x32 .f32) (x3 : Vec F S16x128 .f32) (x4 : Vec F S32x128 .f32) (x5 : Vec F S64x32 .f32) (x6 : Vec F S64x32 .f32) (x7 : Vec F S32x32 .f32) (x8 : Vec F S32x32 .f32) (x9 : Vec F S64x16 .f32) : Vec F S8x256x32 .f32 :=
  View.canon [⟨r0_28, storeVal7 x0 x1 x2 x3 x4 x5 x6 x7 x8 x9⟩, ⟨r0_25, storeVal6 x0 x1 x2 x3 x4 x5 x6 x7 x8 x9⟩, ⟨r0_22, storeVal5 x0 x1 x2 x3 x4 x5 x6 x7 x8 x9⟩, ⟨r0_19, storeVal4 x0 x1 x2 x3 x4 x5 x6 x7 x8 x9⟩, ⟨r0_16, storeVal3 x0 x1 x2 x3 x4 x5 x6 x7 x8 x9⟩, ⟨r0_13, storeVal2 x0 x1 x2 x3 x4 x5 x6 x7 x8 x9⟩, ⟨r0_10, storeVal1 x0 x1 x2 x3 x4 x5 x6 x7 x8 x9⟩, ⟨r0_7, storeVal0 x0 x1 x2 x3 x4 x5 x6 x7 x8 x9⟩]

end Cert.Kernel.Smg

end
-- ==== Proof.KFrameB.lean ====
/-
  The frame of the transposed kernel's program: the host lines, then one launch over 32 grid points, each point running the
  body on the staged blocks of its eight graphs. The body only loads its ten input blocks through literal rectangles and
  stores eight slabs that tile its output block, so one symbolic run of the body gives the output block as a function of the
  input blocks (`out10`), and the launch's frame theorem carries that over every point: every execution terminates without
  a fault, the output array ends at what the points wrote back, and no argument array is changed.
-/
import proofs.«126640_g2000103277586728_pallasbulk_447_2_alg».proof.Proof.KEntryB
import proofs.«126640_g2000103277586728_pallasbulk_447_2_alg».proof.Proof.KTableB
import proofs.«126640_g2000103277586728_pallasbulk_447_2_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Smg

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The windows' blocks -/

/-- Window `w`'s block at point `t`, read off its array as the launch finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's staging buffer holds its block at every point, fetched there or not (where it is not fetched its block
    index has not moved), for any proof data over the launch-entry arrays whose body leaves the block in place. -/
theorem before0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's staging buffer holds its block at every point, fetched there or not (where it is not fetched its block
    index has not moved), for any proof data over the launch-entry arrays whose body leaves the block in place. -/
theorem before1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's staging buffer holds its block at every point, fetched there or not (where it is not fetched its block
    index has not moved), for any proof data over the launch-entry arrays whose body leaves the block in place. -/
theorem before2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's staging buffer holds its block at every point, fetched there or not (where it is not fetched its block
    index has not moved), for any proof data over the launch-entry arrays whose body leaves the block in place. -/
theorem before3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's staging buffer holds its block at every point, fetched there or not (where it is not fetched its block
    index has not moved), for any proof data over the launch-entry arrays whose body leaves the block in place. -/
theorem before4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's staging buffer holds its block at every point, fetched there or not (where it is not fetched its block
    index has not moved), for any proof data over the launch-entry arrays whose body leaves the block in place. -/
theorem before5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
/-- Input window 6's staging buffer holds its block at every point, fetched there or not (where it is not fetched its block
    index has not moved), for any proof data over the launch-entry arrays whose body leaves the block in place. -/
theorem before6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
/-- Input window 7's staging buffer holds its block at every point, fetched there or not (where it is not fetched its block
    index has not moved), for any proof data over the launch-entry arrays whose body leaves the block in place. -/
theorem before7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)
/-- Input window 8's staging buffer holds its block at every point, fetched there or not (where it is not fetched its block
    index has not moved), for any proof data over the launch-entry arrays whose body leaves the block in place. -/
theorem before8_of {c : Dev nD} (dat : Dat τ (Elt F) Unit ℕ (UR sig nD τ) ℕ cfg0 c) (hA : dat.A 8 = V m c (Pipeline.arrRef spec0 8))
    (hafter : ∀ t, dat.after 8 t = iblk m c 8 t) (t : Fin cfg0.N) (d) : dat.before 8 t d = iblk m c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)
/-- Input window 9's staging buffer holds its block at every point, fetched there or not (where it is not fetched its block
    index has not moved), for any proof data over the launch-entry arrays whose body leaves the block in place. -/
theorem before9_of {c : Dev nD} (dat : Dat τ (Elt F) Unit ℕ (UR sig nD τ) ℕ cfg0 c) (hA : dat.A 9 = V m c (Pipeline.arrRef spec0 9))
    (hafter : ∀ t, dat.after 9 t = iblk m c 9 t) (t : Fin cfg0.N) (d) : dat.before 9 t d = iblk m c 9 t :=
  (dat.before_in_eq_fetched 9 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- For any proof data over the launch-entry arrays, a run to the launch's frame post leaves the four argument arrays as
    launched: three are staged inputs the pipeline never writes back, the slab is staged by no window, and no host line
    writes any of them. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨((h c).1 0).trans (((dats 0 c).arrAt_in 0 rfl _).trans ((hA c 0).trans (V_main_arg0 m c))),
      ((h c).1 1).trans (((dats 0 c).arrAt_in 1 rfl _).trans ((hA c 1).trans (V_main_arg1 m c))),
      ((h c).2 main_arg2 (Pipeline.mem_restRefs_of main_arg2 (by decide) (by decide))).trans (V_main_arg2 m c),
      ((h c).1 2).trans (((dats 0 c).arrAt_in 2 rfl _).trans ((hA c 2).trans (V_main_arg3 m c)))⟩) h

/-! ## The body's triple -/

/-- The eight stores tile the output block, so they cover it. -/
theorem cover10 (p0 p1 p2 p3 p4 p5 p6 p7 : Vec F S1x256x32 .f32) (y : S8x256x32.Idx) :
    ∃ pc ∈ ([⟨r0_28, p7⟩, ⟨r0_25, p6⟩, ⟨r0_22, p5⟩, ⟨r0_19, p4⟩, ⟨r0_16, p3⟩, ⟨r0_13, p2⟩, ⟨r0_10, p1⟩, ⟨r0_7, p0⟩] : List (View.Piece (Elt F) S8x256x32 .f32)), y ∈ pc.1.set :=
  View.cover_of_tiled [⟨r0_28, p7⟩, ⟨r0_25, p6⟩, ⟨r0_22, p5⟩, ⟨r0_19, p4⟩, ⟨r0_16, p3⟩, ⟨r0_13, p2⟩, ⟨r0_10, p1⟩, ⟨r0_7, p0⟩] S1x256x32.size (by rfl) y

set_option maxHeartbeats 4000000 in
/-- The body on whole staging buffers, the inputs' at contents `xW` and the output's at anything, runs to a state holding the
    inputs' as they were and the output's at `out10` of the inputs'. -/
theorem sound_kernel (c : Dev nD) (E : Set ℕ) (i : grid0.Coords) (arg1 : Memref sig .tc .vmem S8x256x16 .f32) (harg1 : arg1.IsWhole) (arg2 : Memref sig .tc .vmem S8x256x256 .f32) (harg2 : arg2.IsWhole) (arg3 : Memref sig .tc .vmem S8x256x32 .f32) (harg3 : arg3.IsWhole) (arg4 : Memref sig .tc .vmem S16x128 .f32) (harg4 : arg4.IsWhole) (arg5 : Memref sig .tc .vmem S32x128 .f32) (harg5 : arg5.IsWhole) (arg6 : Memref sig .tc .vmem S64x32 .f32) (harg6 : arg6.IsWhole) (arg7 : Memref sig .tc .vmem S64x32 .f32) (harg7 : arg7.IsWhole) (arg8 : Memref sig .tc .vmem S32x32 .f32) (harg8 : arg8.IsWhole) (arg9 : Memref sig .tc .vmem S32x32 .f32) (harg9 : arg9.IsWhole) (arg10 : Memref sig .tc .vmem S64x16 .f32) (harg10 : arg10.IsWhole) (arg11 : Memref sig .tc .vmem S8x256x32 .f32) (harg11 : arg11.IsWhole)
    (x0 : Vec F S8x256x16 .f32) (x1 : Vec F S8x256x256 .f32) (x2 : Vec F S8x256x32 .f32) (x3 : Vec F S16x128 .f32) (x4 : Vec F S32x128 .f32) (x5 : Vec F S64x32 .f32) (x6 : Vec F S64x32 .f32) (x7 : Vec F S32x32 .f32) (x8 : Vec F S32x32 .f32) (x9 : Vec F S64x16 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ (∃ d, owns (c : Thread nD τ) arg11 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare (out10 x0 x1 x2 x3 x4 x5 x6 x7 x8 x9)) -∗ K ⟨⟩))
      ⊢ wp frame (wpE (defs₀ (F := F)) Variants.none c none) E (cc0__smg_body i arg1 harg1 arg2 harg2 arg3 harg3 arg4 harg4 arg5 harg5 arg6 harg6 arg7 harg7 arg8 harg8 arg9 harg9 arg10 harg10 arg11 harg11) K := by
  simp only [cc0__smg_body_eq_skeleton]; unfold cc0__smg_body_skel
  simp only [k0_part1_eq_skeleton]; unfold k0_part1_skel
  simp only [k0_part2_eq_skeleton]; unfold k0_part2_skel
  simp only [k0_part3_eq_skeleton]; unfold k0_part3_skel
  simp only [k0_part4_eq_skeleton]; unfold k0_part4_skel
  simp only [k0_part5_eq_skeleton]; unfold k0_part5_skel
  simp only [k0_part6_eq_skeleton]; unfold k0_part6_skel
  simp only [k0_part7_eq_skeleton]; unfold k0_part7_skel
  simp only [k0_part8_eq_skeleton]; unfold k0_part8_skel
  simp only [k0_part9_eq_skeleton]; unfold k0_part9_skel
  simp only [k0_part10_eq_skeleton]; unfold k0_part10_skel
  simp only [k0_part11_eq_skeleton]; unfold k0_part11_skel
  simp only [k0_part12_eq_skeleton]; unfold k0_part12_skel
  simp only [k0_part13_eq_skeleton]; unfold k0_part13_skel
  simp only [k0_part14_eq_skeleton]; unfold k0_part14_skel
  simp only [k0_part15_eq_skeleton]; unfold k0_part15_skel
  simp only [k0_part16_eq_skeleton]; unfold k0_part16_skel
  simp only [k0_part17_eq_skeleton]; unfold k0_part17_skel
  simp only [k0_part18_eq_skeleton]; unfold k0_part18_skel
  simp only [k0_part19_eq_skeleton]; unfold k0_part19_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, Hk⟩
  subst hf0 hf1 hf2 hf3 hf4 hf5 hf6 hf7 hf8 hf9
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  iexists _; isplitr
  swap; · iexact H10
  ipureintro
  try dsimp only
  exact View.read_writes_eq_canon _ _ _ (cover10 _ _ _ _ _ _ _ _)

/-! ## The pipeline's proof data -/

/-- The proof data on core `c`: the arrays as the launch finds them; after the body at point `t` each input's buffer at its
    block and the output's at `out10` of the input blocks; nothing else touched, nothing owed, full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => out10 (iblk m c 0 t) (iblk m c 1 t) (iblk m c 2 t) (iblk m c 3 t) (iblk m c 4 t) (iblk m c 5 t) (iblk m c 6 t) (iblk m c 7 t) (iblk m c 8 t) (iblk m c 9 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = iblk m c 6 t := by dsimp only [dats]
theorem after7 (c : Dev nD) (t : Fin cfg0.N) : (dats m 0 c).after 7 t = iblk m c 7 t := by dsimp only [dats]
theorem after8 (c : Dev nD) (t : Fin cfg0.N) : (dats m 0 c).after 8 t = iblk m c 8 t := by dsimp only [dats]
theorem after9 (c : Dev nD) (t : Fin cfg0.N) : (dats m 0 c).after 9 t = iblk m c 9 t := by dsimp only [dats]
theorem after10 (c : Dev nD) (t : Fin cfg0.N) : (dats m 0 c).after 10 t = out10 (iblk m c 0 t) (iblk m c 1 t) (iblk m c 2 t) (iblk m c 3 t) (iblk m c 4 t) (iblk m c 5 t) (iblk m c 6 t) (iblk m c 7 t) (iblk m c 8 t) (iblk m c 9 t) := by dsimp only [dats]

theorem before0 (c : Dev nD) (t : Fin cfg0.N) (d) : (dats m 0 c).before 0 t d = iblk m c 0 t :=
  before0_of m (dats m 0 c) (A_eq m c 0) (after0 m c) t d
theorem before1 (c : Dev nD) (t : Fin cfg0.N) (d) : (dats m 0 c).before 1 t d = iblk m c 1 t :=
  before1_of m (dats m 0 c) (A_eq m c 1) (after1 m c) t d
theorem before2 (c : Dev nD) (t : Fin cfg0.N) (d) : (dats m 0 c).before 2 t d = iblk m c 2 t :=
  before2_of m (dats m 0 c) (A_eq m c 2) (after2 m c) t d
theorem before3 (c : Dev nD) (t : Fin cfg0.N) (d) : (dats m 0 c).before 3 t d = iblk m c 3 t :=
  before3_of m (dats m 0 c) (A_eq m c 3) (after3 m c) t d
theorem before4 (c : Dev nD) (t : Fin cfg0.N) (d) : (dats m 0 c).before 4 t d = iblk m c 4 t :=
  before4_of m (dats m 0 c) (A_eq m c 4) (after4 m c) t d
theorem before5 (c : Dev nD) (t : Fin cfg0.N) (d) : (dats m 0 c).before 5 t d = iblk m c 5 t :=
  before5_of m (dats m 0 c) (A_eq m c 5) (after5 m c) t d
theorem before6 (c : Dev nD) (t : Fin cfg0.N) (d) : (dats m 0 c).before 6 t d = iblk m c 6 t :=
  before6_of m (dats m 0 c) (A_eq m c 6) (after6 m c) t d
theorem before7 (c : Dev nD) (t : Fin cfg0.N) (d) : (dats m 0 c).before 7 t d = iblk m c 7 t :=
  before7_of m (dats m 0 c) (A_eq m c 7) (after7 m c) t d
theorem before8 (c : Dev nD) (t : Fin cfg0.N) (d) : (dats m 0 c).before 8 t d = iblk m c 8 t :=
  before8_of m (dats m 0 c) (A_eq m c 8) (after8 m c) t d
theorem before9 (c : Dev nD) (t : Fin cfg0.N) (d) : (dats m 0 c).before 9 t d = iblk m c 9 t :=
  before9_of m (dats m 0 c) (A_eq m c 9) (after9 m c) t d

/-! ## The body obligation, at a generic point -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t))

/-- The body at any point: the inputs' buffers hold their blocks, so the body's triple applies; the rest passes through. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5, before6, before7, before8, before9]
  rw [show (dats m 0 c).Φ t.succ = (dats m 0 c).Φ t.castSucc from rfl,
    show (dats m 0 c).owesAt () t.succ = (dats m 0 c).owesAt () t.castSucc from rfl,
    after0, after1, after2, after3, after4, after5, after6, after7, after8, after9, after10]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  iapply (sound_kernel c Set.univ (grid0.coords t) _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexists _; iexact H10
  iintro ⟨H0, H1, H2, H3, H4, H5, H6, H7, H8, H9, H10⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexact H10

/-- The launch's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- From any memory with zero counters every weakly fair execution of the program terminates, and every final state has
    every array of the launch at what the proof data computes and every other buffer as the launch found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The frame: the program runs and its argument arrays end unchanged, at any float instance. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ (dats m) (A_eq m) (run_main m ρ)

end Cert.Kernel.Smg

end
-- ==== Proof.KEntry.lean ====
/-
  The idealized kernel's program up to its one launch: the buffers as the launch finds them, after the host lines that cut the
  parameter slab into the operands of the transposed dataflow (two stacked weight matrices, four plain ones, and a
  64 × 16 table of bias columns); none of those lines writes an argument array.
-/
import proofs.«126640_g2000103277586728_pallasbulk_447_2_alg».proof.Proof.Gen.KernelIdeal.Launch
import Idealize.ShloMosaic.Lib.Pipeline.FrameBody

set_option maxRecDepth 16384

noncomputable section

namespace Cert.KernelIdeal.Smg

open Cert.KernelIdeal Cert.KernelIdeal.Gen
open Idealize.ShloMosaic Idealize.ShloMosaic.TcCoe
open Idealize.SL Idealize.SL.Sem
open Idealize.ShloMosaic.Pipeline (Dat Cfg Window BodyObligation cellOf)

variable {F : FTy → Type} [FloatOps F]

variable (m : (ℓ : Loc nD τ sig) → Buf (Elt F) ℓ) (ρ : Dev nD → PrngReg)

/-- The host lines before the launch, stretch by stretch. -/
abbrev prefixOps : List (List (HloOp τ sig (Elt F))) := [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21]

/-- Core `c`'s buffers when the launch is entered: the launch memory after the host lines. -/
abbrev V (c : Dev nD) (b : Ref sig .tc) : Buf (Elt F) ((c : Thread nD τ).loc b) :=
  StableHlo.after (List.flatten (prefixOps (F := F))) (fun b => m (c, b)) b

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps0_3_fresh : (hostOps0_3 : List (HloOp τ sig (Elt F))).Forall fun op => op.fresh = ∅ := by
  simp only [List.Forall]; repeat' constructor
theorem hostOps0_4_fresh : (hostOps0_4 : List (HloOp τ sig (Elt F))).Forall fun op => op.fresh = ∅ := by
  simp only [List.Forall]; repeat' constructor
theorem hostOps0_5_fresh : (hostOps0_5 : List (HloOp τ sig (Elt F))).Forall fun op => op.fresh = ∅ := by
  simp only [List.Forall]; repeat' constructor
theorem hostOps0_6_fresh : (hostOps0_6 : List (HloOp τ sig (Elt F))).Forall fun op => op.fresh = ∅ := by
  simp only [List.Forall]; repeat' constructor
theorem hostOps0_7_fresh : (hostOps0_7 : List (HloOp τ sig (Elt F))).Forall fun op => op.fresh = ∅ := by
  simp only [List.Forall]; repeat' constructor
theorem hostOps0_8_fresh : (hostOps0_8 : List (HloOp τ sig (Elt F))).Forall fun op => op.fresh = ∅ := by
  simp only [List.Forall]; repeat' constructor
theorem hostOps0_9_fresh : (hostOps0_9 : List (HloOp τ sig (Elt F))).Forall fun op => op.fresh = ∅ := by
  simp only [List.Forall]; repeat' constructor
theorem hostOps0_10_fresh : (hostOps0_10 : List (HloOp τ sig (Elt F))).Forall fun op => op.fresh = ∅ := by
  simp only [List.Forall]; repeat' constructor
theorem hostOps0_11_fresh : (hostOps0_11 : List (HloOp τ sig (Elt F))).Forall fun op => op.fresh = ∅ := by
  simp only [List.Forall]; repeat' constructor
theorem hostOps0_12_fresh : (hostOps0_12 : List (HloOp τ sig (Elt F))).Forall fun op => op.fresh = ∅ := by
  simp only [List.Forall]; repeat' constructor
theorem hostOps0_13_fresh : (hostOps0_13 : List (HloOp τ sig (Elt F))).Forall fun op => op.fresh = ∅ := by
  simp only [List.Forall]; repeat' constructor
theorem hostOps0_14_fresh : (hostOps0_14 : List (HloOp τ sig (Elt F))).Forall fun op => op.fresh = ∅ := by
  simp only [List.Forall]; repeat' constructor
theorem hostOps0_15_fresh : (hostOps0_15 : List (HloOp τ sig (Elt F))).Forall fun op => op.fresh = ∅ := by
  simp only [List.Forall]; repeat' constructor
theorem hostOps0_16_fresh : (hostOps0_16 : List (HloOp τ sig (Elt F))).Forall fun op => op.fresh = ∅ := by
  simp only [List.Forall]; repeat' constructor
theorem hostOps0_17_fresh : (hostOps0_17 : List (HloOp τ sig (Elt F))).Forall fun op => op.fresh = ∅ := by
  simp only [List.Forall]; repeat' constructor
theorem hostOps0_18_fresh : (hostOps0_18 : List (HloOp τ sig (Elt F))).Forall fun op => op.fresh = ∅ := by
  simp only [List.Forall]; repeat' constructor
theorem hostOps0_19_fresh : (hostOps0_19 : List (HloOp τ sig (Elt F))).Forall fun op => op.fresh = ∅ := by
  simp only [List.Forall]; repeat' constructor
theorem hostOps0_20_fresh : (hostOps0_20 : List (HloOp τ sig (Elt F))).Forall fun op => op.fresh = ∅ := by
  simp only [List.Forall]; repeat' constructor
theorem hostOps0_21_fresh : (hostOps0_21 : List (HloOp τ sig (Elt F))).Forall fun op => op.fresh = ∅ := by
  simp only [List.Forall]; repeat' constructor

/-- The program up to the launch is those host lines. -/
theorem hmain (𝒱₀ : Variants) : Pipeline.HMain (Ix := Unit) (Name := ℕ) (U := UR sig nD τ) (Lvl := ℕ) cfgs 0 defs₀ 𝒱₀ m (main (F := F)) (V m) :=
  Pipeline.hmain_prefixes cfgs 0 defs₀ 𝒱₀ m main prefixOps (by simp only [List.Forall]; exact ⟨hostOps0_sub, hostOps0_1_sub, hostOps0_2_sub, hostOps0_3_sub, hostOps0_4_sub, hostOps0_5_sub, hostOps0_6_sub, hostOps0_7_sub, hostOps0_8_sub, hostOps0_9_sub, hostOps0_10_sub, hostOps0_11_sub, hostOps0_12_sub, hostOps0_13_sub, hostOps0_14_sub, hostOps0_15_sub, hostOps0_16_sub, hostOps0_17_sub, hostOps0_18_sub, hostOps0_19_sub, hostOps0_20_sub, hostOps0_21_sub⟩)
    (by simp only [List.Forall]; exact ⟨hostOps0_fresh, hostOps0_1_fresh, hostOps0_2_fresh, hostOps0_3_fresh, hostOps0_4_fresh, hostOps0_5_fresh, hostOps0_6_fresh, hostOps0_7_fresh, hostOps0_8_fresh, hostOps0_9_fresh, hostOps0_10_fresh, hostOps0_11_fresh, hostOps0_12_fresh, hostOps0_13_fresh, hostOps0_14_fresh, hostOps0_15_fresh, hostOps0_16_fresh, hostOps0_17_fresh, hostOps0_18_fresh, hostOps0_19_fresh, hostOps0_20_fresh, hostOps0_21_fresh⟩) main_chain

/-- No host line writes argument 0: the launch finds it as it was. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, List.flatten_cons, List.flatten_nil, List.append_nil, List.cons_append,
      List.nil_append, List.Forall, StableHlo.nullary_writes, StableHlo.unary_writes, StableHlo.binary_writes, StableHlo.nary_writes, StableHlo.reshape_writes, Finset.mem_singleton]
    repeat' apply And.intro
    all_goals exact StableHlo.devRef_ne_of_ne (by decide)))
/-- No host line writes argument 1: the launch finds it as it was. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, List.flatten_cons, List.flatten_nil, List.append_nil, List.cons_append,
      List.nil_append, List.Forall, StableHlo.nullary_writes, StableHlo.unary_writes, StableHlo.binary_writes, StableHlo.nary_writes, StableHlo.reshape_writes, Finset.mem_singleton]
    repeat' apply And.intro
    all_goals exact StableHlo.devRef_ne_of_ne (by decide)))
/-- No host line writes argument 2: the launch finds it as it was. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, List.flatten_cons, List.flatten_nil, List.append_nil, List.cons_append,
      List.nil_append, List.Forall, StableHlo.nullary_writes, StableHlo.unary_writes, StableHlo.binary_writes, StableHlo.nary_writes, StableHlo.reshape_writes, Finset.mem_singleton]
    repeat' apply And.intro
    all_goals exact StableHlo.devRef_ne_of_ne (by decide)))
/-- No host line writes argument 3: the launch finds it as it was. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, List.flatten_cons, List.flatten_nil, List.append_nil, List.cons_append,
      List.nil_append, List.Forall, StableHlo.nullary_writes, StableHlo.unary_writes, StableHlo.binary_writes, StableHlo.nary_writes, StableHlo.reshape_writes, Finset.mem_singleton]
    repeat' apply And.intro
    all_goals exact StableHlo.devRef_ne_of_ne (by decide)))

end Cert.KernelIdeal.Smg

end
-- ==== Proof.KTable.lean ====
/- The literal rectangles the body loads and stores through; what each of its eight stores writes, as the payload names applied to the
   loaded blocks; and the output block after the body as the canon of those stores, last first. -/
import proofs.«126640_g2000103277586728_pallasbulk_447_2_alg».proof.Proof.Gen.KernelIdeal.Skeleton
import Idealize.ShloMosaic.Lib.Pipeline.FrameBody

set_option maxRecDepth 16384

noncomputable section

namespace Cert.KernelIdeal.Smg

open Cert.KernelIdeal Cert.KernelIdeal.Gen
open Idealize.ShloMosaic Idealize.ShloMosaic.TcCoe Idealize.SL.Sem

variable {F : FTy → Type} [FloatOps F]

abbrev r0_0 : Rect S64x16 := Rect.unit (s := S64x16) ![0, 0] S64x16.size inb_S64x16_S64x16_0_0
abbrev r0_1 : Rect S8x256x16 := Rect.unit (s := S8x256x16) ![0, 0, 0] S1x256x16.size inb_S8x256x16_S1x256x16_0_0_0
abbrev r0_2 : Rect S8x256x256 := Rect.unit (s := S8x256x256) ![0, 0, 0] S1x256x256.size inb_S8x256x256_S1x256x256_0_0_0
abbrev r0_3 : Rect S16x128 := Rect.unit (s := S16x128) ![0, 0] S16x128.size inb_S16x128_S16x128_0_0
abbrev r0_4 : Rect S64x32 := Rect.unit (s := S64x32) ![0, 0] S64x32.size inb_S64x32_S64x32_0_0
abbrev r0_5 : Rect S32x128 := Rect.unit (s := S32x128) ![0, 0] S32x128.size inb_S32x128_S32x128_0_0
abbrev r0_6 : Rect S32x32 := Rect.unit (s := S32x32) ![0, 0] S32x32.size inb_S32x32_S32x32_0_0
abbrev r0_7 : Rect S8x256x32 := Rect.unit (s := S8x256x32) ![0, 0, 0] S1x256x32.size inb_S8x256x32_S1x256x32_0_0_0
abbrev r0_8 : Rect S8x256x16 := Rect.unit (s := S8x256x16) ![1, 0, 0] S1x256x16.size inb_S8x256x16_S1x256x16_1_0_0
abbrev r0_9 : Rect S8x256x256 := Rect.unit (s := S8x256x256) ![1, 0, 0] S1x256x256.size inb_S8x256x256_S1x256x256_1_0_0
abbrev r0_10 : Rect S8x256x32 := Rect.unit (s := S8x256x32) ![1, 0, 0] S1x256x32.size inb_S8x256x32_S1x256x32_1_0_0
abbrev r0_11 : Rect S8x256x16 := Rect.unit (s := S8x256x16) ![2, 0, 0] S1x256x16.size inb_S8x256x16_S1x256x16_2_0_0
abbrev r0_12 : Rect S8x256x256 := Rect.unit (s := S8x256x256) ![2, 0, 0] S1x256x256.size inb_S8x256x256_S1x256x256_2_0_0
abbrev r0_13 : Rect S8x256x32 := Rect.unit (s := S8x256x32) ![2, 0, 0] S1x256x32.size inb_S8x256x32_S1x256x32_2_0_0
abbrev r0_14 : Rect S8x256x16 := Rect.unit (s := S8x256x16) ![3, 0, 0] S1x256x16.size inb_S8x256x16_S1x256x16_3_0_0
abbrev r0_15 : Rect S8x256x256 := Rect.unit (s := S8x256x256) ![3, 0, 0] S1x256x256.size inb_S8x256x256_S1x256x256_3_0_0
abbrev r0_16 : Rect S8x256x32 := Rect.unit (s := S8x256x32) ![3, 0, 0] S1x256x32.size inb_S8x256x32_S1x256x32_3_0_0
abbrev r0_17 : Rect S8x256x16 := Rect.unit (s := S8x256x16) ![4, 0, 0] S1x256x16.size inb_S8x256x16_S1x256x16_4_0_0
abbrev r0_18 : Rect S8x256x256 := Rect.unit (s := S8x256x256) ![4, 0, 0] S1x256x256.size inb_S8x256x256_S1x256x256_4_0_0
abbrev r0_19 : Rect S8x256x32 := Rect.unit (s := S8x256x32) ![4, 0, 0] S1x256x32.size inb_S8x256x32_S1x256x32_4_0_0
abbrev r0_20 : Rect S8x256x16 := Rect.unit (s := S8x256x16) ![5, 0, 0] S1x256x16.size inb_S8x256x16_S1x256x16_5_0_0
abbrev r0_21 : Rect S8x256x256 := Rect.unit (s := S8x256x256) ![5, 0, 0] S1x256x256.size inb_S8x256x256_S1x256x256_5_0_0
abbrev r0_22 : Rect S8x256x32 := Rect.unit (s := S8x256x32) ![5, 0, 0] S1x256x32.size inb_S8x256x32_S1x256x32_5_0_0
abbrev r0_23 : Rect S8x256x16 := Rect.unit (s := S8x256x16) ![6, 0, 0] S1x256x16.size inb_S8x256x16_S1x256x16_6_0_0
abbrev r0_24 : Rect S8x256x256 := Rect.unit (s := S8x256x256) ![6, 0, 0] S1x256x256.size inb_S8x256x256_S1x256x256_6_0_0
abbrev r0_25 : Rect S8x256x32 := Rect.unit (s := S8x256x32) ![6, 0, 0] S1x256x32.size inb_S8x256x32_S1x256x32_6_0_0
abbrev r0_26 : Rect S8x256x16 := Rect.unit (s := S8x256x16) ![7, 0, 0] S1x256x16.size inb_S8x256x16_S1x256x16_7_0_0
abbrev r0_27 : Rect S8x256x256 := Rect.unit (s := S8x256x256) ![7, 0, 0] S1x256x256.size inb_S8x256x256_S1x256x256_7_0_0
abbrev r0_28 : Rect S8x256x32 := Rect.unit (s := S8x256x32) ![7, 0, 0] S1x256x32.size inb_S8x256x32_S1x256x32_7_0_0

/-- What the store of graph 0 of the point writes. -/
def storeVal0 (x0 : Vec F S8x256x16 .f32) (x1 : Vec F S8x256x256 .f32) (x2 : Vec F S8x256x32 .f32) (x3 : Vec F S16x128 .f32) (x4 : Vec F S32x128 .f32) (x5 : Vec F S64x32 .f32) (x6 : Vec F S64x32 .f32) (x7 : Vec F S32x32 .f32) (x8 : Vec F S32x32 .f32) (x9 : Vec F S64x16 .f32) : FVec F S1x256x32 .f32 :=
  k0_pay17 (k0_pay11 (View.ld x9 r0_0)) (k0_pay12 (View.ld x9 r0_0)) (k0_pay16 (k0_pay7 (View.ld x9 r0_0)) (k0_pay8 (View.ld x9 r0_0)) (k0_pay9 (View.ld x9 r0_0)) (k0_pay10 (View.ld x9 r0_0)) (k0_pay13 (View.ld x1 r0_2)) (k0_pay14 (View.ld x0 r0_1) (View.ld x3 r0_3)) (k0_pay15 (View.ld x9 r0_0) (View.ld x0 r0_1) (View.ld x1 r0_2) (View.ld x3 r0_3) (View.ld x5 r0_4)) (View.ld x4 r0_5) (View.ld x6 r0_4)) (View.ld x7 r0_6) (View.ld x2 r0_7) (View.ld x8 r0_6)

/-- What the store of graph 1 of the point writes. -/
def storeVal1 (x0 : Vec F S8x256x16 .f32) (x1 : Vec F S8x256x256 .f32) (x2 : Vec F S8x256x32 .f32) (x3 : Vec F S16x128 .f32) (x4 : Vec F S32x128 .f32) (x5 : Vec F S64x32 .f32) (x6 : Vec F S64x32 .f32) (x7 : Vec F S32x32 .f32) (x8 : Vec F S32x32 .f32) (x9 : Vec F S64x16 .f32) : FVec F S1x256x32 .f32 :=
  k0_pay26 (k0_pay8 (View.ld x9 r0_0)) (k0_pay9 (View.ld x9 r0_0)) (k0_pay10 (View.ld x9 r0_0)) (k0_pay11 (View.ld x9 r0_0)) (k0_pay12 (View.ld x9 r0_0)) (k0_pay18 (View.ld x1 r0_9)) (k0_pay24 (k0_pay4 (View.ld x9 r0_0)) (k0_pay5 (View.ld x9 r0_0)) (k0_pay6 (View.ld x9 r0_0)) (k0_pay18 (View.ld x1 r0_9)) (k0_pay19 (View.ld x0 r0_8) (View.ld x3 r0_3)) (k0_pay21 (k0_pay3 (View.ld x9 r0_0)) (View.ld x0 r0_8) (View.ld x1 r0_9) (View.ld x3 r0_3)) (k0_pay22 (k0_pay3 (View.ld x9 r0_0)) (View.ld x0 r0_8) (View.ld x3 r0_3)) (View.ld x5 r0_4) (View.ld x4 r0_5)) (k0_pay25 (k0_pay4 (View.ld x9 r0_0)) (k0_pay5 (View.ld x9 r0_0)) (k0_pay6 (View.ld x9 r0_0)) (k0_pay7 (View.ld x9 r0_0)) (k0_pay18 (View.ld x1 r0_9)) (k0_pay19 (View.ld x0 r0_8) (View.ld x3 r0_3)) (k0_pay21 (k0_pay3 (View.ld x9 r0_0)) (View.ld x0 r0_8) (View.ld x1 r0_9) (View.ld x3 r0_3)) (k0_pay22 (k0_pay3 (View.ld x9 r0_0)) (View.ld x0 r0_8) (View.ld x3 r0_3)) (View.ld x5 r0_4) (View.ld x4 r0_5) (View.ld x6 r0_4)) (View.ld x7 r0_6) (View.ld x2 r0_10) (View.ld x8 r0_6)

/-- What the store of graph 2 of the point writes. -/
def storeVal2 (x0 : Vec F S8x256x16 .f32) (x1 : Vec F S8x256x256 .f32) (x2 : Vec F S8x256x32 .f32) (x3 : Vec F S16x128 .f32) (x4 : Vec F S32x128 .f32) (x5 : Vec F S64x32 .f32) (x6 : Vec F S64x32 .f32) (x7 : Vec F S32x32 .f32) (x8 : Vec F S32x32 .f32) (x9 : Vec F S64x16 .f32) : FVec F S1x256x32 .f32 :=
  k0_pay32 (k0_pay12 (View.ld x9 r0_0)) (k0_pay31 (k0_pay7 (View.ld x9 r0_0)) (k0_pay8 (View.ld x9 r0_0)) (k0_pay9 (View.ld x9 r0_0)) (k0_pay10 (View.ld x9 r0_0)) (k0_pay11 (View.ld x9 r0_0)) (k0_pay27 (View.ld x1 r0_12)) (k0_pay29 (k0_pay3 (View.ld x9 r0_0)) (k0_pay4 (View.ld x9 r0_0)) (k0_pay5 (View.ld x9 r0_0)) (k0_pay6 (View.ld x9 r0_0)) (View.ld x0 r0_11) (View.ld x1 r0_12) (View.ld x3 r0_3) (View.ld x5 r0_4)) (k0_pay30 (k0_pay3 (View.ld x9 r0_0)) (k0_pay4 (View.ld x9 r0_0)) (k0_pay5 (View.ld x9 r0_0)) (k0_pay6 (View.ld x9 r0_0)) (View.ld x0 r0_11) (View.ld x1 r0_12) (View.ld x3 r0_3) (View.ld x5 r0_4)) ((View.ld x4 r0_5)) (View.ld x6 r0_4) (View.ld x7 r0_6)) (View.ld x2 r0_13) (View.ld x8 r0_6)

/-- What the store of graph 3 of the point writes. -/
def storeVal3 (x0 : Vec F S8x256x16 .f32) (x1 : Vec F S8x256x256 .f32) (x2 : Vec F S8x256x32 .f32) (x3 : Vec F S16x128 .f32) (x4 : Vec F S32x128 .f32) (x5 : Vec F S64x32 .f32) (x6 : Vec F S64x32 .f32) (x7 : Vec F S32x32 .f32) (x8 : Vec F S32x32 .f32) (x9 : Vec F S64x16 .f32) : FVec F S1x256x32 .f32 :=
  k0_pay41 (k0_pay11 (View.ld x9 r0_0)) (k0_pay12 (View.ld x9 r0_0)) (k0_pay33 (View.ld x1 r0_15)) (k0_pay38 (k0_pay6 (View.ld x9 r0_0)) (k0_pay33 (View.ld x1 r0_15)) (k0_pay34 (View.ld x0 r0_14) (View.ld x3 r0_3)) (k0_pay35 (k0_pay3 (View.ld x9 r0_0)) (k0_pay4 (View.ld x9 r0_0)) (View.ld x0 r0_14) (View.ld x1 r0_15) (View.ld x3 r0_3) (View.ld x5 r0_4)) (k0_pay36 (k0_pay5 (View.ld x9 r0_0))) (View.ld x4 r0_5)) (k0_pay39 (k0_pay6 (View.ld x9 r0_0)) (k0_pay7 (View.ld x9 r0_0)) (k0_pay8 (View.ld x9 r0_0)) (k0_pay9 (View.ld x9 r0_0)) (k0_pay10 (View.ld x9 r0_0)) (k0_pay33 (View.ld x1 r0_15)) (k0_pay34 (View.ld x0 r0_14) (View.ld x3 r0_3)) (k0_pay35 (k0_pay3 (View.ld x9 r0_0)) (k0_pay4 (View.ld x9 r0_0)) (View.ld x0 r0_14) (View.ld x1 r0_15) (View.ld x3 r0_3) (View.ld x5 r0_4)) (k0_pay36 (k0_pay5 (View.ld x9 r0_0))) (View.ld x4 r0_5) (View.ld x6 r0_4)) (k0_pay40 (k0_pay6 (View.ld x9 r0_0)) (k0_pay7 (View.ld x9 r0_0)) (k0_pay8 (View.ld x9 r0_0)) (k0_pay9 (View.ld x9 r0_0)) (k0_pay10 (View.ld x9 r0_0)) (k0_pay33 (View.ld x1 r0_15)) (k0_pay34 (View.ld x0 r0_14) (View.ld x3 r0_3)) (k0_pay35 (k0_pay3 (View.ld x9 r0_0)) (k0_pay4 (View.ld x9 r0_0)) (View.ld x0 r0_14) (View.ld x1 r0_15) (View.ld x3 r0_3) (View.ld x5 r0_4)) (k0_pay36 (k0_pay5 (View.ld x9 r0_0))) (View.ld x4 r0_5) (View.ld x6 r0_4)) (View.ld x7 r0_6) (View.ld x2 r0_16) (View.ld x8 r0_6)

/-- What the store of graph 4 of the point writes. -/
def storeVal4 (x0 : Vec F S8x256x16 .f32) (x1 : Vec F S8x256x256 .f32) (x2 : Vec F S8x256x32 .f32) (x3 : Vec F S16x128 .f32) (x4 : Vec F S32x128 .f32) (x5 : Vec F S64x32 .f32) (x6 : Vec F S64x32 .f32) (x7 : Vec F S32x32 .f32) (x8 : Vec F S32x32 .f32) (x9 : Vec F S64x16 .f32) : FVec F S1x256x32 .f32 :=
  k0_pay49 (k0_pay48 (k0_pay8 (View.ld x9 r0_0)) (k0_pay9 (View.ld x9 r0_0)) (k0_pay10 (View.ld x9 r0_0)) (k0_pay11 (View.ld x9 r0_0)) (k0_pay12 (View.ld x9 r0_0)) (k0_pay42 (View.ld x1 r0_18)) (k0_pay46 (k0_pay3 (View.ld x9 r0_0)) (k0_pay4 (View.ld x9 r0_0)) (k0_pay5 (View.ld x9 r0_0)) (k0_pay6 (View.ld x9 r0_0)) (k0_pay42 (View.ld x1 r0_18)) (k0_pay43 (View.ld x0 r0_17) (View.ld x3 r0_3)) (k0_pay44 (View.ld x0 r0_17) (View.ld x3 r0_3)) (View.ld x5 r0_4) (View.ld x4 r0_5)) (k0_pay47 (k0_pay3 (View.ld x9 r0_0)) (k0_pay4 (View.ld x9 r0_0)) (k0_pay5 (View.ld x9 r0_0)) (k0_pay6 (View.ld x9 r0_0)) (k0_pay7 (View.ld x9 r0_0)) (k0_pay42 (View.ld x1 r0_18)) (k0_pay43 (View.ld x0 r0_17) (View.ld x3 r0_3)) (k0_pay44 (View.ld x0 r0_17) (View.ld x3 r0_3)) (View.ld x5 r0_4) (View.ld x4 r0_5)) (View.ld x6 r0_4) (View.ld x7 r0_6) (View.ld x2 r0_19) (View.ld x8 r0_6))

/-- What the store of graph 5 of the point writes. -/
def storeVal5 (x0 : Vec F S8x256x16 .f32) (x1 : Vec F S8x256x256 .f32) (x2 : Vec F S8x256x32 .f32) (x3 : Vec F S16x128 .f32) (x4 : Vec F S32x128 .f32) (x5 : Vec F S64x32 .f32) (x6 : Vec F S64x32 .f32) (x7 : Vec F S32x32 .f32) (x8 : Vec F S32x32 .f32) (x9 : Vec F S64x16 .f32) : FVec F S1x256x32 .f32 :=
  k0_pay56 (k0_pay12 (View.ld x9 r0_0)) (k0_pay54 (k0_pay7 (View.ld x9 r0_0)) (k0_pay8 (View.ld x9 r0_0)) (k0_pay9 (View.ld x9 r0_0)) (k0_pay10 (View.ld x9 r0_0)) (k0_pay50 (View.ld x1 r0_21)) (k0_pay52 (k0_pay3 (View.ld x9 r0_0)) (k0_pay4 (View.ld x9 r0_0)) (k0_pay5 (View.ld x9 r0_0)) (k0_pay6 (View.ld x9 r0_0)) (View.ld x0 r0_20) (View.ld x1 r0_21) (View.ld x3 r0_3) (View.ld x5 r0_4)) (k0_pay53 (k0_pay3 (View.ld x9 r0_0)) (k0_pay4 (View.ld x9 r0_0)) (k0_pay5 (View.ld x9 r0_0)) (k0_pay6 (View.ld x9 r0_0)) (View.ld x0 r0_20) (View.ld x1 r0_21) (View.ld x3 r0_3) (View.ld x5 r0_4)) (View.ld x4 r0_5) (View.ld x6 r0_4) (View.ld x7 r0_6)) (k0_pay55 (k0_pay11 (View.ld x9 r0_0))) (View.ld x2 r0_22) (View.ld x8 r0_6)

/-- What the store of graph 6 of the point writes. -/
def storeVal6 (x0 : Vec F S8x256x16 .f32) (x1 : Vec F S8x256x256 .f32) (x2 : Vec F S8x256x32 .f32) (x3 : Vec F S16x128 .f32) (x4 : Vec F S32x128 .f32) (x5 : Vec F S64x32 .f32) (x6 : Vec F S64x32 .f32) (x7 : Vec F S32x32 .f32) (x8 : Vec F S32x32 .f32) (x9 : Vec F S64x16 .f32) : FVec F S1x256x32 .f32 :=
  k0_pay63 (k0_pay10 (View.ld x9 r0_0)) (k0_pay11 (View.ld x9 r0_0)) (k0_pay12 (View.ld x9 r0_0)) (k0_pay57 (View.ld x1 r0_24)) (k0_pay61 (k0_pay4 (View.ld x9 r0_0)) (k0_pay5 (View.ld x9 r0_0)) (k0_pay6 (View.ld x9 r0_0)) (k0_pay57 (View.ld x1 r0_24)) (k0_pay58 (View.ld x0 r0_23) (View.ld x3 r0_3)) (k0_pay59 (k0_pay3 (View.ld x9 r0_0)) (View.ld x0 r0_23) (View.ld x1 r0_24) (View.ld x3 r0_3) (View.ld x5 r0_4)) (View.ld x4 r0_5)) (k0_pay62 (k0_pay4 (View.ld x9 r0_0)) (k0_pay5 (View.ld x9 r0_0)) (k0_pay6 (View.ld x9 r0_0)) (k0_pay7 (View.ld x9 r0_0)) (k0_pay8 (View.ld x9 r0_0)) (k0_pay9 (View.ld x9 r0_0)) (k0_pay57 (View.ld x1 r0_24)) (k0_pay58 (View.ld x0 r0_23) (View.ld x3 r0_3)) (k0_pay59 (k0_pay3 (View.ld x9 r0_0)) (View.ld x0 r0_23) (View.ld x1 r0_24) (View.ld x3 r0_3) (View.ld x5 r0_4)) (View.ld x4 r0_5) (View.ld x6 r0_4)) (View.ld x7 r0_6) (View.ld x2 r0_25) (View.ld x8 r0_6)

/-- What the store of graph 7 of the point writes. -/
def storeVal7 (x0 : Vec F S8x256x16 .f32) (x1 : Vec F S8x256x256 .f32) (x2 : Vec F S8x256x32 .f32) (x3 : Vec F S16x128 .f32) (x4 : Vec F S32x128 .f32) (x5 : Vec F S64x32 .f32) (x6 : Vec F S64x32 .f32) (x7 : Vec F S32x32 .f32) (x8 : Vec F S32x32 .f32) (x9 : Vec F S64x16 .f32) : FVec F S1x256x32 .f32 :=
  k0_pay1 (k0_pay12 (View.ld x9 r0_0)) (k0_pay71 (k0_pay8 (View.ld x9 r0_0)) (k0_pay9 (View.ld x9 r0_0)) (k0_pay10 (View.ld x9 r0_0)) (k0_pay11 (View.ld x9 r0_0)) (k0_pay65 (View.ld x1 r0_27)) (k0_pay68 (k0_pay3 (View.ld x9 r0_0)) (k0_pay4 (View.ld x9 r0_0)) (k0_pay5 (View.ld x9 r0_0)) (k0_pay6 (View.ld x9 r0_0)) (k0_pay64 (View.ld x0 r0_26)) (k0_pay65 (View.ld x1 r0_27)) (View.ld x3 r0_3) (View.ld x5 r0_4) (View.ld x4 r0_5)) (k0_pay69 (k0_pay3 (View.ld x9 r0_0)) (k0_pay4 (View.ld x9 r0_0)) (k0_pay5 (View.ld x9 r0_0)) (k0_pay6 (View.ld x9 r0_0)) (k0_pay7 (View.ld x9 r0_0)) (k0_pay64 (View.ld x0 r0_26)) (k0_pay65 (View.ld x1 r0_27)) (View.ld x3 r0_3) (View.ld x5 r0_4) (View.ld x4 r0_5)) (k0_pay70 (k0_pay3 (View.ld x9 r0_0)) (k0_pay4 (View.ld x9 r0_0)) (k0_pay5 (View.ld x9 r0_0)) (k0_pay6 (View.ld x9 r0_0)) (k0_pay7 (View.ld x9 r0_0)) (k0_pay64 (View.ld x0 r0_26)) (k0_pay65 (View.ld x1 r0_27)) (View.ld x3 r0_3) (View.ld x5 r0_4) (View.ld x4 r0_5)) ((constant S32x256 .f32 0x00000000#32)) (View.ld x6 r0_4) (View.ld x7 r0_6) (View.ld x2 r0_28)) (k0_pay72 (View.ld x8 r0_6)) ((constant S32x256 .f32 0x00000000#32))

/-- The output block after the body: its eight stores as pieces, last first. -/
def out10 (x0 : Vec F S8x256x16 .f32) (x1 : Vec F S8x256x256 .f32) (x2 : Vec F S8x256x32 .f32) (x3 : Vec F S16x128 .f32) (x4 : Vec F S32x128 .f32) (x5 : Vec F S64x32 .f32) (x6 : Vec F S64x32 .f32) (x7 : Vec F S32x32 .f32) (x8 : Vec F S32x32 .f32) (x9 : Vec F S64x16 .f32) : Vec F S8x256x32 .f32 :=
  View.canon [⟨r0_28, storeVal7 x0 x1 x2 x3 x4 x5 x6 x7 x8 x9⟩, ⟨r0_25, storeVal6 x0 x1 x2 x3 x4 x5 x6 x7 x8 x9⟩, ⟨r0_22, storeVal5 x0 x1 x2 x3 x4 x5 x6 x7 x8 x9⟩, ⟨r0_19, storeVal4 x0 x1 x2 x3 x4 x5 x6 x7 x8 x9⟩, ⟨r0_16, storeVal3 x0 x1 x2 x3 x4 x5 x6 x7 x8 x9⟩, ⟨r0_13, storeVal2 x0 x1 x2 x3 x4 x5 x6 x7 x8 x9⟩, ⟨r0_10, storeVal1 x0 x1 x2 x3 x4 x5 x6 x7 x8 x9⟩, ⟨r0_7, storeVal0 x0 x1 x2 x3 x4 x5 x6 x7 x8 x9⟩]

end Cert.KernelIdeal.Smg

end
-- ==== Proof.KFrame.lean ====
/-
  The frame of the transposed kernel's program: the host lines, then one launch over 32 grid points, each point running the
  body on the staged blocks of its eight graphs. The body only loads its ten input blocks through literal rectangles and
  stores eight slabs that tile its output block, so one symbolic run of the body gives the output block as a function of the
  input blocks (`out10`), and the launch's frame theorem carries that over every point: every execution terminates without
  a fault, the output array ends at what the points wrote back, and no argument array is changed.
-/
import proofs.«126640_g2000103277586728_pallasbulk_447_2_alg».proof.Proof.KEntry
import proofs.«126640_g2000103277586728_pallasbulk_447_2_alg».proof.Proof.KTable
import proofs.«126640_g2000103277586728_pallasbulk_447_2_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Smg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The windows' blocks -/

/-- Window `w`'s block at point `t`, read off its array as the launch finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's staging buffer holds its block at every point, fetched there or not (where it is not fetched its block
    index has not moved), for any proof data over the launch-entry arrays whose body leaves the block in place. -/
theorem before0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's staging buffer holds its block at every point, fetched there or not (where it is not fetched its block
    index has not moved), for any proof data over the launch-entry arrays whose body leaves the block in place. -/
theorem before1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's staging buffer holds its block at every point, fetched there or not (where it is not fetched its block
    index has not moved), for any proof data over the launch-entry arrays whose body leaves the block in place. -/
theorem before2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's staging buffer holds its block at every point, fetched there or not (where it is not fetched its block
    index has not moved), for any proof data over the launch-entry arrays whose body leaves the block in place. -/
theorem before3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's staging buffer holds its block at every point, fetched there or not (where it is not fetched its block
    index has not moved), for any proof data over the launch-entry arrays whose body leaves the block in place. -/
theorem before4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's staging buffer holds its block at every point, fetched there or not (where it is not fetched its block
    index has not moved), for any proof data over the launch-entry arrays whose body leaves the block in place. -/
theorem before5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
/-- Input window 6's staging buffer holds its block at every point, fetched there or not (where it is not fetched its block
    index has not moved), for any proof data over the launch-entry arrays whose body leaves the block in place. -/
theorem before6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
/-- Input window 7's staging buffer holds its block at every point, fetched there or not (where it is not fetched its block
    index has not moved), for any proof data over the launch-entry arrays whose body leaves the block in place. -/
theorem before7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)
/-- Input window 8's staging buffer holds its block at every point, fetched there or not (where it is not fetched its block
    index has not moved), for any proof data over the launch-entry arrays whose body leaves the block in place. -/
theorem before8_of {c : Dev nD} (dat : Dat τ (Elt F) Unit ℕ (UR sig nD τ) ℕ cfg0 c) (hA : dat.A 8 = V m c (Pipeline.arrRef spec0 8))
    (hafter : ∀ t, dat.after 8 t = iblk m c 8 t) (t : Fin cfg0.N) (d) : dat.before 8 t d = iblk m c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)
/-- Input window 9's staging buffer holds its block at every point, fetched there or not (where it is not fetched its block
    index has not moved), for any proof data over the launch-entry arrays whose body leaves the block in place. -/
theorem before9_of {c : Dev nD} (dat : Dat τ (Elt F) Unit ℕ (UR sig nD τ) ℕ cfg0 c) (hA : dat.A 9 = V m c (Pipeline.arrRef spec0 9))
    (hafter : ∀ t, dat.after 9 t = iblk m c 9 t) (t : Fin cfg0.N) (d) : dat.before 9 t d = iblk m c 9 t :=
  (dat.before_in_eq_fetched 9 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- For any proof data over the launch-entry arrays, a run to the launch's frame post leaves the four argument arrays as
    launched: three are staged inputs the pipeline never writes back, the slab is staged by no window, and no host line
    writes any of them. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨((h c).1 0).trans (((dats 0 c).arrAt_in 0 rfl _).trans ((hA c 0).trans (V_main_arg0 m c))),
      ((h c).1 1).trans (((dats 0 c).arrAt_in 1 rfl _).trans ((hA c 1).trans (V_main_arg1 m c))),
      ((h c).2 main_arg2 (Pipeline.mem_restRefs_of main_arg2 (by decide) (by decide))).trans (V_main_arg2 m c),
      ((h c).1 2).trans (((dats 0 c).arrAt_in 2 rfl _).trans ((hA c 2).trans (V_main_arg3 m c)))⟩) h

/-! ## The body's triple -/

/-- The eight stores tile the output block, so they cover it. -/
theorem cover10 (p0 p1 p2 p3 p4 p5 p6 p7 : Vec F S1x256x32 .f32) (y : S8x256x32.Idx) :
    ∃ pc ∈ ([⟨r0_28, p7⟩, ⟨r0_25, p6⟩, ⟨r0_22, p5⟩, ⟨r0_19, p4⟩, ⟨r0_16, p3⟩, ⟨r0_13, p2⟩, ⟨r0_10, p1⟩, ⟨r0_7, p0⟩] : List (View.Piece (Elt F) S8x256x32 .f32)), y ∈ pc.1.set :=
  View.cover_of_tiled [⟨r0_28, p7⟩, ⟨r0_25, p6⟩, ⟨r0_22, p5⟩, ⟨r0_19, p4⟩, ⟨r0_16, p3⟩, ⟨r0_13, p2⟩, ⟨r0_10, p1⟩, ⟨r0_7, p0⟩] S1x256x32.size (by rfl) y

set_option maxHeartbeats 4000000 in
/-- The body on whole staging buffers, the inputs' at contents `xW` and the output's at anything, runs to a state holding the
    inputs' as they were and the output's at `out10` of the inputs'. -/
theorem sound_kernel (c : Dev nD) (E : Set ℕ) (i : grid0.Coords) (arg1 : Memref sig .tc .vmem S8x256x16 .f32) (harg1 : arg1.IsWhole) (arg2 : Memref sig .tc .vmem S8x256x256 .f32) (harg2 : arg2.IsWhole) (arg3 : Memref sig .tc .vmem S8x256x32 .f32) (harg3 : arg3.IsWhole) (arg4 : Memref sig .tc .vmem S16x128 .f32) (harg4 : arg4.IsWhole) (arg5 : Memref sig .tc .vmem S32x128 .f32) (harg5 : arg5.IsWhole) (arg6 : Memref sig .tc .vmem S64x32 .f32) (harg6 : arg6.IsWhole) (arg7 : Memref sig .tc .vmem S64x32 .f32) (harg7 : arg7.IsWhole) (arg8 : Memref sig .tc .vmem S32x32 .f32) (harg8 : arg8.IsWhole) (arg9 : Memref sig .tc .vmem S32x32 .f32) (harg9 : arg9.IsWhole) (arg10 : Memref sig .tc .vmem S64x16 .f32) (harg10 : arg10.IsWhole) (arg11 : Memref sig .tc .vmem S8x256x32 .f32) (harg11 : arg11.IsWhole)
    (x0 : Vec F S8x256x16 .f32) (x1 : Vec F S8x256x256 .f32) (x2 : Vec F S8x256x32 .f32) (x3 : Vec F S16x128 .f32) (x4 : Vec F S32x128 .f32) (x5 : Vec F S64x32 .f32) (x6 : Vec F S64x32 .f32) (x7 : Vec F S32x32 .f32) (x8 : Vec F S32x32 .f32) (x9 : Vec F S64x16 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ (∃ d, owns (c : Thread nD τ) arg11 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare (out10 x0 x1 x2 x3 x4 x5 x6 x7 x8 x9)) -∗ K ⟨⟩))
      ⊢ wp frame (wpE (defs₀ (F := F)) Variants.none c none) E (cc0__smg_body i arg1 harg1 arg2 harg2 arg3 harg3 arg4 harg4 arg5 harg5 arg6 harg6 arg7 harg7 arg8 harg8 arg9 harg9 arg10 harg10 arg11 harg11) K := by
  simp only [cc0__smg_body_eq_skeleton]; unfold cc0__smg_body_skel
  simp only [k0_part1_eq_skeleton]; unfold k0_part1_skel
  simp only [k0_part2_eq_skeleton]; unfold k0_part2_skel
  simp only [k0_part3_eq_skeleton]; unfold k0_part3_skel
  simp only [k0_part4_eq_skeleton]; unfold k0_part4_skel
  simp only [k0_part5_eq_skeleton]; unfold k0_part5_skel
  simp only [k0_part6_eq_skeleton]; unfold k0_part6_skel
  simp only [k0_part7_eq_skeleton]; unfold k0_part7_skel
  simp only [k0_part8_eq_skeleton]; unfold k0_part8_skel
  simp only [k0_part9_eq_skeleton]; unfold k0_part9_skel
  simp only [k0_part10_eq_skeleton]; unfold k0_part10_skel
  simp only [k0_part11_eq_skeleton]; unfold k0_part11_skel
  simp only [k0_part12_eq_skeleton]; unfold k0_part12_skel
  simp only [k0_part13_eq_skeleton]; unfold k0_part13_skel
  simp only [k0_part14_eq_skeleton]; unfold k0_part14_skel
  simp only [k0_part15_eq_skeleton]; unfold k0_part15_skel
  simp only [k0_part16_eq_skeleton]; unfold k0_part16_skel
  simp only [k0_part17_eq_skeleton]; unfold k0_part17_skel
  simp only [k0_part18_eq_skeleton]; unfold k0_part18_skel
  simp only [k0_part19_eq_skeleton]; unfold k0_part19_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, Hk⟩
  subst hf0 hf1 hf2 hf3 hf4 hf5 hf6 hf7 hf8 hf9
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  iexists _; isplitr
  swap; · iexact H10
  ipureintro
  try dsimp only
  exact View.read_writes_eq_canon _ _ _ (cover10 _ _ _ _ _ _ _ _)

/-! ## The pipeline's proof data -/

/-- The proof data on core `c`: the arrays as the launch finds them; after the body at point `t` each input's buffer at its
    block and the output's at `out10` of the input blocks; nothing else touched, nothing owed, full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => out10 (iblk m c 0 t) (iblk m c 1 t) (iblk m c 2 t) (iblk m c 3 t) (iblk m c 4 t) (iblk m c 5 t) (iblk m c 6 t) (iblk m c 7 t) (iblk m c 8 t) (iblk m c 9 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = iblk m c 6 t := by dsimp only [dats]
theorem after7 (c : Dev nD) (t : Fin cfg0.N) : (dats m 0 c).after 7 t = iblk m c 7 t := by dsimp only [dats]
theorem after8 (c : Dev nD) (t : Fin cfg0.N) : (dats m 0 c).after 8 t = iblk m c 8 t := by dsimp only [dats]
theorem after9 (c : Dev nD) (t : Fin cfg0.N) : (dats m 0 c).after 9 t = iblk m c 9 t := by dsimp only [dats]
theorem after10 (c : Dev nD) (t : Fin cfg0.N) : (dats m 0 c).after 10 t = out10 (iblk m c 0 t) (iblk m c 1 t) (iblk m c 2 t) (iblk m c 3 t) (iblk m c 4 t) (iblk m c 5 t) (iblk m c 6 t) (iblk m c 7 t) (iblk m c 8 t) (iblk m c 9 t) := by dsimp only [dats]

theorem before0 (c : Dev nD) (t : Fin cfg0.N) (d) : (dats m 0 c).before 0 t d = iblk m c 0 t :=
  before0_of m (dats m 0 c) (A_eq m c 0) (after0 m c) t d
theorem before1 (c : Dev nD) (t : Fin cfg0.N) (d) : (dats m 0 c).before 1 t d = iblk m c 1 t :=
  before1_of m (dats m 0 c) (A_eq m c 1) (after1 m c) t d
theorem before2 (c : Dev nD) (t : Fin cfg0.N) (d) : (dats m 0 c).before 2 t d = iblk m c 2 t :=
  before2_of m (dats m 0 c) (A_eq m c 2) (after2 m c) t d
theorem before3 (c : Dev nD) (t : Fin cfg0.N) (d) : (dats m 0 c).before 3 t d = iblk m c 3 t :=
  before3_of m (dats m 0 c) (A_eq m c 3) (after3 m c) t d
theorem before4 (c : Dev nD) (t : Fin cfg0.N) (d) : (dats m 0 c).before 4 t d = iblk m c 4 t :=
  before4_of m (dats m 0 c) (A_eq m c 4) (after4 m c) t d
theorem before5 (c : Dev nD) (t : Fin cfg0.N) (d) : (dats m 0 c).before 5 t d = iblk m c 5 t :=
  before5_of m (dats m 0 c) (A_eq m c 5) (after5 m c) t d
theorem before6 (c : Dev nD) (t : Fin cfg0.N) (d) : (dats m 0 c).before 6 t d = iblk m c 6 t :=
  before6_of m (dats m 0 c) (A_eq m c 6) (after6 m c) t d
theorem before7 (c : Dev nD) (t : Fin cfg0.N) (d) : (dats m 0 c).before 7 t d = iblk m c 7 t :=
  before7_of m (dats m 0 c) (A_eq m c 7) (after7 m c) t d
theorem before8 (c : Dev nD) (t : Fin cfg0.N) (d) : (dats m 0 c).before 8 t d = iblk m c 8 t :=
  before8_of m (dats m 0 c) (A_eq m c 8) (after8 m c) t d
theorem before9 (c : Dev nD) (t : Fin cfg0.N) (d) : (dats m 0 c).before 9 t d = iblk m c 9 t :=
  before9_of m (dats m 0 c) (A_eq m c 9) (after9 m c) t d

/-! ## The body obligation, at a generic point -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t))

/-- The body at any point: the inputs' buffers hold their blocks, so the body's triple applies; the rest passes through. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5, before6, before7, before8, before9]
  rw [show (dats m 0 c).Φ t.succ = (dats m 0 c).Φ t.castSucc from rfl,
    show (dats m 0 c).owesAt () t.succ = (dats m 0 c).owesAt () t.castSucc from rfl,
    after0, after1, after2, after3, after4, after5, after6, after7, after8, after9, after10]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  iapply (sound_kernel c Set.univ (grid0.coords t) _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexists _; iexact H10
  iintro ⟨H0, H1, H2, H3, H4, H5, H6, H7, H8, H9, H10⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexact H10

/-- The launch's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- From any memory with zero counters every weakly fair execution of the program terminates, and every final state has
    every array of the launch at what the proof data computes and every other buffer as the launch found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The frame: the program runs and its argument arrays end unchanged, at any float instance. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ (dats m) (A_eq m) (run_main m ρ)

end Cert.KernelIdeal.Smg

end
-- ==== Proof.KGraph.lean ====
/-
  One graph's computation in the transposed layout, as ONE function of its blocks: the table of bias columns, the graph's
  features, adjacency and keep-scale, and the six weight matrices. Each of the eight stores of a grid point writes this
  function of its own graph's blocks: the eight unrolled copies of the loop body are the same operations.
-/
import proofs.«126640_g2000103277586728_pallasbulk_447_2_alg».proof.Proof.KTable

set_option maxRecDepth 65536

noncomputable section

namespace Cert.KernelIdeal.Smg

open Cert.KernelIdeal Cert.KernelIdeal.Gen
open Idealize.ShloMosaic Idealize.ShloMosaic.TcCoe Idealize.SL.Sem

variable {F : FTy → Type} [FloatOps F]

/-- One graph's output block (nodes × 32, with a unit axis in front) from its input blocks and the parameters. -/
def graphT (aux : Vec F S64x16 .f32) (xg : Vec F S1x256x16 .f32) (Ag : Vec F S1x256x256 .f32) (W0 : Vec F S16x128 .f32)
    (M10 : Vec F S64x32 .f32) (W1 : Vec F S32x128 .f32) (M11 : Vec F S64x32 .f32) (P1 : Vec F S32x32 .f32)
    (dg : Vec F S1x256x32 .f32) (P2 : Vec F S32x32 .f32) : FVec F S1x256x32 .f32 :=
  k0_pay17 (k0_pay11 aux) (k0_pay12 aux)
    (k0_pay16 (k0_pay7 aux) (k0_pay8 aux) (k0_pay9 aux) (k0_pay10 aux) (k0_pay13 Ag) (k0_pay14 xg W0)
      (k0_pay15 aux xg Ag W0 M10) W1 M11)
    P1 dg P2

section
variable (x0 : Vec F S8x256x16 .f32) (x1 : Vec F S8x256x256 .f32) (x2 : Vec F S8x256x32 .f32) (x3 : Vec F S16x128 .f32)
  (x4 : Vec F S32x128 .f32) (x5 : Vec F S64x32 .f32) (x6 : Vec F S64x32 .f32) (x7 : Vec F S32x32 .f32)
  (x8 : Vec F S32x32 .f32) (x9 : Vec F S64x16 .f32)

/-- The store of graph 0 writes `graphT` of graph 0's blocks. -/
theorem storeVal0_eq : storeVal0 x0 x1 x2 x3 x4 x5 x6 x7 x8 x9
    = graphT (View.ld x9 r0_0) (View.ld x0 r0_1) (View.ld x1 r0_2) (View.ld x3 r0_3) (View.ld x5 r0_4) (View.ld x4 r0_5)
        (View.ld x6 r0_4) (View.ld x7 r0_6) (View.ld x2 r0_7) (View.ld x8 r0_6) := rfl
/-- The store of graph 1 writes `graphT` of graph 1's blocks. -/
theorem storeVal1_eq : storeVal1 x0 x1 x2 x3 x4 x5 x6 x7 x8 x9
    = graphT (View.ld x9 r0_0) (View.ld x0 r0_8) (View.ld x1 r0_9) (View.ld x3 r0_3) (View.ld x5 r0_4) (View.ld x4 r0_5)
        (View.ld x6 r0_4) (View.ld x7 r0_6) (View.ld x2 r0_10) (View.ld x8 r0_6) := rfl
/-- The store of graph 2 writes `graphT` of graph 2's blocks. -/
theorem storeVal2_eq : storeVal2 x0 x1 x2 x3 x4 x5 x6 x7 x8 x9
    = graphT (View.ld x9 r0_0) (View.ld x0 r0_11) (View.ld x1 r0_12) (View.ld x3 r0_3) (View.ld x5 r0_4) (View.ld x4 r0_5)
        (View.ld x6 r0_4) (View.ld x7 r0_6) (View.ld x2 r0_13) (View.ld x8 r0_6) := rfl
/-- The store of graph 3 writes `graphT` of graph 3's blocks. -/
theorem storeVal3_eq : storeVal3 x0 x1 x2 x3 x4 x5 x6 x7 x8 x9
    = graphT (View.ld x9 r0_0) (View.ld x0 r0_14) (View.ld x1 r0_15) (View.ld x3 r0_3) (View.ld x5 r0_4) (View.ld x4 r0_5)
        (View.ld x6 r0_4) (View.ld x7 r0_6) (View.ld x2 r0_16) (View.ld x8 r0_6) := rfl
/-- The store of graph 4 writes `graphT` of graph 4's blocks. -/
theorem storeVal4_eq : storeVal4 x0 x1 x2 x3 x4 x5 x6 x7 x8 x9
    = graphT (View.ld x9 r0_0) (View.ld x0 r0_17) (View.ld x1 r0_18) (View.ld x3 r0_3) (View.ld x5 r0_4) (View.ld x4 r0_5)
        (View.ld x6 r0_4) (View.ld x7 r0_6) (View.ld x2 r0_19) (View.ld x8 r0_6) := rfl
/-- The store of graph 5 writes `graphT` of graph 5's blocks. -/
theorem storeVal5_eq : storeVal5 x0 x1 x2 x3 x4 x5 x6 x7 x8 x9
    = graphT (View.ld x9 r0_0) (View.ld x0 r0_20) (View.ld x1 r0_21) (View.ld x3 r0_3) (View.ld x5 r0_4) (View.ld x4 r0_5)
        (View.ld x6 r0_4) (View.ld x7 r0_6) (View.ld x2 r0_22) (View.ld x8 r0_6) := rfl
/-- The store of graph 6 writes `graphT` of graph 6's blocks. -/
theorem storeVal6_eq : storeVal6 x0 x1 x2 x3 x4 x5 x6 x7 x8 x9
    = graphT (View.ld x9 r0_0) (View.ld x0 r0_23) (View.ld x1 r0_24) (View.ld x3 r0_3) (View.ld x5 r0_4) (View.ld x4 r0_5)
        (View.ld x6 r0_4) (View.ld x7 r0_6) (View.ld x2 r0_25) (View.ld x8 r0_6) := rfl
/-- The store of graph 7 writes `graphT` of graph 7's blocks. -/
theorem storeVal7_eq : storeVal7 x0 x1 x2 x3 x4 x5 x6 x7 x8 x9
    = graphT (View.ld x9 r0_0) (View.ld x0 r0_26) (View.ld x1 r0_27) (View.ld x3 r0_3) (View.ld x5 r0_4) (View.ld x4 r0_5)
        (View.ld x6 r0_4) (View.ld x7 r0_6) (View.ld x2 r0_28) (View.ld x8 r0_6) := rfl
end

end Cert.KernelIdeal.Smg

end
-- ==== Proof.Spec.lean ====
/-
  The mathematics both programs compute for ONE graph of the batch, written once over the extended reals and index by
  index: a two-layer gated graph convolution followed by two dense layers.

  For a graph with node features `X : 256 × 16`, dense adjacency `A : 256 × 256` (row = destination) and a keep-scale
  `D : 256 × 32`:
  * a GATE (`gate`) of a layer input `xm`: `hl = xm · l12w + l12b` (64 columns); its first 32 columns are propagated
    through the graph (`A · hl`), the last 32 kept; `relu`; a dense layer to 32 columns, `relu`; a weighted row sum
    plus a bias (`gatePre`); the logistic function of that: one number in [0, 1] per node;
  * a CONVOLUTION (`conv`) of a projected input `hl` (64 columns) under a gate `mask`:
    `(A · (mask ⊙ hl[:, :32]) + hl[:, 32:]) ⊙ mask`;
  * layer 0 gates and convolves `X`; layer 1 gates `relu(layer 0) ⊙ mask0` and convolves `relu(layer 0)`;
  * `post`: `relu`, a dense layer with bias, `relu`, the keep-scale, a second dense layer with bias.
  Every product is written in the order (row operand) * (column operand) of a matrix product `x · w`.
-/
import Idealize.ShloMosaic.PureOps.Ideal

noncomputable section

open scoped BigOperators

namespace SmgSpec

open Idealize.ShloMosaic

/-- Column `c` of the first half of a 64-wide row. -/
def lo (c : Fin 32) : Fin 64 := ⟨c.val, by omega⟩
/-- Column `c` of the second half of a 64-wide row. -/
def hi (c : Fin 32) : Fin 64 := ⟨c.val + 32, by omega⟩
/-- Column `c` of the first half of a 128-wide row. -/
def lo128 (c : Fin 64) : Fin 128 := ⟨c.val, by omega⟩
/-- Column `c` of the second half of a 128-wide row. -/
def hi128 (c : Fin 64) : Fin 128 := ⟨c.val + 64, by omega⟩

/-- The rectifier on the extended reals. -/
def relu (z : EReal) : EReal := max z 0

/-- A matrix product: row `n` of `x` against column `c` of `w`. -/
def mm {N K C : ℕ} (x : Fin N → Fin K → EReal) (w : Fin K → Fin C → EReal) (n : Fin N) (c : Fin C) : EReal :=
  ∑ k : Fin K, x n k * w k c

section gate

variable {K : ℕ} (l12w : Fin K → Fin 64 → EReal) (l12b : Fin 64 → EReal) (m1w : Fin 64 → Fin 32 → EReal)
  (m1b m2w : Fin 32 → EReal) (m2b : EReal) (A : Fin 256 → Fin 256 → EReal) (xm : Fin 256 → Fin K → EReal)

/-- The gate's input projection with its bias. -/
def gHl (n : Fin 256) (c : Fin 64) : EReal := mm xm l12w n c + l12b c

/-- First 32 columns propagated through the graph, last 32 kept; rectified. -/
def gCat (n : Fin 256) (c : Fin 64) : EReal :=
  relu (if c.val < 32 then mm A (gHl l12w l12b xm) n c else gHl l12w l12b xm n c)

/-- The gate's hidden layer. -/
def gW (n : Fin 256) (c : Fin 32) : EReal := relu (mm (gCat l12w l12b A xm) m1w n c + m1b c)

/-- The gate before the logistic function: a weighted row sum plus a bias. -/
def gatePre (n : Fin 256) : EReal := (∑ c : Fin 32, gW l12w l12b m1w m1b A xm n c * m2w c) + m2b

/-- The gate: one number per node. -/
def gate (n : Fin 256) : EReal := Ideal.logistic (gatePre l12w l12b m1w m1b m2w m2b A xm n)

end gate

/-- The gated convolution of a projected input `hl` (64 columns) under the gate `mask`. -/
def conv (A : Fin 256 → Fin 256 → EReal) (hl : Fin 256 → Fin 64 → EReal) (mask : Fin 256 → EReal)
    (n : Fin 256) (c : Fin 32) : EReal :=
  ((∑ j : Fin 256, A n j * (mask j * hl j (lo c))) + hl n (hi c)) * mask n

/-- The two dense layers after the convolutions, with the keep-scale between them; `x2pre` is layer 1's convolution
    before its rectifier. -/
def post (p1w : Fin 32 → Fin 32 → EReal) (p1b : Fin 32 → EReal) (p2w : Fin 32 → Fin 32 → EReal) (p2b : Fin 32 → EReal)
    (x2pre : Fin 256 → Fin 32 → EReal) (D : Fin 256 → Fin 32 → EReal) (n : Fin 256) (c : Fin 32) : EReal :=
  mm (fun n k => relu (mm (fun n k => relu (x2pre n k)) p1w n k + p1b k) * D n k) p2w n c + p2b c

/-- The parameters of the whole network, matrix by matrix. -/
structure Params where
  l12w0 : Fin 16 → Fin 64 → EReal
  l12b0 : Fin 64 → EReal
  m1w0 : Fin 64 → Fin 32 → EReal
  m1b0 : Fin 32 → EReal
  m2w0 : Fin 32 → EReal
  m2b0 : EReal
  wl0 : Fin 16 → Fin 64 → EReal
  l12w1 : Fin 32 → Fin 64 → EReal
  l12b1 : Fin 64 → EReal
  m1w1 : Fin 64 → Fin 32 → EReal
  m1b1 : Fin 32 → EReal
  m2w1 : Fin 32 → EReal
  m2b1 : EReal
  wl1 : Fin 32 → Fin 64 → EReal
  p1w : Fin 32 → Fin 32 → EReal
  p1b : Fin 32 → EReal
  p2w : Fin 32 → Fin 32 → EReal
  p2b : Fin 32 → EReal

section net

variable (P : Params) (X : Fin 256 → Fin 16 → EReal) (A : Fin 256 → Fin 256 → EReal) (D : Fin 256 → Fin 32 → EReal)

/-- Layer 0's gate. -/
def mask0 (n : Fin 256) : EReal := gate P.l12w0 P.l12b0 P.m1w0 P.m1b0 P.m2w0 P.m2b0 A X n
/-- Layer 0's convolution, rectified. -/
def x1 (n : Fin 256) (c : Fin 32) : EReal := relu (conv A (mm X P.wl0) (mask0 P X A) n c)
/-- Layer 1's gate: of layer 0's output scaled by layer 0's gate. -/
def mask1 (n : Fin 256) : EReal :=
  gate P.l12w1 P.l12b1 P.m1w1 P.m1b1 P.m2w1 P.m2b1 A (fun n k => x1 P X A n k * mask0 P X A n) n
/-- Layer 1's convolution, before its rectifier. -/
def x2pre (n : Fin 256) (c : Fin 32) : EReal := conv A (mm (x1 P X A) P.wl1) (mask1 P X A) n c
/-- The network's output for one graph. -/
def out (n : Fin 256) (c : Fin 32) : EReal := post P.p1w P.p1b P.p2w P.p2b (x2pre P X A) D n c

end net

/-- The parameters as the packed slab holds them: each matrix at its row offset, each vector in a row of its own. -/
def slabParams (S : Fin 368 → Fin 64 → EReal) : Params where
  l12w0 k c := S ⟨k.val, by omega⟩ c
  l12b0 c := S ⟨288, by omega⟩ c
  m1w0 k c := S ⟨k.val + 16, by omega⟩ (lo c)
  m1b0 c := S ⟨296, by omega⟩ (lo c)
  m2w0 c := S ⟨304, by omega⟩ (lo c)
  m2b0 := S ⟨312, by omega⟩ ⟨0, by omega⟩
  wl0 k c := S ⟨k.val + 80, by omega⟩ c
  l12w1 k c := S ⟨k.val + 96, by omega⟩ c
  l12b1 c := S ⟨320, by omega⟩ c
  m1w1 k c := S ⟨k.val + 128, by omega⟩ (lo c)
  m1b1 c := S ⟨328, by omega⟩ (lo c)
  m2w1 c := S ⟨336, by omega⟩ (lo c)
  m2b1 := S ⟨344, by omega⟩ ⟨0, by omega⟩
  wl1 k c := S ⟨k.val + 192, by omega⟩ c
  p1w k c := S ⟨k.val + 224, by omega⟩ (lo c)
  p1b c := S ⟨352, by omega⟩ (lo c)
  p2w k c := S ⟨k.val + 256, by omega⟩ (lo c)
  p2b c := S ⟨360, by omega⟩ (lo c)

/-- The whole batch: graph `b`'s output from graph `b`'s features, adjacency and keep-scale and the shared slab. -/
def G (x : Fin 256 → Fin 256 → Fin 16 → EReal) (adj : Fin 256 → Fin 256 → Fin 256 → EReal)
    (slab : Fin 368 → Fin 64 → EReal) (drop : Fin 256 → Fin 256 → Fin 32 → EReal)
    (b n : Fin 256) (c : Fin 32) : EReal :=
  out (slabParams slab) (x b) (adj b) (drop b) n c

end SmgSpec

end
-- ==== Proof.KerParams.lean ====
import proofs.«126640_g2000103277586728_pallasbulk_447_2_alg».proof.Proof.Gen.KernelIdeal.Skeleton
import proofs.«126640_g2000103277586728_pallasbulk_447_2_alg».proof.Proof.Spec
import Idealize.ShloMosaic.Lib.ValueIdx

noncomputable section

open scoped BigOperators

namespace Cert.KernelIdeal.Smg

open Idealize.ShloMosaic Idealize.ShloMosaic.ValueIdx Cert.KernelIdeal Cert.KernelIdeal.Gen SmgSpec

/-- The network's parameters as the transposed kernel's operands hold them: the two stacked weight matrices (columns
    0 … 63 the gate's projection, columns 64 … 127 the convolution's), the four plain matrices, and the table whose
    column `j` is bias vector `j`. -/
def kerParams (W0 : Vec Ideal S16x128 .f32) (W1 : Vec Ideal S32x128 .f32) (M10 M11 : Vec Ideal S64x32 .f32)
    (P1 P2 : Vec Ideal S32x32 .f32) (aux : Vec Ideal S64x16 .f32) : Params where
  l12w0 k c := W0 (ix2 k (lo128 c))
  l12b0 c := aux (ix2 c 0)
  m1w0 k c := M10 (ix2 k c)
  m1b0 c := aux (ix2 (lo c) 1)
  m2w0 c := aux (ix2 (lo c) 2)
  m2b0 := aux (ix2 0 3)
  wl0 k c := W0 (ix2 k (hi128 c))
  l12w1 k c := W1 (ix2 k (lo128 c))
  l12b1 c := aux (ix2 c 4)
  m1w1 k c := M11 (ix2 k c)
  m1b1 c := aux (ix2 (lo c) 5)
  m2w1 c := aux (ix2 (lo c) 6)
  m2b1 := aux (ix2 0 7)
  wl1 k c := W1 (ix2 k (hi128 c))
  p1w k c := P1 (ix2 k c)
  p1b c := aux (ix2 (lo c) 8)
  p2w k c := P2 (ix2 k c)
  p2b c := aux (ix2 (lo c) 9)

end Cert.KernelIdeal.Smg

end
-- ==== Proof.KerGate0.lean ====
import proofs.«126640_g2000103277586728_pallasbulk_447_2_alg».proof.Proof.Gen.KernelIdeal.Skeleton
import proofs.«126640_g2000103277586728_pallasbulk_447_2_alg».proof.Proof.Spec
import Idealize.ShloMosaic.Lib.ValueIdx
import Idealize.ShloMosaic.Lib.ValueLayout
import Idealize.ShloMosaic.PureOps.Ideal.Laws

noncomputable section

open scoped BigOperators

namespace Cert.KernelIdeal.Smg

open Idealize.ShloMosaic Idealize.ShloMosaic.ValueIdx Cert.KernelIdeal Cert.KernelIdeal.Gen SmgSpec

/-! Layout operations read at an index given by coordinates. -/

/-- A matrix cut at offsets on both axes reads, at `(i, j)`, the source at `(o0 + i, o1 + j)`. -/
private theorem kergate0_slice2 {α : Type} {n0 n1 m0 m1 : Nat} (o0 o1 : Nat) (X : (⟨2, ![n0, n1]⟩ : Shape).Idx → α)
    (h : (⟨2, ![n0, n1]⟩ : Shape).Slices ![o0, o1] ⟨2, ![m0, m1]⟩)
    (i : Fin m0) (j : Fin m1) (k0 : Fin n0) (k1 : Fin n1) (h0 : k0.val = o0 + i.val) (h1 : k1.val = o1 + j.val) :
    extractStridedSlice ⟨2, ![m0, m1]⟩ ![o0, o1] X h (ix2 i j) = X (ix2 k0 k1) :=
  extractStridedSlice_apply _ _ _ _ _ (fun ax => by
    match ax with
    | ⟨0, _⟩ => exact h0
    | ⟨1, _⟩ => exact h1)

/-- One column broadcast over many: an `[a, 1]` array broadcast to `[a, b]` reads, at `(p, c)`, the column's entry `p`. -/
private theorem kergate0_bcol {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! The three matrix products of the gate, each read at an index as the sum over its one contracted coordinate. -/

private theorem kergate0_d1_lhs (c : Fin 128) (n : Fin 256) (k : Fin 16) :
    dot_S16x128_S256x16_S128x256_0_1_1_0_n_n.lhsIdx (ix2 c n)
      ((contrEquiv1 dot_S16x128_S256x16_S128x256_0_1_1_0_n_n 16 rfl rfl).symm k) = ix2 k c := by
  funext ax; apply Fin.ext
  match ax with
  | ⟨0, _⟩ =>
    exact (dot_S16x128_S256x16_S128x256_0_1_1_0_n_n.lhsIdx_val_of_single rfl _ _).trans
      (contrEquiv1_symm_val dot_S16x128_S256x16_S128x256_0_1_1_0_n_n 16 rfl rfl k)
  | ⟨1, _⟩ => rfl

private theorem kergate0_d1_rhs (c : Fin 128) (n : Fin 256) (k : Fin 16) :
    dot_S16x128_S256x16_S128x256_0_1_1_0_n_n.rhsIdx (ix2 c n)
      ((contrEquiv1 dot_S16x128_S256x16_S128x256_0_1_1_0_n_n 16 rfl rfl).symm k) = ix2 n k := by
  funext ax; apply Fin.ext
  match ax with
  | ⟨0, _⟩ => rfl
  | ⟨1, _⟩ =>
    exact (dot_S16x128_S256x16_S128x256_0_1_1_0_n_n.rhsIdx_val_of_single rfl _ _).trans
      (contrEquiv1_symm_val dot_S16x128_S256x16_S128x256_0_1_1_0_n_n 16 rfl rfl k)

/-- The transposed projection: contraction over axis 0 of the left operand and axis 1 of the right. -/
private theorem kergate0_mm1 (l : FVec Ideal S16x128 .f32) (r : FVec Ideal S256x16 .f32) (c : Fin 128) (n : Fin 256) :
    matmul dot_S16x128_S256x16_S128x256_0_1_1_0_n_n none l r (constant (F := Ideal) S128x256 .f32 0x00000000#32) (ix2 c n)
      = ∑ k : Fin 16, l (ix2 k c) * r (ix2 n k) := by
  show FloatOps.matmul _ none l r _ (ix2 c n) = _
  rw [Ideal.matmul_constant_zero_apply,
    ← Equiv.sum_comp (contrEquiv1 dot_S16x128_S256x16_S128x256_0_1_1_0_n_n 16 rfl rfl).symm]
  refine Finset.sum_congr rfl fun k _ => ?_
  rw [kergate0_d1_lhs, kergate0_d1_rhs]

private theorem kergate0_d2_lhs (c : Fin 32) (n : Fin 256) (j : Fin 256) :
    dot_S32x256_S256x256_S32x256_1_1_0_0_n_n.lhsIdx (ix2 c n)
      ((contrEquiv1 dot_S32x256_S256x256_S32x256_1_1_0_0_n_n 256 rfl rfl).symm j) = ix2 c j := by
  funext ax; apply Fin.ext
  match ax with
  | ⟨0, _⟩ => rfl
  | ⟨1, _⟩ =>
    exact (dot_S32x256_S256x256_S32x256_1_1_0_0_n_n.lhsIdx_val_of_single rfl _ _).trans
      (contrEquiv1_symm_val dot_S32x256_S256x256_S32x256_1_1_0_0_n_n 256 rfl rfl j)

private theorem kergate0_d2_rhs (c : Fin 32) (n : Fin 256) (j : Fin 256) :
    dot_S32x256_S256x256_S32x256_1_1_0_0_n_n.rhsIdx (ix2 c n)
      ((contrEquiv1 dot_S32x256_S256x256_S32x256_1_1_0_0_n_n 256 rfl rfl).symm j) = ix2 n j := by
  funext ax; apply Fin.ext
  match ax with
  | ⟨0, _⟩ => rfl
  | ⟨1, _⟩ =>
    exact (dot_S32x256_S256x256_S32x256_1_1_0_0_n_n.rhsIdx_val_of_single rfl _ _).trans
      (contrEquiv1_symm_val dot_S32x256_S256x256_S32x256_1_1_0_0_n_n 256 rfl rfl j)

/-- The propagation through the graph, transposed: both operands contracted over their axis 1. -/
private theorem kergate0_mm2 (l : FVec Ideal S32x256 .f32) (r : FVec Ideal S256x256 .f32) (c : Fin 32) (n : Fin 256) :
    matmul dot_S32x256_S256x256_S32x256_1_1_0_0_n_n none l r (constant (F := Ideal) S32x256 .f32 0x00000000#32) (ix2 c n)
      = ∑ j : Fin 256, l (ix2 c j) * r (ix2 n j) := by
  show FloatOps.matmul _ none l r _ (ix2 c n) = _
  rw [Ideal.matmul_constant_zero_apply,
    ← Equiv.sum_comp (contrEquiv1 dot_S32x256_S256x256_S32x256_1_1_0_0_n_n 256 rfl rfl).symm]
  refine Finset.sum_congr rfl fun j _ => ?_
  rw [kergate0_d2_lhs, kergate0_d2_rhs]

private theorem kergate0_d3_lhs (k : Fin 32) (n : Fin 256) (c : Fin 64) :
    dot_S64x32_S64x256_S32x256_0_0_1_1_n_n.lhsIdx (ix2 k n)
      ((contrEquiv1 dot_S64x32_S64x256_S32x256_0_0_1_1_n_n 64 rfl rfl).symm c) = ix2 c k := by
  funext ax; apply Fin.ext
  match ax with
  | ⟨0, _⟩ =>
    exact (dot_S64x32_S64x256_S32x256_0_0_1_1_n_n.lhsIdx_val_of_single rfl _ _).trans
      (contrEquiv1_symm_val dot_S64x32_S64x256_S32x256_0_0_1_1_n_n 64 rfl rfl c)
  | ⟨1, _⟩ => rfl

private theorem kergate0_d3_rhs (k : Fin 32) (n : Fin 256) (c : Fin 64) :
    dot_S64x32_S64x256_S32x256_0_0_1_1_n_n.rhsIdx (ix2 k n)
      ((contrEquiv1 dot_S64x32_S64x256_S32x256_0_0_1_1_n_n 64 rfl rfl).symm c) = ix2 c n := by
  funext ax; apply Fin.ext
  match ax with
  | ⟨0, _⟩ =>
    exact (dot_S64x32_S64x256_S32x256_0_0_1_1_n_n.rhsIdx_val_of_single rfl _ _).trans
      (contrEquiv1_symm_val dot_S64x32_S64x256_S32x256_0_0_1_1_n_n 64 rfl rfl c)
  | ⟨1, _⟩ => rfl

/-- The hidden layer's product, transposed: both operands contracted over their axis 0. -/
private theorem kergate0_mm3 (l : FVec Ideal S64x32 .f32) (r : FVec Ideal S64x256 .f32) (k : Fin 32) (n : Fin 256) :
    matmul dot_S64x32_S64x256_S32x256_0_0_1_1_n_n none l r (constant (F := Ideal) S32x256 .f32 0x00000000#32) (ix2 k n)
      = ∑ c : Fin 64, l (ix2 c k) * r (ix2 c n) := by
  show FloatOps.matmul _ none l r _ (ix2 k n) = _
  rw [Ideal.matmul_constant_zero_apply,
    ← Equiv.sum_comp (contrEquiv1 dot_S64x32_S64x256_S32x256_0_0_1_1_n_n 64 rfl rfl).symm]
  refine Finset.sum_congr rfl fun c _ => ?_
  rw [kergate0_d3_lhs, kergate0_d3_rhs]

/-- A two-piece stack of 32 rows each: a row below 32 is the first piece's. -/
private theorem kergate0_cat_lt (x₁ x₂ : FVec Ideal S32x256 .f32) (c : Fin 64) (n : Fin 256) (h : c.val < 32) :
    concatenate S64x256 0 [⟨S32x256, x₁⟩, ⟨S32x256, x₂⟩] concatenates_S32x256_S32x256_S64x256_d0 (ix2 c n)
      = x₁ (ix2 ⟨c.val, h⟩ n) :=
  concatenate_pair_apply_left 0 x₁ x₂ _ (ix2 c n) rfl (ix2 ⟨c.val, h⟩ n)
    (fun b => by match b with | ⟨0, _⟩ => rfl | ⟨1, _⟩ => rfl)

/-- A row from 32 on is the second piece's, 32 rows up. -/
private theorem kergate0_cat_ge (x₁ x₂ : FVec Ideal S32x256 .f32) (c : Fin 64) (n : Fin 256) (h : ¬ c.val < 32) :
    concatenate S64x256 0 [⟨S32x256, x₁⟩, ⟨S32x256, x₂⟩] concatenates_S32x256_S32x256_S64x256_d0 (ix2 c n)
      = x₂ (ix2 ⟨c.val - 32, by have := c.isLt; omega⟩ n) :=
  concatenate_pair_apply_right 0 x₁ x₂ _ (ix2 c n) rfl rfl (ix2 ⟨c.val - 32, by have := c.isLt; omega⟩ n)
    (fun b hb => by match b with | ⟨0, _⟩ => exact absurd rfl hb | ⟨1, _⟩ => rfl)
    (by show c.val - 32 + 32 = c.val; omega)

/-- The sum down the 32 rows of a `32 × 256` array, at column `n`. -/
private theorem kergate0_red (src : FVec Ideal S32x256 .f32) (hφ : FKind.Formats .f32)
    (hacc : (0x00000000#32 : BitVec 32) = FKind.add.neutral .f32 hφ) (n : Fin 256) :
    multiReduction (F := Ideal) .add [0] S256 src 0x00000000#32 reduces_S32x256_S256 hφ hacc (ix1 n)
      = ∑ k : Fin 32, src (ix2 k n) := by
  refine (Ideal.multiReduction_add_single src 0x00000000#32 reduces_S32x256_S256 hφ hacc (ix1 n)).trans ?_
  refine Finset.sum_congr rfl fun k _ => congrArg src ?_
  funext ax
  match ax with
  | ⟨0, _⟩ => rfl
  | ⟨1, _⟩ => rfl

/-! The ten parameter columns cut out of the 64 × 16 column table. -/
theorem pay3_apply (v0 : Vec Ideal S64x16 .f32) (c : Fin 64) : k0_pay3 (F := Ideal) v0 (ix2 c 0) = v0 (ix2 c 0) := by
  unfold k0_pay3 k0_pay2
  rw [shapeCast_self]
  exact kergate0_slice2 0 0 v0 _ c 0 c 0 (Nat.zero_add _).symm rfl
theorem pay4_apply (v0 : Vec Ideal S64x16 .f32) (c : Fin 32) : k0_pay4 (F := Ideal) v0 (ix2 c 0) = v0 (ix2 (lo c) 1) := by
  unfold k0_pay4 k0_pay2
  rw [shapeCast_self]
  exact kergate0_slice2 0 1 v0 _ c 0 (lo c) 1 (Nat.zero_add _).symm rfl
theorem pay5_apply (v0 : Vec Ideal S64x16 .f32) (c : Fin 32) : k0_pay5 (F := Ideal) v0 (ix2 c 0) = v0 (ix2 (lo c) 2) := by
  unfold k0_pay5 k0_pay2
  rw [shapeCast_self]
  exact kergate0_slice2 0 2 v0 _ c 0 (lo c) 2 (Nat.zero_add _).symm rfl
theorem pay6_apply (v0 : Vec Ideal S64x16 .f32) : k0_pay6 (F := Ideal) v0 (ix2 0 0) = v0 (ix2 0 3) := by
  unfold k0_pay6 k0_pay2
  rw [shapeCast_self]
  exact kergate0_slice2 0 3 v0 _ 0 0 0 3 rfl rfl
theorem pay7_apply (v0 : Vec Ideal S64x16 .f32) (c : Fin 64) : k0_pay7 (F := Ideal) v0 (ix2 c 0) = v0 (ix2 c 4) := by
  unfold k0_pay7 k0_pay2
  rw [shapeCast_self]
  exact kergate0_slice2 0 4 v0 _ c 0 c 4 (Nat.zero_add _).symm rfl
theorem pay8_apply (v0 : Vec Ideal S64x16 .f32) (c : Fin 32) : k0_pay8 (F := Ideal) v0 (ix2 c 0) = v0 (ix2 (lo c) 5) := by
  unfold k0_pay8 k0_pay2
  rw [shapeCast_self]
  exact kergate0_slice2 0 5 v0 _ c 0 (lo c) 5 (Nat.zero_add _).symm rfl
theorem pay9_apply (v0 : Vec Ideal S64x16 .f32) (c : Fin 32) : k0_pay9 (F := Ideal) v0 (ix2 c 0) = v0 (ix2 (lo c) 6) := by
  unfold k0_pay9 k0_pay2
  rw [shapeCast_self]
  exact kergate0_slice2 0 6 v0 _ c 0 (lo c) 6 (Nat.zero_add _).symm rfl
theorem pay10_apply (v0 : Vec Ideal S64x16 .f32) : k0_pay10 (F := Ideal) v0 (ix2 0 0) = v0 (ix2 0 7) := by
  unfold k0_pay10 k0_pay2
  rw [shapeCast_self]
  exact kergate0_slice2 0 7 v0 _ 0 0 0 7 rfl rfl
theorem pay11_apply (v0 : Vec Ideal S64x16 .f32) (c : Fin 32) : k0_pay11 (F := Ideal) v0 (ix2 c 0) = v0 (ix2 (lo c) 8) := by
  unfold k0_pay11 k0_pay2
  rw [shapeCast_self]
  exact kergate0_slice2 0 8 v0 _ c 0 (lo c) 8 (Nat.zero_add _).symm rfl
theorem pay12_apply (v0 : Vec Ideal S64x16 .f32) (c : Fin 32) : k0_pay12 (F := Ideal) v0 (ix2 c 0) = v0 (ix2 (lo c) 9) := by
  unfold k0_pay12 k0_pay2
  rw [shapeCast_self]
  exact kergate0_slice2 0 9 v0 _ c 0 (lo c) 9 (Nat.zero_add _).symm rfl

/-- The adjacency block with its unit axis dropped. -/
theorem pay13_apply (v14 : Vec Ideal S1x256x256 .f32) (i j : Fin 256) : k0_pay13 (F := Ideal) v14 (ix2 i j) = v14 (ix3 0 i j) := by
  unfold k0_pay13
  exact shapeCast_1ab_ab_apply v14 _ i j

/-- The shared input projection, transposed: column `c` of the stacked weights against node `n`'s features. -/
theorem pay14_apply (v12 : Vec Ideal S1x256x16 .f32) (v16 : Vec Ideal S16x128 .f32) (c : Fin 128) (n : Fin 256) :
    k0_pay14 (F := Ideal) v12 v16 (ix2 c n) = ∑ k : Fin 16, v16 (ix2 k c) * v12 (ix3 0 n k) := by
  unfold k0_pay14
  rw [shapeCast_self]
  refine (kergate0_mm1 _ _ c n).trans (Finset.sum_congr rfl fun k _ => ?_)
  rw [shapeCast_1ab_ab_apply]

/-- The projected input with its bias, transposed: entry `(c, j)` is the specification's `gHl` at node `j`, column `c`. -/
private theorem kergate0_hl (v0 : Vec Ideal S64x16 .f32) (v12 : Vec Ideal S1x256x16 .f32) (v16 : Vec Ideal S16x128 .f32)
    (c : Fin 64) (j : Fin 256) :
    addf (extractStridedSlice S64x256 ![0, 0] (k0_pay14 (F := Ideal) v12 v16) slices_S128x256_o0_0_S64x256)
        (broadcastTo S64x256 (k0_pay3 (F := Ideal) v0) broadcasts_S64x1_S64x256) (ix2 c j)
      = gHl (fun k c => v16 (ix2 k (lo128 c))) (fun c => v0 (ix2 c 0)) (fun n k => v12 (ix3 0 n k)) j c := by
  rw [addf_apply, kergate0_slice2 0 0 _ _ c j (lo128 c) j (Nat.zero_add _).symm (Nat.zero_add _).symm, pay14_apply,
    kergate0_bcol, pay3_apply]
  unfold gHl mm
  exact congrArg (· + v0 (ix2 c 0)) (Finset.sum_congr rfl fun k _ => mul_comm _ _)

/-- The rectified stack of the propagated first half and the kept second half, over any projected input `HL` and
    adjacency `A2`. -/
private theorem kergate0_gcat (HL : FVec Ideal S64x256 .f32) (A2 : FVec Ideal S256x256 .f32) (c : Fin 64) (n : Fin 256) :
    maximumf
        (concatenate S64x256 0
          [⟨S32x256, matmul dot_S32x256_S256x256_S32x256_1_1_0_0_n_n none
              (extractStridedSlice S32x256 ![0, 0] HL slices_S64x256_o0_0_S32x256) A2
              (constant (F := Ideal) S32x256 .f32 0x00000000#32)⟩,
            ⟨S32x256, extractStridedSlice S32x256 ![32, 0] HL slices_S64x256_o32_0_S32x256⟩]
          concatenates_S32x256_S32x256_S64x256_d0)
        (broadcast S64x256 (Scalar.ofBits .f32 0x00000000#32 : Ideal .f32)) (ix2 c n)
      = relu (if c.val < 32 then ∑ j : Fin 256, HL (ix2 c j) * A2 (ix2 n j) else HL (ix2 c n)) := by
  rw [maximumf_apply, broadcast_apply]
  show max _ (Ideal.ofBits .f32 0x00000000#32) = _
  rw [Ideal.ofBits_zero_f32]
  unfold relu
  refine congrArg (max · (0 : EReal)) ?_
  by_cases h : c.val < 32
  · rw [if_pos h, kergate0_cat_lt _ _ c n h, kergate0_mm2]
    refine Finset.sum_congr rfl fun j _ => ?_
    rw [kergate0_slice2 0 0 HL _ ⟨c.val, h⟩ j c j (Nat.zero_add _).symm (Nat.zero_add _).symm]
  · rw [if_neg h, kergate0_cat_ge _ _ c n h]
    exact kergate0_slice2 32 0 HL _ _ n c n (by show c.val = 32 + (c.val - 32); omega) (Nat.zero_add _).symm

/-- The hidden layer, transposed, over any rectified stack `CAT`. -/
private theorem kergate0_w (v0 : Vec Ideal S64x16 .f32) (v28 : Vec Ideal S64x32 .f32) (CAT : FVec Ideal S64x256 .f32)
    (k : Fin 32) (n : Fin 256) :
    maximumf
        (addf
          (matmul dot_S64x32_S64x256_S32x256_0_0_1_1_n_n none (shapeCast S64x32 v28 shapeCasts_S64x32_S64x32 : FVec Ideal S64x32 .f32) CAT
            (constant (F := Ideal) S32x256 .f32 0x00000000#32))
          (broadcastTo S32x256 (k0_pay4 (F := Ideal) v0) broadcasts_S32x1_S32x256))
        (broadcast S32x256 (Scalar.ofBits .f32 0x00000000#32 : Ideal .f32)) (ix2 k n)
      = relu ((∑ c : Fin 64, CAT (ix2 c n) * v28 (ix2 c k)) + v0 (ix2 (lo k) 1)) := by
  rw [maximumf_apply, broadcast_apply, addf_apply, kergate0_mm3, kergate0_bcol, pay4_apply, shapeCast_self]
  show max _ (Ideal.ofBits .f32 0x00000000#32) = _
  rw [Ideal.ofBits_zero_f32]
  unfold relu
  exact congrArg (fun s : EReal => max (s + v0 (ix2 (lo k) 1)) 0) (Finset.sum_congr rfl fun c _ => mul_comm _ _)

/-- Layer 0's gate before the logistic function, as the transposed kernel computes it: the spec's `gatePre`. -/
theorem pay15_apply (v0 : Vec Ideal S64x16 .f32) (v12 : Vec Ideal S1x256x16 .f32) (v14 : Vec Ideal S1x256x256 .f32)
    (v16 : Vec Ideal S16x128 .f32) (v28 : Vec Ideal S64x32 .f32) (n : Fin 256) :
    k0_pay15 (F := Ideal) v0 v12 v14 v16 v28 (ix2 0 n)
      = gatePre (fun k c => v16 (ix2 k (lo128 c))) (fun c => v0 (ix2 c 0)) (fun k c => v28 (ix2 k c))
          (fun c => v0 (ix2 (lo c) 1)) (fun c => v0 (ix2 (lo c) 2)) (v0 (ix2 0 3))
          (fun n j => v14 (ix3 0 n j)) (fun n k => v12 (ix3 0 n k)) n := by
  unfold k0_pay15 gatePre
  rw [addf_apply]
  refine congrArg₂ (fun a b : EReal => a + b) ?_ ?_
  · refine (shapeCast_a_1a_apply _ _ 0 n).trans ?_
    refine (kergate0_red _ _ _ n).trans ?_
    refine Finset.sum_congr rfl fun k _ => ?_
    rw [mulf_apply, kergate0_bcol, pay5_apply]
    refine congrArg (· * v0 (ix2 (lo k) 2)) ?_
    refine (kergate0_w v0 v28 _ k n).trans ?_
    unfold gW mm
    refine congrArg (fun s : EReal => relu (s + v0 (ix2 (lo k) 1))) ?_
    refine Finset.sum_congr rfl fun c _ => ?_
    refine congrArg (· * v28 (ix2 c k)) ?_
    refine (kergate0_gcat _ _ c n).trans ?_
    unfold gCat mm
    refine congrArg relu ?_
    by_cases h : c.val < 32
    · rw [if_pos h, if_pos h]
      refine Finset.sum_congr rfl fun j _ => ?_
      rw [kergate0_hl, pay13_apply, mul_comm]
    · rw [if_neg h, if_neg h, kergate0_hl]
  · exact (kergate0_bcol _ _ 0 n).trans (pay6_apply v0)

end Cert.KernelIdeal.Smg

end
-- ==== Proof.KerLayer1.lean ====
import proofs.«126640_g2000103277586728_pallasbulk_447_2_alg».proof.Proof.Gen.KernelIdeal.Skeleton
import proofs.«126640_g2000103277586728_pallasbulk_447_2_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.Smg

open Idealize.ShloMosaic Idealize.ShloMosaic.ValueIdx Cert.KernelIdeal Cert.KernelIdeal.Gen SmgSpec

/-- The adjacency product: rows of the left operand against rows of the right operand. -/
private theorem kl1_mmA_apply (l : FVec Ideal S32x256 .f32) (r : FVec Ideal S256x256 .f32) (c : Fin 32) (n : Fin 256) :
    matmul dot_S32x256_S256x256_S32x256_1_1_0_0_n_n none l r (constant (F := Ideal) S32x256 .f32 0x00000000#32) (ix2 c n)
      = ∑ k : Fin 256, l (ix2 c k) * r (ix2 n k) := by
  refine (Ideal.matmul_constant_zero_apply dot_S32x256_S256x256_S32x256_1_1_0_0_n_n none l r (ix2 c n)).trans ?_
  rw [← Equiv.sum_comp (contrEquiv1 dot_S32x256_S256x256_S32x256_1_1_0_0_n_n 256 rfl rfl).symm]
  refine Finset.sum_congr rfl fun k _ => ?_
  have ck := contrEquiv1_symm_val dot_S32x256_S256x256_S32x256_1_1_0_0_n_n 256 rfl rfl k
  have hl : dot_S32x256_S256x256_S32x256_1_1_0_0_n_n.lhsIdx (ix2 c n)
      ((contrEquiv1 dot_S32x256_S256x256_S32x256_1_1_0_0_n_n 256 rfl rfl).symm k) = ix2 c k := by
    funext ax; apply Fin.ext
    match ax with
    | ⟨0, _⟩ => simp [DotDims.lhsIdx, dot_S32x256_S256x256_S32x256_1_1_0_0_n_n]; rfl
    | ⟨1, _⟩ => simp [DotDims.lhsIdx, dot_S32x256_S256x256_S32x256_1_1_0_0_n_n]; exact ck
  have hr : dot_S32x256_S256x256_S32x256_1_1_0_0_n_n.rhsIdx (ix2 c n)
      ((contrEquiv1 dot_S32x256_S256x256_S32x256_1_1_0_0_n_n 256 rfl rfl).symm k) = ix2 n k := by
    funext ax; apply Fin.ext
    match ax with
    | ⟨0, _⟩ => simp [DotDims.rhsIdx, dot_S32x256_S256x256_S32x256_1_1_0_0_n_n]; rfl
    | ⟨1, _⟩ => simp [DotDims.rhsIdx, dot_S32x256_S256x256_S32x256_1_1_0_0_n_n]; exact ck
  rw [hl, hr]

/-- The layer-1 projection: columns of the weight matrix against columns of the transposed input. -/
private theorem kl1_mmB_apply (l : FVec Ideal S32x128 .f32) (r : FVec Ideal S32x256 .f32) (q : Fin 128) (n : Fin 256) :
    matmul dot_S32x128_S32x256_S128x256_0_0_1_1_n_n none l r (constant (F := Ideal) S128x256 .f32 0x00000000#32) (ix2 q n)
      = ∑ k : Fin 32, l (ix2 k q) * r (ix2 k n) := by
  refine (Ideal.matmul_constant_zero_apply dot_S32x128_S32x256_S128x256_0_0_1_1_n_n none l r (ix2 q n)).trans ?_
  rw [← Equiv.sum_comp (contrEquiv1 dot_S32x128_S32x256_S128x256_0_0_1_1_n_n 32 rfl rfl).symm]
  refine Finset.sum_congr rfl fun k _ => ?_
  have ck := contrEquiv1_symm_val dot_S32x128_S32x256_S128x256_0_0_1_1_n_n 32 rfl rfl k
  have hl : dot_S32x128_S32x256_S128x256_0_0_1_1_n_n.lhsIdx (ix2 q n)
      ((contrEquiv1 dot_S32x128_S32x256_S128x256_0_0_1_1_n_n 32 rfl rfl).symm k) = ix2 k q := by
    funext ax; apply Fin.ext
    match ax with
    | ⟨0, _⟩ => simp [DotDims.lhsIdx, dot_S32x128_S32x256_S128x256_0_0_1_1_n_n]; exact ck
    | ⟨1, _⟩ => simp [DotDims.lhsIdx, dot_S32x128_S32x256_S128x256_0_0_1_1_n_n]; rfl
  have hr : dot_S32x128_S32x256_S128x256_0_0_1_1_n_n.rhsIdx (ix2 q n)
      ((contrEquiv1 dot_S32x128_S32x256_S128x256_0_0_1_1_n_n 32 rfl rfl).symm k) = ix2 k n := by
    funext ax; apply Fin.ext
    match ax with
    | ⟨0, _⟩ => simp [DotDims.rhsIdx, dot_S32x128_S32x256_S128x256_0_0_1_1_n_n]; exact ck
    | ⟨1, _⟩ => simp [DotDims.rhsIdx, dot_S32x128_S32x256_S128x256_0_0_1_1_n_n]; rfl
  rw [hl, hr]

/-- The gate's dense layer: columns of its weight matrix against columns of the transposed hidden layer. -/
private theorem kl1_mmC_apply (l : FVec Ideal S64x32 .f32) (r : FVec Ideal S64x256 .f32) (q : Fin 32) (n : Fin 256) :
    matmul dot_S64x32_S64x256_S32x256_0_0_1_1_n_n none l r (constant (F := Ideal) S32x256 .f32 0x00000000#32) (ix2 q n)
      = ∑ k : Fin 64, l (ix2 k q) * r (ix2 k n) := by
  refine (Ideal.matmul_constant_zero_apply dot_S64x32_S64x256_S32x256_0_0_1_1_n_n none l r (ix2 q n)).trans ?_
  rw [← Equiv.sum_comp (contrEquiv1 dot_S64x32_S64x256_S32x256_0_0_1_1_n_n 64 rfl rfl).symm]
  refine Finset.sum_congr rfl fun k _ => ?_
  have ck := contrEquiv1_symm_val dot_S64x32_S64x256_S32x256_0_0_1_1_n_n 64 rfl rfl k
  have hl : dot_S64x32_S64x256_S32x256_0_0_1_1_n_n.lhsIdx (ix2 q n)
      ((contrEquiv1 dot_S64x32_S64x256_S32x256_0_0_1_1_n_n 64 rfl rfl).symm k) = ix2 k q := by
    funext ax; apply Fin.ext
    match ax with
    | ⟨0, _⟩ => simp [DotDims.lhsIdx, dot_S64x32_S64x256_S32x256_0_0_1_1_n_n]; exact ck
    | ⟨1, _⟩ => simp [DotDims.lhsIdx, dot_S64x32_S64x256_S32x256_0_0_1_1_n_n]; rfl
  have hr : dot_S64x32_S64x256_S32x256_0_0_1_1_n_n.rhsIdx (ix2 q n)
      ((contrEquiv1 dot_S64x32_S64x256_S32x256_0_0_1_1_n_n 64 rfl rfl).symm k) = ix2 k n := by
    funext ax; apply Fin.ext
    match ax with
    | ⟨0, _⟩ => simp [DotDims.rhsIdx, dot_S64x32_S64x256_S32x256_0_0_1_1_n_n]; exact ck
    | ⟨1, _⟩ => simp [DotDims.rhsIdx, dot_S64x32_S64x256_S32x256_0_0_1_1_n_n]; rfl
  rw [hl, hr]

/-! ## Small facts about the extended reals -/

/-- A non-negative real factor distributes over a finite sum of extended reals. -/
private theorem kl1_coe_mul_sum {ι : Type} (s : Finset ι) (r : ℝ) (hr : 0 ≤ r) (f : ι → EReal) :
    (r : EReal) * ∑ k ∈ s, f k = ∑ k ∈ s, (r : EReal) * f k := by
  classical
  induction s using Finset.induction_on with
  | empty => simp
  | insert a s ha ih => rw [Finset.sum_insert ha, Finset.sum_insert ha, EReal.left_distrib_of_nonneg_of_ne_top (EReal.coe_nonneg.mpr hr) (EReal.coe_ne_top r), ih]

/-- The logistic function takes non-negative real values, whatever its argument. -/
private theorem kl1_logistic_real (s : EReal) : ∃ r : ℝ, 0 ≤ r ∧ Ideal.logistic s = (r : EReal) := by
  induction s using EReal.rec with
  | bot => exact ⟨0, le_refl _, by rw [Ideal.logistic_bot]; rfl⟩
  | coe x => exact ⟨(1 + Real.exp (-x))⁻¹, by positivity, Ideal.logistic_coe x⟩
  | top => exact ⟨1, zero_le_one, by rw [Ideal.logistic_top]; rfl⟩

/-- THE ALGEBRAIC LAW: scaling a projection by a gate value after the product is the product of the scaled input. -/
private theorem kl1_gate_after {ι : Type} (s : Finset ι) (w x : ι → EReal) (t : EReal) :
    (∑ k ∈ s, w k * x k) * Ideal.logistic t = ∑ k ∈ s, (x k * Ideal.logistic t) * w k := by
  obtain ⟨r, hr, he⟩ := kl1_logistic_real t
  rw [he, mul_comm, kl1_coe_mul_sum s r hr]
  refine Finset.sum_congr rfl fun k _ => ?_
  rw [mul_comm (w k) (x k), ← mul_assoc, mul_comm (r : EReal) (x k)]

/-- The f32 zero word is the extended real zero. -/
private theorem kl1_zero : (Scalar.ofBits .f32 0x00000000#32 : Ideal .f32) = (0 : EReal) := Ideal.ofBits_zero_f32

/-! ## Layout operations read at an index -/

/-- A column [a,1] broadcast to [a,b] reads, at (p, q), the column at p. -/
private theorem kl1_bcol_apply {α : Type} {a b : ℕ} (v : (⟨2, ![a, 1]⟩ : Shape).Idx → α)
    (h : (⟨2, ![a, 1]⟩ : Shape).Broadcasts ⟨2, ![a, b]⟩) (p : Fin a) (q : Fin b) :
    broadcastTo ⟨2, ![a, b]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ => rfl

/-- The row sum over the 32 rows of a [32,256] array, read at a column. -/
private theorem kl1_rowsum_apply (src : FVec Ideal S32x256 .f32) (h : S32x256.Reduces [0] S256) (hφ : FKind.Formats .f32)
    (hacc : (0x00000000#32 : BitVec 32) = 0x00000000#32) (n : Fin 256) :
    multiReduction (F := Ideal) .add [0] S256 src 0x00000000#32 h hφ hacc (ix1 n) = ∑ c : Fin 32, src (ix2 c n) := by
  refine (Ideal.multiReduction_add_single src 0x00000000#32 h hφ hacc (ix1 n)).trans ?_
  show ∑ k : Fin 32, src (h.lift (ix1 n) k) = _
  refine Finset.sum_congr rfl fun k _ => congrArg src (funext fun ax => Fin.ext ?_)
  match ax with
  | ⟨0, _⟩ => rfl
  | ⟨1, _⟩ => rfl

/-- The logistic operation read at an index. -/
private theorem kl1_logistic_apply {s : Shape} (v : FVec Ideal s .f32) (i : s.Idx) : logistic v i = Ideal.logistic (v i) := rfl

/-! ## The payload cut into its stretches -/

/-- The transposed gated convolution of the projection rows 64 … 127 of `P` under the gate row `m`. -/
private def kl1_convT (A : FVec Ideal S256x256 .f32) (P : FVec Ideal S128x256 .f32) (m : FVec Ideal S1x256 .f32) :
    FVec Ideal S32x256 .f32 :=
  mulf (addf (matmul dot_S32x256_S256x256_S32x256_1_1_0_0_n_n none
      (mulf (broadcastTo S32x256 m Gen.broadcasts_S1x256_S32x256) (extractStridedSlice S32x256 ![64, 0] P Gen.slices_S128x256_o64_0_S32x256))
      A (constant S32x256 .f32 0x00000000#32))
    (extractStridedSlice S32x256 ![96, 0] P Gen.slices_S128x256_o96_0_S32x256)) (broadcastTo S32x256 m Gen.broadcasts_S1x256_S32x256)

/-- The rectifier on a transposed [32,256] array. -/
private def kl1_relu32 (x : FVec Ideal S32x256 .f32) : FVec Ideal S32x256 .f32 :=
  maximumf x (broadcast S32x256 (Scalar.ofBits .f32 0x00000000#32))

/-- The layer-1 projection of the transposed layer-0 output. -/
private def kl1_full1 (W : Vec Ideal S32x128 .f32) (X : FVec Ideal S32x256 .f32) : FVec Ideal S128x256 .f32 :=
  matmul dot_S32x128_S32x256_S128x256_0_0_1_1_n_n none (shapeCast S32x128 W Gen.shapeCasts_S32x128_S32x128 : FVec Ideal S32x128 .f32) X
    (constant S128x256 .f32 0x00000000#32)

/-- The gate's input projection: rows 0 … 63 of the projection, times the previous gate, plus the bias column. -/
private def kl1_hlT (P : FVec Ideal S128x256 .f32) (m : FVec Ideal S1x256 .f32) (b : FVec Ideal S64x1 .f32) :
    FVec Ideal S64x256 .f32 :=
  addf (mulf (extractStridedSlice S64x256 ![0, 0] P Gen.slices_S128x256_o0_0_S64x256) (broadcastTo S64x256 m Gen.broadcasts_S1x256_S64x256))
    (broadcastTo S64x256 b Gen.broadcasts_S64x1_S64x256)

/-- First 32 rows propagated through the graph, last 32 kept; rectified. -/
private def kl1_catT (H : FVec Ideal S64x256 .f32) (A : FVec Ideal S256x256 .f32) : FVec Ideal S64x256 .f32 :=
  maximumf (concatenate S64x256 0
      [⟨S32x256, matmul dot_S32x256_S256x256_S32x256_1_1_0_0_n_n none
          (extractStridedSlice S32x256 ![0, 0] H Gen.slices_S64x256_o0_0_S32x256) A (constant S32x256 .f32 0x00000000#32)⟩,
       ⟨S32x256, extractStridedSlice S32x256 ![32, 0] H Gen.slices_S64x256_o32_0_S32x256⟩]
      Gen.concatenates_S32x256_S32x256_S64x256_d0)
    (broadcast S64x256 (Scalar.ofBits .f32 0x00000000#32))

/-- The gate's dense layer, rectified, its weighted row sum, bias and logistic function. -/
private def kl1_tailT (C : FVec Ideal S64x256 .f32) (w : Vec Ideal S64x32 .f32) (b1 b2 : FVec Ideal S32x1 .f32)
    (b3 : FVec Ideal S1x1 .f32) : FVec Ideal S1x256 .f32 :=
  logistic (addf (shapeCast S1x256
      (multiReduction .add [0] S256
        (mulf (maximumf (addf (matmul dot_S64x32_S64x256_S32x256_0_0_1_1_n_n none (shapeCast S64x32 w Gen.shapeCasts_S64x32_S64x32 : FVec Ideal S64x32 .f32) C
              (constant S32x256 .f32 0x00000000#32)) (broadcastTo S32x256 b1 Gen.broadcasts_S32x1_S32x256))
            (broadcast S32x256 (Scalar.ofBits .f32 0x00000000#32))) (broadcastTo S32x256 b2 Gen.broadcasts_S32x1_S32x256))
        0x00000000#32 Gen.reduces_S32x256_S256 (.inl rfl) rfl) Gen.shapeCasts_S256_S1x256)
    (broadcastTo S1x256 b3 Gen.broadcasts_S1x1_S1x256))

/-- The payload is these stretches composed. -/
private theorem kl1_pay16_eq (v6 : FVec Ideal S64x1 .f32) (v7 v8 : FVec Ideal S32x1 .f32) (v9 : FVec Ideal S1x1 .f32)
    (v15 : FVec Ideal S256x256 .f32) (v18 : FVec Ideal S128x256 .f32) (v40 : FVec Ideal S1x256 .f32)
    (v52 : Vec Ideal S32x128 .f32) (v66 : Vec Ideal S64x32 .f32) :
    k0_pay16 (F := Ideal) v6 v7 v8 v9 v15 v18 v40 v52 v66
      = kl1_convT v15 (kl1_full1 v52 (kl1_relu32 (kl1_convT v15 v18 (logistic v40))))
          (kl1_tailT (kl1_catT (kl1_hlT (kl1_full1 v52 (kl1_relu32 (kl1_convT v15 v18 (logistic v40)))) (logistic v40) v6) v15)
            v66 v7 v8 v9) := rfl

/-! ## Each stretch read at an index -/

/-- The transposed gated convolution at (column `c`, node `n`) is the specification's at (`n`, `c`). -/
private theorem kl1_convT_apply (A : FVec Ideal S256x256 .f32) (P : FVec Ideal S128x256 .f32) (m : FVec Ideal S1x256 .f32)
    (c : Fin 32) (n : Fin 256) :
    kl1_convT A P m (ix2 c n)
      = conv (fun i j => A (ix2 i j)) (fun n c => P (ix2 (hi128 c) n)) (fun n => m (ix2 0 n)) n c := by
  unfold kl1_convT conv
  rw [mulf_apply, addf_apply, kl1_mmA_apply, broadcastTo_1b_ab_apply,
    slice2_axis0_apply 96 P _ c n (hi128 (hi c)) (by show c.val + 32 + 64 = 96 + c.val; omega)]
  congr 1
  congr 1
  refine Finset.sum_congr rfl fun k _ => ?_
  rw [mulf_apply, broadcastTo_1b_ab_apply,
    slice2_axis0_apply 64 P _ c k (hi128 (lo c)) (by show c.val + 64 = 64 + c.val; omega)]
  exact mul_comm _ _

/-- The gate's input projection at (row `r`, node `n`). -/
private theorem kl1_hlT_apply (P : FVec Ideal S128x256 .f32) (m : FVec Ideal S1x256 .f32) (b : FVec Ideal S64x1 .f32)
    (r : Fin 64) (n : Fin 256) :
    kl1_hlT P m b (ix2 r n) = P (ix2 (lo128 r) n) * m (ix2 0 n) + b (ix2 r 0) := by
  unfold kl1_hlT
  rw [addf_apply, mulf_apply, kl1_bcol_apply, broadcastTo_1b_ab_apply,
    slice2_axis0_apply 0 P _ r n (lo128 r) (by show r.val = 0 + r.val; omega)]

/-- The gate's propagated-and-kept rows, rectified, at (row `r`, node `n`). -/
private theorem kl1_catT_apply (H : FVec Ideal S64x256 .f32) (A : FVec Ideal S256x256 .f32) (r : Fin 64) (n : Fin 256) :
    kl1_catT H A (ix2 r n) = relu (if r.val < 32 then ∑ j : Fin 256, A (ix2 n j) * H (ix2 r j) else H (ix2 r n)) := by
  unfold kl1_catT relu
  rw [maximumf_apply, broadcast_apply, kl1_zero]
  congr 1
  by_cases hr : r.val < 32
  · rw [if_pos hr]
    refine (concatenate_pair_apply_left (t := S64x256) (s₁ := S32x256) (s₂ := S32x256) _ _ _ _ (ix2 r n) rfl (ix2 (⟨r.val, hr⟩ : Fin 32) n) (fun b => ?_)).trans ?_
    · match b with
      | ⟨0, _⟩ => rfl
      | ⟨1, _⟩ => rfl
    · rw [kl1_mmA_apply]
      refine Finset.sum_congr rfl fun k _ => ?_
      rw [slice2_axis0_apply 0 H _ (⟨r.val, hr⟩ : Fin 32) k r (by show r.val = 0 + r.val; omega)]
      exact mul_comm _ _
  · rw [if_neg hr]
    have hr64 := r.isLt
    refine (concatenate_pair_apply_right (t := S64x256) (s₁ := S32x256) (s₂ := S32x256) _ _ _ _ (ix2 r n) rfl rfl (ix2 (⟨r.val - 32, by omega⟩ : Fin 32) n)
      (fun b hb => ?_) ?_).trans ?_
    · match b with
      | ⟨0, _⟩ => exact absurd rfl hb
      | ⟨1, _⟩ => rfl
    · show r.val - 32 + 32 = r.val
      omega
    · exact slice2_axis0_apply 32 H _ (⟨r.val - 32, by omega⟩ : Fin 32) n r (by show r.val = 32 + (r.val - 32); omega)

/-- The gate's tail at node `n`. -/
private theorem kl1_tailT_apply (C : FVec Ideal S64x256 .f32) (w : Vec Ideal S64x32 .f32) (b1 b2 : FVec Ideal S32x1 .f32)
    (b3 : FVec Ideal S1x1 .f32) (n : Fin 256) :
    kl1_tailT C w b1 b2 b3 (ix2 0 n)
      = Ideal.logistic ((∑ c : Fin 32, relu ((∑ k : Fin 64, C (ix2 k n) * w (ix2 k c)) + b1 (ix2 c 0)) * b2 (ix2 c 0))
          + b3 (ix2 0 0)) := by
  unfold kl1_tailT
  rw [kl1_logistic_apply, addf_apply, kl1_bcol_apply, shapeCast_a_1a_apply, kl1_rowsum_apply]
  congr 2
  refine Finset.sum_congr rfl fun c _ => ?_
  rw [mulf_apply, maximumf_apply, broadcast_apply, kl1_zero, addf_apply, kl1_bcol_apply, kl1_bcol_apply, kl1_mmC_apply,
    shapeCast_self]
  unfold relu
  congr 3
  refine Finset.sum_congr rfl fun k _ => ?_
  exact mul_comm _ _

/-- THE GATE STRETCH: given that the projection rows 0 … 63 times the previous gate are the product of the scaled
    input `xm` with `l12w`, the stretch computes the specification's gate of `xm`. -/
private theorem kl1_gate_apply (P1 : FVec Ideal S128x256 .f32) (M0 : FVec Ideal S1x256 .f32) (v6 : FVec Ideal S64x1 .f32)
    (v7 v8 : FVec Ideal S32x1 .f32) (v9 : FVec Ideal S1x1 .f32) (v15 : FVec Ideal S256x256 .f32) (v66 : Vec Ideal S64x32 .f32)
    (l12w : Fin 32 → Fin 64 → EReal) (xm : Fin 256 → Fin 32 → EReal)
    (hH : ∀ (r : Fin 64) (n : Fin 256), P1 (ix2 (lo128 r) n) * M0 (ix2 0 n) = mm xm l12w n r) (n : Fin 256) :
    kl1_tailT (kl1_catT (kl1_hlT P1 M0 v6) v15) v66 v7 v8 v9 (ix2 0 n)
      = gate l12w (fun c => v6 (ix2 c 0)) (fun k c => v66 (ix2 k c)) (fun c => v7 (ix2 c 0)) (fun c => v8 (ix2 c 0))
          (v9 (ix2 0 0)) (fun i j => v15 (ix2 i j)) xm n := by
  have hH' : ∀ (r : Fin 64) (n : Fin 256), kl1_hlT P1 M0 v6 (ix2 r n) = gHl l12w (fun c => v6 (ix2 c 0)) xm n r := by
    intro r n
    rw [kl1_hlT_apply, hH]
    rfl
  have hC : ∀ (k : Fin 64) (n : Fin 256), kl1_catT (kl1_hlT P1 M0 v6) v15 (ix2 k n)
      = gCat l12w (fun c => v6 (ix2 c 0)) (fun i j => v15 (ix2 i j)) xm n k := by
    intro k n
    rw [kl1_catT_apply]
    unfold gCat mm
    congr 1
    by_cases hk : k.val < 32
    · rw [if_pos hk, if_pos hk]
      exact Finset.sum_congr rfl fun j _ => by rw [hH']
    · rw [if_neg hk, if_neg hk, hH']
  rw [kl1_tailT_apply]
  unfold gate gatePre gW mm
  refine congrArg (fun z => Ideal.logistic (z + _)) (Finset.sum_congr rfl fun c _ => ?_)
  refine congrArg (fun z => relu (z + _) * _) (Finset.sum_congr rfl fun k _ => ?_)
  rw [hC]

/-- Everything between layer 0's gate and layer 1's convolution, as the transposed kernel computes it. With
    `mask0` the logistic function of the given pre-gate row, `x1` layer 0's rectified convolution read off the
    given projection's rows 64 … 127, and `mask1` the spec's gate of `x1 ⊙ mask0`: the result at (column `c`, node `n`)
    is layer 1's convolution at (`n`, `c`). -/
theorem pay16_apply (v6 : FVec Ideal S64x1 .f32) (v7 v8 : FVec Ideal S32x1 .f32) (v9 : FVec Ideal S1x1 .f32)
    (v15 : FVec Ideal S256x256 .f32) (v18 : FVec Ideal S128x256 .f32) (v40 : FVec Ideal S1x256 .f32)
    (v52 : Vec Ideal S32x128 .f32) (v66 : Vec Ideal S64x32 .f32) (c : Fin 32) (n : Fin 256) :
    k0_pay16 (F := Ideal) v6 v7 v8 v9 v15 v18 v40 v52 v66 (ix2 c n)
      = (let Am : Fin 256 → Fin 256 → EReal := fun i j => v15 (ix2 i j)
         let mask0 : Fin 256 → EReal := fun n => Ideal.logistic (v40 (ix2 0 n))
         let x1 : Fin 256 → Fin 32 → EReal := fun n c => relu (conv Am (fun n c => v18 (ix2 (hi128 c) n)) mask0 n c)
         let mask1 : Fin 256 → EReal :=
           gate (fun k c => v52 (ix2 k (lo128 c))) (fun c => v6 (ix2 c 0)) (fun k c => v66 (ix2 k c))
             (fun c => v7 (ix2 c 0)) (fun c => v8 (ix2 c 0)) (v9 (ix2 0 0)) Am (fun n k => x1 n k * mask0 n)
         conv Am (mm x1 (fun k c => v52 (ix2 k (hi128 c)))) mask1 n c) := by
  rw [kl1_pay16_eq]
  -- layer 0's gate row and rectified convolution (transposed), then the layer-1 projection, each named by what it reads
  have hm0 : ∀ n : Fin 256, logistic v40 (ix2 0 n) = Ideal.logistic (v40 (ix2 0 n)) := fun _ => rfl
  have hx1 : ∀ (n : Fin 256) (k : Fin 32), kl1_relu32 (kl1_convT v15 v18 (logistic v40)) (ix2 k n)
      = relu (conv (fun i j => v15 (ix2 i j)) (fun n c => v18 (ix2 (hi128 c) n))
          (fun n => Ideal.logistic (v40 (ix2 0 n))) n k) := by
    intro n k
    unfold kl1_relu32 relu
    rw [maximumf_apply, broadcast_apply, kl1_zero, kl1_convT_apply]
    rfl
  generalize kl1_relu32 (kl1_convT v15 v18 (logistic v40)) = X1 at hx1 ⊢
  generalize logistic v40 = M0 at hm0 ⊢
  have hfull : ∀ (q : Fin 128) (n : Fin 256), kl1_full1 v52 X1 (ix2 q n) = ∑ k : Fin 32, v52 (ix2 k q) * X1 (ix2 k n) := by
    intro q n
    unfold kl1_full1
    rw [kl1_mmB_apply, shapeCast_self]
  generalize kl1_full1 v52 X1 = P1 at hfull ⊢
  refine (kl1_convT_apply _ _ _ c n).trans ?_
  show conv _ _ _ n c = conv _ _ _ n c
  congr 1
  · -- the projection's rows 64 … 127 are the product of layer 0's output with the convolution weights
    funext n' c'
    rw [hfull]
    unfold mm
    refine Finset.sum_congr rfl fun k _ => ?_
    rw [hx1]
    exact mul_comm _ _
  · -- the gate: the projection's rows 0 … 63 times layer 0's gate are the product of the scaled input
    funext n'
    refine kl1_gate_apply P1 M0 v6 v7 v8 v9 v15 v66 _ _ (fun r n => ?_) n'
    rw [hfull, hm0]
    unfold mm
    refine (kl1_gate_after Finset.univ _ _ _).trans (Finset.sum_congr rfl fun k _ => ?_)
    rw [hx1]

end Cert.KernelIdeal.Smg

end
-- ==== Proof.KerPost.lean ====
import proofs.«126640_g2000103277586728_pallasbulk_447_2_alg».proof.Proof.Gen.KernelIdeal.Skeleton
import proofs.«126640_g2000103277586728_pallasbulk_447_2_alg».proof.Proof.Spec
import Idealize.ShloMosaic.Lib.ValueIdx
import Idealize.ShloMosaic.Lib.ValueLayout
import Idealize.ShloMosaic.PureOps.Ideal.Laws

noncomputable section

open scoped BigOperators

namespace Cert.KernelIdeal.Smg

open Idealize.ShloMosaic Idealize.ShloMosaic.ValueIdx Cert.KernelIdeal Cert.KernelIdeal.Gen SmgSpec

/-- A column `[32, 1]` broadcast over 256 columns reads, at `(c, n)`, the column's entry `c`. -/
private theorem kerpost_bcol (v : FVec Ideal S32x1 .f32) (c : Fin 32) (n : Fin 256) :
    broadcastTo S32x256 v broadcasts_S32x1_S32x256 (ix2 c n) = v (ix2 c (0 : Fin 1)) := by
  refine broadcastTo_apply v broadcasts_S32x1_S32x256 (ix2 c n) (ix2 c (0 : Fin 1)) fun ax => ?_
  match ax with
  | ⟨0, _⟩ => rfl
  | ⟨1, _⟩ => rfl

private theorem kerpost_lhs0 (c : Fin 32) (n : Fin 256) (k : dot_S32x32_S32x256_S32x256_0_0_1_1_n_n.contr.Idx) :
    (dot_S32x32_S32x256_S32x256_0_0_1_1_n_n.lhsIdx (ix2 c n) k 0).val = (k ⟨0, by decide⟩).val :=
  DotDims.lhsIdx_val_of_single _ rfl _ _

private theorem kerpost_lhs1 (c : Fin 32) (n : Fin 256) (k : dot_S32x32_S32x256_S32x256_0_0_1_1_n_n.contr.Idx) :
    (dot_S32x32_S32x256_S32x256_0_0_1_1_n_n.lhsIdx (ix2 c n) k 1).val = c.val := by
  simp [DotDims.lhsIdx, dot_S32x32_S32x256_S32x256_0_0_1_1_n_n]
  rfl

private theorem kerpost_rhs0 (c : Fin 32) (n : Fin 256) (k : dot_S32x32_S32x256_S32x256_0_0_1_1_n_n.contr.Idx) :
    (dot_S32x32_S32x256_S32x256_0_0_1_1_n_n.rhsIdx (ix2 c n) k 0).val = (k ⟨0, by decide⟩).val :=
  DotDims.rhsIdx_val_of_single _ rfl _ _

private theorem kerpost_rhs1 (c : Fin 32) (n : Fin 256) (k : dot_S32x32_S32x256_S32x256_0_0_1_1_n_n.contr.Idx) :
    (dot_S32x32_S32x256_S32x256_0_0_1_1_n_n.rhsIdx (ix2 c n) k 1).val = n.val := by
  simp [DotDims.rhsIdx, dot_S32x32_S32x256_S32x256_0_0_1_1_n_n]
  rfl

/-- The transposed dense layer: entry `(c, n)` of the product contracts both operands' first axis. -/
private theorem kerpost_mm (w : FVec Ideal S32x32 .f32) (x : FVec Ideal S32x256 .f32) (c : Fin 32) (n : Fin 256) :
    matmul dot_S32x32_S32x256_S32x256_0_0_1_1_n_n none w x (constant (F := Ideal) S32x256 .f32 0x00000000#32) (ix2 c n)
      = ∑ k : Fin 32, w (ix2 k c) * x (ix2 k n) := by
  show FloatOps.matmul _ none w x _ (ix2 c n) = _
  rw [Ideal.matmul_constant_zero_apply,
    ← Equiv.sum_comp (contrEquiv1 dot_S32x32_S32x256_S32x256_0_0_1_1_n_n 32 rfl rfl).symm]
  refine Finset.sum_congr rfl fun k _ => ?_
  have hk := contrEquiv1_symm_val dot_S32x32_S32x256_S32x256_0_0_1_1_n_n 32 rfl rfl k
  have hl : dot_S32x32_S32x256_S32x256_0_0_1_1_n_n.lhsIdx (ix2 c n)
      ((contrEquiv1 dot_S32x32_S32x256_S32x256_0_0_1_1_n_n 32 rfl rfl).symm k) = ix2 k c := by
    funext ax; apply Fin.ext
    match ax with
    | ⟨0, _⟩ => exact (kerpost_lhs0 _ _ _).trans hk
    | ⟨1, _⟩ => exact kerpost_lhs1 _ _ _
  have hr : dot_S32x32_S32x256_S32x256_0_0_1_1_n_n.rhsIdx (ix2 c n)
      ((contrEquiv1 dot_S32x32_S32x256_S32x256_0_0_1_1_n_n 32 rfl rfl).symm k) = ix2 k n := by
    funext ax; apply Fin.ext
    match ax with
    | ⟨0, _⟩ => exact (kerpost_rhs0 _ _ _).trans hk
    | ⟨1, _⟩ => exact kerpost_rhs1 _ _ _
  rw [hl, hr]

/-- The zero word is the extended real zero. -/
private theorem kerpost_zero : (Scalar.ofBits .f32 0x00000000#32 : Ideal .f32) = (0 : EReal) := Ideal.ofBits_zero_f32

/-- One transposed dense layer with its bias column, read at `(c, n)`: the matrix product in the order
    (row operand) * (column operand), plus the bias entry `c`. -/
private theorem kerpost_dense (w : FVec Ideal S32x32 .f32) (b : FVec Ideal S32x1 .f32) (x : FVec Ideal S32x256 .f32)
    (c : Fin 32) (n : Fin 256) :
    addf (matmul dot_S32x32_S32x256_S32x256_0_0_1_1_n_n none w x
        (constant (F := Ideal) S32x256 .f32 0x00000000#32)) (broadcastTo S32x256 b broadcasts_S32x1_S32x256) (ix2 c n)
      = (∑ k : Fin 32, x (ix2 k n) * w (ix2 k c)) + b (ix2 c (0 : Fin 1)) := by
  rw [addf_apply, kerpost_mm, kerpost_bcol]
  exact congrArg (· + b (ix2 c (0 : Fin 1))) (Finset.sum_congr rfl fun k _ => mul_comm _ _)

/-- The rectifier and the two dense layers, as the transposed kernel computes them, transposed back on the way out. -/
theorem pay17_apply (v10 v11 : FVec Ideal S32x1 .f32) (v87 : FVec Ideal S32x256 .f32) (v90 : Vec Ideal S32x32 .f32)
    (v97 : Vec Ideal S1x256x32 .f32) (v101 : Vec Ideal S32x32 .f32) (n : Fin 256) (c : Fin 32) :
    k0_pay17 (F := Ideal) v10 v11 v87 v90 v97 v101 (ix3 0 n c)
      = post (fun k c => v90 (ix2 k c)) (fun c => v10 (ix2 c 0)) (fun k c => v101 (ix2 k c)) (fun c => v11 (ix2 c 0))
          (fun n c => v87 (ix2 c n)) (fun n k => v97 (ix3 0 n k)) n c := by
  unfold k0_pay17
  rw [shapeCast_self, shapeCast_self, shapeCast_ab_1ab_apply, transpose_ix2_apply, kerpost_dense]
  unfold SmgSpec.post SmgSpec.mm
  refine congrArg (· + v11 (ix2 c (0 : Fin 1))) (Finset.sum_congr rfl fun k _ => ?_)
  rw [mulf_apply, maximumf_apply, kerpost_dense, broadcast_apply, transpose_ix2_apply, shapeCast_1ab_ab_apply, kerpost_zero]
  unfold SmgSpec.relu
  refine congrArg (fun z => max (z + v10 (ix2 k (0 : Fin 1))) 0 * v97 (ix3 (0 : Fin 1) n k) * v101 (ix2 k c))
    (Finset.sum_congr rfl fun j _ => ?_)
  rw [maximumf_apply, broadcast_apply]

end Cert.KernelIdeal.Smg

end
-- ==== Proof.KerCompose.lean ====
import proofs.«126640_g2000103277586728_pallasbulk_447_2_alg».proof.Proof.KGraph
import proofs.«126640_g2000103277586728_pallasbulk_447_2_alg».proof.Proof.KerParams
import proofs.«126640_g2000103277586728_pallasbulk_447_2_alg».proof.Proof.KerGate0
import proofs.«126640_g2000103277586728_pallasbulk_447_2_alg».proof.Proof.KerLayer1
import proofs.«126640_g2000103277586728_pallasbulk_447_2_alg».proof.Proof.KerPost

noncomputable section

open scoped BigOperators

namespace Cert.KernelIdeal.Smg

open Idealize.ShloMosaic Idealize.ShloMosaic.ValueIdx Cert.KernelIdeal Cert.KernelIdeal.Gen SmgSpec

/-- The convolution's projection of layer 0, read off rows 64 … 127 of the transposed shared projection: the product of
    the features with the second half of the stacked weights. -/
private theorem kercompose_proj0 (xg : Vec Ideal S1x256x16 .f32) (W0 : Vec Ideal S16x128 .f32) (W1 : Vec Ideal S32x128 .f32)
    (M10 M11 : Vec Ideal S64x32 .f32) (P1 P2 : Vec Ideal S32x32 .f32) (aux : Vec Ideal S64x16 .f32) :
    (fun (n : Fin 256) (c : Fin 64) => k0_pay14 (F := Ideal) xg W0 (ix2 (hi128 c) n))
      = SmgSpec.mm (fun n k => xg (ix3 0 n k)) (kerParams W0 W1 M10 M11 P1 P2 aux).wl0 := by
  funext n c
  rw [pay14_apply]
  unfold SmgSpec.mm
  exact Finset.sum_congr rfl fun k _ => mul_comm _ _

/-- Layer 0's gate: the logistic function of the transposed kernel's pre-gate row. -/
private theorem kercompose_mask0 (xg : Vec Ideal S1x256x16 .f32) (Ag : Vec Ideal S1x256x256 .f32)
    (W0 : Vec Ideal S16x128 .f32) (W1 : Vec Ideal S32x128 .f32)
    (M10 M11 : Vec Ideal S64x32 .f32) (P1 P2 : Vec Ideal S32x32 .f32) (aux : Vec Ideal S64x16 .f32)
    (n : Fin 256) :
    Ideal.logistic (k0_pay15 (F := Ideal) aux xg Ag W0 M10 (ix2 0 n))
      = SmgSpec.mask0 (kerParams W0 W1 M10 M11 P1 P2 aux) (fun n k => xg (ix3 0 n k)) (fun n j => Ag (ix3 0 n j)) n := by
  rw [pay15_apply]
  rfl

/-- One graph's block as the transposed kernel computes it, read at (node `n`, column `c`): the network's output for that
    graph, with the parameters read off the kernel's operands. -/
theorem graphT_apply (aux : Vec Ideal S64x16 .f32) (xg : Vec Ideal S1x256x16 .f32) (Ag : Vec Ideal S1x256x256 .f32)
    (W0 : Vec Ideal S16x128 .f32) (M10 : Vec Ideal S64x32 .f32) (W1 : Vec Ideal S32x128 .f32) (M11 : Vec Ideal S64x32 .f32)
    (P1 : Vec Ideal S32x32 .f32) (dg : Vec Ideal S1x256x32 .f32) (P2 : Vec Ideal S32x32 .f32) (n : Fin 256) (c : Fin 32) :
    graphT (F := Ideal) aux xg Ag W0 M10 W1 M11 P1 dg P2 (ix3 0 n c)
      = out (kerParams W0 W1 M10 M11 P1 P2 aux) (fun n k => xg (ix3 0 n k)) (fun n j => Ag (ix3 0 n j))
          (fun n k => dg (ix3 0 n k)) n c := by
  have h7 : (fun c : Fin 64 => k0_pay7 (F := Ideal) aux (ix2 c 0)) = fun c => aux (ix2 c 4) := funext fun c => pay7_apply aux c
  have h8 : (fun c : Fin 32 => k0_pay8 (F := Ideal) aux (ix2 c 0)) = fun c => aux (ix2 (lo c) 5) := funext fun c => pay8_apply aux c
  have h9 : (fun c : Fin 32 => k0_pay9 (F := Ideal) aux (ix2 c 0)) = fun c => aux (ix2 (lo c) 6) := funext fun c => pay9_apply aux c
  have h11 : (fun c : Fin 32 => k0_pay11 (F := Ideal) aux (ix2 c 0)) = fun c => aux (ix2 (lo c) 8) := funext fun c => pay11_apply aux c
  have h12 : (fun c : Fin 32 => k0_pay12 (F := Ideal) aux (ix2 c 0)) = fun c => aux (ix2 (lo c) 9) := funext fun c => pay12_apply aux c
  have h13 : (fun i j : Fin 256 => k0_pay13 (F := Ideal) Ag (ix2 i j)) = fun i j => Ag (ix3 0 i j) :=
    funext fun i => funext fun j => pay13_apply Ag i j
  have h16 : (fun (n : Fin 256) (c : Fin 32) =>
        k0_pay16 (F := Ideal) (k0_pay7 aux) (k0_pay8 aux) (k0_pay9 aux) (k0_pay10 aux) (k0_pay13 Ag) (k0_pay14 xg W0)
          (k0_pay15 aux xg Ag W0 M10) W1 M11 (ix2 c n))
      = SmgSpec.x2pre (kerParams W0 W1 M10 M11 P1 P2 aux) (fun n k => xg (ix3 0 n k)) (fun n j => Ag (ix3 0 n j)) := by
    funext n c
    rw [pay16_apply]
    simp only []
    rw [h7, h8, h9, h13, pay10_apply, kercompose_proj0 xg W0 W1 M10 M11 P1 P2 aux]
    simp only [kercompose_mask0 xg Ag W0 W1 M10 M11 P1 P2 aux]
    rfl
  unfold graphT
  rw [pay17_apply, h11, h12, h16]
  rfl

end Cert.KernelIdeal.Smg

end
-- ==== Proof.LibHostIndexed.lean ====
import Idealize.ShloMosaic.PureOps.Ideal
import Idealize.ShloMosaic.PureOps.Contract
import Idealize.ShloMosaic.PureOps.ShapeOps
import Idealize.ShloMosaic.Lib.ValueIdx

/-!
  Host operations READ AT AN INDEX, at the ideal instance (float values are extended reals) or
  at any element type: a float scatter-add whose scatter indices pick a row (rank 2) or an
  element (rank 1) of the operand; an element gathered by a pair of start indices; a
  concatenation of rows or of columns; a zero-low, no-interior padding read inside the original
  extent; and a relation mask (an integer comparison converted to a float) as `0` or `1`.

  Each lemma is stated for an arbitrary dimension record of literal shapes whose fields are
  given by equations; indices are written by coordinates (`ix1`, `ix2`).
-/

namespace Cert.LibHostIndexed

open Idealize.ShloMosaic Idealize.ShloMosaic.ValueIdx
open scoped BigOperators

/-! ## A float scatter-add read at an index -/

/-- An update index `q` lands on operand index `t` exactly when, on every operand axis, the start
    read off the scatter indices plus `q`'s window coordinate is `t`'s coordinate: in range then holds
    by itself, since `t`'s coordinate is. -/
theorem resultIdx?_eq_some_iff {s si u : Shape} {w : ℕ} (d : ScatterDims s si u) (q : u.Idx) (idx : IVec si w)
    (t : s.Idx) :
    d.resultIdx? q idx = some t ↔ ∀ a, d.start q idx a + (d.window q a : ℤ) = ((t a).val : ℤ) := by
  unfold ScatterDims.resultIdx?
  constructor
  · intro h a
    split at h
    · rename_i hr
      have he := congrArg (fun f => (f a).val) (Option.some.inj h)
      simp only at he
      have := hr a
      omega
    · exact absurd h (by simp)
  · intro h
    have hr : ∀ a, 0 ≤ d.start q idx a + (d.window q a : ℤ)
        ∧ d.start q idx a + (d.window q a : ℤ) < (s.size a : ℤ) := by
      intro a
      have := (t a).isLt
      rw [h a]
      omega
    rw [dif_pos hr]
    congr 1
    funext a
    refine Fin.ext ?_
    show (d.start q idx a + (d.window q a : ℤ)).toNat = (t a).val
    rw [h a, Int.toNat_natCast]

section Rows
variable {N D E w : ℕ}

/-- Rows scatter: on the row axis the start of update `(e, k)` is the scatter index `idx[e, 0]`, read signed. -/
theorem rows_start0 (d : ScatterDims ⟨2, ![N, D]⟩ ⟨2, ![E, 1]⟩ ⟨2, ![E, D]⟩)
    (hU : d.updateWindowDims = [1]) (hI : d.insertedWindowDims = [0])
    (hS : d.scatterDimsToOperandDims = [0]) (hV : d.indexVectorDim = 1)
    (idx : IVec ⟨2, ![E, 1]⟩ w) (q : (⟨2, ![E, D]⟩ : Shape).Idx) :
    d.start q idx 0 = (idx (ix2 (q 0) 0)).toInt := by
  obtain ⟨uw, iw, sd, iv, wf⟩ := d
  simp only at hU hI hS hV
  subst hU hI hS hV
  unfold ScatterDims.start
  rw [dif_pos (List.mem_singleton.mpr rfl)]
  congr 2
  funext b; refine Fin.ext ?_
  match b with
  | ⟨0, _⟩ => rfl
  | ⟨1, _⟩ => rfl

/-- Rows scatter: the column axis is not named by the index map, so its start is `0`. -/
theorem rows_start1 (d : ScatterDims ⟨2, ![N, D]⟩ ⟨2, ![E, 1]⟩ ⟨2, ![E, D]⟩)
    (hU : d.updateWindowDims = [1]) (hI : d.insertedWindowDims = [0])
    (hS : d.scatterDimsToOperandDims = [0]) (hV : d.indexVectorDim = 1)
    (idx : IVec ⟨2, ![E, 1]⟩ w) (q : (⟨2, ![E, D]⟩ : Shape).Idx) :
    d.start q idx 1 = 0 := by
  obtain ⟨uw, iw, sd, iv, wf⟩ := d
  simp only at hU hI hS hV
  subst hU hI hS hV
  unfold ScatterDims.start
  rw [dif_neg (fun h => Nat.one_ne_zero (congrArg Fin.val (List.mem_singleton.1 h)))]

/-- Rows scatter: the row axis is an inserted window axis, so its window coordinate is `0`. -/
theorem rows_window0 (d : ScatterDims ⟨2, ![N, D]⟩ ⟨2, ![E, 1]⟩ ⟨2, ![E, D]⟩)
    (hU : d.updateWindowDims = [1]) (hI : d.insertedWindowDims = [0])
    (hS : d.scatterDimsToOperandDims = [0]) (hV : d.indexVectorDim = 1)
    (q : (⟨2, ![E, D]⟩ : Shape).Idx) :
    d.window q 0 = 0 := by
  obtain ⟨uw, iw, sd, iv, wf⟩ := d
  simp only at hU hI hS hV
  subst hU hI hS hV
  unfold ScatterDims.window
  rw [dif_neg (by simp [ScatterDims.sKept, Shape.kept])]

/-- Rows scatter: on the column axis the window coordinate of update `(e, k)` is `k`. -/
theorem rows_window1 (d : ScatterDims ⟨2, ![N, D]⟩ ⟨2, ![E, 1]⟩ ⟨2, ![E, D]⟩)
    (hU : d.updateWindowDims = [1]) (hI : d.insertedWindowDims = [0])
    (hS : d.scatterDimsToOperandDims = [0]) (hV : d.indexVectorDim = 1)
    (q : (⟨2, ![E, D]⟩ : Shape).Idx) :
    d.window q 1 = (q 1).val := by
  obtain ⟨uw, iw, sd, iv, wf⟩ := d
  simp only at hU hI hS hV
  subst hU hI hS hV
  unfold ScatterDims.window
  rw [dif_pos (by simp [ScatterDims.sKept, Shape.kept])]
  rfl

/-- Rows scatter: update `(e, k)` lands on `(i, j)` exactly when `idx[e, 0]`, read signed, is `i` and `k = j`
    (it lands at `(idx[e, 0] + 0, 0 + k)`, and is dropped when that is out of range). -/
theorem rows_resultIdx?_iff (d : ScatterDims ⟨2, ![N, D]⟩ ⟨2, ![E, 1]⟩ ⟨2, ![E, D]⟩)
    (hU : d.updateWindowDims = [1]) (hI : d.insertedWindowDims = [0])
    (hS : d.scatterDimsToOperandDims = [0]) (hV : d.indexVectorDim = 1)
    (idx : IVec ⟨2, ![E, 1]⟩ w) (q : (⟨2, ![E, D]⟩ : Shape).Idx) (i : Fin N) (j : Fin D) :
    d.resultIdx? q idx = some (ix2 i j) ↔ (idx (ix2 (q 0) 0)).toInt = (i.val : ℤ) ∧ q 1 = j := by
  rw [resultIdx?_eq_some_iff]
  constructor
  · intro h
    have h0 : d.start q idx 0 + (d.window q 0 : ℤ) = (i.val : ℤ) := h 0
    have h1 : d.start q idx 1 + (d.window q 1 : ℤ) = (j.val : ℤ) := h 1
    rw [rows_start0 d hU hI hS hV, rows_window0 d hU hI hS hV] at h0
    rw [rows_start1 d hU hI hS hV, rows_window1 d hU hI hS hV] at h1
    refine ⟨?_, Fin.ext ?_⟩
    · simpa using h0
    · have : ((q 1).val : ℤ) = (j.val : ℤ) := by simpa using h1
      exact_mod_cast this
  · rintro ⟨h0, h1⟩ a
    match a with
    | ⟨0, _⟩ =>
      show d.start q idx 0 + (d.window q 0 : ℤ) = (i.val : ℤ)
      rw [rows_start0 d hU hI hS hV, rows_window0 d hU hI hS hV, h0]; simp
    | ⟨1, _⟩ =>
      show d.start q idx 1 + (d.window q 1 : ℤ) = (j.val : ℤ)
      rw [rows_start1 d hU hI hS hV, rows_window1 d hU hI hS hV, h1]; simp

/-- ROWS SCATTER-ADD AT `(i, j)`: the operand's element plus the sum, over the updates `e` whose scatter
    index `idx[e, 0]` (read signed) is `i`, of `upd[e, j]`. The updates landing on `(i, j)` are the `(e, j)` with
    `idx[e, 0] = i`; the sum over that set of rank-2 update indices is re-indexed by `e`. -/
theorem scatterAdd_rows_apply {φ : FTy} (d : ScatterDims ⟨2, ![N, D]⟩ ⟨2, ![E, 1]⟩ ⟨2, ![E, D]⟩)
    (hU : d.updateWindowDims = [1]) (hI : d.insertedWindowDims = [0])
    (hS : d.scatterDimsToOperandDims = [0]) (hV : d.indexVectorDim = 1)
    (x : FVec Ideal ⟨2, ![N, D]⟩ φ) (idx : IVec ⟨2, ![E, 1]⟩ w) (upd : FVec Ideal ⟨2, ![E, D]⟩ φ)
    (i : Fin N) (j : Fin D) :
    Host.scatterAdd (F := Ideal) d x idx upd (ix2 i j)
      = x (ix2 i j) + ∑ e ∈ Finset.univ.filter (fun e : Fin E => (idx (ix2 e 0)).toInt = (i.val : ℤ)), upd (ix2 e j) := by
  show x (ix2 i j) + ∑ q ∈ Finset.univ.filter (fun q => d.resultIdx? q idx = some (ix2 i j)), upd q = _
  congr 1
  refine Finset.sum_nbij' (fun q => q 0) (fun e => ix2 e j) ?_ ?_ ?_ ?_ ?_
  · intro q hq
    exact Finset.mem_filter.2 ⟨Finset.mem_univ _,
      ((rows_resultIdx?_iff d hU hI hS hV idx q i j).1 (Finset.mem_filter.1 hq).2).1⟩
  · intro e he
    exact Finset.mem_filter.2 ⟨Finset.mem_univ _,
      (rows_resultIdx?_iff d hU hI hS hV idx (ix2 e j) i j).2 ⟨(Finset.mem_filter.1 he).2, rfl⟩⟩
  · intro q hq
    have h1 : q 1 = j := ((rows_resultIdx?_iff d hU hI hS hV idx q i j).1 (Finset.mem_filter.1 hq).2).2
    subst h1; exact (eq_ix2 q).symm
  · intro e _; rfl
  · intro q hq
    have h1 : q 1 = j := ((rows_resultIdx?_iff d hU hI hS hV idx q i j).1 (Finset.mem_filter.1 hq).2).2
    subst h1; exact congrArg upd (eq_ix2 q)

end Rows

section Flat
variable {N E w : ℕ}

/-- Flat scatter: the start of update `e` on the one operand axis is the scatter index `idx[e, 0]`, read signed. -/
theorem flat_start0 (d : ScatterDims ⟨1, ![N]⟩ ⟨2, ![E, 1]⟩ ⟨1, ![E]⟩)
    (hU : d.updateWindowDims = []) (hI : d.insertedWindowDims = [0])
    (hS : d.scatterDimsToOperandDims = [0]) (hV : d.indexVectorDim = 1)
    (idx : IVec ⟨2, ![E, 1]⟩ w) (q : (⟨1, ![E]⟩ : Shape).Idx) :
    d.start q idx 0 = (idx (ix2 (q 0) 0)).toInt := by
  obtain ⟨uw, iw, sd, iv, wf⟩ := d
  simp only at hU hI hS hV
  subst hU hI hS hV
  unfold ScatterDims.start
  rw [dif_pos (List.mem_singleton.mpr rfl)]
  congr 2
  funext b; refine Fin.ext ?_
  match b with
  | ⟨0, _⟩ => rfl
  | ⟨1, _⟩ => rfl

/-- Flat scatter: the one operand axis is an inserted window axis, so its window coordinate is `0`. -/
theorem flat_window0 (d : ScatterDims ⟨1, ![N]⟩ ⟨2, ![E, 1]⟩ ⟨1, ![E]⟩)
    (hU : d.updateWindowDims = []) (hI : d.insertedWindowDims = [0])
    (hS : d.scatterDimsToOperandDims = [0]) (hV : d.indexVectorDim = 1)
    (q : (⟨1, ![E]⟩ : Shape).Idx) :
    d.window q 0 = 0 := by
  obtain ⟨uw, iw, sd, iv, wf⟩ := d
  simp only at hU hI hS hV
  subst hU hI hS hV
  unfold ScatterDims.window
  rw [dif_neg (by simp [ScatterDims.sKept, Shape.kept])]

/-- Flat scatter: update `e` lands on `i` exactly when `idx[e, 0]`, read signed, is `i`. -/
theorem flat_resultIdx?_iff (d : ScatterDims ⟨1, ![N]⟩ ⟨2, ![E, 1]⟩ ⟨1, ![E]⟩)
    (hU : d.updateWindowDims = []) (hI : d.insertedWindowDims = [0])
    (hS : d.scatterDimsToOperandDims = [0]) (hV : d.indexVectorDim = 1)
    (idx : IVec ⟨2, ![E, 1]⟩ w) (q : (⟨1, ![E]⟩ : Shape).Idx) (i : Fin N) :
    d.resultIdx? q idx = some (ix1 i) ↔ (idx (ix2 (q 0) 0)).toInt = (i.val : ℤ) := by
  rw [resultIdx?_eq_some_iff]
  constructor
  · intro h
    have h0 : d.start q idx 0 + (d.window q 0 : ℤ) = (i.val : ℤ) := h 0
    rw [flat_start0 d hU hI hS hV, flat_window0 d hU hI hS hV] at h0
    simpa using h0
  · intro h0 a
    match a with
    | ⟨0, _⟩ =>
      show d.start q idx 0 + (d.window q 0 : ℤ) = (i.val : ℤ)
      rw [flat_start0 d hU hI hS hV, flat_window0 d hU hI hS hV, h0]; simp

/-- FLAT SCATTER-ADD AT `i`: the operand's element plus the sum, over the updates `e` whose scatter index
    `idx[e, 0]` (read signed) is `i`, of `upd[e]`. -/
theorem scatterAdd_flat_apply {φ : FTy} (d : ScatterDims ⟨1, ![N]⟩ ⟨2, ![E, 1]⟩ ⟨1, ![E]⟩)
    (hU : d.updateWindowDims = []) (hI : d.insertedWindowDims = [0])
    (hS : d.scatterDimsToOperandDims = [0]) (hV : d.indexVectorDim = 1)
    (x : FVec Ideal ⟨1, ![N]⟩ φ) (idx : IVec ⟨2, ![E, 1]⟩ w) (upd : FVec Ideal ⟨1, ![E]⟩ φ) (i : Fin N) :
    Host.scatterAdd (F := Ideal) d x idx upd (ix1 i)
      = x (ix1 i) + ∑ e ∈ Finset.univ.filter (fun e : Fin E => (idx (ix2 e 0)).toInt = (i.val : ℤ)), upd (ix1 e) := by
  show x (ix1 i) + ∑ q ∈ Finset.univ.filter (fun q => d.resultIdx? q idx = some (ix1 i)), upd q = _
  congr 1
  refine Finset.sum_nbij' (fun q => q 0) (fun e => ix1 e) ?_ ?_ ?_ ?_ ?_
  · intro q hq
    exact Finset.mem_filter.2 ⟨Finset.mem_univ _,
      (flat_resultIdx?_iff d hU hI hS hV idx q i).1 (Finset.mem_filter.1 hq).2⟩
  · intro e he
    exact Finset.mem_filter.2 ⟨Finset.mem_univ _,
      (flat_resultIdx?_iff d hU hI hS hV idx (ix1 e) i).2 (Finset.mem_filter.1 he).2⟩
  · intro q _; exact (eq_ix1 q).symm
  · intro e _; rfl
  · intro q _; exact congrArg upd (eq_ix1 q)

end Flat

/-! ## One element gathered by a pair of start indices -/

section Pair
variable {α : Type} {R N E w : ℕ}

/-- Pair gather: the start on the row axis for result index `e` is the start index's first component
    `idx[e, 0]`, read signed and clamped into `[0, R − 1]`. -/
theorem pair_start0 (d : GatherDims ⟨2, ![R, N]⟩ ⟨2, ![E, 2]⟩ ⟨1, ![E]⟩)
    (hO : d.offsetDims = []) (hC : d.collapsedSliceDims = [0, 1]) (hB : d.operandBatchingDims = [])
    (hSB : d.startIndicesBatchingDims = []) (hM : d.startIndexMap = [0, 1]) (hV : d.indexVectorDim = 1)
    (hSl : d.sliceSizes = ![1, 1]) (idx : IVec ⟨2, ![E, 2]⟩ w) (e : Fin E) :
    d.start (ix1 e) idx 0 = min (idx (ix2 e 0)).toInt.toNat (R - 1) := by
  obtain ⟨od, cd, ob, sb, sm, iv, ss, wf⟩ := d
  simp only at hO hC hB hSB hM hV hSl
  subst hO hC hB hSB hM hV hSl
  unfold GatherDims.start
  rw [dif_pos (List.mem_cons_self)]
  congr 3
  congr 1
  funext b; refine Fin.ext ?_
  match b with
  | ⟨0, _⟩ => rfl
  | ⟨1, _⟩ => rfl

/-- Pair gather: the start on the column axis for result index `e` is the start index's second
    component `idx[e, 1]`, read signed and clamped into `[0, N − 1]`. -/
theorem pair_start1 (d : GatherDims ⟨2, ![R, N]⟩ ⟨2, ![E, 2]⟩ ⟨1, ![E]⟩)
    (hO : d.offsetDims = []) (hC : d.collapsedSliceDims = [0, 1]) (hB : d.operandBatchingDims = [])
    (hSB : d.startIndicesBatchingDims = []) (hM : d.startIndexMap = [0, 1]) (hV : d.indexVectorDim = 1)
    (hSl : d.sliceSizes = ![1, 1]) (idx : IVec ⟨2, ![E, 2]⟩ w) (e : Fin E) :
    d.start (ix1 e) idx 1 = min (idx (ix2 e 1)).toInt.toNat (N - 1) := by
  obtain ⟨od, cd, ob, sb, sm, iv, ss, wf⟩ := d
  simp only at hO hC hB hSB hM hV hSl
  subst hO hC hB hSB hM hV hSl
  unfold GatherDims.start
  rw [dif_pos (List.mem_cons_of_mem _ List.mem_cons_self)]
  congr 3
  congr 1
  funext b; refine Fin.ext ?_
  match b with
  | ⟨0, _⟩ => rfl
  | ⟨1, _⟩ => rfl

/-- PAIR GATHER AT `e`: with both components of the start index in range (`idx[e, 0] = r`,
    `idx[e, 1] = i`, so the clamp is the identity), the result is the operand at `(r, i)`: both operand
    axes are collapsed, so there is no offset and no batching coordinate. -/
theorem gather_pair_apply (d : GatherDims ⟨2, ![R, N]⟩ ⟨2, ![E, 2]⟩ ⟨1, ![E]⟩)
    (hO : d.offsetDims = []) (hC : d.collapsedSliceDims = [0, 1]) (hB : d.operandBatchingDims = [])
    (hSB : d.startIndicesBatchingDims = []) (hM : d.startIndexMap = [0, 1]) (hV : d.indexVectorDim = 1)
    (hSl : d.sliceSizes = ![1, 1])
    (x : (⟨2, ![R, N]⟩ : Shape).Idx → α) (idx : IVec ⟨2, ![E, 2]⟩ w) (e : Fin E) (r : Fin R) (i : Fin N)
    (hr : (idx (ix2 e 0)).toInt = (r.val : ℤ)) (hi : (idx (ix2 e 1)).toInt = (i.val : ℤ)) :
    Host.gather d x idx (ix1 e) = x (ix2 r i) := by
  unfold Host.gather
  congr 1
  funext a
  refine Fin.ext ?_
  have hb : d.batchCoord (ix1 e) a = 0 := d.batchCoord_eq_zero _ a (by rw [hB]; exact List.not_mem_nil)
  have ho : d.offCoord (ix1 e) a = 0 := d.offCoord_eq_zero _ a (fun h => ((d.mem_sKept a).1 h).1 (by
    rw [hC]
    match a with
    | ⟨0, _⟩ => exact List.mem_cons_self
    | ⟨1, _⟩ => exact List.mem_cons_of_mem _ List.mem_cons_self))
  show d.start (ix1 e) idx a + d.batchCoord (ix1 e) a + d.offCoord (ix1 e) a = (ix2 r i a).val
  rw [hb, ho, Nat.add_zero]
  match a with
  | ⟨0, _⟩ =>
    show d.start (ix1 e) idx 0 = r.val
    rw [pair_start0 d hO hC hB hSB hM hV hSl, hr, Int.toNat_natCast]
    have := r.isLt; omega
  | ⟨1, _⟩ =>
    show d.start (ix1 e) idx 1 = i.val
    rw [pair_start1 d hO hC hB hSB hM hV hSl, hi, Int.toNat_natCast]
    have := i.isLt; omega

end Pair

/-! ## A concatenation read at an index -/

section Concat
variable {α : Type}

/-- Three `[1, N]` rows joined along axis 0, read in row 0: the first row. -/
theorem concat3_rows_apply0 {N : ℕ} (a b c : (⟨2, ![1, N]⟩ : Shape).Idx → α)
    (h : Shape.Concatenates
      (([⟨⟨2, ![1, N]⟩, a⟩, ⟨⟨2, ![1, N]⟩, b⟩, ⟨⟨2, ![1, N]⟩, c⟩] : List ((s : Shape) × (s.Idx → α))).map (·.1))
      ⟨2, ![3, N]⟩ 0) (i : Fin N) :
    concatenate ⟨2, ![3, N]⟩ 0 [⟨⟨2, ![1, N]⟩, a⟩, ⟨⟨2, ![1, N]⟩, b⟩, ⟨⟨2, ![1, N]⟩, c⟩] h (ix2 0 i) = a (ix2 0 i) := by
  show a _ = a _
  congr 1
  funext k; refine Fin.ext ?_
  match k with
  | ⟨0, _⟩ => rfl
  | ⟨1, _⟩ => rfl

/-- … read in row 1: the second row. -/
theorem concat3_rows_apply1 {N : ℕ} (a b c : (⟨2, ![1, N]⟩ : Shape).Idx → α)
    (h : Shape.Concatenates
      (([⟨⟨2, ![1, N]⟩, a⟩, ⟨⟨2, ![1, N]⟩, b⟩, ⟨⟨2, ![1, N]⟩, c⟩] : List ((s : Shape) × (s.Idx → α))).map (·.1))
      ⟨2, ![3, N]⟩ 0) (i : Fin N) :
    concatenate ⟨2, ![3, N]⟩ 0 [⟨⟨2, ![1, N]⟩, a⟩, ⟨⟨2, ![1, N]⟩, b⟩, ⟨⟨2, ![1, N]⟩, c⟩] h (ix2 1 i) = b (ix2 0 i) := by
  show b _ = b _
  congr 1
  funext k; refine Fin.ext ?_
  match k with
  | ⟨0, _⟩ => rfl
  | ⟨1, _⟩ => rfl

/-- … read in row 2: the third row. -/
theorem concat3_rows_apply2 {N : ℕ} (a b c : (⟨2, ![1, N]⟩ : Shape).Idx → α)
    (h : Shape.Concatenates
      (([⟨⟨2, ![1, N]⟩, a⟩, ⟨⟨2, ![1, N]⟩, b⟩, ⟨⟨2, ![1, N]⟩, c⟩] : List ((s : Shape) × (s.Idx → α))).map (·.1))
      ⟨2, ![3, N]⟩ 0) (i : Fin N) :
    concatenate ⟨2, ![3, N]⟩ 0 [⟨⟨2, ![1, N]⟩, a⟩, ⟨⟨2, ![1, N]⟩, b⟩, ⟨⟨2, ![1, N]⟩, c⟩] h (ix2 2 i) = c (ix2 0 i) := by
  show c _ = c _
  congr 1
  funext k; refine Fin.ext ?_
  match k with
  | ⟨0, _⟩ => rfl
  | ⟨1, _⟩ => rfl

/-- Two `[E, 1]` columns joined along axis 1, read in column 0: the first column. -/
theorem concat2_cols_apply0 {E : ℕ} (a b : (⟨2, ![E, 1]⟩ : Shape).Idx → α)
    (h : Shape.Concatenates
      (([⟨⟨2, ![E, 1]⟩, a⟩, ⟨⟨2, ![E, 1]⟩, b⟩] : List ((s : Shape) × (s.Idx → α))).map (·.1)) ⟨2, ![E, 2]⟩ 1)
    (e : Fin E) :
    concatenate ⟨2, ![E, 2]⟩ 1 [⟨⟨2, ![E, 1]⟩, a⟩, ⟨⟨2, ![E, 1]⟩, b⟩] h (ix2 e 0) = a (ix2 e 0) := by
  show a _ = a _
  congr 1
  funext k; refine Fin.ext ?_
  match k with
  | ⟨0, _⟩ => rfl
  | ⟨1, _⟩ => rfl

/-- … read in column 1: the second column. -/
theorem concat2_cols_apply1 {E : ℕ} (a b : (⟨2, ![E, 1]⟩ : Shape).Idx → α)
    (h : Shape.Concatenates
      (([⟨⟨2, ![E, 1]⟩, a⟩, ⟨⟨2, ![E, 1]⟩, b⟩] : List ((s : Shape) × (s.Idx → α))).map (·.1)) ⟨2, ![E, 2]⟩ 1)
    (e : Fin E) :
    concatenate ⟨2, ![E, 2]⟩ 1 [⟨⟨2, ![E, 1]⟩, a⟩, ⟨⟨2, ![E, 1]⟩, b⟩] h (ix2 e 1) = b (ix2 e 0) := by
  show b _ = b _
  congr 1
  funext k; refine Fin.ext ?_
  match k with
  | ⟨0, _⟩ => rfl
  | ⟨1, _⟩ => rfl

end Concat

/-! ## A padding read inside the original extent -/

section Pad
variable {α : Type}

/-- Rows padded at the end only (no low padding, no interior padding), read at a row of the original
    extent: the operand's element. -/
theorem pad_rows_apply {E E' D p : ℕ} {u : Shape} (x : (⟨2, ![E, D]⟩ : Shape).Idx → α) (v : u.Idx → α)
    (hp : (⟨2, ![E, D]⟩ : Shape).Pads ![0, 0] ![p, 0] ![0, 0] ⟨2, ![E', D]⟩) (hv : 0 < u.numel)
    (e' : Fin E') (e : Fin E) (k : Fin D) (hee : e'.val = e.val) :
    pad ⟨2, ![E', D]⟩ ![0, 0] ![p, 0] ![0, 0] x v hp hv (ix2 e' k) = x (ix2 e k) := by
  unfold pad
  split
  · congr 1
    funext a; refine Fin.ext ?_
    match a with
    | ⟨0, _⟩ =>
      show (e'.val - 0) / (0 + 1) = e.val
      rw [Nat.sub_zero, Nat.zero_add, Nat.div_one, hee]
    | ⟨1, _⟩ =>
      show (k.val - 0) / (0 + 1) = k.val
      rw [Nat.sub_zero, Nat.zero_add, Nat.div_one]
  · rename_i hn
    refine absurd (fun a => ?_) hn
    match a with
    | ⟨0, _⟩ =>
      show 0 ≤ e'.val ∧ (e'.val - 0) % (0 + 1) = 0 ∧ (e'.val - 0) / (0 + 1) < E
      have := e.isLt
      refine ⟨Nat.zero_le _, Nat.mod_one _, ?_⟩
      rw [Nat.sub_zero, Nat.zero_add, Nat.div_one, hee]; exact this
    | ⟨1, _⟩ =>
      show 0 ≤ k.val ∧ (k.val - 0) % (0 + 1) = 0 ∧ (k.val - 0) / (0 + 1) < D
      refine ⟨Nat.zero_le _, Nat.mod_one _, ?_⟩
      rw [Nat.sub_zero, Nat.zero_add, Nat.div_one]; exact k.isLt

/-- A flat array padded at the end only, read inside the original extent: the operand's element. -/
theorem pad_flat_apply {E E' p : ℕ} {u : Shape} (x : (⟨1, ![E]⟩ : Shape).Idx → α) (v : u.Idx → α)
    (hp : (⟨1, ![E]⟩ : Shape).Pads ![0] ![p] ![0] ⟨1, ![E']⟩) (hv : 0 < u.numel)
    (e' : Fin E') (e : Fin E) (hee : e'.val = e.val) :
    pad ⟨1, ![E']⟩ ![0] ![p] ![0] x v hp hv (ix1 e') = x (ix1 e) := by
  unfold pad
  split
  · congr 1
    funext a; refine Fin.ext ?_
    match a with
    | ⟨0, _⟩ =>
      show (e'.val - 0) / (0 + 1) = e.val
      rw [Nat.sub_zero, Nat.zero_add, Nat.div_one, hee]
  · rename_i hn
    refine absurd (fun a => ?_) hn
    match a with
    | ⟨0, _⟩ =>
      show 0 ≤ e'.val ∧ (e'.val - 0) % (0 + 1) = 0 ∧ (e'.val - 0) / (0 + 1) < E
      have := e.isLt
      refine ⟨Nat.zero_le _, Nat.mod_one _, ?_⟩
      rw [Nat.sub_zero, Nat.zero_add, Nat.div_one, hee]; exact this

end Pad

/-! ## A relation mask: an integer comparison converted to a float -/

section Mask

/-- An integer comparison at an index compares the elements. -/
theorem cmpi_apply {s : Shape} {w : ℕ} (p : CmpIPredicate) (x y : IVec s w) (i : s.Idx) :
    cmpi p x y i = IntOp.cmpi p (x i) (y i) := rfl

/-- An unsigned-integer-to-float conversion at an index converts the element. -/
theorem uitofp_apply {F : FTy → Type} [FloatOps F] {s : Shape} {φ : FTy} {w : ℕ} (x : IVec s w) (i : s.Idx) :
    (uitofp φ x : FVec F s φ) i = FloatOps.uitofp φ (x i) := rfl

/-- The bit of an equality test, read unsigned and converted, is `1` where the words are equal and `0`
    elsewhere. -/
theorem uitofp_cmpi_eq {φ : FTy} {w : ℕ} (a r : BitVec w) :
    FloatOps.uitofp (F := Ideal) φ (IntOp.cmpi .eq a r) = if a = r then (1 : EReal) else 0 := by
  show (((IntOp.cmpi .eq a r).toNat : ℝ) : EReal) = _
  by_cases h : a = r
  · rw [if_pos h]; subst h
    simp [IntOp.cmpi]
  · rw [if_neg h]
    simp [IntOp.cmpi, h]

/-- The same bit widened by zeros to a word, read signed and converted: again `1` or `0`. -/
theorem sitofp_cmpi_eq_setWidth {φ : FTy} {w : ℕ} (a r : BitVec w) :
    FloatOps.sitofp (F := Ideal) φ ((IntOp.cmpi .eq a r).setWidth 32) = if a = r then (1 : EReal) else 0 := by
  show ((((IntOp.cmpi .eq a r).setWidth 32).toInt : ℝ) : EReal) = _
  by_cases h : a = r
  · rw [if_pos h]; subst h
    simp [IntOp.cmpi]
  · rw [if_neg h]
    have hb : (a == r) = false := beq_eq_false_iff_ne.2 h
    simp [IntOp.cmpi, hb]

end Mask

end Cert.LibHostIndexed
-- ==== Proof.KerHostAux.lean ====
import proofs.«126640_g2000103277586728_pallasbulk_447_2_alg».proof.Proof.KEntry
import proofs.«126640_g2000103277586728_pallasbulk_447_2_alg».proof.Proof.Spec
import proofs.«126640_g2000103277586728_pallasbulk_447_2_alg».proof.Proof.LibHostIndexed
import Idealize.ShloMosaic.Lib.ValueIdx
import Idealize.ShloMosaic.Lib.ValueLayout
import Idealize.ShloMosaic.Lib.StableHlo.Run
import Idealize.ShloMosaic.Lib.Pipeline.Value

noncomputable section

open scoped BigOperators

namespace Cert.KernelIdeal.Smg

open Idealize.ShloMosaic Idealize.ShloMosaic.ValueIdx Cert.KernelIdeal Cert.KernelIdeal.Gen SmgSpec Idealize.ShloMosaic.TcCoe Idealize.SL.Sem

/-- The line that joins the ten columns leaves, at its result, the concatenation of the ten columns' contents, each read at
    its own reference. -/
private theorem kerhostaux_concat_result (G : Valuation τ sig (Elt Ideal)) (hxs hy) :
    (StableHlo.nary (τ := τ) ![main_v40, main_v41, main_v42, main_v43, main_v44, main_v45, main_v46, main_v47, main_v48, main_v49] main_v50
        (fun u => concatenate S64x10 1 [⟨S64x1, u 0⟩, ⟨S64x1, u 1⟩, ⟨S64x1, u 2⟩, ⟨S64x1, u 3⟩, ⟨S64x1, u 4⟩, ⟨S64x1, u 5⟩, ⟨S64x1, u 6⟩, ⟨S64x1, u 7⟩, ⟨S64x1, u 8⟩, ⟨S64x1, u 9⟩] concatenates_S64x1_S64x1_S64x1_S64x1_S64x1_S64x1_S64x1_S64x1_S64x1_S64x1_S64x10_d1)
        hxs hy).result G (no_index (Proc.devRef .tc main_v50))
      = concatenate S64x10 1 [⟨S64x1, G (Proc.devRef .tc main_v40)⟩, ⟨S64x1, G (Proc.devRef .tc main_v41)⟩, ⟨S64x1, G (Proc.devRef .tc main_v42)⟩, ⟨S64x1, G (Proc.devRef .tc main_v43)⟩, ⟨S64x1, G (Proc.devRef .tc main_v44)⟩, ⟨S64x1, G (Proc.devRef .tc main_v45)⟩, ⟨S64x1, G (Proc.devRef .tc main_v46)⟩, ⟨S64x1, G (Proc.devRef .tc main_v47)⟩, ⟨S64x1, G (Proc.devRef .tc main_v48)⟩, ⟨S64x1, G (Proc.devRef .tc main_v49)⟩] concatenates_S64x1_S64x1_S64x1_S64x1_S64x1_S64x1_S64x1_S64x1_S64x1_S64x1_S64x10_d1 :=
  StableHlo.nary_result ![main_v40, main_v41, main_v42, main_v43, main_v44, main_v45, main_v46, main_v47, main_v48, main_v49] main_v50 _ hxs hy G

open Idealize.ShloMosaic.StableHlo in
/-- The host lines' results in one pass: each line's result at its own result reference is its function's value, at any
    other reference what was there. -/
local macro "kerhostaux_results" : tactic =>
  `(tactic| (simp (disch := decide) only [after_cons, after_nil,
      nullary_result', unary_result', binary_result', reshape_result', kerhostaux_concat_result,
      nullary_result_ne', unary_result_ne', binary_result_ne', reshape_result_ne', nary_result_ne',
      TRef.ofBuf, TRef.toBuf, cast_eq]))

/-! ### The table's layout operations read at coordinates -/

section Read
variable {α : Type}

/-- Columns padded at the end only, read at a column of the original extent: the operand's element. -/
private theorem kerhostaux_pad_cols_apply {E D D' p : ℕ} {u : Shape} (x : (⟨2, ![E, D]⟩ : Shape).Idx → α) (v : u.Idx → α)
    (hp : (⟨2, ![E, D]⟩ : Shape).Pads ![0, 0] ![0, p] ![0, 0] ⟨2, ![E, D']⟩) (hv : 0 < u.numel)
    (e : Fin E) (k' : Fin D') (k : Fin D) (hkk : k'.val = k.val) :
    pad ⟨2, ![E, D']⟩ ![0, 0] ![0, p] ![0, 0] x v hp hv (ix2 e k') = x (ix2 e k) := by
  unfold pad
  split
  · congr 1
    funext a; refine Fin.ext ?_
    match a with
    | ⟨0, _⟩ =>
      show (e.val - 0) / (0 + 1) = e.val
      rw [Nat.sub_zero, Nat.zero_add, Nat.div_one]
    | ⟨1, _⟩ =>
      show (k'.val - 0) / (0 + 1) = k.val
      rw [Nat.sub_zero, Nat.zero_add, Nat.div_one, hkk]
  · rename_i hn
    refine absurd (fun a => ?_) hn
    match a with
    | ⟨0, _⟩ =>
      show 0 ≤ e.val ∧ (e.val - 0) % (0 + 1) = 0 ∧ (e.val - 0) / (0 + 1) < E
      refine ⟨Nat.zero_le _, Nat.mod_one _, ?_⟩
      rw [Nat.sub_zero, Nat.zero_add, Nat.div_one]; exact e.isLt
    | ⟨1, _⟩ =>
      show 0 ≤ k'.val ∧ (k'.val - 0) % (0 + 1) = 0 ∧ (k'.val - 0) / (0 + 1) < D
      have := k.isLt
      refine ⟨Nat.zero_le _, Nat.mod_one _, ?_⟩
      rw [Nat.sub_zero, Nat.zero_add, Nat.div_one, hkk]; exact this

/-- Ten single columns side by side, read at `(r, k)`: column `k` at row `r`. -/
private theorem kerhostaux_concat10_apply (x0 x1 x2 x3 x4 x5 x6 x7 x8 x9 : S64x1.Idx → α)
    (h : Shape.Concatenates [S64x1, S64x1, S64x1, S64x1, S64x1, S64x1, S64x1, S64x1, S64x1, S64x1] S64x10 1) (r : Fin 64) (k : Fin 10) :
    concatenate S64x10 1 [⟨S64x1, x0⟩, ⟨S64x1, x1⟩, ⟨S64x1, x2⟩, ⟨S64x1, x3⟩, ⟨S64x1, x4⟩, ⟨S64x1, x5⟩, ⟨S64x1, x6⟩, ⟨S64x1, x7⟩, ⟨S64x1, x8⟩, ⟨S64x1, x9⟩] h (ix2 r k)
      = (![x0, x1, x2, x3, x4, x5, x6, x7, x8, x9] : Fin 10 → S64x1.Idx → α) k (ix2 r 0) :=
  concatenate_ofFn_unit_apply (t := S64x10) (s₁ := S64x1) 1 ![x0, x1, x2, x3, x4, x5, x6, x7, x8, x9] h rfl rfl (ix2 r k) k rfl (ix2 r 0)
    (fun b hb => by
      match b with
      | ⟨0, _⟩ => rfl
      | ⟨1, _⟩ => exact absurd rfl hb)
private theorem kerhostaux_concat10_apply_0 (x0 x1 x2 x3 x4 x5 x6 x7 x8 x9 : S64x1.Idx → α)
    (h : Shape.Concatenates [S64x1, S64x1, S64x1, S64x1, S64x1, S64x1, S64x1, S64x1, S64x1, S64x1] S64x10 1) (r : Fin 64) :
    concatenate S64x10 1 [⟨S64x1, x0⟩, ⟨S64x1, x1⟩, ⟨S64x1, x2⟩, ⟨S64x1, x3⟩, ⟨S64x1, x4⟩, ⟨S64x1, x5⟩, ⟨S64x1, x6⟩, ⟨S64x1, x7⟩, ⟨S64x1, x8⟩, ⟨S64x1, x9⟩] h (ix2 r 0) = x0 (ix2 r 0) :=
  kerhostaux_concat10_apply x0 x1 x2 x3 x4 x5 x6 x7 x8 x9 h r 0
private theorem kerhostaux_concat10_apply_1 (x0 x1 x2 x3 x4 x5 x6 x7 x8 x9 : S64x1.Idx → α)
    (h : Shape.Concatenates [S64x1, S64x1, S64x1, S64x1, S64x1, S64x1, S64x1, S64x1, S64x1, S64x1] S64x10 1) (r : Fin 64) :
    concatenate S64x10 1 [⟨S64x1, x0⟩, ⟨S64x1, x1⟩, ⟨S64x1, x2⟩, ⟨S64x1, x3⟩, ⟨S64x1, x4⟩, ⟨S64x1, x5⟩, ⟨S64x1, x6⟩, ⟨S64x1, x7⟩, ⟨S64x1, x8⟩, ⟨S64x1, x9⟩] h (ix2 r 1) = x1 (ix2 r 0) :=
  kerhostaux_concat10_apply x0 x1 x2 x3 x4 x5 x6 x7 x8 x9 h r 1
private theorem kerhostaux_concat10_apply_2 (x0 x1 x2 x3 x4 x5 x6 x7 x8 x9 : S64x1.Idx → α)
    (h : Shape.Concatenates [S64x1, S64x1, S64x1, S64x1, S64x1, S64x1, S64x1, S64x1, S64x1, S64x1] S64x10 1) (r : Fin 64) :
    concatenate S64x10 1 [⟨S64x1, x0⟩, ⟨S64x1, x1⟩, ⟨S64x1, x2⟩, ⟨S64x1, x3⟩, ⟨S64x1, x4⟩, ⟨S64x1, x5⟩, ⟨S64x1, x6⟩, ⟨S64x1, x7⟩, ⟨S64x1, x8⟩, ⟨S64x1, x9⟩] h (ix2 r 2) = x2 (ix2 r 0) :=
  kerhostaux_concat10_apply x0 x1 x2 x3 x4 x5 x6 x7 x8 x9 h r 2
private theorem kerhostaux_concat10_apply_3 (x0 x1 x2 x3 x4 x5 x6 x7 x8 x9 : S64x1.Idx → α)
    (h : Shape.Concatenates [S64x1, S64x1, S64x1, S64x1, S64x1, S64x1, S64x1, S64x1, S64x1, S64x1] S64x10 1) (r : Fin 64) :
    concatenate S64x10 1 [⟨S64x1, x0⟩, ⟨S64x1, x1⟩, ⟨S64x1, x2⟩, ⟨S64x1, x3⟩, ⟨S64x1, x4⟩, ⟨S64x1, x5⟩, ⟨S64x1, x6⟩, ⟨S64x1, x7⟩, ⟨S64x1, x8⟩, ⟨S64x1, x9⟩] h (ix2 r 3) = x3 (ix2 r 0) :=
  kerhostaux_concat10_apply x0 x1 x2 x3 x4 x5 x6 x7 x8 x9 h r 3
private theorem kerhostaux_concat10_apply_4 (x0 x1 x2 x3 x4 x5 x6 x7 x8 x9 : S64x1.Idx → α)
    (h : Shape.Concatenates [S64x1, S64x1, S64x1, S64x1, S64x1, S64x1, S64x1, S64x1, S64x1, S64x1] S64x10 1) (r : Fin 64) :
    concatenate S64x10 1 [⟨S64x1, x0⟩, ⟨S64x1, x1⟩, ⟨S64x1, x2⟩, ⟨S64x1, x3⟩, ⟨S64x1, x4⟩, ⟨S64x1, x5⟩, ⟨S64x1, x6⟩, ⟨S64x1, x7⟩, ⟨S64x1, x8⟩, ⟨S64x1, x9⟩] h (ix2 r 4) = x4 (ix2 r 0) :=
  kerhostaux_concat10_apply x0 x1 x2 x3 x4 x5 x6 x7 x8 x9 h r 4
private theorem kerhostaux_concat10_apply_5 (x0 x1 x2 x3 x4 x5 x6 x7 x8 x9 : S64x1.Idx → α)
    (h : Shape.Concatenates [S64x1, S64x1, S64x1, S64x1, S64x1, S64x1, S64x1, S64x1, S64x1, S64x1] S64x10 1) (r : Fin 64) :
    concatenate S64x10 1 [⟨S64x1, x0⟩, ⟨S64x1, x1⟩, ⟨S64x1, x2⟩, ⟨S64x1, x3⟩, ⟨S64x1, x4⟩, ⟨S64x1, x5⟩, ⟨S64x1, x6⟩, ⟨S64x1, x7⟩, ⟨S64x1, x8⟩, ⟨S64x1, x9⟩] h (ix2 r 5) = x5 (ix2 r 0) :=
  kerhostaux_concat10_apply x0 x1 x2 x3 x4 x5 x6 x7 x8 x9 h r 5
private theorem kerhostaux_concat10_apply_6 (x0 x1 x2 x3 x4 x5 x6 x7 x8 x9 : S64x1.Idx → α)
    (h : Shape.Concatenates [S64x1, S64x1, S64x1, S64x1, S64x1, S64x1, S64x1, S64x1, S64x1, S64x1] S64x10 1) (r : Fin 64) :
    concatenate S64x10 1 [⟨S64x1, x0⟩, ⟨S64x1, x1⟩, ⟨S64x1, x2⟩, ⟨S64x1, x3⟩, ⟨S64x1, x4⟩, ⟨S64x1, x5⟩, ⟨S64x1, x6⟩, ⟨S64x1, x7⟩, ⟨S64x1, x8⟩, ⟨S64x1, x9⟩] h (ix2 r 6) = x6 (ix2 r 0) :=
  kerhostaux_concat10_apply x0 x1 x2 x3 x4 x5 x6 x7 x8 x9 h r 6
private theorem kerhostaux_concat10_apply_7 (x0 x1 x2 x3 x4 x5 x6 x7 x8 x9 : S64x1.Idx → α)
    (h : Shape.Concatenates [S64x1, S64x1, S64x1, S64x1, S64x1, S64x1, S64x1, S64x1, S64x1, S64x1] S64x10 1) (r : Fin 64) :
    concatenate S64x10 1 [⟨S64x1, x0⟩, ⟨S64x1, x1⟩, ⟨S64x1, x2⟩, ⟨S64x1, x3⟩, ⟨S64x1, x4⟩, ⟨S64x1, x5⟩, ⟨S64x1, x6⟩, ⟨S64x1, x7⟩, ⟨S64x1, x8⟩, ⟨S64x1, x9⟩] h (ix2 r 7) = x7 (ix2 r 0) :=
  kerhostaux_concat10_apply x0 x1 x2 x3 x4 x5 x6 x7 x8 x9 h r 7
private theorem kerhostaux_concat10_apply_8 (x0 x1 x2 x3 x4 x5 x6 x7 x8 x9 : S64x1.Idx → α)
    (h : Shape.Concatenates [S64x1, S64x1, S64x1, S64x1, S64x1, S64x1, S64x1, S64x1, S64x1, S64x1] S64x10 1) (r : Fin 64) :
    concatenate S64x10 1 [⟨S64x1, x0⟩, ⟨S64x1, x1⟩, ⟨S64x1, x2⟩, ⟨S64x1, x3⟩, ⟨S64x1, x4⟩, ⟨S64x1, x5⟩, ⟨S64x1, x6⟩, ⟨S64x1, x7⟩, ⟨S64x1, x8⟩, ⟨S64x1, x9⟩] h (ix2 r 8) = x8 (ix2 r 0) :=
  kerhostaux_concat10_apply x0 x1 x2 x3 x4 x5 x6 x7 x8 x9 h r 8
private theorem kerhostaux_concat10_apply_9 (x0 x1 x2 x3 x4 x5 x6 x7 x8 x9 : S64x1.Idx → α)
    (h : Shape.Concatenates [S64x1, S64x1, S64x1, S64x1, S64x1, S64x1, S64x1, S64x1, S64x1, S64x1] S64x10 1) (r : Fin 64) :
    concatenate S64x10 1 [⟨S64x1, x0⟩, ⟨S64x1, x1⟩, ⟨S64x1, x2⟩, ⟨S64x1, x3⟩, ⟨S64x1, x4⟩, ⟨S64x1, x5⟩, ⟨S64x1, x6⟩, ⟨S64x1, x7⟩, ⟨S64x1, x8⟩, ⟨S64x1, x9⟩] h (ix2 r 9) = x9 (ix2 r 0) :=
  kerhostaux_concat10_apply x0 x1 x2 x3 x4 x5 x6 x7 x8 x9 h r 9

/-- A vector of length 64 spread as a single column, read at row `r`. -/
private theorem kerhostaux_bcast_col_apply (x : S64.Idx → α) (h : S64.BroadcastsInDim S64x1 (![0] : Fin 1 → Fin S64x1.rank)) (r : Fin 64) :
    broadcastInDim S64x1 ![0] h x (ix2 r 0) = x (ix1 r) := by
  refine broadcastInDim_apply _ h x (ix2 r 0) (ix1 r) fun a => ?_
  match a with
  | ⟨0, _⟩ => rfl

end Read

section Column
variable {α : Type}

/-- One row of the slab, cut to its first `w` entries, read as a vector, padded with `z` to length 64 and stood up as a
    column: its entry in a row below `w` is the slab's entry in that row of the slab, at that position. -/
private theorem kerhostaux_col_apply {w p o : ℕ} (S : S368x64.Idx → α) (z : S_.Idx → α)
    (hs : S368x64.Slices ![o, 0] ⟨2, ![1, w]⟩) (hc : (⟨2, ![1, w]⟩ : Shape).ShapeCasts ⟨1, ![w]⟩)
    (hp : (⟨1, ![w]⟩ : Shape).Pads ![0] ![p] ![0] S64) (hz : 0 < S_.numel)
    (hb : S64.BroadcastsInDim S64x1 (![0] : Fin 1 → Fin S64x1.rank))
    (r' : Fin 64) (e : Fin w) (k : Fin 368) (q : Fin 64) (hre : r'.val = e.val) (hk : k.val = o) (hq : q.val = e.val) :
    broadcastInDim S64x1 ![0] hb
        (pad S64 ![0] ![p] ![0] (fun i => shapeCast ⟨1, ![w]⟩ (extractStridedSlice ⟨2, ![1, w]⟩ ![o, 0] S hs) hc i) z hp hz)
        (ix2 r' 0)
      = S (ix2 k q) := by
  refine (kerhostaux_bcast_col_apply _ hb r').trans ?_
  refine (Cert.LibHostIndexed.pad_flat_apply _ z hp hz r' e hre).trans ?_
  refine (shapeCast_1a_a_apply _ hc e).trans ?_
  exact extractStridedSlice_apply _ S hs _ (ix2 k q) fun a => by
    match a with
    | ⟨0, _⟩ => exact hk.trans (Nat.add_zero _).symm
    | ⟨1, _⟩ => exact hq.trans (Nat.zero_add _).symm

end Column

/-! The 64 × 16 table of bias columns the host lines build: column `j` (j < 10) holds, in its first rows, the slab's row
    288 + 8 j. -/
theorem host_aux0 (m : (ℓ : Loc nD τ sig) → Buf (Elt Ideal) ℓ) (c : Dev nD) (r : Fin 64) :
    V m c main_v51 (ix2 r 0) = m ((c : Thread nD τ).loc main_arg2) (ix2 ⟨288, by omega⟩ r) := by
  dsimp only [V, prefixOps]
  simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, List.flatten_cons, List.flatten_nil, List.append_nil, List.cons_append, List.nil_append]
  kerhostaux_results
  refine (kerhostaux_pad_cols_apply _ _ _ _ r (0 : Fin 16) (0 : Fin 10) rfl).trans ?_
  refine (kerhostaux_concat10_apply_0 _ _ _ _ _ _ _ _ _ _ _ r).trans ?_
  kerhostaux_results
  exact kerhostaux_col_apply _ _ _ _ _ _ _ r r ⟨288, by omega⟩ r rfl rfl rfl
theorem host_aux1 (m : (ℓ : Loc nD τ sig) → Buf (Elt Ideal) ℓ) (c : Dev nD) (r : Fin 32) :
    V m c main_v51 (ix2 (lo r) 1) = m ((c : Thread nD τ).loc main_arg2) (ix2 ⟨296, by omega⟩ (lo r)) := by
  dsimp only [V, prefixOps]
  simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, List.flatten_cons, List.flatten_nil, List.append_nil, List.cons_append, List.nil_append]
  kerhostaux_results
  refine (kerhostaux_pad_cols_apply _ _ _ _ (lo r) (1 : Fin 16) (1 : Fin 10) rfl).trans ?_
  refine (kerhostaux_concat10_apply_1 _ _ _ _ _ _ _ _ _ _ _ (lo r)).trans ?_
  kerhostaux_results
  exact kerhostaux_col_apply _ _ _ _ _ _ _ (lo r) r ⟨296, by omega⟩ (lo r) rfl rfl rfl
theorem host_aux2 (m : (ℓ : Loc nD τ sig) → Buf (Elt Ideal) ℓ) (c : Dev nD) (r : Fin 32) :
    V m c main_v51 (ix2 (lo r) 2) = m ((c : Thread nD τ).loc main_arg2) (ix2 ⟨304, by omega⟩ (lo r)) := by
  dsimp only [V, prefixOps]
  simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, List.flatten_cons, List.flatten_nil, List.append_nil, List.cons_append, List.nil_append]
  kerhostaux_results
  refine (kerhostaux_pad_cols_apply _ _ _ _ (lo r) (2 : Fin 16) (2 : Fin 10) rfl).trans ?_
  refine (kerhostaux_concat10_apply_2 _ _ _ _ _ _ _ _ _ _ _ (lo r)).trans ?_
  kerhostaux_results
  exact kerhostaux_col_apply _ _ _ _ _ _ _ (lo r) r ⟨304, by omega⟩ (lo r) rfl rfl rfl
theorem host_aux3 (m : (ℓ : Loc nD τ sig) → Buf (Elt Ideal) ℓ) (c : Dev nD) :
    V m c main_v51 (ix2 0 3) = m ((c : Thread nD τ).loc main_arg2) (ix2 ⟨312, by omega⟩ ⟨0, by omega⟩) := by
  dsimp only [V, prefixOps]
  simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, List.flatten_cons, List.flatten_nil, List.append_nil, List.cons_append, List.nil_append]
  kerhostaux_results
  refine (kerhostaux_pad_cols_apply _ _ _ _ (0 : Fin 64) (3 : Fin 16) (3 : Fin 10) rfl).trans ?_
  refine (kerhostaux_concat10_apply_3 _ _ _ _ _ _ _ _ _ _ _ (0 : Fin 64)).trans ?_
  kerhostaux_results
  exact kerhostaux_col_apply _ _ _ _ _ _ _ (0 : Fin 64) (0 : Fin 1) ⟨312, by omega⟩ ⟨0, by omega⟩ rfl rfl rfl
theorem host_aux4 (m : (ℓ : Loc nD τ sig) → Buf (Elt Ideal) ℓ) (c : Dev nD) (r : Fin 64) :
    V m c main_v51 (ix2 r 4) = m ((c : Thread nD τ).loc main_arg2) (ix2 ⟨320, by omega⟩ r) := by
  dsimp only [V, prefixOps]
  simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, List.flatten_cons, List.flatten_nil, List.append_nil, List.cons_append, List.nil_append]
  kerhostaux_results
  refine (kerhostaux_pad_cols_apply _ _ _ _ r (4 : Fin 16) (4 : Fin 10) rfl).trans ?_
  refine (kerhostaux_concat10_apply_4 _ _ _ _ _ _ _ _ _ _ _ r).trans ?_
  kerhostaux_results
  exact kerhostaux_col_apply _ _ _ _ _ _ _ r r ⟨320, by omega⟩ r rfl rfl rfl
theorem host_aux5 (m : (ℓ : Loc nD τ sig) → Buf (Elt Ideal) ℓ) (c : Dev nD) (r : Fin 32) :
    V m c main_v51 (ix2 (lo r) 5) = m ((c : Thread nD τ).loc main_arg2) (ix2 ⟨328, by omega⟩ (lo r)) := by
  dsimp only [V, prefixOps]
  simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, List.flatten_cons, List.flatten_nil, List.append_nil, List.cons_append, List.nil_append]
  kerhostaux_results
  refine (kerhostaux_pad_cols_apply _ _ _ _ (lo r) (5 : Fin 16) (5 : Fin 10) rfl).trans ?_
  refine (kerhostaux_concat10_apply_5 _ _ _ _ _ _ _ _ _ _ _ (lo r)).trans ?_
  kerhostaux_results
  exact kerhostaux_col_apply _ _ _ _ _ _ _ (lo r) r ⟨328, by omega⟩ (lo r) rfl rfl rfl
theorem host_aux6 (m : (ℓ : Loc nD τ sig) → Buf (Elt Ideal) ℓ) (c : Dev nD) (r : Fin 32) :
    V m c main_v51 (ix2 (lo r) 6) = m ((c : Thread nD τ).loc main_arg2) (ix2 ⟨336, by omega⟩ (lo r)) := by
  dsimp only [V, prefixOps]
  simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, List.flatten_cons, List.flatten_nil, List.append_nil, List.cons_append, List.nil_append]
  kerhostaux_results
  refine (kerhostaux_pad_cols_apply _ _ _ _ (lo r) (6 : Fin 16) (6 : Fin 10) rfl).trans ?_
  refine (kerhostaux_concat10_apply_6 _ _ _ _ _ _ _ _ _ _ _ (lo r)).trans ?_
  kerhostaux_results
  exact kerhostaux_col_apply _ _ _ _ _ _ _ (lo r) r ⟨336, by omega⟩ (lo r) rfl rfl rfl
theorem host_aux7 (m : (ℓ : Loc nD τ sig) → Buf (Elt Ideal) ℓ) (c : Dev nD) :
    V m c main_v51 (ix2 0 7) = m ((c : Thread nD τ).loc main_arg2) (ix2 ⟨344, by omega⟩ ⟨0, by omega⟩) := by
  dsimp only [V, prefixOps]
  simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, List.flatten_cons, List.flatten_nil, List.append_nil, List.cons_append, List.nil_append]
  kerhostaux_results
  refine (kerhostaux_pad_cols_apply _ _ _ _ (0 : Fin 64) (7 : Fin 16) (7 : Fin 10) rfl).trans ?_
  refine (kerhostaux_concat10_apply_7 _ _ _ _ _ _ _ _ _ _ _ (0 : Fin 64)).trans ?_
  kerhostaux_results
  exact kerhostaux_col_apply _ _ _ _ _ _ _ (0 : Fin 64) (0 : Fin 1) ⟨344, by omega⟩ ⟨0, by omega⟩ rfl rfl rfl
theorem host_aux8 (m : (ℓ : Loc nD τ sig) → Buf (Elt Ideal) ℓ) (c : Dev nD) (r : Fin 32) :
    V m c main_v51 (ix2 (lo r) 8) = m ((c : Thread nD τ).loc main_arg2) (ix2 ⟨352, by omega⟩ (lo r)) := by
  dsimp only [V, prefixOps]
  simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, List.flatten_cons, List.flatten_nil, List.append_nil, List.cons_append, List.nil_append]
  kerhostaux_results
  refine (kerhostaux_pad_cols_apply _ _ _ _ (lo r) (8 : Fin 16) (8 : Fin 10) rfl).trans ?_
  refine (kerhostaux_concat10_apply_8 _ _ _ _ _ _ _ _ _ _ _ (lo r)).trans ?_
  kerhostaux_results
  exact kerhostaux_col_apply _ _ _ _ _ _ _ (lo r) r ⟨352, by omega⟩ (lo r) rfl rfl rfl
theorem host_aux9 (m : (ℓ : Loc nD τ sig) → Buf (Elt Ideal) ℓ) (c : Dev nD) (r : Fin 32) :
    V m c main_v51 (ix2 (lo r) 9) = m ((c : Thread nD τ).loc main_arg2) (ix2 ⟨360, by omega⟩ (lo r)) := by
  dsimp only [V, prefixOps]
  simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, List.flatten_cons, List.flatten_nil, List.append_nil, List.cons_append, List.nil_append]
  kerhostaux_results
  refine (kerhostaux_pad_cols_apply _ _ _ _ (lo r) (9 : Fin 16) (9 : Fin 10) rfl).trans ?_
  refine (kerhostaux_concat10_apply_9 _ _ _ _ _ _ _ _ _ _ _ (lo r)).trans ?_
  kerhostaux_results
  exact kerhostaux_col_apply _ _ _ _ _ _ _ (lo r) r ⟨360, by omega⟩ (lo r) rfl rfl rfl

end Cert.KernelIdeal.Smg

end
-- ==== Proof.KerHost.lean ====
import proofs.«126640_g2000103277586728_pallasbulk_447_2_alg».proof.Proof.KEntry
import proofs.«126640_g2000103277586728_pallasbulk_447_2_alg».proof.Proof.KerParams
import proofs.«126640_g2000103277586728_pallasbulk_447_2_alg».proof.Proof.KerHostAux
import Idealize.ShloMosaic.Lib.StableHlo.Run
import Idealize.ShloMosaic.Lib.Pipeline.Value

noncomputable section

open scoped BigOperators

namespace Cert.KernelIdeal.Smg

open Idealize.ShloMosaic Idealize.ShloMosaic.ValueIdx Cert.KernelIdeal Cert.KernelIdeal.Gen SmgSpec Idealize.ShloMosaic.TcCoe Idealize.SL.Sem

/-! ## The six matrix operands as terms of the slab -/

private theorem kerhost_v2 (m : (ℓ : Loc nD τ sig) → Buf (Elt Ideal) ℓ) (c : Dev nD) :
    (V m c main_v2 : Vec Ideal S16x128 .f32)
      = concatenate S16x128 1 [⟨S16x64, extractStridedSlice S16x64 ![0, 0] (m ((c : Thread nD τ).loc main_arg2) : Vec Ideal S368x64 .f32) slices_S368x64_S16x64_0_0⟩,
          ⟨S16x64, extractStridedSlice S16x64 ![80, 0] (m ((c : Thread nD τ).loc main_arg2) : Vec Ideal S368x64 .f32) slices_S368x64_S16x64_80_0⟩] concatenates_S16x64_S16x64_S16x128_d1 := by
  dsimp only [V, prefixOps]
  simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, List.flatten_cons, List.flatten_nil, List.append_nil, List.cons_append, List.nil_append]
  after_results

private theorem kerhost_v5 (m : (ℓ : Loc nD τ sig) → Buf (Elt Ideal) ℓ) (c : Dev nD) :
    (V m c main_v5 : Vec Ideal S32x128 .f32)
      = concatenate S32x128 1 [⟨S32x64, extractStridedSlice S32x64 ![96, 0] (m ((c : Thread nD τ).loc main_arg2) : Vec Ideal S368x64 .f32) slices_S368x64_S32x64_96_0⟩,
          ⟨S32x64, extractStridedSlice S32x64 ![192, 0] (m ((c : Thread nD τ).loc main_arg2) : Vec Ideal S368x64 .f32) slices_S368x64_S32x64_192_0⟩] concatenates_S32x64_S32x64_S32x128_d1 := by
  dsimp only [V, prefixOps]
  simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, List.flatten_cons, List.flatten_nil, List.append_nil, List.cons_append, List.nil_append]
  after_results

private theorem kerhost_v6 (m : (ℓ : Loc nD τ sig) → Buf (Elt Ideal) ℓ) (c : Dev nD) :
    (V m c main_v6 : Vec Ideal S64x32 .f32) = extractStridedSlice S64x32 ![16, 0] (m ((c : Thread nD τ).loc main_arg2) : Vec Ideal S368x64 .f32) slices_S368x64_S64x32_16_0 := by
  dsimp only [V, prefixOps]
  simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, List.flatten_cons, List.flatten_nil, List.append_nil, List.cons_append, List.nil_append]
  after_results

private theorem kerhost_v7 (m : (ℓ : Loc nD τ sig) → Buf (Elt Ideal) ℓ) (c : Dev nD) :
    (V m c main_v7 : Vec Ideal S64x32 .f32) = extractStridedSlice S64x32 ![128, 0] (m ((c : Thread nD τ).loc main_arg2) : Vec Ideal S368x64 .f32) slices_S368x64_S64x32_128_0 := by
  dsimp only [V, prefixOps]
  simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, List.flatten_cons, List.flatten_nil, List.append_nil, List.cons_append, List.nil_append]
  after_results

private theorem kerhost_v8 (m : (ℓ : Loc nD τ sig) → Buf (Elt Ideal) ℓ) (c : Dev nD) :
    (V m c main_v8 : Vec Ideal S32x32 .f32) = extractStridedSlice S32x32 ![224, 0] (m ((c : Thread nD τ).loc main_arg2) : Vec Ideal S368x64 .f32) slices_S368x64_S32x32_224_0 := by
  dsimp only [V, prefixOps]
  simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, List.flatten_cons, List.flatten_nil, List.append_nil, List.cons_append, List.nil_append]
  after_results

private theorem kerhost_v9 (m : (ℓ : Loc nD τ sig) → Buf (Elt Ideal) ℓ) (c : Dev nD) :
    (V m c main_v9 : Vec Ideal S32x32 .f32) = extractStridedSlice S32x32 ![256, 0] (m ((c : Thread nD τ).loc main_arg2) : Vec Ideal S368x64 .f32) slices_S368x64_S32x32_256_0 := by
  dsimp only [V, prefixOps]
  simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, List.flatten_cons, List.flatten_nil, List.append_nil, List.cons_append, List.nil_append]
  after_results

/-! ## Layout operations read at an index -/

/-- A block of rows from row `o` on, keeping the leading columns, read at an entry. -/
private theorem kerhost_slice {n0 n1 m0 m1 : Nat} (o : Nat) (X : (⟨2, ![n0, n1]⟩ : Shape).Idx → EReal)
    (h : (⟨2, ![n0, n1]⟩ : Shape).Slices ![o, 0] ⟨2, ![m0, m1]⟩) (j : Fin m0) (e : Fin m1) (k : Fin n0) (e' : Fin n1)
    (hk : k.val = o + j.val) (he : e'.val = e.val) :
    extractStridedSlice ⟨2, ![m0, m1]⟩ ![o, 0] X h (ix2 j e) = X (ix2 k e') :=
  extractStridedSlice_apply _ _ _ _ _ (fun ax => by
    match ax with
    | ⟨0, _⟩ => exact hk
    | ⟨1, _⟩ => exact he.trans (Nat.zero_add _).symm)

/-- Two 64-column matrices side by side: a column of the first half is the first matrix's. -/
private theorem kerhost_cat_left {R : Nat} (x₁ x₂ : (⟨2, ![R, 64]⟩ : Shape).Idx → EReal)
    (h : Shape.Concatenates [⟨2, ![R, 64]⟩, ⟨2, ![R, 64]⟩] ⟨2, ![R, 128]⟩ 1) (k : Fin R) (c' : Fin 64) :
    concatenate ⟨2, ![R, 128]⟩ 1 [⟨⟨2, ![R, 64]⟩, x₁⟩, ⟨⟨2, ![R, 64]⟩, x₂⟩] h (ix2 k (lo128 c')) = x₁ (ix2 k c') :=
  concatenate_pair_apply_left (1 : Fin 2) x₁ x₂ h (ix2 k (lo128 c')) rfl (ix2 k c') (fun b => by
    match b with
    | ⟨0, _⟩ => rfl
    | ⟨1, _⟩ => rfl)

/-- Two 64-column matrices side by side: a column of the second half is the second matrix's. -/
private theorem kerhost_cat_right {R : Nat} (x₁ x₂ : (⟨2, ![R, 64]⟩ : Shape).Idx → EReal)
    (h : Shape.Concatenates [⟨2, ![R, 64]⟩, ⟨2, ![R, 64]⟩] ⟨2, ![R, 128]⟩ 1) (k : Fin R) (c' : Fin 64) :
    concatenate ⟨2, ![R, 128]⟩ 1 [⟨⟨2, ![R, 64]⟩, x₁⟩, ⟨⟨2, ![R, 64]⟩, x₂⟩] h (ix2 k (hi128 c')) = x₂ (ix2 k c') :=
  concatenate_pair_apply_right (1 : Fin 2) x₁ x₂ h (ix2 k (hi128 c')) rfl rfl (ix2 k c') (fun b hb => by
    match b with
    | ⟨0, _⟩ => rfl
    | ⟨1, _⟩ => exact absurd rfl hb) rfl

/-! ## The operands read at an entry -/

private theorem kerhost_v2_lo (m : (ℓ : Loc nD τ sig) → Buf (Elt Ideal) ℓ) (c : Dev nD) (k : Fin 16) (c' : Fin 64) :
    V m c main_v2 (ix2 k (lo128 c')) = m ((c : Thread nD τ).loc main_arg2) (ix2 ⟨k.val, by omega⟩ c') :=
  (congrFun (kerhost_v2 m c) (ix2 k (lo128 c'))).trans
    ((kerhost_cat_left _ _ _ k c').trans (kerhost_slice 0 _ _ k c' ⟨k.val, by omega⟩ c' (Nat.zero_add _).symm rfl))

private theorem kerhost_v2_hi (m : (ℓ : Loc nD τ sig) → Buf (Elt Ideal) ℓ) (c : Dev nD) (k : Fin 16) (c' : Fin 64) :
    V m c main_v2 (ix2 k (hi128 c')) = m ((c : Thread nD τ).loc main_arg2) (ix2 ⟨k.val + 80, by omega⟩ c') :=
  (congrFun (kerhost_v2 m c) (ix2 k (hi128 c'))).trans
    ((kerhost_cat_right _ _ _ k c').trans (kerhost_slice 80 _ _ k c' ⟨k.val + 80, by omega⟩ c' (Nat.add_comm _ _) rfl))

private theorem kerhost_v5_lo (m : (ℓ : Loc nD τ sig) → Buf (Elt Ideal) ℓ) (c : Dev nD) (k : Fin 32) (c' : Fin 64) :
    V m c main_v5 (ix2 k (lo128 c')) = m ((c : Thread nD τ).loc main_arg2) (ix2 ⟨k.val + 96, by omega⟩ c') :=
  (congrFun (kerhost_v5 m c) (ix2 k (lo128 c'))).trans
    ((kerhost_cat_left _ _ _ k c').trans (kerhost_slice 96 _ _ k c' ⟨k.val + 96, by omega⟩ c' (Nat.add_comm _ _) rfl))

private theorem kerhost_v5_hi (m : (ℓ : Loc nD τ sig) → Buf (Elt Ideal) ℓ) (c : Dev nD) (k : Fin 32) (c' : Fin 64) :
    V m c main_v5 (ix2 k (hi128 c')) = m ((c : Thread nD τ).loc main_arg2) (ix2 ⟨k.val + 192, by omega⟩ c') :=
  (congrFun (kerhost_v5 m c) (ix2 k (hi128 c'))).trans
    ((kerhost_cat_right _ _ _ k c').trans (kerhost_slice 192 _ _ k c' ⟨k.val + 192, by omega⟩ c' (Nat.add_comm _ _) rfl))

private theorem kerhost_v6_apply (m : (ℓ : Loc nD τ sig) → Buf (Elt Ideal) ℓ) (c : Dev nD) (k : Fin 64) (c' : Fin 32) :
    V m c main_v6 (ix2 k c') = m ((c : Thread nD τ).loc main_arg2) (ix2 ⟨k.val + 16, by omega⟩ (lo c')) :=
  (congrFun (kerhost_v6 m c) (ix2 k c')).trans
    (kerhost_slice 16 _ _ k c' ⟨k.val + 16, by omega⟩ (lo c') (Nat.add_comm _ _) rfl)

private theorem kerhost_v7_apply (m : (ℓ : Loc nD τ sig) → Buf (Elt Ideal) ℓ) (c : Dev nD) (k : Fin 64) (c' : Fin 32) :
    V m c main_v7 (ix2 k c') = m ((c : Thread nD τ).loc main_arg2) (ix2 ⟨k.val + 128, by omega⟩ (lo c')) :=
  (congrFun (kerhost_v7 m c) (ix2 k c')).trans
    (kerhost_slice 128 _ _ k c' ⟨k.val + 128, by omega⟩ (lo c') (Nat.add_comm _ _) rfl)

private theorem kerhost_v8_apply (m : (ℓ : Loc nD τ sig) → Buf (Elt Ideal) ℓ) (c : Dev nD) (k : Fin 32) (c' : Fin 32) :
    V m c main_v8 (ix2 k c') = m ((c : Thread nD τ).loc main_arg2) (ix2 ⟨k.val + 224, by omega⟩ (lo c')) :=
  (congrFun (kerhost_v8 m c) (ix2 k c')).trans
    (kerhost_slice 224 _ _ k c' ⟨k.val + 224, by omega⟩ (lo c') (Nat.add_comm _ _) rfl)

private theorem kerhost_v9_apply (m : (ℓ : Loc nD τ sig) → Buf (Elt Ideal) ℓ) (c : Dev nD) (k : Fin 32) (c' : Fin 32) :
    V m c main_v9 (ix2 k c') = m ((c : Thread nD τ).loc main_arg2) (ix2 ⟨k.val + 256, by omega⟩ (lo c')) :=
  (congrFun (kerhost_v9 m c) (ix2 k c')).trans
    (kerhost_slice 256 _ _ k c' ⟨k.val + 256, by omega⟩ (lo c') (Nat.add_comm _ _) rfl)

/-! ## The parameters, field by field -/

/-- Arrays that hold the slab's entries at the documented offsets, read through `kerParams`, are the slab's parameters. -/
private theorem kerhost_assemble (S : Fin 368 → Fin 64 → EReal) (W0 : Vec Ideal S16x128 .f32) (W1 : Vec Ideal S32x128 .f32)
    (M10 M11 : Vec Ideal S64x32 .f32) (P1 P2 : Vec Ideal S32x32 .f32) (aux : Vec Ideal S64x16 .f32)
    (h_l12w0 : ∀ (k : Fin 16) (c' : Fin 64), W0 (ix2 k (lo128 c')) = S ⟨k.val, by omega⟩ c')
    (h_l12b0 : ∀ c' : Fin 64, aux (ix2 c' 0) = S ⟨288, by omega⟩ c')
    (h_m1w0 : ∀ (k : Fin 64) (c' : Fin 32), M10 (ix2 k c') = S ⟨k.val + 16, by omega⟩ (lo c'))
    (h_m1b0 : ∀ c' : Fin 32, aux (ix2 (lo c') 1) = S ⟨296, by omega⟩ (lo c'))
    (h_m2w0 : ∀ c' : Fin 32, aux (ix2 (lo c') 2) = S ⟨304, by omega⟩ (lo c'))
    (h_m2b0 : aux (ix2 0 3) = S ⟨312, by omega⟩ ⟨0, by omega⟩)
    (h_wl0 : ∀ (k : Fin 16) (c' : Fin 64), W0 (ix2 k (hi128 c')) = S ⟨k.val + 80, by omega⟩ c')
    (h_l12w1 : ∀ (k : Fin 32) (c' : Fin 64), W1 (ix2 k (lo128 c')) = S ⟨k.val + 96, by omega⟩ c')
    (h_l12b1 : ∀ c' : Fin 64, aux (ix2 c' 4) = S ⟨320, by omega⟩ c')
    (h_m1w1 : ∀ (k : Fin 64) (c' : Fin 32), M11 (ix2 k c') = S ⟨k.val + 128, by omega⟩ (lo c'))
    (h_m1b1 : ∀ c' : Fin 32, aux (ix2 (lo c') 5) = S ⟨328, by omega⟩ (lo c'))
    (h_m2w1 : ∀ c' : Fin 32, aux (ix2 (lo c') 6) = S ⟨336, by omega⟩ (lo c'))
    (h_m2b1 : aux (ix2 0 7) = S ⟨344, by omega⟩ ⟨0, by omega⟩)
    (h_wl1 : ∀ (k : Fin 32) (c' : Fin 64), W1 (ix2 k (hi128 c')) = S ⟨k.val + 192, by omega⟩ c')
    (h_p1w : ∀ (k : Fin 32) (c' : Fin 32), P1 (ix2 k c') = S ⟨k.val + 224, by omega⟩ (lo c'))
    (h_p1b : ∀ c' : Fin 32, aux (ix2 (lo c') 8) = S ⟨352, by omega⟩ (lo c'))
    (h_p2w : ∀ (k : Fin 32) (c' : Fin 32), P2 (ix2 k c') = S ⟨k.val + 256, by omega⟩ (lo c'))
    (h_p2b : ∀ c' : Fin 32, aux (ix2 (lo c') 9) = S ⟨360, by omega⟩ (lo c')) :
    kerParams W0 W1 M10 M11 P1 P2 aux = slabParams S := by
  unfold kerParams slabParams
  congr 1
  · funext k c'; exact h_l12w0 k c'
  · funext c'; exact h_l12b0 c'
  · funext k c'; exact h_m1w0 k c'
  · funext c'; exact h_m1b0 c'
  · funext c'; exact h_m2w0 c'
  · funext k c'; exact h_wl0 k c'
  · funext k c'; exact h_l12w1 k c'
  · funext c'; exact h_l12b1 c'
  · funext k c'; exact h_m1w1 k c'
  · funext c'; exact h_m1b1 c'
  · funext c'; exact h_m2w1 c'
  · funext k c'; exact h_wl1 k c'
  · funext k c'; exact h_p1w k c'
  · funext c'; exact h_p1b c'
  · funext k c'; exact h_p2w k c'
  · funext c'; exact h_p2b c'

/-- The host lines before the launch only cut and re-lay the parameter slab: read back through `kerParams`, the seven
    operand arrays they produce hold exactly the parameters the slab holds at its documented offsets. -/
theorem host_params (m : (ℓ : Loc nD τ sig) → Buf (Elt Ideal) ℓ) (c : Dev nD) :
    kerParams (V m c main_v2) (V m c main_v5) (V m c main_v6) (V m c main_v7) (V m c main_v8) (V m c main_v9) (V m c main_v51)
      = slabParams (fun r c' => m ((c : Thread nD τ).loc main_arg2) (ix2 r c')) :=
  kerhost_assemble (fun r c' => m ((c : Thread nD τ).loc main_arg2) (ix2 r c'))
    (V m c main_v2) (V m c main_v5) (V m c main_v6) (V m c main_v7) (V m c main_v8) (V m c main_v9) (V m c main_v51)
    (kerhost_v2_lo m c) (host_aux0 m c) (kerhost_v6_apply m c) (host_aux1 m c) (host_aux2 m c) (host_aux3 m c)
    (kerhost_v2_hi m c) (kerhost_v5_lo m c) (host_aux4 m c) (kerhost_v7_apply m c) (host_aux5 m c) (host_aux6 m c)
    (host_aux7 m c) (kerhost_v5_hi m c) (kerhost_v8_apply m c) (host_aux8 m c) (kerhost_v9_apply m c) (host_aux9 m c)

end Cert.KernelIdeal.Smg

end
-- ==== Proof.SpecArr.lean ====
/-
  The batch's result as ONE function of the four argument arrays, index by index: entry (b, n, c) of the result is the
  network's output for graph `b` at node `n`, column `c`, computed from graph `b`'s slices of the features, the
  adjacency and the keep-scale and from the shared parameter slab.
-/
import proofs.«126640_g2000103277586728_pallasbulk_447_2_alg».proof.Proof.Spec
import Idealize.ShloMosaic.Lib.ValueIdx

noncomputable section

namespace SmgSpec

open Idealize.ShloMosaic Idealize.ShloMosaic.ValueIdx

/-- The result array of the whole batch from the argument arrays. -/
def Garr (x : (⟨3, ![256, 256, 16]⟩ : Shape).Idx → EReal) (adj : (⟨3, ![256, 256, 256]⟩ : Shape).Idx → EReal)
    (slab : (⟨2, ![368, 64]⟩ : Shape).Idx → EReal) (drop : (⟨3, ![256, 256, 32]⟩ : Shape).Idx → EReal) :
    (⟨3, ![256, 256, 32]⟩ : Shape).Idx → EReal :=
  fun i => G (fun b n k => x (ix3 b n k)) (fun b n j => adj (ix3 b n j)) (fun r c => slab (ix2 r c))
    (fun b n k => drop (ix3 b n k)) (i 0) (i 1) (i 2)

theorem Garr_apply (x : (⟨3, ![256, 256, 16]⟩ : Shape).Idx → EReal) (adj : (⟨3, ![256, 256, 256]⟩ : Shape).Idx → EReal)
    (slab : (⟨2, ![368, 64]⟩ : Shape).Idx → EReal) (drop : (⟨3, ![256, 256, 32]⟩ : Shape).Idx → EReal)
    (b n : Fin 256) (c : Fin 32) :
    Garr x adj slab drop (ix3 b n c)
      = out (slabParams fun r c => slab (ix2 r c)) (fun n k => x (ix3 b n k)) (fun n j => adj (ix3 b n j))
          (fun n k => drop (ix3 b n k)) n c := rfl

end SmgSpec

end
-- ==== Proof.KBlocks.lean ====
/-
  From the blocks the grid points write to the whole result array. Point `t` of the 32 stages graphs 8t … 8t+7; its output
  block is eight slabs, slab `g` the transposed computation of graph 8t+g's blocks, which read at (node, column) is the
  network's output for that graph with the parameters the host lines cut out of the slab. The 32 output blocks tile the
  result array, so the array after the run is the spec's function of the four argument arrays.
-/
import proofs.«126640_g2000103277586728_pallasbulk_447_2_alg».proof.Proof.KFrame
import proofs.«126640_g2000103277586728_pallasbulk_447_2_alg».proof.Proof.KGraph
import proofs.«126640_g2000103277586728_pallasbulk_447_2_alg».proof.Proof.KerCompose
import proofs.«126640_g2000103277586728_pallasbulk_447_2_alg».proof.Proof.KerHost
import proofs.«126640_g2000103277586728_pallasbulk_447_2_alg».proof.Proof.SpecArr
import Idealize.ShloMosaic.Lib.Pipeline.Value

set_option maxRecDepth 16384

noncomputable section

namespace Cert.KernelIdeal.Smg

open Cert.KernelIdeal Cert.KernelIdeal.Gen SmgSpec
open Idealize.ShloMosaic Idealize.ShloMosaic.ValueIdx Idealize.ShloMosaic.TcCoe Idealize.SL.Sem
open Idealize.ShloMosaic.Pipeline (Dat)

variable (m : (ℓ : Loc nD τ sig) → Buf (Elt Ideal) ℓ) (ρ : Dev nD → PrngReg)

/-- The batch's result as the spec computes it from the launch memory's four argument arrays. -/
def GA (c : Dev nD) : (⟨3, ![256, 256, 32]⟩ : Shape).Idx → EReal :=
  Garr (m ((c : Thread nD τ).loc main_arg0)) (m ((c : Thread nD τ).loc main_arg1)) (m ((c : Thread nD τ).loc main_arg2)) (m ((c : Thread nD τ).loc main_arg3))

theorem hz2 : (![0, 0] : Fin 2 → Nat) = fun _ => 0 := funext fun a => by fin_cases a <;> rfl

theorem t_lt (t : Fin cfg0.N) : t.val < 32 := lt_of_lt_of_eq t.isLt N_0

/-- Graph `g` of point `t` is graph 8t + g of the batch. -/
def gi (t : Fin cfg0.N) (g : Fin 8) : Fin 256 := ⟨8 * t.val + g.val, by have := t_lt t; omega⟩

/-- The block index maps, decided over the grid: the three batched inputs and the output move one block of eight graphs per
    point; the seven parameter operands stay at block (0, 0). -/
theorem idx_facts : ∀ t : Fin cfg0.N,
    (win0_0.index t (0 : Fin 3) = t.val ∧ win0_0.index t (1 : Fin 3) = 0 ∧ win0_0.index t (2 : Fin 3) = 0)
    ∧ (win0_1.index t (0 : Fin 3) = t.val ∧ win0_1.index t (1 : Fin 3) = 0 ∧ win0_1.index t (2 : Fin 3) = 0)
    ∧ (win0_2.index t (0 : Fin 3) = t.val ∧ win0_2.index t (1 : Fin 3) = 0 ∧ win0_2.index t (2 : Fin 3) = 0)
    ∧ (win0_10.index t (0 : Fin 3) = t.val ∧ win0_10.index t (1 : Fin 3) = 0 ∧ win0_10.index t (2 : Fin 3) = 0)
    ∧ (win0_3.index t (0 : Fin 2) = 0 ∧ win0_3.index t (1 : Fin 2) = 0)
    ∧ (win0_4.index t (0 : Fin 2) = 0 ∧ win0_4.index t (1 : Fin 2) = 0)
    ∧ (win0_5.index t (0 : Fin 2) = 0 ∧ win0_5.index t (1 : Fin 2) = 0)
    ∧ (win0_6.index t (0 : Fin 2) = 0 ∧ win0_6.index t (1 : Fin 2) = 0)
    ∧ (win0_7.index t (0 : Fin 2) = 0 ∧ win0_7.index t (1 : Fin 2) = 0)
    ∧ (win0_8.index t (0 : Fin 2) = 0 ∧ win0_8.index t (1 : Fin 2) = 0)
    ∧ (win0_9.index t (0 : Fin 2) = 0 ∧ win0_9.index t (1 : Fin 2) = 0) :=
  (by decide +kernel : ∀ t : Fin grid0.N, _)

/-! ## The input blocks read off the argument arrays -/

theorem iblk0_apply (c : Dev nD) (t : Fin cfg0.N) (g : Fin 8) (n : Fin 256) (k : Fin 16) :
    iblk m c 0 t (ix3 g n k) = m ((c : Thread nD τ).loc main_arg0) (ix3 (gi t g) n k) := by
  show V m c main_arg0 (((cfg0.win 0).blk t).view.emb (ix3 g n k)) = _
  rw [V_main_arg0]
  refine congrArg _ ?_
  obtain ⟨⟨e0, e1, e2⟩, -⟩ := idx_facts t
  funext a; apply Fin.ext
  match a with
  | ⟨0, _⟩ => show win0_0.index t (0 : Fin 3) * 8 + 1 * g.val = 8 * t.val + g.val; omega
  | ⟨1, _⟩ => show win0_0.index t (1 : Fin 3) * 256 + 1 * n.val = n.val; omega
  | ⟨2, _⟩ => show win0_0.index t (2 : Fin 3) * 16 + 1 * k.val = k.val; omega

theorem iblk1_apply (c : Dev nD) (t : Fin cfg0.N) (g : Fin 8) (n j : Fin 256) :
    iblk m c 1 t (ix3 g n j) = m ((c : Thread nD τ).loc main_arg1) (ix3 (gi t g) n j) := by
  show V m c main_arg1 (((cfg0.win 1).blk t).view.emb (ix3 g n j)) = _
  rw [V_main_arg1]
  refine congrArg _ ?_
  obtain ⟨-, ⟨e0, e1, e2⟩, -⟩ := idx_facts t
  funext a; apply Fin.ext
  match a with
  | ⟨0, _⟩ => show win0_1.index t (0 : Fin 3) * 8 + 1 * g.val = 8 * t.val + g.val; omega
  | ⟨1, _⟩ => show win0_1.index t (1 : Fin 3) * 256 + 1 * n.val = n.val; omega
  | ⟨2, _⟩ => show win0_1.index t (2 : Fin 3) * 256 + 1 * j.val = j.val; omega

theorem iblk2_apply (c : Dev nD) (t : Fin cfg0.N) (g : Fin 8) (n : Fin 256) (k : Fin 32) :
    iblk m c 2 t (ix3 g n k) = m ((c : Thread nD τ).loc main_arg3) (ix3 (gi t g) n k) := by
  show V m c main_arg3 (((cfg0.win 2).blk t).view.emb (ix3 g n k)) = _
  rw [V_main_arg3]
  refine congrArg _ ?_
  obtain ⟨-, -, ⟨e0, e1, e2⟩, -⟩ := idx_facts t
  funext a; apply Fin.ext
  match a with
  | ⟨0, _⟩ => show win0_2.index t (0 : Fin 3) * 8 + 1 * g.val = 8 * t.val + g.val; omega
  | ⟨1, _⟩ => show win0_2.index t (1 : Fin 3) * 256 + 1 * n.val = n.val; omega
  | ⟨2, _⟩ => show win0_2.index t (2 : Fin 3) * 32 + 1 * k.val = k.val; omega

/-- Parameter operand 3's block at every point is its whole array. -/
theorem iblk3_eq (c : Dev nD) (t : Fin cfg0.N) : iblk m c 3 t = V m c main_v2 := by
  funext y
  show V m c main_v2 (((cfg0.win 3).blk t).view.emb y) = V m c main_v2 y
  refine congrArg _ ?_
  obtain ⟨-, -, -, -, ⟨e0, e1⟩, -⟩ := idx_facts t
  funext a; apply Fin.ext
  match a with
  | ⟨0, _⟩ => show win0_3.index t (0 : Fin 2) * 16 + 1 * (y 0).val = (y 0).val; omega
  | ⟨1, _⟩ => show win0_3.index t (1 : Fin 2) * 128 + 1 * (y 1).val = (y 1).val; omega
/-- Parameter operand 4's block at every point is its whole array. -/
theorem iblk4_eq (c : Dev nD) (t : Fin cfg0.N) : iblk m c 4 t = V m c main_v5 := by
  funext y
  show V m c main_v5 (((cfg0.win 4).blk t).view.emb y) = V m c main_v5 y
  refine congrArg _ ?_
  obtain ⟨-, -, -, -, -, ⟨e0, e1⟩, -⟩ := idx_facts t
  funext a; apply Fin.ext
  match a with
  | ⟨0, _⟩ => show win0_4.index t (0 : Fin 2) * 32 + 1 * (y 0).val = (y 0).val; omega
  | ⟨1, _⟩ => show win0_4.index t (1 : Fin 2) * 128 + 1 * (y 1).val = (y 1).val; omega
/-- Parameter operand 5's block at every point is its whole array. -/
theorem iblk5_eq (c : Dev nD) (t : Fin cfg0.N) : iblk m c 5 t = V m c main_v6 := by
  funext y
  show V m c main_v6 (((cfg0.win 5).blk t).view.emb y) = V m c main_v6 y
  refine congrArg _ ?_
  obtain ⟨-, -, -, -, -, -, ⟨e0, e1⟩, -⟩ := idx_facts t
  funext a; apply Fin.ext
  match a with
  | ⟨0, _⟩ => show win0_5.index t (0 : Fin 2) * 64 + 1 * (y 0).val = (y 0).val; omega
  | ⟨1, _⟩ => show win0_5.index t (1 : Fin 2) * 32 + 1 * (y 1).val = (y 1).val; omega
/-- Parameter operand 6's block at every point is its whole array. -/
theorem iblk6_eq (c : Dev nD) (t : Fin cfg0.N) : iblk m c 6 t = V m c main_v7 := by
  funext y
  show V m c main_v7 (((cfg0.win 6).blk t).view.emb y) = V m c main_v7 y
  refine congrArg _ ?_
  obtain ⟨-, -, -, -, -, -, -, ⟨e0, e1⟩, -⟩ := idx_facts t
  funext a; apply Fin.ext
  match a with
  | ⟨0, _⟩ => show win0_6.index t (0 : Fin 2) * 64 + 1 * (y 0).val = (y 0).val; omega
  | ⟨1, _⟩ => show win0_6.index t (1 : Fin 2) * 32 + 1 * (y 1).val = (y 1).val; omega
/-- Parameter operand 7's block at every point is its whole array. -/
theorem iblk7_eq (c : Dev nD) (t : Fin cfg0.N) : iblk m c 7 t = V m c main_v8 := by
  funext y
  show V m c main_v8 (((cfg0.win 7).blk t).view.emb y) = V m c main_v8 y
  refine congrArg _ ?_
  obtain ⟨-, -, -, -, -, -, -, -, ⟨e0, e1⟩, -⟩ := idx_facts t
  funext a; apply Fin.ext
  match a with
  | ⟨0, _⟩ => show win0_7.index t (0 : Fin 2) * 32 + 1 * (y 0).val = (y 0).val; omega
  | ⟨1, _⟩ => show win0_7.index t (1 : Fin 2) * 32 + 1 * (y 1).val = (y 1).val; omega
/-- Parameter operand 8's block at every point is its whole array. -/
theorem iblk8_eq (c : Dev nD) (t : Fin cfg0.N) : iblk m c 8 t = V m c main_v9 := by
  funext y
  show V m c main_v9 (((cfg0.win 8).blk t).view.emb y) = V m c main_v9 y
  refine congrArg _ ?_
  obtain ⟨-, -, -, -, -, -, -, -, -, ⟨e0, e1⟩, -⟩ := idx_facts t
  funext a; apply Fin.ext
  match a with
  | ⟨0, _⟩ => show win0_8.index t (0 : Fin 2) * 32 + 1 * (y 0).val = (y 0).val; omega
  | ⟨1, _⟩ => show win0_8.index t (1 : Fin 2) * 32 + 1 * (y 1).val = (y 1).val; omega
/-- Parameter operand 9's block at every point is its whole array. -/
theorem iblk9_eq (c : Dev nD) (t : Fin cfg0.N) : iblk m c 9 t = V m c main_v51 := by
  funext y
  show V m c main_v51 (((cfg0.win 9).blk t).view.emb y) = V m c main_v51 y
  refine congrArg _ ?_
  obtain ⟨-, -, -, -, -, -, -, -, -, -, ⟨e0, e1⟩⟩ := idx_facts t
  funext a; apply Fin.ext
  match a with
  | ⟨0, _⟩ => show win0_9.index t (0 : Fin 2) * 64 + 1 * (y 0).val = (y 0).val; omega
  | ⟨1, _⟩ => show win0_9.index t (1 : Fin 2) * 16 + 1 * (y 1).val = (y 1).val; omega

theorem kerParams_congr {W0 W0' : Vec Ideal S16x128 .f32} {W1 W1' : Vec Ideal S32x128 .f32} {M10 M10' M11 M11' : Vec Ideal S64x32 .f32}
    {P1 P1' P2 P2' : Vec Ideal S32x32 .f32} {aux aux' : Vec Ideal S64x16 .f32} (h3 : W0 = W0') (h4 : W1 = W1') (h5 : M10 = M10')
    (h6 : M11 = M11') (h7 : P1 = P1') (h8 : P2 = P2') (h9 : aux = aux') :
    kerParams W0 W1 M10 M11 P1 P2 aux = kerParams W0' W1' M10' M11' P1' P2' aux' := by
  subst h3 h4 h5 h6 h7 h8 h9; rfl

theorem out_congr {P P' : Params} {X X' : Fin 256 → Fin 16 → EReal} {A A' : Fin 256 → Fin 256 → EReal} {D D' : Fin 256 → Fin 32 → EReal}
    (hP : P = P') (hX : X = X') (hA : A = A') (hD : D = D') (n : Fin 256) (c : Fin 32) :
    out P X A D n c = out P' X' A' D' n c := by
  subst hP hX hA hD; rfl

/-- The parameters the body reads at any point are the slab's. -/
theorem params_eq (c : Dev nD) (t : Fin cfg0.N) :
    kerParams (View.ld (iblk m c 3 t) r0_3) (View.ld (iblk m c 4 t) r0_5) (View.ld (iblk m c 5 t) r0_4) (View.ld (iblk m c 6 t) r0_4)
        (View.ld (iblk m c 7 t) r0_6) (View.ld (iblk m c 8 t) r0_6) (View.ld (iblk m c 9 t) r0_0)
      = slabParams (fun r c' => m ((c : Thread nD τ).loc main_arg2) (ix2 r c')) := by
  have h3 : View.ld (iblk m c 3 t) r0_3 = V m c main_v2 := (View.ld_unit_zero (S := S16x128) hz2 _ _).trans (iblk3_eq m c t)
  have h4 : View.ld (iblk m c 4 t) r0_5 = V m c main_v5 := (View.ld_unit_zero (S := S32x128) hz2 _ _).trans (iblk4_eq m c t)
  have h5 : View.ld (iblk m c 5 t) r0_4 = V m c main_v6 := (View.ld_unit_zero (S := S64x32) hz2 _ _).trans (iblk5_eq m c t)
  have h6 : View.ld (iblk m c 6 t) r0_4 = V m c main_v7 := (View.ld_unit_zero (S := S64x32) hz2 _ _).trans (iblk6_eq m c t)
  have h7 : View.ld (iblk m c 7 t) r0_6 = V m c main_v8 := (View.ld_unit_zero (S := S32x32) hz2 _ _).trans (iblk7_eq m c t)
  have h8 : View.ld (iblk m c 8 t) r0_6 = V m c main_v9 := (View.ld_unit_zero (S := S32x32) hz2 _ _).trans (iblk8_eq m c t)
  have h9 : View.ld (iblk m c 9 t) r0_0 = V m c main_v51 := (View.ld_unit_zero (S := S64x16) hz2 _ _).trans (iblk9_eq m c t)
  exact (kerParams_congr h3 h4 h5 h6 h7 h8 h9).trans (host_params m c)

/-! ## One graph's slab of a block, loaded -/

theorem ldx0 (x : Vec Ideal S8x256x16 .f32) (n : Fin 256) (k : Fin 16) : View.ld x r0_1 (ix3 0 n k) = x (ix3 0 n k) := by
  show x (r0_1.emb (ix3 0 n k)) = _
  refine congrArg x ?_
  funext a; apply Fin.ext; rw [Rect.emb_apply]
  match a with
  | ⟨0, _⟩ => rfl
  | ⟨1, _⟩ => show 0 + 1 * n.val = n.val; omega
  | ⟨2, _⟩ => show 0 + 1 * k.val = k.val; omega
theorem lda0 (x : Vec Ideal S8x256x256 .f32) (n j : Fin 256) : View.ld x r0_2 (ix3 0 n j) = x (ix3 0 n j) := by
  show x (r0_2.emb (ix3 0 n j)) = _
  refine congrArg x ?_
  funext a; apply Fin.ext; rw [Rect.emb_apply]
  match a with
  | ⟨0, _⟩ => rfl
  | ⟨1, _⟩ => show 0 + 1 * n.val = n.val; omega
  | ⟨2, _⟩ => show 0 + 1 * j.val = j.val; omega
theorem ldd0 (x : Vec Ideal S8x256x32 .f32) (n : Fin 256) (k : Fin 32) : View.ld x r0_7 (ix3 0 n k) = x (ix3 0 n k) := by
  show x (r0_7.emb (ix3 0 n k)) = _
  refine congrArg x ?_
  funext a; apply Fin.ext; rw [Rect.emb_apply]
  match a with
  | ⟨0, _⟩ => rfl
  | ⟨1, _⟩ => show 0 + 1 * n.val = n.val; omega
  | ⟨2, _⟩ => show 0 + 1 * k.val = k.val; omega
theorem ldx1 (x : Vec Ideal S8x256x16 .f32) (n : Fin 256) (k : Fin 16) : View.ld x r0_8 (ix3 0 n k) = x (ix3 1 n k) := by
  show x (r0_8.emb (ix3 0 n k)) = _
  refine congrArg x ?_
  funext a; apply Fin.ext; rw [Rect.emb_apply]
  match a with
  | ⟨0, _⟩ => rfl
  | ⟨1, _⟩ => show 0 + 1 * n.val = n.val; omega
  | ⟨2, _⟩ => show 0 + 1 * k.val = k.val; omega
theorem lda1 (x : Vec Ideal S8x256x256 .f32) (n j : Fin 256) : View.ld x r0_9 (ix3 0 n j) = x (ix3 1 n j) := by
  show x (r0_9.emb (ix3 0 n j)) = _
  refine congrArg x ?_
  funext a; apply Fin.ext; rw [Rect.emb_apply]
  match a with
  | ⟨0, _⟩ => rfl
  | ⟨1, _⟩ => show 0 + 1 * n.val = n.val; omega
  | ⟨2, _⟩ => show 0 + 1 * j.val = j.val; omega
theorem ldd1 (x : Vec Ideal S8x256x32 .f32) (n : Fin 256) (k : Fin 32) : View.ld x r0_10 (ix3 0 n k) = x (ix3 1 n k) := by
  show x (r0_10.emb (ix3 0 n k)) = _
  refine congrArg x ?_
  funext a; apply Fin.ext; rw [Rect.emb_apply]
  match a with
  | ⟨0, _⟩ => rfl
  | ⟨1, _⟩ => show 0 + 1 * n.val = n.val; omega
  | ⟨2, _⟩ => show 0 + 1 * k.val = k.val; omega
theorem ldx2 (x : Vec Ideal S8x256x16 .f32) (n : Fin 256) (k : Fin 16) : View.ld x r0_11 (ix3 0 n k) = x (ix3 2 n k) := by
  show x (r0_11.emb (ix3 0 n k)) = _
  refine congrArg x ?_
  funext a; apply Fin.ext; rw [Rect.emb_apply]
  match a with
  | ⟨0, _⟩ => rfl
  | ⟨1, _⟩ => show 0 + 1 * n.val = n.val; omega
  | ⟨2, _⟩ => show 0 + 1 * k.val = k.val; omega
theorem lda2 (x : Vec Ideal S8x256x256 .f32) (n j : Fin 256) : View.ld x r0_12 (ix3 0 n j) = x (ix3 2 n j) := by
  show x (r0_12.emb (ix3 0 n j)) = _
  refine congrArg x ?_
  funext a; apply Fin.ext; rw [Rect.emb_apply]
  match a with
  | ⟨0, _⟩ => rfl
  | ⟨1, _⟩ => show 0 + 1 * n.val = n.val; omega
  | ⟨2, _⟩ => show 0 + 1 * j.val = j.val; omega
theorem ldd2 (x : Vec Ideal S8x256x32 .f32) (n : Fin 256) (k : Fin 32) : View.ld x r0_13 (ix3 0 n k) = x (ix3 2 n k) := by
  show x (r0_13.emb (ix3 0 n k)) = _
  refine congrArg x ?_
  funext a; apply Fin.ext; rw [Rect.emb_apply]
  match a with
  | ⟨0, _⟩ => rfl
  | ⟨1, _⟩ => show 0 + 1 * n.val = n.val; omega
  | ⟨2, _⟩ => show 0 + 1 * k.val = k.val; omega
theorem ldx3 (x : Vec Ideal S8x256x16 .f32) (n : Fin 256) (k : Fin 16) : View.ld x r0_14 (ix3 0 n k) = x (ix3 3 n k) := by
  show x (r0_14.emb (ix3 0 n k)) = _
  refine congrArg x ?_
  funext a; apply Fin.ext; rw [Rect.emb_apply]
  match a with
  | ⟨0, _⟩ => rfl
  | ⟨1, _⟩ => show 0 + 1 * n.val = n.val; omega
  | ⟨2, _⟩ => show 0 + 1 * k.val = k.val; omega
theorem lda3 (x : Vec Ideal S8x256x256 .f32) (n j : Fin 256) : View.ld x r0_15 (ix3 0 n j) = x (ix3 3 n j) := by
  show x (r0_15.emb (ix3 0 n j)) = _
  refine congrArg x ?_
  funext a; apply Fin.ext; rw [Rect.emb_apply]
  match a with
  | ⟨0, _⟩ => rfl
  | ⟨1, _⟩ => show 0 + 1 * n.val = n.val; omega
  | ⟨2, _⟩ => show 0 + 1 * j.val = j.val; omega
theorem ldd3 (x : Vec Ideal S8x256x32 .f32) (n : Fin 256) (k : Fin 32) : View.ld x r0_16 (ix3 0 n k) = x (ix3 3 n k) := by
  show x (r0_16.emb (ix3 0 n k)) = _
  refine congrArg x ?_
  funext a; apply Fin.ext; rw [Rect.emb_apply]
  match a with
  | ⟨0, _⟩ => rfl
  | ⟨1, _⟩ => show 0 + 1 * n.val = n.val; omega
  | ⟨2, _⟩ => show 0 + 1 * k.val = k.val; omega
theorem ldx4 (x : Vec Ideal S8x256x16 .f32) (n : Fin 256) (k : Fin 16) : View.ld x r0_17 (ix3 0 n k) = x (ix3 4 n k) := by
  show x (r0_17.emb (ix3 0 n k)) = _
  refine congrArg x ?_
  funext a; apply Fin.ext; rw [Rect.emb_apply]
  match a with
  | ⟨0, _⟩ => rfl
  | ⟨1, _⟩ => show 0 + 1 * n.val = n.val; omega
  | ⟨2, _⟩ => show 0 + 1 * k.val = k.val; omega
theorem lda4 (x : Vec Ideal S8x256x256 .f32) (n j : Fin 256) : View.ld x r0_18 (ix3 0 n j) = x (ix3 4 n j) := by
  show x (r0_18.emb (ix3 0 n j)) = _
  refine congrArg x ?_
  funext a; apply Fin.ext; rw [Rect.emb_apply]
  match a with
  | ⟨0, _⟩ => rfl
  | ⟨1, _⟩ => show 0 + 1 * n.val = n.val; omega
  | ⟨2, _⟩ => show 0 + 1 * j.val = j.val; omega
theorem ldd4 (x : Vec Ideal S8x256x32 .f32) (n : Fin 256) (k : Fin 32) : View.ld x r0_19 (ix3 0 n k) = x (ix3 4 n k) := by
  show x (r0_19.emb (ix3 0 n k)) = _
  refine congrArg x ?_
  funext a; apply Fin.ext; rw [Rect.emb_apply]
  match a with
  | ⟨0, _⟩ => rfl
  | ⟨1, _⟩ => show 0 + 1 * n.val = n.val; omega
  | ⟨2, _⟩ => show 0 + 1 * k.val = k.val; omega
theorem ldx5 (x : Vec Ideal S8x256x16 .f32) (n : Fin 256) (k : Fin 16) : View.ld x r0_20 (ix3 0 n k) = x (ix3 5 n k) := by
  show x (r0_20.emb (ix3 0 n k)) = _
  refine congrArg x ?_
  funext a; apply Fin.ext; rw [Rect.emb_apply]
  match a with
  | ⟨0, _⟩ => rfl
  | ⟨1, _⟩ => show 0 + 1 * n.val = n.val; omega
  | ⟨2, _⟩ => show 0 + 1 * k.val = k.val; omega
theorem lda5 (x : Vec Ideal S8x256x256 .f32) (n j : Fin 256) : View.ld x r0_21 (ix3 0 n j) = x (ix3 5 n j) := by
  show x (r0_21.emb (ix3 0 n j)) = _
  refine congrArg x ?_
  funext a; apply Fin.ext; rw [Rect.emb_apply]
  match a with
  | ⟨0, _⟩ => rfl
  | ⟨1, _⟩ => show 0 + 1 * n.val = n.val; omega
  | ⟨2, _⟩ => show 0 + 1 * j.val = j.val; omega
theorem ldd5 (x : Vec Ideal S8x256x32 .f32) (n : Fin 256) (k : Fin 32) : View.ld x r0_22 (ix3 0 n k) = x (ix3 5 n k) := by
  show x (r0_22.emb (ix3 0 n k)) = _
  refine congrArg x ?_
  funext a; apply Fin.ext; rw [Rect.emb_apply]
  match a with
  | ⟨0, _⟩ => rfl
  | ⟨1, _⟩ => show 0 + 1 * n.val = n.val; omega
  | ⟨2, _⟩ => show 0 + 1 * k.val = k.val; omega
theorem ldx6 (x : Vec Ideal S8x256x16 .f32) (n : Fin 256) (k : Fin 16) : View.ld x r0_23 (ix3 0 n k) = x (ix3 6 n k) := by
  show x (r0_23.emb (ix3 0 n k)) = _
  refine congrArg x ?_
  funext a; apply Fin.ext; rw [Rect.emb_apply]
  match a with
  | ⟨0, _⟩ => rfl
  | ⟨1, _⟩ => show 0 + 1 * n.val = n.val; omega
  | ⟨2, _⟩ => show 0 + 1 * k.val = k.val; omega
theorem lda6 (x : Vec Ideal S8x256x256 .f32) (n j : Fin 256) : View.ld x r0_24 (ix3 0 n j) = x (ix3 6 n j) := by
  show x (r0_24.emb (ix3 0 n j)) = _
  refine congrArg x ?_
  funext a; apply Fin.ext; rw [Rect.emb_apply]
  match a with
  | ⟨0, _⟩ => rfl
  | ⟨1, _⟩ => show 0 + 1 * n.val = n.val; omega
  | ⟨2, _⟩ => show 0 + 1 * j.val = j.val; omega
theorem ldd6 (x : Vec Ideal S8x256x32 .f32) (n : Fin 256) (k : Fin 32) : View.ld x r0_25 (ix3 0 n k) = x (ix3 6 n k) := by
  show x (r0_25.emb (ix3 0 n k)) = _
  refine congrArg x ?_
  funext a; apply Fin.ext; rw [Rect.emb_apply]
  match a with
  | ⟨0, _⟩ => rfl
  | ⟨1, _⟩ => show 0 + 1 * n.val = n.val; omega
  | ⟨2, _⟩ => show 0 + 1 * k.val = k.val; omega
theorem ldx7 (x : Vec Ideal S8x256x16 .f32) (n : Fin 256) (k : Fin 16) : View.ld x r0_26 (ix3 0 n k) = x (ix3 7 n k) := by
  show x (r0_26.emb (ix3 0 n k)) = _
  refine congrArg x ?_
  funext a; apply Fin.ext; rw [Rect.emb_apply]
  match a with
  | ⟨0, _⟩ => rfl
  | ⟨1, _⟩ => show 0 + 1 * n.val = n.val; omega
  | ⟨2, _⟩ => show 0 + 1 * k.val = k.val; omega
theorem lda7 (x : Vec Ideal S8x256x256 .f32) (n j : Fin 256) : View.ld x r0_27 (ix3 0 n j) = x (ix3 7 n j) := by
  show x (r0_27.emb (ix3 0 n j)) = _
  refine congrArg x ?_
  funext a; apply Fin.ext; rw [Rect.emb_apply]
  match a with
  | ⟨0, _⟩ => rfl
  | ⟨1, _⟩ => show 0 + 1 * n.val = n.val; omega
  | ⟨2, _⟩ => show 0 + 1 * j.val = j.val; omega
theorem ldd7 (x : Vec Ideal S8x256x32 .f32) (n : Fin 256) (k : Fin 32) : View.ld x r0_28 (ix3 0 n k) = x (ix3 7 n k) := by
  show x (r0_28.emb (ix3 0 n k)) = _
  refine congrArg x ?_
  funext a; apply Fin.ext; rw [Rect.emb_apply]
  match a with
  | ⟨0, _⟩ => rfl
  | ⟨1, _⟩ => show 0 + 1 * n.val = n.val; omega
  | ⟨2, _⟩ => show 0 + 1 * k.val = k.val; omega

/-! ## What each store writes, read at (node, column) -/

/-- The store of graph 0 of point `t` writes the network's output for graph 8t + 0. -/
theorem storeVal0_val (c : Dev nD) (t : Fin cfg0.N) (n : Fin 256) (c' : Fin 32) :
    storeVal0 (F := Ideal) (iblk m c 0 t) (iblk m c 1 t) (iblk m c 2 t) (iblk m c 3 t) (iblk m c 4 t) (iblk m c 5 t) (iblk m c 6 t) (iblk m c 7 t) (iblk m c 8 t) (iblk m c 9 t) (ix3 0 n c') = GA m c (ix3 (gi t 0) n c') := by
  refine (congrFun (storeVal0_eq (iblk m c 0 t) (iblk m c 1 t) (iblk m c 2 t) (iblk m c 3 t) (iblk m c 4 t) (iblk m c 5 t) (iblk m c 6 t) (iblk m c 7 t) (iblk m c 8 t) (iblk m c 9 t)) _).trans ?_
  refine (graphT_apply _ _ _ _ _ _ _ _ _ _ n c').trans ?_
  have hX : (fun (n : Fin 256) (k : Fin 16) => View.ld (iblk m c 0 t) r0_1 (ix3 0 n k)) = fun n k => m ((c : Thread nD τ).loc main_arg0) (ix3 (gi t 0) n k) :=
    funext fun n => funext fun k => (ldx0 (iblk m c 0 t) n k).trans (iblk0_apply m c t 0 n k)
  have hA : (fun (n j : Fin 256) => View.ld (iblk m c 1 t) r0_2 (ix3 0 n j)) = fun n j => m ((c : Thread nD τ).loc main_arg1) (ix3 (gi t 0) n j) :=
    funext fun n => funext fun j => (lda0 (iblk m c 1 t) n j).trans (iblk1_apply m c t 0 n j)
  have hD : (fun (n : Fin 256) (k : Fin 32) => View.ld (iblk m c 2 t) r0_7 (ix3 0 n k)) = fun n k => m ((c : Thread nD τ).loc main_arg3) (ix3 (gi t 0) n k) :=
    funext fun n => funext fun k => (ldd0 (iblk m c 2 t) n k).trans (iblk2_apply m c t 0 n k)
  exact out_congr (params_eq m c t) hX hA hD n c'
/-- The store of graph 1 of point `t` writes the network's output for graph 8t + 1. -/
theorem storeVal1_val (c : Dev nD) (t : Fin cfg0.N) (n : Fin 256) (c' : Fin 32) :
    storeVal1 (F := Ideal) (iblk m c 0 t) (iblk m c 1 t) (iblk m c 2 t) (iblk m c 3 t) (iblk m c 4 t) (iblk m c 5 t) (iblk m c 6 t) (iblk m c 7 t) (iblk m c 8 t) (iblk m c 9 t) (ix3 0 n c') = GA m c (ix3 (gi t 1) n c') := by
  refine (congrFun (storeVal1_eq (iblk m c 0 t) (iblk m c 1 t) (iblk m c 2 t) (iblk m c 3 t) (iblk m c 4 t) (iblk m c 5 t) (iblk m c 6 t) (iblk m c 7 t) (iblk m c 8 t) (iblk m c 9 t)) _).trans ?_
  refine (graphT_apply _ _ _ _ _ _ _ _ _ _ n c').trans ?_
  have hX : (fun (n : Fin 256) (k : Fin 16) => View.ld (iblk m c 0 t) r0_8 (ix3 0 n k)) = fun n k => m ((c : Thread nD τ).loc main_arg0) (ix3 (gi t 1) n k) :=
    funext fun n => funext fun k => (ldx1 (iblk m c 0 t) n k).trans (iblk0_apply m c t 1 n k)
  have hA : (fun (n j : Fin 256) => View.ld (iblk m c 1 t) r0_9 (ix3 0 n j)) = fun n j => m ((c : Thread nD τ).loc main_arg1) (ix3 (gi t 1) n j) :=
    funext fun n => funext fun j => (lda1 (iblk m c 1 t) n j).trans (iblk1_apply m c t 1 n j)
  have hD : (fun (n : Fin 256) (k : Fin 32) => View.ld (iblk m c 2 t) r0_10 (ix3 0 n k)) = fun n k => m ((c : Thread nD τ).loc main_arg3) (ix3 (gi t 1) n k) :=
    funext fun n => funext fun k => (ldd1 (iblk m c 2 t) n k).trans (iblk2_apply m c t 1 n k)
  exact out_congr (params_eq m c t) hX hA hD n c'
/-- The store of graph 2 of point `t` writes the network's output for graph 8t + 2. -/
theorem storeVal2_val (c : Dev nD) (t : Fin cfg0.N) (n : Fin 256) (c' : Fin 32) :
    storeVal2 (F := Ideal) (iblk m c 0 t) (iblk m c 1 t) (iblk m c 2 t) (iblk m c 3 t) (iblk m c 4 t) (iblk m c 5 t) (iblk m c 6 t) (iblk m c 7 t) (iblk m c 8 t) (iblk m c 9 t) (ix3 0 n c') = GA m c (ix3 (gi t 2) n c') := by
  refine (congrFun (storeVal2_eq (iblk m c 0 t) (iblk m c 1 t) (iblk m c 2 t) (iblk m c 3 t) (iblk m c 4 t) (iblk m c 5 t) (iblk m c 6 t) (iblk m c 7 t) (iblk m c 8 t) (iblk m c 9 t)) _).trans ?_
  refine (graphT_apply _ _ _ _ _ _ _ _ _ _ n c').trans ?_
  have hX : (fun (n : Fin 256) (k : Fin 16) => View.ld (iblk m c 0 t) r0_11 (ix3 0 n k)) = fun n k => m ((c : Thread nD τ).loc main_arg0) (ix3 (gi t 2) n k) :=
    funext fun n => funext fun k => (ldx2 (iblk m c 0 t) n k).trans (iblk0_apply m c t 2 n k)
  have hA : (fun (n j : Fin 256) => View.ld (iblk m c 1 t) r0_12 (ix3 0 n j)) = fun n j => m ((c : Thread nD τ).loc main_arg1) (ix3 (gi t 2) n j) :=
    funext fun n => funext fun j => (lda2 (iblk m c 1 t) n j).trans (iblk1_apply m c t 2 n j)
  have hD : (fun (n : Fin 256) (k : Fin 32) => View.ld (iblk m c 2 t) r0_13 (ix3 0 n k)) = fun n k => m ((c : Thread nD τ).loc main_arg3) (ix3 (gi t 2) n k) :=
    funext fun n => funext fun k => (ldd2 (iblk m c 2 t) n k).trans (iblk2_apply m c t 2 n k)
  exact out_congr (params_eq m c t) hX hA hD n c'
/-- The store of graph 3 of point `t` writes the network's output for graph 8t + 3. -/
theorem storeVal3_val (c : Dev nD) (t : Fin cfg0.N) (n : Fin 256) (c' : Fin 32) :
    storeVal3 (F := Ideal) (iblk m c 0 t) (iblk m c 1 t) (iblk m c 2 t) (iblk m c 3 t) (iblk m c 4 t) (iblk m c 5 t) (iblk m c 6 t) (iblk m c 7 t) (iblk m c 8 t) (iblk m c 9 t) (ix3 0 n c') = GA m c (ix3 (gi t 3) n c') := by
  refine (congrFun (storeVal3_eq (iblk m c 0 t) (iblk m c 1 t) (iblk m c 2 t) (iblk m c 3 t) (iblk m c 4 t) (iblk m c 5 t) (iblk m c 6 t) (iblk m c 7 t) (iblk m c 8 t) (iblk m c 9 t)) _).trans ?_
  refine (graphT_apply _ _ _ _ _ _ _ _ _ _ n c').trans ?_
  have hX : (fun (n : Fin 256) (k : Fin 16) => View.ld (iblk m c 0 t) r0_14 (ix3 0 n k)) = fun n k => m ((c : Thread nD τ).loc main_arg0) (ix3 (gi t 3) n k) :=
    funext fun n => funext fun k => (ldx3 (iblk m c 0 t) n k).trans (iblk0_apply m c t 3 n k)
  have hA : (fun (n j : Fin 256) => View.ld (iblk m c 1 t) r0_15 (ix3 0 n j)) = fun n j => m ((c : Thread nD τ).loc main_arg1) (ix3 (gi t 3) n j) :=
    funext fun n => funext fun j => (lda3 (iblk m c 1 t) n j).trans (iblk1_apply m c t 3 n j)
  have hD : (fun (n : Fin 256) (k : Fin 32) => View.ld (iblk m c 2 t) r0_16 (ix3 0 n k)) = fun n k => m ((c : Thread nD τ).loc main_arg3) (ix3 (gi t 3) n k) :=
    funext fun n => funext fun k => (ldd3 (iblk m c 2 t) n k).trans (iblk2_apply m c t 3 n k)
  exact out_congr (params_eq m c t) hX hA hD n c'
/-- The store of graph 4 of point `t` writes the network's output for graph 8t + 4. -/
theorem storeVal4_val (c : Dev nD) (t : Fin cfg0.N) (n : Fin 256) (c' : Fin 32) :
    storeVal4 (F := Ideal) (iblk m c 0 t) (iblk m c 1 t) (iblk m c 2 t) (iblk m c 3 t) (iblk m c 4 t) (iblk m c 5 t) (iblk m c 6 t) (iblk m c 7 t) (iblk m c 8 t) (iblk m c 9 t) (ix3 0 n c') = GA m c (ix3 (gi t 4) n c') := by
  refine (congrFun (storeVal4_eq (iblk m c 0 t) (iblk m c 1 t) (iblk m c 2 t) (iblk m c 3 t) (iblk m c 4 t) (iblk m c 5 t) (iblk m c 6 t) (iblk m c 7 t) (iblk m c 8 t) (iblk m c 9 t)) _).trans ?_
  refine (graphT_apply _ _ _ _ _ _ _ _ _ _ n c').trans ?_
  have hX : (fun (n : Fin 256) (k : Fin 16) => View.ld (iblk m c 0 t) r0_17 (ix3 0 n k)) = fun n k => m ((c : Thread nD τ).loc main_arg0) (ix3 (gi t 4) n k) :=
    funext fun n => funext fun k => (ldx4 (iblk m c 0 t) n k).trans (iblk0_apply m c t 4 n k)
  have hA : (fun (n j : Fin 256) => View.ld (iblk m c 1 t) r0_18 (ix3 0 n j)) = fun n j => m ((c : Thread nD τ).loc main_arg1) (ix3 (gi t 4) n j) :=
    funext fun n => funext fun j => (lda4 (iblk m c 1 t) n j).trans (iblk1_apply m c t 4 n j)
  have hD : (fun (n : Fin 256) (k : Fin 32) => View.ld (iblk m c 2 t) r0_19 (ix3 0 n k)) = fun n k => m ((c : Thread nD τ).loc main_arg3) (ix3 (gi t 4) n k) :=
    funext fun n => funext fun k => (ldd4 (iblk m c 2 t) n k).trans (iblk2_apply m c t 4 n k)
  exact out_congr (params_eq m c t) hX hA hD n c'
/-- The store of graph 5 of point `t` writes the network's output for graph 8t + 5. -/
theorem storeVal5_val (c : Dev nD) (t : Fin cfg0.N) (n : Fin 256) (c' : Fin 32) :
    storeVal5 (F := Ideal) (iblk m c 0 t) (iblk m c 1 t) (iblk m c 2 t) (iblk m c 3 t) (iblk m c 4 t) (iblk m c 5 t) (iblk m c 6 t) (iblk m c 7 t) (iblk m c 8 t) (iblk m c 9 t) (ix3 0 n c') = GA m c (ix3 (gi t 5) n c') := by
  refine (congrFun (storeVal5_eq (iblk m c 0 t) (iblk m c 1 t) (iblk m c 2 t) (iblk m c 3 t) (iblk m c 4 t) (iblk m c 5 t) (iblk m c 6 t) (iblk m c 7 t) (iblk m c 8 t) (iblk m c 9 t)) _).trans ?_
  refine (graphT_apply _ _ _ _ _ _ _ _ _ _ n c').trans ?_
  have hX : (fun (n : Fin 256) (k : Fin 16) => View.ld (iblk m c 0 t) r0_20 (ix3 0 n k)) = fun n k => m ((c : Thread nD τ).loc main_arg0) (ix3 (gi t 5) n k) :=
    funext fun n => funext fun k => (ldx5 (iblk m c 0 t) n k).trans (iblk0_apply m c t 5 n k)
  have hA : (fun (n j : Fin 256) => View.ld (iblk m c 1 t) r0_21 (ix3 0 n j)) = fun n j => m ((c : Thread nD τ).loc main_arg1) (ix3 (gi t 5) n j) :=
    funext fun n => funext fun j => (lda5 (iblk m c 1 t) n j).trans (iblk1_apply m c t 5 n j)
  have hD : (fun (n : Fin 256) (k : Fin 32) => View.ld (iblk m c 2 t) r0_22 (ix3 0 n k)) = fun n k => m ((c : Thread nD τ).loc main_arg3) (ix3 (gi t 5) n k) :=
    funext fun n => funext fun k => (ldd5 (iblk m c 2 t) n k).trans (iblk2_apply m c t 5 n k)
  exact out_congr (params_eq m c t) hX hA hD n c'
/-- The store of graph 6 of point `t` writes the network's output for graph 8t + 6. -/
theorem storeVal6_val (c : Dev nD) (t : Fin cfg0.N) (n : Fin 256) (c' : Fin 32) :
    storeVal6 (F := Ideal) (iblk m c 0 t) (iblk m c 1 t) (iblk m c 2 t) (iblk m c 3 t) (iblk m c 4 t) (iblk m c 5 t) (iblk m c 6 t) (iblk m c 7 t) (iblk m c 8 t) (iblk m c 9 t) (ix3 0 n c') = GA m c (ix3 (gi t 6) n c') := by
  refine (congrFun (storeVal6_eq (iblk m c 0 t) (iblk m c 1 t) (iblk m c 2 t) (iblk m c 3 t) (iblk m c 4 t) (iblk m c 5 t) (iblk m c 6 t) (iblk m c 7 t) (iblk m c 8 t) (iblk m c 9 t)) _).trans ?_
  refine (graphT_apply _ _ _ _ _ _ _ _ _ _ n c').trans ?_
  have hX : (fun (n : Fin 256) (k : Fin 16) => View.ld (iblk m c 0 t) r0_23 (ix3 0 n k)) = fun n k => m ((c : Thread nD τ).loc main_arg0) (ix3 (gi t 6) n k) :=
    funext fun n => funext fun k => (ldx6 (iblk m c 0 t) n k).trans (iblk0_apply m c t 6 n k)
  have hA : (fun (n j : Fin 256) => View.ld (iblk m c 1 t) r0_24 (ix3 0 n j)) = fun n j => m ((c : Thread nD τ).loc main_arg1) (ix3 (gi t 6) n j) :=
    funext fun n => funext fun j => (lda6 (iblk m c 1 t) n j).trans (iblk1_apply m c t 6 n j)
  have hD : (fun (n : Fin 256) (k : Fin 32) => View.ld (iblk m c 2 t) r0_25 (ix3 0 n k)) = fun n k => m ((c : Thread nD τ).loc main_arg3) (ix3 (gi t 6) n k) :=
    funext fun n => funext fun k => (ldd6 (iblk m c 2 t) n k).trans (iblk2_apply m c t 6 n k)
  exact out_congr (params_eq m c t) hX hA hD n c'
/-- The store of graph 7 of point `t` writes the network's output for graph 8t + 7. -/
theorem storeVal7_val (c : Dev nD) (t : Fin cfg0.N) (n : Fin 256) (c' : Fin 32) :
    storeVal7 (F := Ideal) (iblk m c 0 t) (iblk m c 1 t) (iblk m c 2 t) (iblk m c 3 t) (iblk m c 4 t) (iblk m c 5 t) (iblk m c 6 t) (iblk m c 7 t) (iblk m c 8 t) (iblk m c 9 t) (ix3 0 n c') = GA m c (ix3 (gi t 7) n c') := by
  refine (congrFun (storeVal7_eq (iblk m c 0 t) (iblk m c 1 t) (iblk m c 2 t) (iblk m c 3 t) (iblk m c 4 t) (iblk m c 5 t) (iblk m c 6 t) (iblk m c 7 t) (iblk m c 8 t) (iblk m c 9 t)) _).trans ?_
  refine (graphT_apply _ _ _ _ _ _ _ _ _ _ n c').trans ?_
  have hX : (fun (n : Fin 256) (k : Fin 16) => View.ld (iblk m c 0 t) r0_26 (ix3 0 n k)) = fun n k => m ((c : Thread nD τ).loc main_arg0) (ix3 (gi t 7) n k) :=
    funext fun n => funext fun k => (ldx7 (iblk m c 0 t) n k).trans (iblk0_apply m c t 7 n k)
  have hA : (fun (n j : Fin 256) => View.ld (iblk m c 1 t) r0_27 (ix3 0 n j)) = fun n j => m ((c : Thread nD τ).loc main_arg1) (ix3 (gi t 7) n j) :=
    funext fun n => funext fun j => (lda7 (iblk m c 1 t) n j).trans (iblk1_apply m c t 7 n j)
  have hD : (fun (n : Fin 256) (k : Fin 32) => View.ld (iblk m c 2 t) r0_28 (ix3 0 n k)) = fun n k => m ((c : Thread nD τ).loc main_arg3) (ix3 (gi t 7) n k) :=
    funext fun n => funext fun k => (ldd7 (iblk m c 2 t) n k).trans (iblk2_apply m c t 7 n k)
  exact out_congr (params_eq m c t) hX hA hD n c'

/-! ## A point's block, and the array -/

/-- An index of the result array is in point `t`'s block iff each coordinate is in the block's range. -/
theorem mem_blk10 (t : Fin cfg0.N) (i : S256x256x32.Idx) :
    i ∈ ((cfg0.win 10).blk t).view.set ↔ ∀ a : Fin 3, win0_10.index t a * S8x256x32.size a ≤ (i a).val ∧ (i a).val < win0_10.index t a * S8x256x32.size a + S8x256x32.size a := by
  show i ∈ ((View.whole main_v52).slice (win0_10.rect t)).set ↔ _
  rw [View.set_slice_whole, Rect.mem_set_unit]
  exact Iff.rfl

theorem rd0_emb (n : Fin 256) (k : Fin 32) : (r0_7.emb (ix3 0 n k) : S8x256x32.Idx) = ix3 0 n k := by
  funext a; apply Fin.ext; rw [Rect.emb_apply]
  match a with
  | ⟨0, _⟩ => rfl
  | ⟨1, _⟩ => show 0 + 1 * n.val = n.val; omega
  | ⟨2, _⟩ => show 0 + 1 * k.val = k.val; omega
theorem rd1_emb (n : Fin 256) (k : Fin 32) : (r0_10.emb (ix3 0 n k) : S8x256x32.Idx) = ix3 1 n k := by
  funext a; apply Fin.ext; rw [Rect.emb_apply]
  match a with
  | ⟨0, _⟩ => rfl
  | ⟨1, _⟩ => show 0 + 1 * n.val = n.val; omega
  | ⟨2, _⟩ => show 0 + 1 * k.val = k.val; omega
theorem rd2_emb (n : Fin 256) (k : Fin 32) : (r0_13.emb (ix3 0 n k) : S8x256x32.Idx) = ix3 2 n k := by
  funext a; apply Fin.ext; rw [Rect.emb_apply]
  match a with
  | ⟨0, _⟩ => rfl
  | ⟨1, _⟩ => show 0 + 1 * n.val = n.val; omega
  | ⟨2, _⟩ => show 0 + 1 * k.val = k.val; omega
theorem rd3_emb (n : Fin 256) (k : Fin 32) : (r0_16.emb (ix3 0 n k) : S8x256x32.Idx) = ix3 3 n k := by
  funext a; apply Fin.ext; rw [Rect.emb_apply]
  match a with
  | ⟨0, _⟩ => rfl
  | ⟨1, _⟩ => show 0 + 1 * n.val = n.val; omega
  | ⟨2, _⟩ => show 0 + 1 * k.val = k.val; omega
theorem rd4_emb (n : Fin 256) (k : Fin 32) : (r0_19.emb (ix3 0 n k) : S8x256x32.Idx) = ix3 4 n k := by
  funext a; apply Fin.ext; rw [Rect.emb_apply]
  match a with
  | ⟨0, _⟩ => rfl
  | ⟨1, _⟩ => show 0 + 1 * n.val = n.val; omega
  | ⟨2, _⟩ => show 0 + 1 * k.val = k.val; omega
theorem rd5_emb (n : Fin 256) (k : Fin 32) : (r0_22.emb (ix3 0 n k) : S8x256x32.Idx) = ix3 5 n k := by
  funext a; apply Fin.ext; rw [Rect.emb_apply]
  match a with
  | ⟨0, _⟩ => rfl
  | ⟨1, _⟩ => show 0 + 1 * n.val = n.val; omega
  | ⟨2, _⟩ => show 0 + 1 * k.val = k.val; omega
theorem rd6_emb (n : Fin 256) (k : Fin 32) : (r0_25.emb (ix3 0 n k) : S8x256x32.Idx) = ix3 6 n k := by
  funext a; apply Fin.ext; rw [Rect.emb_apply]
  match a with
  | ⟨0, _⟩ => rfl
  | ⟨1, _⟩ => show 0 + 1 * n.val = n.val; omega
  | ⟨2, _⟩ => show 0 + 1 * k.val = k.val; omega
theorem rd7_emb (n : Fin 256) (k : Fin 32) : (r0_28.emb (ix3 0 n k) : S8x256x32.Idx) = ix3 7 n k := by
  funext a; apply Fin.ext; rw [Rect.emb_apply]
  match a with
  | ⟨0, _⟩ => rfl
  | ⟨1, _⟩ => show 0 + 1 * n.val = n.val; omega
  | ⟨2, _⟩ => show 0 + 1 * k.val = k.val; omega

/-- A local index of one graph's slab has first coordinate zero. -/
theorem slab_idx (x : (⟨3, ![1, 256, 32]⟩ : Shape).Idx) : ∃ (n : Fin 256) (k : Fin 32), x = ix3 0 n k :=
  ⟨x 1, x 2, (eq_ix3 x).trans (congrArg (fun z => ix3 z (x 1) (x 2)) (Fin.eq_zero (x 0)))⟩

/-- The output block of point `t`, read at (graph `g` of the point, node, column), is the spec's result for graph 8t + g. -/
theorem out10_val (c : Dev nD) (t : Fin cfg0.N) (g : Fin 8) (n : Fin 256) (c' : Fin 32) :
    out10 (F := Ideal) (iblk m c 0 t) (iblk m c 1 t) (iblk m c 2 t) (iblk m c 3 t) (iblk m c 4 t) (iblk m c 5 t) (iblk m c 6 t) (iblk m c 7 t) (iblk m c 8 t) (iblk m c 9 t) (ix3 g n c') = GA m c (ix3 (gi t g) n c') := by
  unfold out10
  refine (View.canon_apply_of_pieces (fun y : S8x256x32.Idx => GA m c (ix3 (gi t (y 0)) (y 1) (y 2))) _ ?_ (ix3 g n c')
    (cover10 _ _ _ _ _ _ _ _ _)).trans rfl
  intro p hp x
  simp only [List.mem_cons, List.mem_singleton, List.not_mem_nil, or_false] at hp
  rcases hp with rfl | rfl | rfl | rfl | rfl | rfl | rfl | rfl
  · obtain ⟨n', k', rfl⟩ := slab_idx x
    show storeVal7 (F := Ideal) (iblk m c 0 t) (iblk m c 1 t) (iblk m c 2 t) (iblk m c 3 t) (iblk m c 4 t) (iblk m c 5 t) (iblk m c 6 t) (iblk m c 7 t) (iblk m c 8 t) (iblk m c 9 t) (ix3 0 n' k') = GA m c (ix3 (gi t ((r0_28.emb (ix3 0 n' k') : S8x256x32.Idx) 0)) ((r0_28.emb (ix3 0 n' k') : S8x256x32.Idx) 1) ((r0_28.emb (ix3 0 n' k') : S8x256x32.Idx) 2))
    rw [rd7_emb]
    exact storeVal7_val m c t n' k'
  · obtain ⟨n', k', rfl⟩ := slab_idx x
    show storeVal6 (F := Ideal) (iblk m c 0 t) (iblk m c 1 t) (iblk m c 2 t) (iblk m c 3 t) (iblk m c 4 t) (iblk m c 5 t) (iblk m c 6 t) (iblk m c 7 t) (iblk m c 8 t) (iblk m c 9 t) (ix3 0 n' k') = GA m c (ix3 (gi t ((r0_25.emb (ix3 0 n' k') : S8x256x32.Idx) 0)) ((r0_25.emb (ix3 0 n' k') : S8x256x32.Idx) 1) ((r0_25.emb (ix3 0 n' k') : S8x256x32.Idx) 2))
    rw [rd6_emb]
    exact storeVal6_val m c t n' k'
  · obtain ⟨n', k', rfl⟩ := slab_idx x
    show storeVal5 (F := Ideal) (iblk m c 0 t) (iblk m c 1 t) (iblk m c 2 t) (iblk m c 3 t) (iblk m c 4 t) (iblk m c 5 t) (iblk m c 6 t) (iblk m c 7 t) (iblk m c 8 t) (iblk m c 9 t) (ix3 0 n' k') = GA m c (ix3 (gi t ((r0_22.emb (ix3 0 n' k') : S8x256x32.Idx) 0)) ((r0_22.emb (ix3 0 n' k') : S8x256x32.Idx) 1) ((r0_22.emb (ix3 0 n' k') : S8x256x32.Idx) 2))
    rw [rd5_emb]
    exact storeVal5_val m c t n' k'
  · obtain ⟨n', k', rfl⟩ := slab_idx x
    show storeVal4 (F := Ideal) (iblk m c 0 t) (iblk m c 1 t) (iblk m c 2 t) (iblk m c 3 t) (iblk m c 4 t) (iblk m c 5 t) (iblk m c 6 t) (iblk m c 7 t) (iblk m c 8 t) (iblk m c 9 t) (ix3 0 n' k') = GA m c (ix3 (gi t ((r0_19.emb (ix3 0 n' k') : S8x256x32.Idx) 0)) ((r0_19.emb (ix3 0 n' k') : S8x256x32.Idx) 1) ((r0_19.emb (ix3 0 n' k') : S8x256x32.Idx) 2))
    rw [rd4_emb]
    exact storeVal4_val m c t n' k'
  · obtain ⟨n', k', rfl⟩ := slab_idx x
    show storeVal3 (F := Ideal) (iblk m c 0 t) (iblk m c 1 t) (iblk m c 2 t) (iblk m c 3 t) (iblk m c 4 t) (iblk m c 5 t) (iblk m c 6 t) (iblk m c 7 t) (iblk m c 8 t) (iblk m c 9 t) (ix3 0 n' k') = GA m c (ix3 (gi t ((r0_16.emb (ix3 0 n' k') : S8x256x32.Idx) 0)) ((r0_16.emb (ix3 0 n' k') : S8x256x32.Idx) 1) ((r0_16.emb (ix3 0 n' k') : S8x256x32.Idx) 2))
    rw [rd3_emb]
    exact storeVal3_val m c t n' k'
  · obtain ⟨n', k', rfl⟩ := slab_idx x
    show storeVal2 (F := Ideal) (iblk m c 0 t) (iblk m c 1 t) (iblk m c 2 t) (iblk m c 3 t) (iblk m c 4 t) (iblk m c 5 t) (iblk m c 6 t) (iblk m c 7 t) (iblk m c 8 t) (iblk m c 9 t) (ix3 0 n' k') = GA m c (ix3 (gi t ((r0_13.emb (ix3 0 n' k') : S8x256x32.Idx) 0)) ((r0_13.emb (ix3 0 n' k') : S8x256x32.Idx) 1) ((r0_13.emb (ix3 0 n' k') : S8x256x32.Idx) 2))
    rw [rd2_emb]
    exact storeVal2_val m c t n' k'
  · obtain ⟨n', k', rfl⟩ := slab_idx x
    show storeVal1 (F := Ideal) (iblk m c 0 t) (iblk m c 1 t) (iblk m c 2 t) (iblk m c 3 t) (iblk m c 4 t) (iblk m c 5 t) (iblk m c 6 t) (iblk m c 7 t) (iblk m c 8 t) (iblk m c 9 t) (ix3 0 n' k') = GA m c (ix3 (gi t ((r0_10.emb (ix3 0 n' k') : S8x256x32.Idx) 0)) ((r0_10.emb (ix3 0 n' k') : S8x256x32.Idx) 1) ((r0_10.emb (ix3 0 n' k') : S8x256x32.Idx) 2))
    rw [rd1_emb]
    exact storeVal1_val m c t n' k'
  · obtain ⟨n', k', rfl⟩ := slab_idx x
    show storeVal0 (F := Ideal) (iblk m c 0 t) (iblk m c 1 t) (iblk m c 2 t) (iblk m c 3 t) (iblk m c 4 t) (iblk m c 5 t) (iblk m c 6 t) (iblk m c 7 t) (iblk m c 8 t) (iblk m c 9 t) (ix3 0 n' k') = GA m c (ix3 (gi t ((r0_7.emb (ix3 0 n' k') : S8x256x32.Idx) 0)) ((r0_7.emb (ix3 0 n' k') : S8x256x32.Idx) 1) ((r0_7.emb (ix3 0 n' k') : S8x256x32.Idx) 2))
    rw [rd0_emb]
    exact storeVal0_val m c t n' k'

/-- What point `t` writes back is block `t` of the spec's result array. -/
theorem flushed_eq (c : Dev nD) (t : Fin cfg0.N) :
    (dats m 0 c).flushed 10 t = ((cfg0.win 10).blk t).view.read (Elt Ideal) (GA m c) := by
  show (cfg0.win 10).cut (grid0.coords t) ((dats m 0 c).after 10 t) = _
  rw [after10]
  funext y
  obtain ⟨g, n, c', rfl⟩ : ∃ (g : Fin 8) (n : Fin 256) (c' : Fin 32), y = ix3 g n c' := ⟨y 0, y 1, y 2, eq_ix3 y⟩
  have hemb : ((cfg0.win 10).blk t).view.emb (ix3 g n c') = ix3 (gi t g) n c' := by
    obtain ⟨-, -, -, ⟨e0, e1, e2⟩, -⟩ := idx_facts t
    funext a; apply Fin.ext
    match a with
    | ⟨0, _⟩ => show win0_10.index t (0 : Fin 3) * 8 + 1 * g.val = 8 * t.val + g.val; omega
    | ⟨1, _⟩ => show win0_10.index t (1 : Fin 3) * 256 + 1 * n.val = n.val; omega
    | ⟨2, _⟩ => show win0_10.index t (2 : Fin 3) * 32 + 1 * c'.val = c'.val; omega
  show out10 (F := Ideal) (iblk m c 0 t) (iblk m c 1 t) (iblk m c 2 t) (iblk m c 3 t) (iblk m c 4 t) (iblk m c 5 t) (iblk m c 6 t) (iblk m c 7 t) (iblk m c 8 t) (iblk m c 9 t) (ix3 g n c') = GA m c (((cfg0.win 10).blk t).view.emb (ix3 g n c'))
  rw [hemb]
  exact out10_val m c t g n c'

/-- Every index of the result array is in the block of the point that stages its graph. -/
theorem covered (i : S256x256x32.Idx) : ∃ t : Fin cfg0.N, (cfg0.win 10).flush t = true ∧ i ∈ ((cfg0.win 10).blk t).view.set := by
  have hi0 : (i 0).val < 256 := (i 0).isLt
  have hi1 : (i 1).val < 256 := (i 1).isLt
  have hi2 : (i 2).val < 32 := (i 2).isLt
  have hN : (i 0).val / 8 < cfg0.N := by rw [show cfg0.N = 32 from N_0]; omega
  refine ⟨⟨(i 0).val / 8, hN⟩, flush0_10 _, ?_⟩
  rw [mem_blk10]
  obtain ⟨-, -, -, ⟨e0, e1, e2⟩, -⟩ := idx_facts ⟨(i 0).val / 8, hN⟩
  have e0' : win0_10.index ⟨(i 0).val / 8, hN⟩ (0 : Fin 3) = (i 0).val / 8 := e0
  intro a
  match a with
  | ⟨0, _⟩ => show win0_10.index ⟨(i 0).val / 8, hN⟩ (0 : Fin 3) * 8 ≤ (i 0).val ∧ (i 0).val < win0_10.index ⟨(i 0).val / 8, hN⟩ (0 : Fin 3) * 8 + 8; omega
  | ⟨1, _⟩ => show win0_10.index ⟨(i 0).val / 8, hN⟩ (1 : Fin 3) * 256 ≤ (i 1).val ∧ (i 1).val < win0_10.index ⟨(i 0).val / 8, hN⟩ (1 : Fin 3) * 256 + 256; omega
  | ⟨2, _⟩ => show win0_10.index ⟨(i 0).val / 8, hN⟩ (2 : Fin 3) * 32 ≤ (i 2).val ∧ (i 2).val < win0_10.index ⟨(i 0).val / 8, hN⟩ (2 : Fin 3) * 32 + 32; omega

/-- The result array after the run is the spec's function of the argument arrays. -/
theorem final (c : Dev nD) : (dats m 0 c).arrAt 10 cfg0.N = GA m c :=
  (dats m 0 c).arrAt_eq_of_cover 10 (GA m c) (fun t _ => flushed_eq m c t) covered

/-- The idealized kernel's run with its result array named: every weakly fair execution terminates with the result at the
    spec's function of the four argument arrays, and the arguments unchanged. -/
theorem ker_run : θ_run (defs (F := Ideal)) (onTc (τ := τ) (main (F := Ideal))) ⟨m, fun _ => 0, ρ⟩ (fun r => ∀ c : Dev nD,
      r.2.mem ((c.tc : Thread nD τ).loc main_v52) = GA m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨((h c).1 10).trans (final m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).2 main_arg2 (Pipeline.mem_restRefs_of main_arg2 (by decide) (by decide))).trans (V_main_arg2 m c),
      ((h c).1 2).trans (((dats m 0 c).arrAt_in 2 rfl _).trans ((A_eq m c 2).trans (V_main_arg3 m c)))⟩) (run_main m ρ)

end Cert.KernelIdeal.Smg

end
-- ==== Proof.RefGate.lean ====
import proofs.«126640_g2000103277586728_pallasbulk_447_2_alg».proof.Proof.Gen.ReferenceIdeal.Skeleton
import proofs.«126640_g2000103277586728_pallasbulk_447_2_alg».proof.Proof.Spec
import Idealize.ShloMosaic.Lib.ValueIdx
import Idealize.ShloMosaic.Lib.ValueLayout
import Idealize.ShloMosaic.PureOps.Ideal.Laws

noncomputable section

open scoped BigOperators

namespace Cert.ReferenceIdeal.Smg

open Idealize.ShloMosaic Idealize.ShloMosaic.ValueIdx Cert.ReferenceIdeal Cert.ReferenceIdeal.Gen

/-! ## A matrix product read at an index, for any dimension record of the plain form M×K by K×C -/

/-- With no batch axis and one free axis on the left, that axis of the left operand's index is the result index's
    first coordinate. -/
private theorem refgate_lhsIdx_free {sl sr so : Shape} (d : DotDims sl sr so) (a : Fin sl.rank)
    (hb : d.lhsBatch = []) (hn : d.lhsNonContracting = [a]) (j : so.Idx) (k : d.contr.Idx) (h0 : 0 < so.rank) :
    (d.lhsIdx j k a).val = (j ⟨0, h0⟩).val := by
  have hnb : a ∉ d.lhsBatch := by rw [hb]; exact List.not_mem_nil
  have hmem : a ∈ d.lhsNonContracting := by rw [hn]; exact List.mem_singleton.mpr rfl
  unfold DotDims.lhsIdx
  rw [dif_neg hnb, dif_pos hmem]
  simp only [Fin.val_cast]
  have key : ∀ (p q : Nat) (hp : p < so.rank) (hq : q < so.rank), p = q → (j ⟨p, hp⟩).val = (j ⟨q, hq⟩).val :=
    fun p q hp hq h => by subst h; rfl
  exact key _ _ _ _ (by simp [hb, hn])

/-- With no batch axis and one free axis on each side, the right operand's free axis is the result index's second
    coordinate. -/
private theorem refgate_rhsIdx_free {sl sr so : Shape} (d : DotDims sl sr so) (a₀ : Fin sl.rank) (a : Fin sr.rank)
    (hlb : d.lhsBatch = []) (hln : d.lhsNonContracting = [a₀]) (hb : d.rhsBatch = []) (hn : d.rhsNonContracting = [a])
    (j : so.Idx) (k : d.contr.Idx) (h1 : 1 < so.rank) :
    (d.rhsIdx j k a).val = (j ⟨1, h1⟩).val := by
  have hnb : a ∉ d.rhsBatch := by rw [hb]; exact List.not_mem_nil
  have hmem : a ∈ d.rhsNonContracting := by rw [hn]; exact List.mem_singleton.mpr rfl
  unfold DotDims.rhsIdx
  rw [dif_neg hnb, dif_pos hmem]
  simp only [Fin.val_cast]
  have key : ∀ (p q : Nat) (hp : p < so.rank) (hq : q < so.rank), p = q → (j ⟨p, hp⟩).val = (j ⟨q, hq⟩).val :=
    fun p q hp hq h => by subst h; rfl
  exact key _ _ _ _ (by simp [hlb, hln, hn])

/-- A product M×K by K×C into the zero accumulator, read at (n, c): row n of the left operand against column c of
    the right one. -/
private theorem refgate_matmul_apply {M K C : ℕ} (d : DotDims ⟨2, ![M, K]⟩ ⟨2, ![K, C]⟩ ⟨2, ![M, C]⟩)
    (hlc : d.lhsContracting = [1]) (hrc : d.rhsContracting = [0]) (hln : d.lhsNonContracting = [0])
    (hrn : d.rhsNonContracting = [1]) (hlb : d.lhsBatch = []) (hrb : d.rhsBatch = [])
    (l : FVec Ideal ⟨2, ![M, K]⟩ .f32) (r : FVec Ideal ⟨2, ![K, C]⟩ .f32) (n : Fin M) (c : Fin C) :
    matmul d none l r (constant (F := Ideal) ⟨2, ![M, C]⟩ .f32 0x00000000#32) (ix2 n c)
      = ∑ k : Fin K, l (ix2 n k) * r (ix2 k c) := by
  have hr : d.contr.rank = 1 := by rw [d.rank_contr, hlc]; rfl
  have hs : d.contr.size ⟨0, by omega⟩ = K := by
    rw [d.size_contr 0 (by rw [hlc]; exact Nat.one_pos)]
    have h1 : d.lhsContracting[0]'(by rw [hlc]; exact Nat.one_pos) = 1 := by simp [hlc]
    rw [h1]; rfl
  refine (Ideal.matmul_constant_zero_apply d none l r (ix2 n c)).trans ?_
  rw [← Equiv.sum_comp (contrEquiv1 d K hr hs).symm]
  refine Finset.sum_congr rfl fun k _ => ?_
  have hL : d.lhsIdx (ix2 n c) ((contrEquiv1 d K hr hs).symm k) = ix2 n k := by
    funext a
    match a with
    | ⟨0, _⟩ => exact Fin.ext (refgate_lhsIdx_free d 0 hlb hln _ _ Nat.two_pos)
    | ⟨1, _⟩ => exact Fin.ext ((d.lhsIdx_val_of_single hlc _ _).trans (contrEquiv1_symm_val d K hr hs k))
  have hR : d.rhsIdx (ix2 n c) ((contrEquiv1 d K hr hs).symm k) = ix2 k c := by
    funext a
    match a with
    | ⟨0, _⟩ => exact Fin.ext ((d.rhsIdx_val_of_single hrc _ _).trans (contrEquiv1_symm_val d K hr hs k))
    | ⟨1, _⟩ => exact Fin.ext (refgate_rhsIdx_free d 0 1 hlb hln hrb hrn _ _ Nat.one_lt_two)
  rw [hL, hR]

/-! ## The column forms of a shape cast and of a broadcast -/

/-- A vector [a] cast to a column [a, 1] reads, at (i, u), the operand at i. -/
private theorem refgate_shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column [a, 1] broadcast to [a, b] reads, at (p, c), the column at row p. -/
private theorem refgate_broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! ## The row sum, the column mask and the zero word -/

/-- The sum along the rows of a 256 × 32 array, read at row n. -/
private theorem refgate_rowsum_apply (src : FVec Ideal S256x32 .f32) (hφ : FKind.Formats .f32)
    (hacc : (0x00000000#32 : BitVec 32) = 0x00000000#32) (n : Fin 256) :
    multiReduction (F := Ideal) .add [1] S256 src 0x00000000#32 reduces_S256x32_S256 hφ hacc (ix1 n)
      = ∑ k : Fin 32, src (ix2 n k) := by
  refine (Ideal.multiReduction_add_single src 0x00000000#32 reduces_S256x32_S256 hφ hacc (ix1 n)).trans ?_
  refine Finset.sum_congr rfl fun k _ => congrArg src ?_
  funext a
  match a with
  | ⟨0, _⟩ => exact Fin.ext rfl
  | ⟨1, _⟩ => exact Fin.ext rfl

/-- The column mask is set exactly on the first 32 columns. -/
private theorem refgate_mask_apply (n : Fin 256) (c : Fin 64) :
    k0_pay4 (ix2 n c) = if c.val < 32 then 1#1 else 0#1 := by
  unfold k0_pay4
  show IntOp.cmpi .slt (iota .tc S256x64 32 [1] iota_S256x64_d1_w32 (ix2 n c)) 32#32 = _
  rw [iota_single_apply]
  show BitVec.ofBool ((BitVec.ofNat 32 c.val).slt 32#32) = _
  revert c
  decide

/-- The zero word as a scalar is the extended real 0. -/
private theorem refgate_zero : (Scalar.ofBits .f32 0x00000000#32 : Ideal .f32) = (0 : EReal) := Ideal.ofBits_zero_f32

/-! ## The four products of the two gates, each over its own dimension record -/

private theorem refgate_mm_16_64 (l : FVec Ideal S256x16 .f32) (r : FVec Ideal S16x64 .f32) (n : Fin 256) (c : Fin 64) :
    matmul dot_S256x16_S16x64_S256x64_1_0_0_1_n_n none l r (constant (F := Ideal) S256x64 .f32 0x00000000#32) (ix2 n c)
      = ∑ k : Fin 16, l (ix2 n k) * r (ix2 k c) :=
  refgate_matmul_apply dot_S256x16_S16x64_S256x64_1_0_0_1_n_n rfl rfl rfl rfl rfl rfl l r n c

private theorem refgate_mm_32_64 (l : FVec Ideal S256x32 .f32) (r : FVec Ideal S32x64 .f32) (n : Fin 256) (c : Fin 64) :
    matmul dot_S256x32_S32x64_S256x64_1_0_0_1_n_n none l r (constant (F := Ideal) S256x64 .f32 0x00000000#32) (ix2 n c)
      = ∑ k : Fin 32, l (ix2 n k) * r (ix2 k c) :=
  refgate_matmul_apply dot_S256x32_S32x64_S256x64_1_0_0_1_n_n rfl rfl rfl rfl rfl rfl l r n c

private theorem refgate_mm_256_64 (l : FVec Ideal S256x256 .f32) (r : FVec Ideal S256x64 .f32) (n : Fin 256) (c : Fin 64) :
    matmul dot_S256x256_S256x64_S256x64_1_0_0_1_n_n none l r (constant (F := Ideal) S256x64 .f32 0x00000000#32) (ix2 n c)
      = ∑ k : Fin 256, l (ix2 n k) * r (ix2 k c) :=
  refgate_matmul_apply dot_S256x256_S256x64_S256x64_1_0_0_1_n_n rfl rfl rfl rfl rfl rfl l r n c

private theorem refgate_mm_64_32 (l : FVec Ideal S256x64 .f32) (r : FVec Ideal S64x32 .f32) (n : Fin 256) (c : Fin 32) :
    matmul dot_S256x64_S64x32_S256x32_1_0_0_1_n_n none l r (constant (F := Ideal) S256x32 .f32 0x00000000#32) (ix2 n c)
      = ∑ k : Fin 64, l (ix2 n k) * r (ix2 k c) :=
  refgate_matmul_apply dot_S256x64_S64x32_S256x32_1_0_0_1_n_n rfl rfl rfl rfl rfl rfl l r n c

/-! ## The gate from its projected input on -/

/-- The logistic function of a vector, read at an index. -/
private theorem refgate_logistic_apply {s : Shape} (x : FVec Ideal s .f32) (i : s.Idx) :
    logistic x i = Ideal.logistic (x i) := rfl

/-- A select on the column mask is the choice on the column. -/
private theorem refgate_select_mask (n : Fin 256) (c : Fin 64) (a b : EReal) :
    Scalar.select (k0_pay4 (ix2 n c)) a b = if c.val < 32 then a else b := by
  rw [refgate_mask_apply]
  split
  · exact select_one a b
  · exact select_zero a b

/-- Both gates' operations after the input projection hl (64 columns, bias added) is in hand, over the adjacency Av:
    the first 32 columns propagated, the rectifier, the hidden layer with its bias and rectifier, the weighted row sum,
    the last bias, the logistic function. -/
private def refgateTail (Av : FVec Ideal S256x256 .f32) (hl : FVec Ideal S256x64 .f32) (v9 : FVec Ideal S64x32 .f32)
    (v10 v11 : FVec Ideal S1x32 .f32) (v12 : FVec Ideal S1x1 .f32) : FVec Ideal S256x1 .f32 :=
  logistic (addf
    (shapeCast S256x1
      (multiReduction .add [1] S256
        (mulf
          (maximumf
            (addf
              (matmul dot_S256x64_S64x32_S256x32_1_0_0_1_n_n none
                (maximumf
                  (select k0_pay4
                    (matmul dot_S256x256_S256x64_S256x64_1_0_0_1_n_n none Av hl (constant S256x64 .f32 0x00000000#32)) hl)
                  (broadcast S256x64 (Scalar.ofBits .f32 0x00000000#32)))
                v9 (constant S256x32 .f32 0x00000000#32))
              (broadcastTo S256x32 v10 broadcasts_S1x32_S256x32))
            (broadcast S256x32 (Scalar.ofBits .f32 0x00000000#32)))
          (broadcastTo S256x32 v11 broadcasts_S1x32_S256x32))
        0x00000000#32 reduces_S256x32_S256 (.inl rfl) rfl)
      shapeCasts_S256_S256x1)
    (broadcastTo S256x1 v12 broadcasts_S1x1_S256x1))

/-- That tail at node n, with the adjacency's and the projected input's elements named A and H. -/
private theorem refgate_tail_apply (Av : FVec Ideal S256x256 .f32) (hl : FVec Ideal S256x64 .f32)
    (v9 : FVec Ideal S64x32 .f32) (v10 v11 : FVec Ideal S1x32 .f32) (v12 : FVec Ideal S1x1 .f32)
    (A : Fin 256 → Fin 256 → EReal) (H : Fin 256 → Fin 64 → EReal)
    (hA : ∀ n j, Av (ix2 n j) = A n j) (hH : ∀ n c, hl (ix2 n c) = H n c) (n : Fin 256) :
    refgateTail Av hl v9 v10 v11 v12 (ix2 n 0)
      = Ideal.logistic ((∑ c : Fin 32,
          SmgSpec.relu (SmgSpec.mm (fun n c => SmgSpec.relu (if c.val < 32 then SmgSpec.mm A H n c else H n c))
            (fun k c => v9 (ix2 k c)) n c + v10 (ix2 0 c)) * v11 (ix2 0 c)) + v12 (ix2 0 0)) := by
  unfold refgateTail
  simp only [refgate_logistic_apply, addf_apply, refgate_shapeCast_a_a1_apply, broadcastTo_1b_ab_apply]
  rw [refgate_rowsum_apply]
  simp only [mulf_apply, maximumf_apply, addf_apply, broadcast_apply, refgate_zero, broadcastTo_1b_ab_apply,
    refgate_mm_64_32, select_apply, refgate_select_mask, refgate_mm_256_64, hA, hH, SmgSpec.relu, SmgSpec.mm]

/-! ## The input projections of the two layers -/

/-- Layer 0's projection with its bias: the features enter through a dropped leading unit axis. -/
private theorem refgate_head0_apply (v0 : FVec Ideal S1x256x16 .f32) (v7 : FVec Ideal S16x64 .f32)
    (v8 : FVec Ideal S1x64 .f32) (n : Fin 256) (c : Fin 64) :
    addf (matmul dot_S256x16_S16x64_S256x64_1_0_0_1_n_n none (k0_pay2 v0) v7 (constant S256x64 .f32 0x00000000#32))
        (broadcastTo S256x64 v8 broadcasts_S1x64_S256x64) (ix2 n c)
      = SmgSpec.gHl (fun k c => v7 (ix2 k c)) (fun c => v8 (ix2 0 c)) (fun n k => v0 (ix3 0 n k)) n c := by
  rw [addf_apply, refgate_mm_16_64, broadcastTo_1b_ab_apply]
  unfold k0_pay2
  simp only [shapeCast_1ab_ab_apply]
  rfl

/-- Layer 1's projection with its bias: its input is a 256 × 32 array x scaled row by row by a column. -/
private theorem refgate_head1_apply (x : FVec Ideal S256x32 .f32) (v31 : FVec Ideal S256x1 .f32)
    (v46 : FVec Ideal S32x64 .f32) (v47 : FVec Ideal S1x64 .f32) (n : Fin 256) (c : Fin 64) :
    addf (matmul dot_S256x32_S32x64_S256x64_1_0_0_1_n_n none
          (mulf x (broadcastTo S256x32 v31 broadcasts_S256x1_S256x32)) v46 (constant S256x64 .f32 0x00000000#32))
        (broadcastTo S256x64 v47 broadcasts_S1x64_S256x64) (ix2 n c)
      = SmgSpec.gHl (fun k c => v46 (ix2 k c)) (fun c => v47 (ix2 0 c)) (fun n k => x (ix2 n k) * v31 (ix2 n 0)) n c := by
  rw [addf_apply, refgate_mm_32_64, broadcastTo_1b_ab_apply]
  simp only [mulf_apply, refgate_broadcastTo_a1_ab_apply]
  rfl

/-- Layer 0's gate as the reference computes it, one node at a time: the spec's `gate` of the loaded parameters. -/
theorem pay5_apply (v0 : Vec Ideal S1x256x16 .f32) (v2 : Vec Ideal S1x256x256 .f32) (v7 : Vec Ideal S16x64 .f32)
    (v8 : Vec Ideal S1x64 .f32) (v9 : Vec Ideal S64x32 .f32) (v10 v11 : Vec Ideal S1x32 .f32) (v12 : Vec Ideal S1x1 .f32)
    (n : Fin 256) :
    k0_pay5 (F := Ideal) v0 v2 v7 v8 v9 v10 v11 v12 (ix2 n 0)
      = SmgSpec.gate (fun k c => v7 (ix2 k c)) (fun c => v8 (ix2 0 c)) (fun k c => v9 (ix2 k c))
          (fun c => v10 (ix2 0 c)) (fun c => v11 (ix2 0 c)) (v12 (ix2 0 0))
          (fun n j => v2 (ix3 0 n j)) (fun n k => v0 (ix3 0 n k)) n := by
  have hA : ∀ n j : Fin 256, k0_pay3 (F := Ideal) v2 (ix2 n j) = v2 (ix3 0 n j) := fun n j => by
    unfold k0_pay3
    exact shapeCast_1ab_ab_apply v2 _ n j
  refine Eq.trans ?_ (refgate_tail_apply (k0_pay3 (F := Ideal) v2) _ v9 v10 v11 v12 _ _ hA
    (fun n c => refgate_head0_apply v0 v7 v8 n c) n)
  rfl

/-- Layer 1's gate as the reference computes it: the spec's `gate` of layer 0's rectified convolution scaled by
    layer 0's gate. -/
theorem pay7_apply (v1 : FVec Ideal S256x16 .f32) (v3 : FVec Ideal S256x256 .f32) (v31 : FVec Ideal S256x1 .f32)
    (v32 : Vec Ideal S16x64 .f32) (v46 : Vec Ideal S32x64 .f32) (v47 : Vec Ideal S1x64 .f32) (v48 : Vec Ideal S64x32 .f32)
    (v49 v50 : Vec Ideal S1x32 .f32) (v51 : Vec Ideal S1x1 .f32) (n : Fin 256) :
    k0_pay7 (F := Ideal) v1 v3 k0_pay4 v31 v32 v46 v47 v48 v49 v50 v51 (ix2 n 0)
      = SmgSpec.gate (fun k c => v46 (ix2 k c)) (fun c => v47 (ix2 0 c)) (fun k c => v48 (ix2 k c))
          (fun c => v49 (ix2 0 c)) (fun c => v50 (ix2 0 c)) (v51 (ix2 0 0))
          (fun n j => v3 (ix2 n j)) (fun n k => k0_pay6 (F := Ideal) v1 v3 v31 v32 (ix2 n k) * v31 (ix2 n 0)) n := by
  refine Eq.trans ?_ (refgate_tail_apply v3 _ v48 v49 v50 v51 _ _ (fun n j => rfl)
    (fun n c => refgate_head1_apply (k0_pay6 (F := Ideal) v1 v3 v31 v32) v31 v46 v47 n c) n)
  rfl

end Cert.ReferenceIdeal.Smg

end
-- ==== Proof.RefConvPost.lean ====
import proofs.«126640_g2000103277586728_pallasbulk_447_2_alg».proof.Proof.Gen.ReferenceIdeal.Skeleton
import proofs.«126640_g2000103277586728_pallasbulk_447_2_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.ReferenceIdeal.Smg

open Idealize.ShloMosaic Idealize.ShloMosaic.ValueIdx Cert.ReferenceIdeal Cert.ReferenceIdeal.Gen

/-! ### A 256 × 16 matrix times a 16 × 64 one -/

private theorem refconvpost_a_lhs0 (j : S256x64.Idx) (k : dot_S256x16_S16x64_S256x64_1_0_0_1_n_n.contr.Idx) :
    (dot_S256x16_S16x64_S256x64_1_0_0_1_n_n.lhsIdx j k 0 : ℕ) = j 0 := by
  simp [DotDims.lhsIdx, dot_S256x16_S16x64_S256x64_1_0_0_1_n_n]; rfl
private theorem refconvpost_a_lhs1 (j : S256x64.Idx) (k : dot_S256x16_S16x64_S256x64_1_0_0_1_n_n.contr.Idx) :
    (dot_S256x16_S16x64_S256x64_1_0_0_1_n_n.lhsIdx j k 1 : ℕ) = k ⟨0, by decide⟩ :=
  DotDims.lhsIdx_val_of_single _ rfl j k
private theorem refconvpost_a_rhs0 (j : S256x64.Idx) (k : dot_S256x16_S16x64_S256x64_1_0_0_1_n_n.contr.Idx) :
    (dot_S256x16_S16x64_S256x64_1_0_0_1_n_n.rhsIdx j k 0 : ℕ) = k ⟨0, by decide⟩ :=
  DotDims.rhsIdx_val_of_single _ rfl j k
private theorem refconvpost_a_rhs1 (j : S256x64.Idx) (k : dot_S256x16_S16x64_S256x64_1_0_0_1_n_n.contr.Idx) :
    (dot_S256x16_S16x64_S256x64_1_0_0_1_n_n.rhsIdx j k 1 : ℕ) = j 1 := by
  simp [DotDims.rhsIdx, dot_S256x16_S16x64_S256x64_1_0_0_1_n_n]; rfl

/-- The product into the zero accumulator, entry by entry: row `n` of the left factor against column `c` of the right. -/
private theorem refconvpost_mm_a (l : FVec Ideal S256x16 .f32) (r : FVec Ideal S16x64 .f32) (n : Fin 256) (c : Fin 64) :
    matmul dot_S256x16_S16x64_S256x64_1_0_0_1_n_n none l r (constant (F := Ideal) S256x64 .f32 0x00000000#32) (ix2 n c)
      = ∑ k : Fin 16, l (ix2 n k) * r (ix2 k c) := by
  refine (Ideal.matmul_constant_zero_apply dot_S256x16_S16x64_S256x64_1_0_0_1_n_n none l r (ix2 n c)).trans ?_
  rw [← Equiv.sum_comp (contrEquiv1 dot_S256x16_S16x64_S256x64_1_0_0_1_n_n 16 rfl rfl).symm]
  refine Finset.sum_congr rfl fun k _ => ?_
  have hk := contrEquiv1_symm_val dot_S256x16_S16x64_S256x64_1_0_0_1_n_n 16 rfl rfl k
  congr 2
  · funext a
    refine Fin.ext ?_
    match a with
    | ⟨0, _⟩ => exact refconvpost_a_lhs0 _ _
    | ⟨1, _⟩ => exact (refconvpost_a_lhs1 _ _).trans hk
  · funext a
    refine Fin.ext ?_
    match a with
    | ⟨0, _⟩ => exact (refconvpost_a_rhs0 _ _).trans hk
    | ⟨1, _⟩ => exact refconvpost_a_rhs1 _ _

/-! ### A 256 × 256 matrix times a 256 × 32 one -/

private theorem refconvpost_b_lhs0 (j : S256x32.Idx) (k : dot_S256x256_S256x32_S256x32_1_0_0_1_n_n.contr.Idx) :
    (dot_S256x256_S256x32_S256x32_1_0_0_1_n_n.lhsIdx j k 0 : ℕ) = j 0 := by
  simp [DotDims.lhsIdx, dot_S256x256_S256x32_S256x32_1_0_0_1_n_n]; rfl
private theorem refconvpost_b_lhs1 (j : S256x32.Idx) (k : dot_S256x256_S256x32_S256x32_1_0_0_1_n_n.contr.Idx) :
    (dot_S256x256_S256x32_S256x32_1_0_0_1_n_n.lhsIdx j k 1 : ℕ) = k ⟨0, by decide⟩ :=
  DotDims.lhsIdx_val_of_single _ rfl j k
private theorem refconvpost_b_rhs0 (j : S256x32.Idx) (k : dot_S256x256_S256x32_S256x32_1_0_0_1_n_n.contr.Idx) :
    (dot_S256x256_S256x32_S256x32_1_0_0_1_n_n.rhsIdx j k 0 : ℕ) = k ⟨0, by decide⟩ :=
  DotDims.rhsIdx_val_of_single _ rfl j k
private theorem refconvpost_b_rhs1 (j : S256x32.Idx) (k : dot_S256x256_S256x32_S256x32_1_0_0_1_n_n.contr.Idx) :
    (dot_S256x256_S256x32_S256x32_1_0_0_1_n_n.rhsIdx j k 1 : ℕ) = j 1 := by
  simp [DotDims.rhsIdx, dot_S256x256_S256x32_S256x32_1_0_0_1_n_n]; rfl

/-- The product into the zero accumulator, entry by entry: row `n` of the left factor against column `c` of the right. -/
private theorem refconvpost_mm_b (l : FVec Ideal S256x256 .f32) (r : FVec Ideal S256x32 .f32) (n : Fin 256) (c : Fin 32) :
    matmul dot_S256x256_S256x32_S256x32_1_0_0_1_n_n none l r (constant (F := Ideal) S256x32 .f32 0x00000000#32) (ix2 n c)
      = ∑ k : Fin 256, l (ix2 n k) * r (ix2 k c) := by
  refine (Ideal.matmul_constant_zero_apply dot_S256x256_S256x32_S256x32_1_0_0_1_n_n none l r (ix2 n c)).trans ?_
  rw [← Equiv.sum_comp (contrEquiv1 dot_S256x256_S256x32_S256x32_1_0_0_1_n_n 256 rfl rfl).symm]
  refine Finset.sum_congr rfl fun k _ => ?_
  have hk := contrEquiv1_symm_val dot_S256x256_S256x32_S256x32_1_0_0_1_n_n 256 rfl rfl k
  congr 2
  · funext a
    refine Fin.ext ?_
    match a with
    | ⟨0, _⟩ => exact refconvpost_b_lhs0 _ _
    | ⟨1, _⟩ => exact (refconvpost_b_lhs1 _ _).trans hk
  · funext a
    refine Fin.ext ?_
    match a with
    | ⟨0, _⟩ => exact (refconvpost_b_rhs0 _ _).trans hk
    | ⟨1, _⟩ => exact refconvpost_b_rhs1 _ _

/-! ### A 256 × 32 matrix times a 32 × 64 one -/

private theorem refconvpost_c_lhs0 (j : S256x64.Idx) (k : dot_S256x32_S32x64_S256x64_1_0_0_1_n_n.contr.Idx) :
    (dot_S256x32_S32x64_S256x64_1_0_0_1_n_n.lhsIdx j k 0 : ℕ) = j 0 := by
  simp [DotDims.lhsIdx, dot_S256x32_S32x64_S256x64_1_0_0_1_n_n]; rfl
private theorem refconvpost_c_lhs1 (j : S256x64.Idx) (k : dot_S256x32_S32x64_S256x64_1_0_0_1_n_n.contr.Idx) :
    (dot_S256x32_S32x64_S256x64_1_0_0_1_n_n.lhsIdx j k 1 : ℕ) = k ⟨0, by decide⟩ :=
  DotDims.lhsIdx_val_of_single _ rfl j k
private theorem refconvpost_c_rhs0 (j : S256x64.Idx) (k : dot_S256x32_S32x64_S256x64_1_0_0_1_n_n.contr.Idx) :
    (dot_S256x32_S32x64_S256x64_1_0_0_1_n_n.rhsIdx j k 0 : ℕ) = k ⟨0, by decide⟩ :=
  DotDims.rhsIdx_val_of_single _ rfl j k
private theorem refconvpost_c_rhs1 (j : S256x64.Idx) (k : dot_S256x32_S32x64_S256x64_1_0_0_1_n_n.contr.Idx) :
    (dot_S256x32_S32x64_S256x64_1_0_0_1_n_n.rhsIdx j k 1 : ℕ) = j 1 := by
  simp [DotDims.rhsIdx, dot_S256x32_S32x64_S256x64_1_0_0_1_n_n]; rfl

/-- The product into the zero accumulator, entry by entry: row `n` of the left factor against column `c` of the right. -/
private theorem refconvpost_mm_c (l : FVec Ideal S256x32 .f32) (r : FVec Ideal S32x64 .f32) (n : Fin 256) (c : Fin 64) :
    matmul dot_S256x32_S32x64_S256x64_1_0_0_1_n_n none l r (constant (F := Ideal) S256x64 .f32 0x00000000#32) (ix2 n c)
      = ∑ k : Fin 32, l (ix2 n k) * r (ix2 k c) := by
  refine (Ideal.matmul_constant_zero_apply dot_S256x32_S32x64_S256x64_1_0_0_1_n_n none l r (ix2 n c)).trans ?_
  rw [← Equiv.sum_comp (contrEquiv1 dot_S256x32_S32x64_S256x64_1_0_0_1_n_n 32 rfl rfl).symm]
  refine Finset.sum_congr rfl fun k _ => ?_
  have hk := contrEquiv1_symm_val dot_S256x32_S32x64_S256x64_1_0_0_1_n_n 32 rfl rfl k
  congr 2
  · funext a
    refine Fin.ext ?_
    match a with
    | ⟨0, _⟩ => exact refconvpost_c_lhs0 _ _
    | ⟨1, _⟩ => exact (refconvpost_c_lhs1 _ _).trans hk
  · funext a
    refine Fin.ext ?_
    match a with
    | ⟨0, _⟩ => exact (refconvpost_c_rhs0 _ _).trans hk
    | ⟨1, _⟩ => exact refconvpost_c_rhs1 _ _

/-! ### A 256 × 32 matrix times a 32 × 32 one -/

private theorem refconvpost_d_lhs0 (j : S256x32.Idx) (k : dot_S256x32_S32x32_S256x32_1_0_0_1_n_n.contr.Idx) :
    (dot_S256x32_S32x32_S256x32_1_0_0_1_n_n.lhsIdx j k 0 : ℕ) = j 0 := by
  simp [DotDims.lhsIdx, dot_S256x32_S32x32_S256x32_1_0_0_1_n_n]; rfl
private theorem refconvpost_d_lhs1 (j : S256x32.Idx) (k : dot_S256x32_S32x32_S256x32_1_0_0_1_n_n.contr.Idx) :
    (dot_S256x32_S32x32_S256x32_1_0_0_1_n_n.lhsIdx j k 1 : ℕ) = k ⟨0, by decide⟩ :=
  DotDims.lhsIdx_val_of_single _ rfl j k
private theorem refconvpost_d_rhs0 (j : S256x32.Idx) (k : dot_S256x32_S32x32_S256x32_1_0_0_1_n_n.contr.Idx) :
    (dot_S256x32_S32x32_S256x32_1_0_0_1_n_n.rhsIdx j k 0 : ℕ) = k ⟨0, by decide⟩ :=
  DotDims.rhsIdx_val_of_single _ rfl j k
private theorem refconvpost_d_rhs1 (j : S256x32.Idx) (k : dot_S256x32_S32x32_S256x32_1_0_0_1_n_n.contr.Idx) :
    (dot_S256x32_S32x32_S256x32_1_0_0_1_n_n.rhsIdx j k 1 : ℕ) = j 1 := by
  simp [DotDims.rhsIdx, dot_S256x32_S32x32_S256x32_1_0_0_1_n_n]; rfl

/-- The product into the zero accumulator, entry by entry: row `n` of the left factor against column `c` of the right. -/
private theorem refconvpost_mm_d (l : FVec Ideal S256x32 .f32) (r : FVec Ideal S32x32 .f32) (n : Fin 256) (c : Fin 32) :
    matmul dot_S256x32_S32x32_S256x32_1_0_0_1_n_n none l r (constant (F := Ideal) S256x32 .f32 0x00000000#32) (ix2 n c)
      = ∑ k : Fin 32, l (ix2 n k) * r (ix2 k c) := by
  refine (Ideal.matmul_constant_zero_apply dot_S256x32_S32x32_S256x32_1_0_0_1_n_n none l r (ix2 n c)).trans ?_
  rw [← Equiv.sum_comp (contrEquiv1 dot_S256x32_S32x32_S256x32_1_0_0_1_n_n 32 rfl rfl).symm]
  refine Finset.sum_congr rfl fun k _ => ?_
  have hk := contrEquiv1_symm_val dot_S256x32_S32x32_S256x32_1_0_0_1_n_n 32 rfl rfl k
  congr 2
  · funext a
    refine Fin.ext ?_
    match a with
    | ⟨0, _⟩ => exact refconvpost_d_lhs0 _ _
    | ⟨1, _⟩ => exact (refconvpost_d_lhs1 _ _).trans hk
  · funext a
    refine Fin.ext ?_
    match a with
    | ⟨0, _⟩ => exact (refconvpost_d_rhs0 _ _).trans hk
    | ⟨1, _⟩ => exact refconvpost_d_rhs1 _ _

/-! ### Layout operations read at coordinates -/

/-- The first 32 columns of a 64-wide matrix. -/
private theorem refconvpost_slice_lo (x : FVec Ideal S256x64 .f32) (h : S256x64.Slices ![0, 0] S256x32) (n : Fin 256) (c : Fin 32) :
    extractStridedSlice S256x32 ![0, 0] x h (ix2 n c) = x (ix2 n (SmgSpec.lo c)) :=
  slice2_axis1_apply 0 x h n c (SmgSpec.lo c) (Nat.zero_add _).symm

/-- The last 32 columns of a 64-wide matrix. -/
private theorem refconvpost_slice_hi (x : FVec Ideal S256x64 .f32) (h : S256x64.Slices ![0, 32] S256x32) (n : Fin 256) (c : Fin 32) :
    extractStridedSlice S256x32 ![0, 32] x h (ix2 n c) = x (ix2 n (SmgSpec.hi c)) :=
  slice2_axis1_apply 32 x h n c (SmgSpec.hi c) (Nat.add_comm _ _)

/-- A column broadcast along the rows' 32 entries. -/
private theorem refconvpost_bcast_col (v : FVec Ideal S256x1 .f32) (h : S256x1.Broadcasts S256x32) (n : Fin 256) (c : Fin 32) :
    broadcastTo S256x32 v h (ix2 n c) = v (ix2 n 0) := by
  refine broadcastTo_apply v h (ix2 n c) (ix2 n (0 : Fin 1)) fun ax => ?_
  match ax with
  | ⟨0, _⟩ => rfl
  | ⟨1, _⟩ => rfl

/-- A row broadcast down the 256 rows. -/
private theorem refconvpost_bcast_row (v : FVec Ideal S1x32 .f32) (h : S1x32.Broadcasts S256x32) (n : Fin 256) (c : Fin 32) :
    broadcastTo S256x32 v h (ix2 n c) = v (ix2 0 c) :=
  broadcastTo_1b_ab_apply v h n c

/-- Dropping the leading unit axis. -/
private theorem refconvpost_cast_drop (x : FVec Ideal S1x256x32 .f32) (h : S1x256x32.ShapeCasts S256x32) (n : Fin 256) (c : Fin 32) :
    shapeCast S256x32 x h (ix2 n c) = x (ix3 0 n c) :=
  shapeCast_1ab_ab_apply x h n c

/-- Adding a leading unit axis. -/
private theorem refconvpost_cast_add (x : FVec Ideal S256x32 .f32) (h : S256x32.ShapeCasts S1x256x32) (n : Fin 256) (c : Fin 32) :
    shapeCast S1x256x32 x h (ix3 0 n c) = x (ix2 n c) :=
  shapeCast_ab_1ab_apply x h 0 n c

/-- The zero word read as an extended real. -/
private theorem refconvpost_zero : (FloatOps.ofBits FTy.f32 0x00000000#32 : Ideal .f32) = 0 := Ideal.ofBits_zero_f32

/-! ### The two payloads -/

/-- Layer 0's rectified convolution as the reference computes it. -/
theorem pay6_apply (v1 : FVec Ideal S256x16 .f32) (v3 : FVec Ideal S256x256 .f32) (v31 : FVec Ideal S256x1 .f32)
    (v32 : Vec Ideal S16x64 .f32) (n : Fin 256) (c : Fin 32) :
    k0_pay6 (F := Ideal) v1 v3 v31 v32 (ix2 n c)
      = SmgSpec.relu (SmgSpec.conv (fun n j => v3 (ix2 n j))
          (SmgSpec.mm (fun n k => v1 (ix2 n k)) (fun k c => v32 (ix2 k c))) (fun n => v31 (ix2 n 0)) n c) := by
  unfold k0_pay6 SmgSpec.relu SmgSpec.conv SmgSpec.mm
  simp only [maximumf_apply, mulf_apply, addf_apply, broadcast_apply, refconvpost_bcast_col, refconvpost_slice_hi,
    refconvpost_slice_lo, refconvpost_mm_a, refconvpost_mm_b, refconvpost_zero]

/-- Layer 1's convolution and the two dense layers as the reference computes them. -/
theorem pay1_apply (v3 : FVec Ideal S256x256 .f32) (v43 : FVec Ideal S256x32 .f32) (v70 : FVec Ideal S256x1 .f32)
    (v71 : Vec Ideal S32x64 .f32) (v83 : Vec Ideal S32x32 .f32) (v85 : Vec Ideal S1x32 .f32) (v90 : Vec Ideal S1x256x32 .f32)
    (v93 : Vec Ideal S32x32 .f32) (v95 : Vec Ideal S1x32 .f32) (n : Fin 256) (c : Fin 32) :
    k0_pay1 (F := Ideal) v3 v43 v70 v71 v83 v85 v90 v93 v95 (ix3 0 n c)
      = SmgSpec.post (fun k c => v83 (ix2 k c)) (fun c => v85 (ix2 0 c)) (fun k c => v93 (ix2 k c)) (fun c => v95 (ix2 0 c))
          (SmgSpec.conv (fun n j => v3 (ix2 n j)) (SmgSpec.mm (fun n k => v43 (ix2 n k)) (fun k c => v71 (ix2 k c)))
            (fun n => v70 (ix2 n 0)))
          (fun n k => v90 (ix3 0 n k)) n c := by
  unfold k0_pay1 SmgSpec.post SmgSpec.relu SmgSpec.conv SmgSpec.mm
  simp only [maximumf_apply, mulf_apply, addf_apply, broadcast_apply, refconvpost_bcast_col, refconvpost_bcast_row,
    refconvpost_slice_hi, refconvpost_slice_lo, refconvpost_cast_add, refconvpost_cast_drop, refconvpost_mm_b,
    refconvpost_mm_c, refconvpost_mm_d, refconvpost_zero]

end Cert.ReferenceIdeal.Smg

end
-- ==== Proof.RefArray.lean ====
import proofs.«126640_g2000103277586728_pallasbulk_447_2_alg».proof.Proof.Gen.ReferenceIdeal.Value
import proofs.«126640_g2000103277586728_pallasbulk_447_2_alg».proof.Proof.RefGate
import proofs.«126640_g2000103277586728_pallasbulk_447_2_alg».proof.Proof.RefConvPost
import proofs.«126640_g2000103277586728_pallasbulk_447_2_alg».proof.Proof.SpecArr
import Idealize.ShloMosaic.Lib.Pipeline.Value
import Idealize.ShloMosaic.Lib.ValueLayout

noncomputable section

open scoped BigOperators

namespace Cert.ReferenceIdeal.Smg

open Idealize.ShloMosaic Idealize.ShloMosaic.ValueIdx Cert.ReferenceIdeal Cert.ReferenceIdeal.Gen SmgSpec Idealize.ShloMosaic.TcCoe Idealize.SL.Sem

/-! ### Reading the blocks -/

/-- The zero offsets of a rank-3 block, however spelt. -/
private theorem refarray_hz3 : (![0, 0, 0] : Fin 3 → Nat) = fun _ => 0 := funext fun a => by fin_cases a <;> rfl

/-- A load through a unit-stride rectangle of the slab at offsets `(o0, o1)`, read at `(k, c)`, is the slab at
    `(o0 + k, o1 + c)`. -/
private theorem refarray_ld_apply {a b : Nat} (xs : Vec Ideal S368x64 .f32) (o0 o1 : Nat)
    (inb : ∀ ax, (![o0, o1] : Fin 2 → Nat) ax + (![a, b] : Fin 2 → Nat) ax ≤ S368x64.size ax)
    (k : Fin a) (c : Fin b) (r : Fin 368) (c' : Fin 64) (hr : r.val = o0 + k.val) (hc : c'.val = o1 + c.val) :
    View.ld xs (Rect.unit (s := S368x64) ![o0, o1] ![a, b] inb) (ix2 k c) = xs (ix2 r c') := by
  show xs _ = xs _
  congr 1
  funext ax
  apply Fin.ext
  match ax with
  | ⟨0, _⟩ => show o0 + 1 * k.val = r.val; omega
  | ⟨1, _⟩ => show o1 + 1 * c.val = c'.val; omega

/-- Dropping the leading unit axis of the feature block. -/
private theorem refarray_pay2_apply (xa : Vec Ideal S1x256x16 .f32) (n : Fin 256) (k : Fin 16) :
    k0_pay2 (F := Ideal) xa (ix2 n k) = xa (ix3 0 n k) := by
  unfold k0_pay2
  exact shapeCast_1ab_ab_apply xa _ n k

/-- Dropping the leading unit axis of the adjacency block. -/
private theorem refarray_pay3_apply (xb : Vec Ideal S1x256x256 .f32) (n j : Fin 256) :
    k0_pay3 (F := Ideal) xb (ix2 n j) = xb (ix3 0 n j) := by
  unfold k0_pay3
  exact shapeCast_1ab_ab_apply xb _ n j

/-! ### One grid point's block from its loaded parameter blocks -/

/-- The nest of the payloads over ANY loaded parameter blocks that read, entry by entry, as the fields of `P`, is the
    network's output under `P`. -/
private theorem refarray_core (xa : Vec Ideal S1x256x16 .f32) (xb : Vec Ideal S1x256x256 .f32) (xd : Vec Ideal S1x256x32 .f32)
    (P : Params)
    (v7 : Vec Ideal S16x64 .f32) (v8 : Vec Ideal S1x64 .f32) (v9 : Vec Ideal S64x32 .f32) (v10 v11 : Vec Ideal S1x32 .f32)
    (v12 : Vec Ideal S1x1 .f32) (v32 : Vec Ideal S16x64 .f32)
    (v46 : Vec Ideal S32x64 .f32) (v47 : Vec Ideal S1x64 .f32) (v48 : Vec Ideal S64x32 .f32) (v49 v50 : Vec Ideal S1x32 .f32)
    (v51 : Vec Ideal S1x1 .f32) (v71 : Vec Ideal S32x64 .f32) (v83 : Vec Ideal S32x32 .f32) (v85 : Vec Ideal S1x32 .f32)
    (v93 : Vec Ideal S32x32 .f32) (v95 : Vec Ideal S1x32 .f32)
    (h7 : ∀ k c, v7 (ix2 k c) = P.l12w0 k c) (h8 : ∀ c, v8 (ix2 0 c) = P.l12b0 c) (h9 : ∀ k c, v9 (ix2 k c) = P.m1w0 k c)
    (h10 : ∀ c, v10 (ix2 0 c) = P.m1b0 c) (h11 : ∀ c, v11 (ix2 0 c) = P.m2w0 c) (h12 : v12 (ix2 0 0) = P.m2b0)
    (h32 : ∀ k c, v32 (ix2 k c) = P.wl0 k c)
    (h46 : ∀ k c, v46 (ix2 k c) = P.l12w1 k c) (h47 : ∀ c, v47 (ix2 0 c) = P.l12b1 c) (h48 : ∀ k c, v48 (ix2 k c) = P.m1w1 k c)
    (h49 : ∀ c, v49 (ix2 0 c) = P.m1b1 c) (h50 : ∀ c, v50 (ix2 0 c) = P.m2w1 c) (h51 : v51 (ix2 0 0) = P.m2b1)
    (h71 : ∀ k c, v71 (ix2 k c) = P.wl1 k c) (h83 : ∀ k c, v83 (ix2 k c) = P.p1w k c) (h85 : ∀ c, v85 (ix2 0 c) = P.p1b c)
    (h93 : ∀ k c, v93 (ix2 k c) = P.p2w k c) (h95 : ∀ c, v95 (ix2 0 c) = P.p2b c)
    (n : Fin 256) (c : Fin 32) :
    k0_pay1 (F := Ideal) (k0_pay3 xb) (k0_pay6 (k0_pay2 xa) (k0_pay3 xb) (k0_pay5 xa xb v7 v8 v9 v10 v11 v12) v32)
        (k0_pay7 (k0_pay2 xa) (k0_pay3 xb) k0_pay4 (k0_pay5 xa xb v7 v8 v9 v10 v11 v12) v32 v46 v47 v48 v49 v50 v51)
        v71 v83 v85 xd v93 v95 (ix3 0 n c)
      = out P (fun n k => xa (ix3 0 n k)) (fun n j => xb (ix3 0 n j)) (fun n k => xd (ix3 0 n k)) n c := by
  rw [pay1_apply]
  simp only [pay7_apply, pay6_apply, pay5_apply, refarray_pay2_apply, refarray_pay3_apply, h7, h8, h9, h10, h11, h12, h32,
    h46, h47, h48, h49, h50, h51, h71, h83, h85, h93, h95]
  rfl

/-! ### The block one grid point leaves -/

/-- One grid point of the reference: the block its body leaves, read at (node `n`, column `c`), is the network's output for
    the point's graph, with the parameters read off the slab block. -/
theorem out0_4_apply (x0 : Vec Ideal S1x256x16 .f32) (x1 : Vec Ideal S1x256x256 .f32) (x2 : Vec Ideal S368x64 .f32)
    (x3 : Vec Ideal S1x256x32 .f32) (n : Fin 256) (c : Fin 32) :
    out0_4 (F := Ideal) x0 x1 x2 x3 (ix3 0 n c)
      = out (slabParams fun r c => x2 (ix2 r c)) (fun n k => x0 (ix3 0 n k)) (fun n j => x1 (ix3 0 n j))
          (fun n k => x3 (ix3 0 n k)) n c := by
  unfold out0_4
  rw [View.canon_unit_zero refarray_hz3]
  simp only [View.ld_unit_zero (S := S1x256x16) refarray_hz3, View.ld_unit_zero (S := S1x256x256) refarray_hz3,
    View.ld_unit_zero (S := S1x256x32) refarray_hz3]
  exact refarray_core x0 x1 x3 (slabParams fun r c => x2 (ix2 r c))
    (View.ld x2 r0_2) (View.ld x2 r0_3) (View.ld x2 r0_4) (View.ld x2 r0_5) (View.ld x2 r0_6) (View.ld x2 r0_7)
    (View.ld x2 r0_8) (View.ld x2 r0_9) (View.ld x2 r0_10) (View.ld x2 r0_11) (View.ld x2 r0_12) (View.ld x2 r0_13)
    (View.ld x2 r0_14) (View.ld x2 r0_15) (View.ld x2 r0_16) (View.ld x2 r0_17) (View.ld x2 r0_19) (View.ld x2 r0_20)
    (fun k c => refarray_ld_apply x2 0 0 _ k c _ _ (by show k.val = _; omega) (by show c.val = _; omega))
    (fun c => refarray_ld_apply x2 288 0 _ 0 c _ _ (by show 288 = 288 + ((0 : Fin 1) : ℕ); rfl) (by show c.val = _; omega))
    (fun k c => refarray_ld_apply x2 16 0 _ k c _ _ (by show k.val + 16 = _; omega) (by show c.val = _; omega))
    (fun c => refarray_ld_apply x2 296 0 _ 0 c _ _ (by show 296 = 296 + ((0 : Fin 1) : ℕ); rfl) (by show c.val = _; omega))
    (fun c => refarray_ld_apply x2 304 0 _ 0 c _ _ (by show 304 = 304 + ((0 : Fin 1) : ℕ); rfl) (by show c.val = _; omega))
    (refarray_ld_apply x2 312 0 _ 0 0 _ _ (by show 312 = 312 + ((0 : Fin 1) : ℕ); rfl) (by show 0 = 0 + ((0 : Fin 1) : ℕ); rfl))
    (fun k c => refarray_ld_apply x2 80 0 _ k c _ _ (by show k.val + 80 = _; omega) (by show c.val = _; omega))
    (fun k c => refarray_ld_apply x2 96 0 _ k c _ _ (by show k.val + 96 = _; omega) (by show c.val = _; omega))
    (fun c => refarray_ld_apply x2 320 0 _ 0 c _ _ (by show 320 = 320 + ((0 : Fin 1) : ℕ); rfl) (by show c.val = _; omega))
    (fun k c => refarray_ld_apply x2 128 0 _ k c _ _ (by show k.val + 128 = _; omega) (by show c.val = _; omega))
    (fun c => refarray_ld_apply x2 328 0 _ 0 c _ _ (by show 328 = 328 + ((0 : Fin 1) : ℕ); rfl) (by show c.val = _; omega))
    (fun c => refarray_ld_apply x2 336 0 _ 0 c _ _ (by show 336 = 336 + ((0 : Fin 1) : ℕ); rfl) (by show c.val = _; omega))
    (refarray_ld_apply x2 344 0 _ 0 0 _ _ (by show 344 = 344 + ((0 : Fin 1) : ℕ); rfl) (by show 0 = 0 + ((0 : Fin 1) : ℕ); rfl))
    (fun k c => refarray_ld_apply x2 192 0 _ k c _ _ (by show k.val + 192 = _; omega) (by show c.val = _; omega))
    (fun k c => refarray_ld_apply x2 224 0 _ k c _ _ (by show k.val + 224 = _; omega) (by show c.val = _; omega))
    (fun c => refarray_ld_apply x2 352 0 _ 0 c _ _ (by show 352 = 352 + ((0 : Fin 1) : ℕ); rfl) (by show c.val = _; omega))
    (fun k c => refarray_ld_apply x2 256 0 _ k c _ _ (by show k.val + 256 = _; omega) (by show c.val = _; omega))
    (fun c => refarray_ld_apply x2 360 0 _ 0 c _ _ (by show 360 = 360 + ((0 : Fin 1) : ℕ); rfl) (by show c.val = _; omega))
    n c

end Cert.ReferenceIdeal.Smg

end
-- ==== Proof.RefRun.lean ====
import proofs.«126640_g2000103277586728_pallasbulk_447_2_alg».proof.Proof.RefArray
import proofs.«126640_g2000103277586728_pallasbulk_447_2_alg».proof.Proof.SpecArr
import proofs.«126640_g2000103277586728_pallasbulk_447_2_alg».proof.Proof.Gen.ReferenceIdeal.Value
import Idealize.ShloMosaic.Lib.Pipeline.Value

noncomputable section

open scoped BigOperators

namespace Cert.ReferenceIdeal.Smg

open Idealize.ShloMosaic Idealize.ShloMosaic.ValueIdx Cert.ReferenceIdeal Cert.ReferenceIdeal.Gen SmgSpec Idealize.ShloMosaic.TcCoe Idealize.SL.Sem

/-- Where each window's block sits at grid point `t`: the per-graph windows at block `t` along the batch axis and block 0
    on the others; the parameter slab's window at block 0 on both axes. -/
private theorem refrun_idx : ∀ t : Fin cfg0.N,
    win0_0.index t (0 : Fin 3) = t.val ∧ win0_0.index t (1 : Fin 3) = 0 ∧ win0_0.index t (2 : Fin 3) = 0
    ∧ win0_1.index t (0 : Fin 3) = t.val ∧ win0_1.index t (1 : Fin 3) = 0 ∧ win0_1.index t (2 : Fin 3) = 0
    ∧ win0_2.index t (0 : Fin 2) = 0 ∧ win0_2.index t (1 : Fin 2) = 0
    ∧ win0_3.index t (0 : Fin 3) = t.val ∧ win0_3.index t (1 : Fin 3) = 0 ∧ win0_3.index t (2 : Fin 3) = 0
    ∧ win0_4.index t (0 : Fin 3) = t.val ∧ win0_4.index t (1 : Fin 3) = 0 ∧ win0_4.index t (2 : Fin 3) = 0 :=
  (by decide +kernel : ∀ t : Fin grid0.N, _)

private theorem refrun_lt (t : Fin cfg0.N) : t.val < 256 := by
  have h : t.val < cfg0.N := t.isLt
  have e : cfg0.N = 256 := N_0
  omega

variable (m : (ℓ : Loc nD τ sig) → Buf (Elt Ideal) ℓ)

/-- Graph `t`'s block of the features is the feature array at batch coordinate `t`. -/
private theorem refrun_iblk0 (c : Dev nD) (t : Fin cfg0.N) (n : Fin 256) (k : Fin 16) :
    (iblk m c 0 t : Vec Ideal S1x256x16 .f32) (ix3 0 n k)
      = (m ((c.tc : Thread nD τ).loc main_arg0) : S256x256x16.Idx → EReal) (ix3 ⟨t.val, refrun_lt t⟩ n k) := by
  obtain ⟨h0, h1, h2, -⟩ := refrun_idx t
  unfold iblk
  rw [View.read_apply]
  show V m c main_arg0 _ = m (c.tc.loc main_arg0) _
  unfold V
  congr 1
  funext a
  apply Fin.ext
  match a with
  | ⟨0, _⟩ => show win0_0.index t (0 : Fin 3) * 1 + 1 * (0 : Fin 1).val = t.val; rw [h0]; simp
  | ⟨1, _⟩ => show win0_0.index t (1 : Fin 3) * 256 + 1 * n.val = n.val; rw [h1]; omega
  | ⟨2, _⟩ => show win0_0.index t (2 : Fin 3) * 16 + 1 * k.val = k.val; rw [h2]; omega

/-- Graph `t`'s block of the adjacency is the adjacency array at batch coordinate `t`. -/
private theorem refrun_iblk1 (c : Dev nD) (t : Fin cfg0.N) (n j : Fin 256) :
    (iblk m c 1 t : Vec Ideal S1x256x256 .f32) (ix3 0 n j)
      = (m ((c.tc : Thread nD τ).loc main_arg1) : S256x256x256.Idx → EReal) (ix3 ⟨t.val, refrun_lt t⟩ n j) := by
  obtain ⟨-, -, -, h0, h1, h2, -⟩ := refrun_idx t
  unfold iblk
  rw [View.read_apply]
  show V m c main_arg1 _ = m (c.tc.loc main_arg1) _
  unfold V
  congr 1
  funext a
  apply Fin.ext
  match a with
  | ⟨0, _⟩ => show win0_1.index t (0 : Fin 3) * 1 + 1 * (0 : Fin 1).val = t.val; rw [h0]; simp
  | ⟨1, _⟩ => show win0_1.index t (1 : Fin 3) * 256 + 1 * n.val = n.val; rw [h1]; omega
  | ⟨2, _⟩ => show win0_1.index t (2 : Fin 3) * 256 + 1 * j.val = j.val; rw [h2]; omega

/-- Every point's block of the parameter slab is the whole slab. -/
private theorem refrun_iblk2 (c : Dev nD) (t : Fin cfg0.N) (r : Fin 368) (k : Fin 64) :
    (iblk m c 2 t : Vec Ideal S368x64 .f32) (ix2 r k)
      = (m ((c.tc : Thread nD τ).loc main_arg2) : S368x64.Idx → EReal) (ix2 r k) := by
  obtain ⟨-, -, -, -, -, -, h0, h1, -⟩ := refrun_idx t
  unfold iblk
  rw [View.read_apply]
  show V m c main_arg2 _ = m (c.tc.loc main_arg2) _
  unfold V
  congr 1
  funext a
  apply Fin.ext
  match a with
  | ⟨0, _⟩ => show win0_2.index t (0 : Fin 2) * 368 + 1 * r.val = r.val; rw [h0]; omega
  | ⟨1, _⟩ => show win0_2.index t (1 : Fin 2) * 64 + 1 * k.val = k.val; rw [h1]; omega

/-- Graph `t`'s block of the keep-scale is the keep-scale array at batch coordinate `t`. -/
private theorem refrun_iblk3 (c : Dev nD) (t : Fin cfg0.N) (n : Fin 256) (k : Fin 32) :
    (iblk m c 3 t : Vec Ideal S1x256x32 .f32) (ix3 0 n k)
      = (m ((c.tc : Thread nD τ).loc main_arg3) : S256x256x32.Idx → EReal) (ix3 ⟨t.val, refrun_lt t⟩ n k) := by
  obtain ⟨-, -, -, -, -, -, -, -, h0, h1, h2, -⟩ := refrun_idx t
  unfold iblk
  rw [View.read_apply]
  show V m c main_arg3 _ = m (c.tc.loc main_arg3) _
  unfold V
  congr 1
  funext a
  apply Fin.ext
  match a with
  | ⟨0, _⟩ => show win0_3.index t (0 : Fin 3) * 1 + 1 * (0 : Fin 1).val = t.val; rw [h0]; simp
  | ⟨1, _⟩ => show win0_3.index t (1 : Fin 3) * 256 + 1 * n.val = n.val; rw [h1]; omega
  | ⟨2, _⟩ => show win0_3.index t (2 : Fin 3) * 32 + 1 * k.val = k.val; rw [h2]; omega

/-- Entry `(0, n, k)` of point `t`'s result block sits at `(t, n, k)` of the result array. -/
private theorem refrun_emb4 (t : Fin cfg0.N) (n : Fin 256) (k : Fin 32) :
    (((cfg0.win 4).blk t).view.emb (ix3 (0 : Fin 1) n k) : S256x256x32.Idx) = ix3 ⟨t.val, refrun_lt t⟩ n k := by
  obtain ⟨-, -, -, -, -, -, -, -, -, -, -, h0, h1, h2⟩ := refrun_idx t
  funext a
  apply Fin.ext
  match a with
  | ⟨0, _⟩ => show win0_4.index t (0 : Fin 3) * 1 + 1 * (0 : Fin 1).val = t.val; rw [h0]; simp
  | ⟨1, _⟩ => show win0_4.index t (1 : Fin 3) * 256 + 1 * n.val = n.val; rw [h1]; omega
  | ⟨2, _⟩ => show win0_4.index t (2 : Fin 3) * 32 + 1 * k.val = k.val; rw [h2]; omega

/-- The batch's result as the spec's function of the four argument arrays as launched. -/
private abbrev refrun_G (c : Dev nD) : S256x256x32.Idx → EReal :=
  Garr (m ((c.tc : Thread nD τ).loc main_arg0)) (m ((c.tc : Thread nD τ).loc main_arg1))
    (m ((c.tc : Thread nD τ).loc main_arg2)) (m ((c.tc : Thread nD τ).loc main_arg3))

/-- What point `t` writes back is block `t` of the spec's result: graph `t`'s output. -/
private theorem refrun_flushed (c : Dev nD) (t : Fin cfg0.N) :
    (dats m 0 c).flushed 4 t = ((cfg0.win 4).blk t).view.read (Elt Ideal) (refrun_G m c) := by
  rw [Value.flushed4]
  funext y
  obtain ⟨u, n, k, rfl⟩ : ∃ (u : Fin 1) (n : Fin 256) (k : Fin 32), y = ix3 u n k := ⟨y 0, y 1, y 2, eq_ix3 y⟩
  obtain rfl : u = 0 := Subsingleton.elim _ _
  show out0_4 (iblk m c 0 t) (iblk m c 1 t) (iblk m c 2 t) (iblk m c 3 t) (ix3 0 n k)
    = refrun_G m c (((cfg0.win 4).blk t).view.emb (ix3 (0 : Fin 1) n k))
  refine (out0_4_apply (iblk m c 0 t) (iblk m c 1 t) (iblk m c 2 t) (iblk m c 3 t) n k).trans ?_
  rw [refrun_emb4 t n k]
  show _ = out _ _ _ _ n k
  have e0 : (fun n k => (iblk m c 0 t : Vec Ideal S1x256x16 .f32) (ix3 0 n k))
      = fun n k => (m ((c.tc : Thread nD τ).loc main_arg0) : S256x256x16.Idx → EReal) (ix3 ⟨t.val, refrun_lt t⟩ n k) :=
    funext fun n => funext fun k => refrun_iblk0 m c t n k
  have e1 : (fun n j => (iblk m c 1 t : Vec Ideal S1x256x256 .f32) (ix3 0 n j))
      = fun n j => (m ((c.tc : Thread nD τ).loc main_arg1) : S256x256x256.Idx → EReal) (ix3 ⟨t.val, refrun_lt t⟩ n j) :=
    funext fun n => funext fun j => refrun_iblk1 m c t n j
  have e2 : (fun r k => (iblk m c 2 t : Vec Ideal S368x64 .f32) (ix2 r k))
      = fun r k => (m ((c.tc : Thread nD τ).loc main_arg2) : S368x64.Idx → EReal) (ix2 r k) :=
    funext fun r => funext fun k => refrun_iblk2 m c t r k
  have e3 : (fun n k => (iblk m c 3 t : Vec Ideal S1x256x32 .f32) (ix3 0 n k))
      = fun n k => (m ((c.tc : Thread nD τ).loc main_arg3) : S256x256x32.Idx → EReal) (ix3 ⟨t.val, refrun_lt t⟩ n k) :=
    funext fun n => funext fun k => refrun_iblk3 m c t n k
  exact congrFun (congrFun (congr (congr (congr (congrArg out (congrArg slabParams e2)) e0) e1) e3) n) k

/-- An index of the result array is in point `t`'s block iff each coordinate is in the block's range on its axis. -/
private theorem refrun_mem_blk (t : Fin cfg0.N) (i : S256x256x32.Idx) :
    i ∈ ((cfg0.win 4).blk t).view.set ↔ ∀ a : Fin 3, win0_4.index t a * S1x256x32.size a ≤ (i a).val
      ∧ (i a).val < win0_4.index t a * S1x256x32.size a + S1x256x32.size a := by
  show i ∈ ((View.whole main_v0).slice (win0_4.rect t)).set ↔ _
  rw [View.set_slice_whole, Rect.mem_set_unit]
  exact Iff.rfl

/-- The 256 blocks tile the result array: index `(b, n, k)` is in graph `b`'s block. -/
private theorem refrun_cover (i : S256x256x32.Idx) :
    ∃ t : Fin cfg0.N, (cfg0.win 4).flush t = true ∧ i ∈ ((cfg0.win 4).blk t).view.set := by
  have hi0 : (i 0).val < 256 := (i 0).isLt
  have hi1 : (i 1).val < 256 := (i 1).isLt
  have hi2 : (i 2).val < 32 := (i 2).isLt
  have hN : cfg0.N = 256 := N_0
  refine ⟨⟨(i 0).val, by omega⟩, flush0_4 _, ?_⟩
  obtain ⟨-, -, -, -, -, -, -, -, -, -, -, h0, h1, h2⟩ := refrun_idx ⟨(i 0).val, by omega⟩
  rw [refrun_mem_blk]
  intro a
  match a with
  | ⟨0, _⟩ =>
    show win0_4.index _ (0 : Fin 3) * 1 ≤ (i 0).val ∧ (i 0).val < win0_4.index _ (0 : Fin 3) * 1 + 1
    rw [h0]; show (i 0).val * 1 ≤ (i 0).val ∧ (i 0).val < (i 0).val * 1 + 1; omega
  | ⟨1, _⟩ =>
    show win0_4.index _ (1 : Fin 3) * 256 ≤ (i 1).val ∧ (i 1).val < win0_4.index _ (1 : Fin 3) * 256 + 256
    rw [h1]; omega
  | ⟨2, _⟩ =>
    show win0_4.index _ (2 : Fin 3) * 32 ≤ (i 2).val ∧ (i 2).val < win0_4.index _ (2 : Fin 3) * 32 + 32
    rw [h2]; omega

/-- So the result array ends holding the spec's function of the argument arrays. -/
private theorem refrun_final (c : Dev nD) : (dats m 0 c).arrAt 4 cfg0.N = refrun_G m c :=
  (dats m 0 c).arrAt_eq_of_cover 4 (refrun_G m c) (fun t _ => refrun_flushed m c t) refrun_cover

/-- The reference's run with its result array named: the spec's function of the four argument arrays. Each of the 256 grid
    points writes one graph's block (`out0_4_apply`), and the blocks tile the result array. -/
theorem ref_result_run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v0)
        = Garr (m ((c.tc : Thread nD τ).loc main_arg0)) (m ((c.tc : Thread nD τ).loc main_arg1))
            (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c => ⟨(h c).1.trans (refrun_final m c), (h c).2⟩) (Value.run_blocks m ρ)

end Cert.ReferenceIdeal.Smg

end
-- ==== Proof.lean ====
/-
  The certificate of the transposed, eight-graphs-per-point kernel against the one-graph-per-point reference: both compute, for
  every graph of the batch, a two-layer gated graph convolution followed by two dense layers (Proof/Spec.lean), and over the
  extended reals they compute the same array.

  * The three frames. The reference is one launch whose body only loads and stores through literal rectangles, and its frame is
    the generated one. The kernel's program first cuts the parameter slab into its operands on the host and then launches once;
    its body is of the same kind, and its frame is proved in Proof/KFrame.lean (read at the extended reals) and
    Proof/KFrameB.lean (the same text read at the machine's words).
  * `preserves` has no conjunct: the idealized kernel is the kernel's own text read at the extended reals.
  * `algebraic`: the kernel's result array is the spec's function of the four argument arrays (Proof/KBlocks.lean: each store of a
    point writes one graph's block, Proof/KerCompose.lean reads that block as the spec's output through the stage lemmas, and
    Proof/KerHost.lean reads the host-made operands back as the slab's parameters), and so is the reference's
    (Proof/RefRun.lean over Proof/RefArray.lean). The two programs differ in layout (features × nodes against nodes × features),
    in the grouping of eight graphs per point, and in ONE algebraic step: in layer 1 the kernel multiplies the input projection by
    layer 0's gate after the matrix product, the reference scales the input before it; the gate is a logistic value, a
    non-negative real, and multiplication by a non-negative real distributes over sums of extended reals (Proof/KerLayer1.lean).
    No finiteness of the inputs is needed.
-/
import proofs.«126640_g2000103277586728_pallasbulk_447_2_alg».proof.Defs
import proofs.«126640_g2000103277586728_pallasbulk_447_2_alg».proof.Proof.Gen.Kernel
import proofs.«126640_g2000103277586728_pallasbulk_447_2_alg».proof.Proof.Gen.KernelIdeal
import proofs.«126640_g2000103277586728_pallasbulk_447_2_alg».proof.Proof.Gen.ReferenceIdeal
import proofs.«126640_g2000103277586728_pallasbulk_447_2_alg».proof.Proof.Gen.ReferenceIdeal.Frame
import proofs.«126640_g2000103277586728_pallasbulk_447_2_alg».proof.Proof.Gen.Pre_finite_inputs
import proofs.«126640_g2000103277586728_pallasbulk_447_2_alg».proof.Proof.KFrameB
import proofs.«126640_g2000103277586728_pallasbulk_447_2_alg».proof.Proof.KBlocks
import proofs.«126640_g2000103277586728_pallasbulk_447_2_alg».proof.Proof.RefRun
import Idealize.ShloMosaic.Adequacy
import Idealize.ShloMosaic.Init

noncomputable section

namespace Cert.Proof

open Idealize.ShloMosaic Idealize.SL.Sem

/-- The kernel as printed runs and leaves its arguments unchanged. -/
theorem frame_k : Cert.frame_Kernel := fun m ρ _ => Cert.Kernel.Smg.frame m ρ

/-- So does its reading at the extended reals. -/
theorem frame_ki : Cert.frame_KernelIdeal := fun m ρ _ => Cert.KernelIdeal.Smg.frame m ρ

/-- And the reference. -/
theorem frame_ri : Cert.frame_ReferenceIdeal := fun m ρ _ => Cert.ReferenceIdeal.Gen.frame m ρ

/-- The idealization rewrote nothing. -/
theorem preserves : Cert.preserves_Kernel_KernelIdeal := trivial

/-- Both programs end with the spec's function of the argument arrays in their result array; the memories agree on the
    arguments, so the two results are equal. -/
theorem algebraic : Cert.algebraic_KernelIdeal_ReferenceIdeal := by
  intro m ρ m' ρ' _ hagree
  refine ⟨fun c => Cert.KernelIdeal.Smg.GA m c, Cert.KernelIdeal.Smg.ker_run m ρ, ?_⟩
  refine (θ_run Cert.ReferenceIdeal.defs _ _).mono (fun _ h c => ⟨(h c).1.trans ?_, (h c).2⟩)
    (Cert.ReferenceIdeal.Smg.ref_result_run m' ρ')
  unfold Cert.KernelIdeal.Smg.GA
  rw [(hagree c).1, (hagree c).2.1, (hagree c).2.2.1, (hagree c).2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
